-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v150) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S_ : Shape := ⟨0, ![]⟩
abbrev S1x3200000 : Shape := ⟨2, ![1, 3200000]⟩
abbrev S3200000 : Shape := ⟨1, ![3200000]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part8 {F : FTy → Type} [FloatOps F] (main_arg1 : IVec S2x3200000 32) (main_v133 : IVec S_ 1) (main_v135 : IVec S3200000 32) (main_v136 : IVec S3200000 32) : IVec S_ 1 :=
  let main_v137 : IVec S3200000 1 := cmpi .sge main_v135 main_v136
  let main_v138 : IVec S1x3200000 32 := (extractStridedSlice S1x3200000 ![0, 0] · slices_S2x3200000_S1x3200000_0_0) main_arg1
  let main_v139 : IVec S3200000 32 := shapeCast S3200000 main_v138 shapeCasts_S1x3200000_S3200000
  let main_c_53 : IVec S_ 32 := constantI S_ 32 100000#32
  let main_v140 : IVec S3200000 32 := broadcastInDim S3200000 ![] bcast_S_S3200000 main_c_53
  let main_v141 : IVec S3200000 1 := cmpi .slt main_v139 main_v140
  let main_v142 : IVec S3200000 1 := andi main_v137 main_v141
  let main_c_54 : IVec S_ 1 := constantI S_ 1 1#1
  let main_v143 : IVec S_ 1 := (fun x v => Host.reduce IntOp.andi x v reducesTo_S3200000_S_d0 h_S_) main_v142 main_c_54
  let main_v144 : IVec S_ 1 := andi main_v133 main_v143
  main_v144

def fn_part7 {F : FTy → Type} [FloatOps F] (main_arg1 : IVec S2x3200000 32) (main_arg27 : FVec F S64x64 .f32) (main_arg28 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg27
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : IVec S1x3200000 32 := (extractStridedSlice S1x3200000 ![0, 0] · slices_S2x3200000_S1x3200000_0_0) main_arg1
  let main_v135 : IVec S3200000 32 := shapeCast S3200000 main_v134 shapeCasts_S1x3200000_S3200000
  let main_c_52 : IVec S_ 32 := constantI S_ 32 0#32
  let main_v136 : IVec S3200000 32 := broadcastInDim S3200000 ![] bcast_S_S3200000 main_c_52
  fn_part8 (F := F) main_arg1 main_v133 main_v135 main_v136

def fn_part6 {F : FTy → Type} [FloatOps F] (main_arg1 : IVec S2x3200000 32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x64 .f32 := Host.absf main_arg23
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg25
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg26
  fn_part7 (F := F) main_arg1 main_arg27 main_arg28 main_v118 main_v119

def fn_part5 {F : FTy → Type} [FloatOps F] (main_arg1 : IVec S2x3200000 32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v83 : IVec S_ 1) (main_v84 : FVec F S64x4 .f32) (main_cst_32 : FVec F S_ .f32) : IVec S_ 1 :=
  let main_v85 : FVec F S64x4 .f32 := broadcastInDim S64x4 ![] bcast_S_S64x4 main_cst_32
  let main_v86 : IVec S64x4 1 := cmpf .olt main_v84 main_v85
  let main_c_33 : IVec S_ 1 := constantI S_ 1 1#1
  let main_v87 : IVec S_ 1 := (fun x v => Host.reduce IntOp.andi x v reducesTo_S64x4_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg21
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg1 main_arg23 main_arg24 main_arg25 main_arg26 main_arg27 main_arg28 main_v98 main_v101 main_c_39

def fn_part4 {F : FTy → Type} [FloatOps F] (main_arg1 : IVec S2x3200000 32) (main_arg16 : FVec F S64 .f32) (main_arg17 : FVec F S64 .f32) (main_arg18 : FVec F S64 .f32) (main_arg19 : FVec F S64x4 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x4 .f32 := Host.absf main_arg19
  let main_cst_32 : FVec F S_ .f32 := constant S_ .f32 0x7F800000#32
  fn_part5 (F := F) main_arg1 main_arg20 main_arg21 main_arg22 main_arg23 main_arg24 main_arg25 main_arg26 main_arg27 main_arg28 main_v83 main_v84 main_cst_32

def fn_part3 {F : FTy → Type} [FloatOps F] (main_arg1 : IVec S2x3200000 32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x4 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg16 main_arg17 main_arg18 main_arg19 main_arg20 main_arg21 main_arg22 main_arg23 main_arg24 main_arg25 main_arg26 main_arg27 main_arg28 main_v63 main_v67

def fn_part2 {F : FTy → Type} [FloatOps F] (main_arg1 : IVec S2x3200000 32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x4 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg1 : IVec S2x3200000 32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x4 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x4 .f32) (main_arg1 : IVec S2x3200000 32) (main_arg2 : IVec S100000 32) (main_arg3 : FVec F S64x4 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64x4 .f32) (main_arg20 : FVec F S64 .f32) (main_arg21 : FVec F S64x64 .f32) (main_arg22 : FVec F S64 .f32) (main_arg23 : FVec F S64x64 .f32) (main_arg24 : FVec F S64 .f32) (main_arg25 : FVec F S64x64 .f32) (main_arg26 : FVec F S64 .f32) (main_arg27 : FVec F S64x64 .f32) (main_arg28 : FVec F S64 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S64x4 .f32 := Host.absf main_arg3
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100352x4 : Shape := ⟨2, ![100352, 4]⟩
abbrev S100352 : Shape := ⟨1, ![100352]⟩
abbrev S1x100352 : Shape := ⟨2, ![1, 100352]⟩
abbrev S3200000x4 : Shape := ⟨2, ![3200000, 4]⟩
abbrev S1x64 : Shape := ⟨2, ![1, 64]⟩
abbrev S16x1x64 : Shape := ⟨3, ![16, 1, 64]⟩
abbrev S6272x4 : Shape := ⟨2, ![6272, 4]⟩
abbrev S1x1x64 : Shape := ⟨3, ![1, 1, 64]⟩
abbrev S4x64 : Shape := ⟨2, ![4, 64]⟩
abbrev S6272x64 : Shape := ⟨2, ![6272, 64]⟩
abbrev S100352x64 : Shape := ⟨2, ![100352, 64]⟩
abbrev S3200000x64 : Shape := ⟨2, ![3200000, 64]⟩
abbrev S49x512x4 : Shape := ⟨3, ![49, 512, 4]⟩
abbrev S1x2048 : Shape := ⟨2, ![1, 2048]⟩
abbrev S2048x4 : Shape := ⟨2, ![2048, 4]⟩
abbrev S1x512x4 : Shape := ⟨3, ![1, 512, 4]⟩
abbrev S512x2048 : Shape := ⟨2, ![512, 2048]⟩
abbrev S512x4 : Shape := ⟨2, ![512, 4]⟩
abbrev S49x512x64 : Shape := ⟨3, ![49, 512, 64]⟩
abbrev S2048x64 : Shape := ⟨2, ![2048, 64]⟩
abbrev S1x512x64 : Shape := ⟨3, ![1, 512, 64]⟩
abbrev S512x64 : Shape := ⟨2, ![512, 64]⟩

abbrev nBuf : Space → Nat
  | .hbm => 229
  | .vmem => 82
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S64x4, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x4, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64x64, .f32⟩
  | 28 => ⟨S64, .f32⟩
  | 29 => ⟨S1x3200000, .i32⟩
  | 30 => ⟨S3200000, .i32⟩
  | 31 => ⟨S1x3200000, .i32⟩
  | 32 => ⟨S3200000, .i32⟩
  | 33 => ⟨S3200000, .i32⟩
  | 34 => ⟨S3200000, .i32⟩
  | 35 => ⟨S3200000, .i32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .i32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .i32⟩
  | 54 => ⟨S_, .i32⟩
  | 55 => ⟨S_, .f32⟩
  | 56 => ⟨S100352x4, .f32⟩
  | 57 => ⟨S_, .i32⟩
  | 58 => ⟨S_, .i32⟩
  | 59 => ⟨S100352, .i32⟩
  | 60 => ⟨S1x100352, .i32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000x4, .f32⟩
  | 70 => ⟨S_, .f32⟩
  | 71 => ⟨S100352x4, .f32⟩
  | 72 => ⟨S3200000x1, .i32⟩
  | 73 => ⟨S100352x4, .f32⟩
  | 74 => ⟨S1x64, .f32⟩
  | 75 => ⟨S16x1x64, .f32⟩
  | 76 => ⟨S16x1x64, .f32⟩
  | 77 => ⟨S_, .f32⟩
  | 78 => ⟨S1x64, .f32⟩
  | 79 => ⟨S_, .f32⟩
  | 80 => ⟨S1x64, .f32⟩
  | 81 => ⟨S_, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S1x64, .f32⟩
  | 99 => ⟨S100352x64, .f32⟩
  | 100 => ⟨S16x1x64, .f32⟩
  | 101 => ⟨S16x1x64, .f32⟩
  | 102 => ⟨S_, .f32⟩
  | 103 => ⟨S1x64, .f32⟩
  | 104 => ⟨S_, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S1x64, .f32⟩
  | 123 => ⟨S100352x64, .f32⟩
  | 124 => ⟨S_, .i32⟩
  | 125 => ⟨S3200000, .i32⟩
  | 126 => ⟨S3200000, .i1⟩
  | 127 => ⟨S_, .i32⟩
  | _ => ⟨S100000x4, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x64, .f32⟩
  | 5 => ⟨S_, .f32⟩
  | 6 => ⟨S100352x64, .f32⟩
  | 7 => ⟨S3200000x1, .i32⟩
  | 8 => ⟨S100352x64, .f32⟩
  | 9 => ⟨S1x64, .f32⟩
  | 10 => ⟨S16x1x64, .f32⟩
  | 11 => ⟨S16x1x64, .f32⟩
  | 12 => ⟨S_, .f32⟩
  | 13 => ⟨S1x64, .f32⟩
  | 14 => ⟨S_, .f32⟩
  | 15 => ⟨S1x64, .f32⟩
  | 16 => ⟨S_, .f32⟩
  | 17 => ⟨S1x64, .f32⟩
  | 18 => ⟨S1x64, .f32⟩
  | 19 => ⟨S_, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S_, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S100352x64, .f32⟩
  | 35 => ⟨S16x1x64, .f32⟩
  | 36 => ⟨S16x1x64, .f32⟩
  | 37 => ⟨S_, .f32⟩
  | 38 => ⟨S1x64, .f32⟩
  | 39 => ⟨S_, .f32⟩
  | 40 => ⟨S1x64, .f32⟩
  | 41 => ⟨S_, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S1x64, .f32⟩
  | 58 => ⟨S100352x64, .f32⟩
  | 59 => ⟨S49x512x4, .f32⟩
  | 60 => ⟨S_, .f32⟩
  | 61 => ⟨S512x4, .f32⟩
  | 62 => ⟨S49x512x64, .f32⟩
  | 63 => ⟨S_, .f32⟩
  | 64 => ⟨S512x64, .f32⟩
  | 65 => ⟨S49x512x64, .f32⟩
  | 66 => ⟨S_, .f32⟩
  | 67 => ⟨S512x64, .f32⟩
  | 68 => ⟨S4x64, .f32⟩
  | 69 => ⟨S512x64, .f32⟩
  | 70 => ⟨S1x64, .f32⟩
  | 71 => ⟨S512x64, .f32⟩
  | 72 => ⟨S512x64, .f32⟩
  | 73 => ⟨S64x64, .f32⟩
  | 74 => ⟨S512x64, .f32⟩
  | 75 => ⟨S512x64, .f32⟩
  | 76 => ⟨S1x64, .f32⟩
  | 77 => ⟨S512x64, .f32⟩
  | 78 => ⟨S512x64, .f32⟩
  | 79 => ⟨S64x64, .f32⟩
  | 80 => ⟨S512x64, .f32⟩
  | 81 => ⟨S512x64, .f32⟩
  | 82 => ⟨S1x64, .f32⟩
  | 83 => ⟨S512x64, .f32⟩
  | 84 => ⟨S512x64, .f32⟩
  | 85 => ⟨S64x64, .f32⟩
  | 86 => ⟨S512x64, .f32⟩
  | 87 => ⟨S1x64, .f32⟩
  | 88 => ⟨S512x64, .f32⟩
  | 89 => ⟨S512x64, .f32⟩
  | 90 => ⟨S_, .f32⟩
  | 91 => ⟨S512x64, .f32⟩
  | 92 => ⟨S512x64, .f32⟩
  | 93 => ⟨S64x64, .f32⟩
  | 94 => ⟨S512x64, .f32⟩
  | 95 => ⟨S1x64, .f32⟩
  | 96 => ⟨S512x64, .f32⟩
  | 97 => ⟨S512x64, .f32⟩
  | 98 => ⟨S_, .f32⟩
  | 99 => ⟨S512x64, .f32⟩
  | 100 => ⟨S512x64, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S6272x4, .f32⟩
  | .local _ .vmem, ⟨1, _⟩ => ⟨S6272x4, .f32⟩
  | .local _ .vmem, ⟨2, _⟩ => ⟨S6272x4, .f32⟩
  | .local _ .vmem, ⟨3, _⟩ => ⟨S6272x4, .f32⟩
  | .local _ .vmem, ⟨4, _⟩ => ⟨S64x4, .f32⟩
  | .local _ .vmem, ⟨5, _⟩ => ⟨S1x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S6272x4, .f32⟩
  | .local _ .vmem, ⟨11, _⟩ => ⟨S6272x4, .f32⟩
  | .local _ .vmem, ⟨12, _⟩ => ⟨S6272x4, .f32⟩
  | .local _ .vmem, ⟨13, _⟩ => ⟨S6272x4, .f32⟩
  | .local _ .vmem, ⟨14, _⟩ => ⟨S64x4, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S6272x64, .f32⟩
  | .local _ .vmem, ⟨21, _⟩ => ⟨S6272x64, .f32⟩
  | .local _ .vmem, ⟨22, _⟩ => ⟨S1x1x64, .f32⟩
  | .local _ .vmem, ⟨23, _⟩ => ⟨S1x1x64, .f32⟩
  | .local _ .vmem, ⟨24, _⟩ => ⟨S1x1x64, .f32⟩
  | .local _ .vmem, ⟨25, _⟩ => ⟨S1x1x64, .f32⟩
  | .local _ .vmem, ⟨26, _⟩ => ⟨S6272x64, .f32⟩
  | .local _ .vmem, ⟨27, _⟩ => ⟨S6272x64, .f32⟩
  | .local _ .vmem, ⟨28, _⟩ => ⟨S1x64, .f32⟩
  | .local _ .vmem, ⟨29, _⟩ => ⟨S1x64, .f32⟩
  | .local _ .vmem, ⟨30, _⟩ => ⟨S6272x64, .f32⟩
  | .local _ .vmem, ⟨31, _⟩ => ⟨S6272x64, .f32⟩
  | .local _ .vmem, ⟨32, _⟩ => ⟨S6272x64, .f32⟩
  | .local _ .vmem, ⟨33, _⟩ => ⟨S6272x64, .f32⟩
  | .local _ .vmem, ⟨34, _⟩ => ⟨S6272x64, .f32⟩
  | .local _ .vmem, ⟨35, _⟩ => ⟨S6272x64, .f32⟩
  | .local _ .vmem, ⟨36, _⟩ => ⟨S64x64, .f32⟩
  | .local _ .vmem, ⟨37, _⟩ => ⟨S1x64, .f32⟩
  | .local _ .vmem, ⟨38, _⟩ => ⟨S1x1x64, .f32⟩
  | .local _ .vmem, ⟨39, _⟩ => ⟨S1x1x64, .f32⟩
  | .local _ .vmem, ⟨40, _⟩ => ⟨S1x1x64, .f32⟩
  | .local _ .vmem, ⟨41, _⟩ => ⟨S1x1x64, .f32⟩
  | .local _ .vmem, ⟨42, _⟩ => ⟨S6272x64, .f32⟩
  | .local _ .vmem, ⟨43, _⟩ => ⟨S6272x64, .f32⟩
  | .local _ .vmem, ⟨44, _⟩ => ⟨S6272x64, .f32⟩
  | .local _ .vmem, ⟨45, _⟩ => ⟨S6272x64, .f32⟩
  | .local _ .vmem, ⟨46, _⟩ => ⟨S64x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S6272x64, .f32⟩
  | .local _ .vmem, ⟨53, _⟩ => ⟨S6272x64, .f32⟩
  | .local _ .vmem, ⟨54, _⟩ => ⟨S1x1x64, .f32⟩
  | .local _ .vmem, ⟨55, _⟩ => ⟨S1x1x64, .f32⟩
  | .local _ .vmem, ⟨56, _⟩ => ⟨S1x1x64, .f32⟩
  | .local _ .vmem, ⟨57, _⟩ => ⟨S1x1x64, .f32⟩
  | .local _ .vmem, ⟨58, _⟩ => ⟨S6272x64, .f32⟩
  | .local _ .vmem, ⟨59, _⟩ => ⟨S6272x64, .f32⟩
  | .local _ .vmem, ⟨60, _⟩ => ⟨S1x64, .f32⟩
  | .local _ .vmem, ⟨61, _⟩ => ⟨S1x64, .f32⟩
  | .local _ .vmem, ⟨62, _⟩ => ⟨S6272x64, .f32⟩
  | .local _ .vmem, ⟨63, _⟩ => ⟨S6272x64, .f32⟩
  | .local _ .vmem, ⟨64, _⟩ => ⟨S1x2048, .i32⟩
  | .local _ .vmem, ⟨65, _⟩ => ⟨S1x2048, .i32⟩
  | .local _ .vmem, ⟨66, _⟩ => ⟨S2048x4, .f32⟩
  | .local _ .vmem, ⟨67, _⟩ => ⟨S2048x4, .f32⟩
  | .local _ .vmem, ⟨68, _⟩ => ⟨S1x512x4, .f32⟩
  | .local _ .vmem, ⟨69, _⟩ => ⟨S1x512x4, .f32⟩
  | .local _ .vmem, ⟨70, _⟩ => ⟨S1x2048, .i32⟩
  | .local _ .vmem, ⟨71, _⟩ => ⟨S1x2048, .i32⟩
  | .local _ .vmem, ⟨72, _⟩ => ⟨S2048x64, .f32⟩
  | .local _ .vmem, ⟨73, _⟩ => ⟨S2048x64, .f32⟩
  | .local _ .vmem, ⟨74, _⟩ => ⟨S1x512x64, .f32⟩
  | .local _ .vmem, ⟨75, _⟩ => ⟨S1x512x64, .f32⟩
  | .local _ .vmem, ⟨76, _⟩ => ⟨S1x2048, .i32⟩
  | .local _ .vmem, ⟨77, _⟩ => ⟨S1x2048, .i32⟩
  | .local _ .vmem, ⟨78, _⟩ => ⟨S2048x64, .f32⟩
  | .local _ .vmem, ⟨79, _⟩ => ⟨S2048x64, .f32⟩
  | .local _ .vmem, ⟨80, _⟩ => ⟨S1x512x64, .f32⟩
  | .local _ .vmem, ⟨81, _⟩ => ⟨S1x512x64, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1_0 : Ref sig .tc := ⟨.hbm, 34, rfl⟩
abbrev main_v4 : Ref sig .tc := ⟨.hbm, 35, rfl⟩
abbrev main_c : Ref sig .tc := ⟨.hbm, 36, rfl⟩
abbrev main_v5 : Ref sig .tc := ⟨.hbm, 37, rfl⟩
abbrev main_v6 : Ref sig .tc := ⟨.hbm, 38, rfl⟩
abbrev main_c_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_c_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_3 : Ref sig .tc := ⟨.hbm, 54, rfl⟩
abbrev main_call1_v0 : Ref sig .tc := ⟨.hbm, 55, rfl⟩
abbrev main_v19 : Ref sig .tc := ⟨.hbm, 56, rfl⟩
abbrev main_c_4 : Ref sig .tc := ⟨.hbm, 57, rfl⟩
abbrev main_call2_v0 : Ref sig .tc := ⟨.hbm, 58, rfl⟩
abbrev main_v20 : Ref sig .tc := ⟨.hbm, 59, rfl⟩
abbrev main_v21 : Ref sig .tc := ⟨.hbm, 60, rfl⟩
abbrev main_c_5 : Ref sig .tc := ⟨.hbm, 61, rfl⟩
abbrev main_v22 : Ref sig .tc := ⟨.hbm, 62, rfl⟩
abbrev main_v23 : Ref sig .tc := ⟨.hbm, 63, rfl⟩
abbrev main_c_6 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33_0 : Ref sig .tc := ⟨.hbm, 75, rfl⟩
abbrev main_v33_1 : Ref sig .tc := ⟨.hbm, 76, rfl⟩
abbrev main_cst_7 : Ref sig .tc := ⟨.hbm, 77, rfl⟩
abbrev main_v34 : Ref sig .tc := ⟨.hbm, 78, rfl⟩
abbrev main_cst_8 : Ref sig .tc := ⟨.hbm, 79, rfl⟩
abbrev main_v35 : Ref sig .tc := ⟨.hbm, 80, rfl⟩
abbrev main_cst_9 : Ref sig .tc := ⟨.hbm, 81, rfl⟩
abbrev main_v36 : Ref sig .tc := ⟨.hbm, 82, rfl⟩
abbrev main_v37 : Ref sig .tc := ⟨.hbm, 83, rfl⟩
abbrev main_cst_10 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_11 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51_0 : Ref sig .tc := ⟨.hbm, 99, rfl⟩
abbrev main_v51_1 : Ref sig .tc := ⟨.hbm, 100, rfl⟩
abbrev main_v51_2 : Ref sig .tc := ⟨.hbm, 101, rfl⟩
abbrev main_cst_12 : Ref sig .tc := ⟨.hbm, 102, rfl⟩
abbrev main_v52 : Ref sig .tc := ⟨.hbm, 103, rfl⟩
abbrev main_cst_13 : Ref sig .tc := ⟨.hbm, 104, rfl⟩
abbrev main_v53 : Ref sig .tc := ⟨.hbm, 105, rfl⟩
abbrev main_cst_14 : Ref sig .tc := ⟨.hbm, 106, rfl⟩
abbrev main_v54 : Ref sig .tc := ⟨.hbm, 107, rfl⟩
abbrev main_v55 : Ref sig .tc := ⟨.hbm, 108, rfl⟩
abbrev main_cst_15 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_16 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_17 : Ref sig .tc := ⟨.hbm, 124, rfl⟩
abbrev main_v69 : Ref sig .tc := ⟨.hbm, 125, rfl⟩
abbrev main_v70 : Ref sig .tc := ⟨.hbm, 126, rfl⟩
abbrev main_c_18 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_19 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80_0 : Ref sig .tc := ⟨.hbm, 138, rfl⟩
abbrev main_v80_1 : Ref sig .tc := ⟨.hbm, 139, rfl⟩
abbrev main_cst_20 : Ref sig .tc := ⟨.hbm, 140, rfl⟩
abbrev main_v81 : Ref sig .tc := ⟨.hbm, 141, rfl⟩
abbrev main_cst_21 : Ref sig .tc := ⟨.hbm, 142, rfl⟩
abbrev main_v82 : Ref sig .tc := ⟨.hbm, 143, rfl⟩
abbrev main_cst_22 : Ref sig .tc := ⟨.hbm, 144, rfl⟩
abbrev main_v83 : Ref sig .tc := ⟨.hbm, 145, rfl⟩
abbrev main_v84 : Ref sig .tc := ⟨.hbm, 146, rfl⟩
abbrev main_cst_23 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_24 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98_0 : Ref sig .tc := ⟨.hbm, 162, rfl⟩
abbrev main_v98_1 : Ref sig .tc := ⟨.hbm, 163, rfl⟩
abbrev main_v98_2 : Ref sig .tc := ⟨.hbm, 164, rfl⟩
abbrev main_cst_25 : Ref sig .tc := ⟨.hbm, 165, rfl⟩
abbrev main_v99 : Ref sig .tc := ⟨.hbm, 166, rfl⟩
abbrev main_cst_26 : Ref sig .tc := ⟨.hbm, 167, rfl⟩
abbrev main_v100 : Ref sig .tc := ⟨.hbm, 168, rfl⟩
abbrev main_cst_27 : Ref sig .tc := ⟨.hbm, 169, rfl⟩
abbrev main_v101 : Ref sig .tc := ⟨.hbm, 170, rfl⟩
abbrev main_v102 : Ref sig .tc := ⟨.hbm, 171, rfl⟩
abbrev main_cst_28 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_29 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_30 : Ref sig .tc := ⟨.hbm, 188, rfl⟩
abbrev main_v117 : Ref sig .tc := ⟨.hbm, 189, rfl⟩
abbrev main_v118 : Ref sig .tc := ⟨.hbm, 190, rfl⟩
abbrev main_cst_31 : Ref sig .tc := ⟨.hbm, 191, rfl⟩
abbrev main_v119 : Ref sig .tc := ⟨.hbm, 192, rfl⟩
abbrev main_v120 : Ref sig .tc := ⟨.hbm, 193, rfl⟩
abbrev main_cst_32 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_call3_cst : Ref sig .tc := ⟨.hbm, 218, rfl⟩
abbrev main_call3_v0 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_call4_cst : Ref sig .tc := ⟨.hbm, 226, rfl⟩
abbrev main_call4_v0 : Ref sig .tc := ⟨.hbm, 227, rfl⟩
abbrev main_v150 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc4_stg9_0 : Ref sig .tc := ⟨.vmem, 54, rfl⟩
abbrev cc4_stg9_1 : Ref sig .tc := ⟨.vmem, 55, rfl⟩
abbrev cc4_stg10_0 : Ref sig .tc := ⟨.vmem, 56, rfl⟩
abbrev cc4_stg10_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg3_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg2_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg2_1 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem8_1 : DmaSem sig := 53
abbrev cc4_sem9_0 : DmaSem sig := 54
abbrev cc4_sem9_1 : DmaSem sig := 55
abbrev cc4_sem10_0 : DmaSem sig := 56
abbrev cc4_sem10_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem3_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem2_1 : DmaSem sig := 81

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6272x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6272x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6272x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6272x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S6272x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6272x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6272x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S6272x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6272x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_10 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S6272x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6272x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S6272x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1x1x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6272x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S6272x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![49], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2048 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2048x4 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x512x4 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![49], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x2048 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2048x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x512x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![49], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x2048 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2048x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x512x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  pads_S100000x4_S100352x4_03520_000 : S100000x4.Pads (![0, 0] : Fin 2 → Nat) ![352, 0] ![0, 0] S100352x4
  h_S_ : 0 < S_.numel
  pads_S100000_S100352_03520 : S100000.Pads (![0] : Fin 1 → Nat) ![352] ![0] S100352
  shapeCasts_S100352_S1x100352 : S100352.ShapeCasts S1x100352
  bcast_S_S100352x4 : S_.BroadcastsInDim S100352x4 (![] : Fin 0 → Fin S100352x4.rank)
  shapeCasts_S64_S1x64 : S64.ShapeCasts S1x64
  inb_S6272x4_S6272x4_0_0 : ∀ a, (![0, 0] : Fin 2 → Nat) a + S6272x4.size a ≤ S6272x4.size a
  h_S6272x4 : 0 < S6272x4.numel
  shapeCasts_S6272x4_S6272x4 : S6272x4.ShapeCasts S6272x4
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6272x64 : S1x64.Broadcasts S6272x64
  iota_S6272x64_d0_w32 : S6272x64.Iotas .tc 32 [0]
  natLt_1_32 : 1 < 32
  reduces_S6272x64_S64 : S6272x64.Reduces [0] S64
  shapeCasts_S1x64_S1x1x64 : S1x64.ShapeCasts S1x1x64
  inb_S1x1x64_S1x1x64_0_0_0 : ∀ a, (![0, 0, 0] : Fin 3 → Nat) a + S1x1x64.size a ≤ S1x1x64.size a
  h_S1x1x64 : 0 < S1x1x64.numel
  reducesTo_S16x1x64_S1x64_d0 : S16x1x64.ReducesTo [0] S1x64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S6272x64_S6272x64_0_0 : ∀ a, (![0, 0] : Fin 2 → Nat) a + S6272x64.size a ≤ S6272x64.size a
  h_S6272x64 : 0 < S6272x64.numel
  shapeCasts_S6272x64_S6272x64 : S6272x64.ShapeCasts S6272x64
  bcast_S_S100352x64 : S_.BroadcastsInDim S100352x64 (![] : Fin 0 → Fin S100352x64.rank)
  iota_S512x2048_d0_w32 : S512x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  shapeCasts_S512x4_S1x512x4 : S512x4.ShapeCasts S1x512x4
  inb_S1x512x4_S1x512x4_0_0_0 : ∀ a, (![0, 0, 0] : Fin 3 → Nat) a + S1x512x4.size a ≤ S1x512x4.size a
  h_S1x512x4 : 0 < S1x512x4.numel
  reducesTo_S49x512x4_S512x4_d0 : S49x512x4.ReducesTo [0] S512x4
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S512x64_S1x512x64 : S512x64.ShapeCasts S1x512x64
  inb_S1x512x64_S1x512x64_0_0_0 : ∀ a, (![0, 0, 0] : Fin 3 → Nat) a + S1x512x64.size a ≤ S1x512x64.size a
  h_S1x512x64 : 0 < S1x512x64.numel
  reducesTo_S49x512x64_S512x64_d0 : S49x512x64.ReducesTo [0] S512x64
  transposes_S64x4_S4x64_1_0 : S64x4.Transposes [1, 0] S4x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  transposes_S64x64_S64x64_1_0 : S64x64.Transposes [1, 0] S64x64
  bcast_S_S512x64 : S_.BroadcastsInDim S512x64 (![] : Fin 0 → Fin S512x64.rank)
  gather_S3200000_S3200000x1_S3200000_n_0_n_n_0_1_1_wf : GatherDims.WF S3200000 S3200000x1 S3200000 [] [0] [] [0] [] 1 ![1]
  gather_S100000x4_S3200000x1_S3200000x4_1_0_n_n_0_1_14_wf : GatherDims.WF S100000x4 S3200000x1 S3200000x4 [1] [0] [] [0] [] 1 ![1, 4]
  scatter_S100352x4_S3200000x1_S3200000x4_1_0_0_1_wf : ScatterDims.WF S100352x4 S3200000x1 S3200000x4 [1] [0] [0] 1
  dot_S6272x4_S4x64_S6272x64_1_0_0_1_n_n_wf : DotDims.WF S6272x4 S4x64 S6272x64 [1] [0] [0] [1] [] []
  dot_S6272x64_S64x64_S6272x64_1_0_0_1_n_n_wf : DotDims.WF S6272x64 S64x64 S6272x64 [1] [0] [0] [1] [] []
  gather_S100352x64_S3200000x1_S3200000x64_1_0_n_n_0_1_164_wf : GatherDims.WF S100352x64 S3200000x1 S3200000x64 [1] [0] [] [0] [] 1 ![1, 64]
  scatter_S100352x64_S3200000x1_S3200000x64_1_0_0_1_wf : ScatterDims.WF S100352x64 S3200000x1 S3200000x64 [1] [0] [0] 1
  dot_S512x2048_S2048x4_S512x4_1_0_0_1_n_n_wf : DotDims.WF S512x2048 S2048x4 S512x4 [1] [0] [0] [1] [] []
  dot_S512x2048_S2048x64_S512x64_1_0_0_1_n_n_wf : DotDims.WF S512x2048 S2048x64 S512x64 [1] [0] [0] [1] [] []
  dot_S512x4_S4x64_S512x64_1_0_0_1_n_n_wf : DotDims.WF S512x4 S4x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6272x4.size a ≤ S100352x4.size a
  hwx0_0 : ∀ i : grid0.Coords, EltTy.bits .f32 = 32 ∨ (Rect.block (s := S100352x4) S6272x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6272x4.size a ≤ S100352x4.size a
  hwx0_1 : ∀ i : grid0.Coords, EltTy.bits .f32 = 32 ∨ (Rect.block (s := S100352x4) S6272x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .f32 = 32 ∨ (Rect.block (s := S64x4) S64x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S16x1x64.size a
  hwx0_5 : ∀ i : grid0.Coords, EltTy.bits .f32 = 32 ∨ (Rect.block (s := S16x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6272x4.size a ≤ S100352x4.size a
  hwx1_0 : ∀ i : grid1.Coords, EltTy.bits .f32 = 32 ∨ (Rect.block (s := S100352x4) S6272x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6272x4.size a ≤ S100352x4.size a
  hwx1_1 : ∀ i : grid1.Coords, EltTy.bits .f32 = 32 ∨ (Rect.block (s := S100352x4) S6272x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4.size a ≤ S64x4.size a
  hwx1_2 : ∀ i : grid1.Coords, EltTy.bits .f32 = 32 ∨ (Rect.block (s := S64x4) S64x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6272x64.size a ≤ S100352x64.size a
  hwx1_8 : ∀ i : grid1.Coords, EltTy.bits .f32 = 32 ∨ (Rect.block (s := S100352x64) S6272x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x64.size a ≤ S16x1x64.size a
  hwx1_9 : ∀ i : grid1.Coords, EltTy.bits .f32 = 32 ∨ (Rect.block (s := S16x1x64) S1x1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x64.size a ≤ S16x1x64.size a
  hwx1_10 : ∀ i : grid1.Coords, EltTy.bits .f32 = 32 ∨ (Rect.block (s := S16x1x64) S1x1x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6272x64.size a ≤ S100352x64.size a
  hwx2_0 : ∀ i : grid2.Coords, EltTy.bits .f32 = 32 ∨ (Rect.block (s := S100352x64) S6272x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6272x64.size a ≤ S100352x64.size a
  hwx2_3 : ∀ i : grid2.Coords, EltTy.bits .f32 = 32 ∨ (Rect.block (s := S100352x64) S6272x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6272x64.size a ≤ S100352x64.size a
  hwx3_0 : ∀ i : grid3.Coords, EltTy.bits .f32 = 32 ∨ (Rect.block (s := S100352x64) S6272x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6272x64.size a ≤ S100352x64.size a
  hwx3_1 : ∀ i : grid3.Coords, EltTy.bits .f32 = 32 ∨ (Rect.block (s := S100352x64) S6272x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x64.size a ≤ S16x1x64.size a
  hwx3_4 : ∀ i : grid3.Coords, EltTy.bits .f32 = 32 ∨ (Rect.block (s := S16x1x64) S1x1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x64.size a ≤ S16x1x64.size a
  hwx3_5 : ∀ i : grid3.Coords, EltTy.bits .f32 = 32 ∨ (Rect.block (s := S16x1x64) S1x1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6272x64.size a ≤ S100352x64.size a
  hwx4_0 : ∀ i : grid4.Coords, EltTy.bits .f32 = 32 ∨ (Rect.block (s := S100352x64) S6272x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6272x64.size a ≤ S100352x64.size a
  hwx4_1 : ∀ i : grid4.Coords, EltTy.bits .f32 = 32 ∨ (Rect.block (s := S100352x64) S6272x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S6272x64.size a ≤ S100352x64.size a
  hwx4_8 : ∀ i : grid4.Coords, EltTy.bits .f32 = 32 ∨ (Rect.block (s := S100352x64) S6272x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x1x64.size a ≤ S16x1x64.size a
  hwx4_9 : ∀ i : grid4.Coords, EltTy.bits .f32 = 32 ∨ (Rect.block (s := S16x1x64) S1x1x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1x1x64.size a ≤ S16x1x64.size a
  hwx4_10 : ∀ i : grid4.Coords, EltTy.bits .f32 = 32 ∨ (Rect.block (s := S16x1x64) S1x1x64.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6272x64.size a ≤ S100352x64.size a
  hwx5_0 : ∀ i : grid5.Coords, EltTy.bits .f32 = 32 ∨ (Rect.block (s := S100352x64) S6272x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6272x64.size a ≤ S100352x64.size a
  hwx5_3 : ∀ i : grid5.Coords, EltTy.bits .f32 = 32 ∨ (Rect.block (s := S100352x64) S6272x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x2048.size a ≤ S1x100352.size a
  hwx6_0 : ∀ i : grid6.Coords, EltTy.bits .i32 = 32 ∨ (Rect.block (s := S1x100352) S1x2048.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x4.size a ≤ S100352x4.size a
  hwx6_1 : ∀ i : grid6.Coords, EltTy.bits .f32 = 32 ∨ (Rect.block (s := S100352x4) S2048x4.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x512x4.size a ≤ S49x512x4.size a
  hwx6_2 : ∀ i : grid6.Coords, EltTy.bits .f32 = 32 ∨ (Rect.block (s := S49x512x4) S1x512x4.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2048.size a ≤ S1x100352.size a
  hwx7_0 : ∀ i : grid7.Coords, EltTy.bits .i32 = 32 ∨ (Rect.block (s := S1x100352) S1x2048.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x64.size a ≤ S100352x64.size a
  hwx7_1 : ∀ i : grid7.Coords, EltTy.bits .f32 = 32 ∨ (Rect.block (s := S100352x64) S2048x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x512x64.size a ≤ S49x512x64.size a
  hwx7_2 : ∀ i : grid7.Coords, EltTy.bits .f32 = 32 ∨ (Rect.block (s := S49x512x64) S1x512x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2048.size a ≤ S1x100352.size a
  hwx8_0 : ∀ i : grid8.Coords, EltTy.bits .i32 = 32 ∨ (Rect.block (s := S1x100352) S1x2048.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x64.size a ≤ S100352x64.size a
  hwx8_1 : ∀ i : grid8.Coords, EltTy.bits .f32 = 32 ∨ (Rect.block (s := S100352x64) S2048x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x512x64.size a ≤ S49x512x64.size a
  hwx8_2 : ∀ i : grid8.Coords, EltTy.bits .f32 = 32 ∨ (Rect.block (s := S49x512x64) S1x512x64.size (cc8_transform_2 i) (hinb8_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S3200000_S3200000x1_S3200000_n_0_n_n_0_1_1 : GatherDims S3200000 S3200000x1 S3200000 where
  offsetDims := []
  collapsedSliceDims := [0]
  operandBatchingDims := []
  startIndicesBatchingDims := []
  startIndexMap := [0]
  indexVectorDim := 1
  sliceSizes := ![1]
  wf := gather_S3200000_S3200000x1_S3200000_n_0_n_n_0_1_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100352x4_S3200000x1_S3200000x4_1_0_0_1 : ScatterDims S100352x4 S3200000x1 S3200000x4 where
  updateWindowDims := [1]
  insertedWindowDims := [0]
  scatterDimsToOperandDims := [0]
  indexVectorDim := 1
  wf := scatter_S100352x4_S3200000x1_S3200000x4_1_0_0_1_wf
def dot_S6272x4_S4x64_S6272x64_1_0_0_1_n_n : DotDims S6272x4 S4x64 S6272x64 where
  lhsContracting := [1]
  rhsContracting := [0]
  lhsNonContracting := [0]
  rhsNonContracting := [1]
  lhsBatch := []
  rhsBatch := []
  wf := dot_S6272x4_S4x64_S6272x64_1_0_0_1_n_n_wf
def dot_S6272x64_S64x64_S6272x64_1_0_0_1_n_n : DotDims S6272x64 S64x64 S6272x64 where
  lhsContracting := [1]
  rhsContracting := [0]
  lhsNonContracting := [0]
  rhsNonContracting := [1]
  lhsBatch := []
  rhsBatch := []
  wf := dot_S6272x64_S64x64_S6272x64_1_0_0_1_n_n_wf
def gather_S100352x64_S3200000x1_S3200000x64_1_0_n_n_0_1_164 : GatherDims S100352x64 S3200000x1 S3200000x64 where
  offsetDims := [1]
  collapsedSliceDims := [0]
  operandBatchingDims := []
  startIndicesBatchingDims := []
  startIndexMap := [0]
  indexVectorDim := 1
  sliceSizes := ![1, 64]
  wf := gather_S100352x64_S3200000x1_S3200000x64_1_0_n_n_0_1_164_wf
def scatter_S100352x64_S3200000x1_S3200000x64_1_0_0_1 : ScatterDims S100352x64 S3200000x1 S3200000x64 where
  updateWindowDims := [1]
  insertedWindowDims := [0]
  scatterDimsToOperandDims := [0]
  indexVectorDim := 1
  wf := scatter_S100352x64_S3200000x1_S3200000x64_1_0_0_1_wf
def dot_S512x2048_S2048x4_S512x4_1_0_0_1_n_n : DotDims S512x2048 S2048x4 S512x4 where
  lhsContracting := [1]
  rhsContracting := [0]
  lhsNonContracting := [0]
  rhsNonContracting := [1]
  lhsBatch := []
  rhsBatch := []
  wf := dot_S512x2048_S2048x4_S512x4_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x4_S4x64_S512x64_1_0_0_1_n_n : DotDims S512x4 S4x64 S512x64 where
  lhsContracting := [1]
  rhsContracting := [0]
  lhsNonContracting := [0]
  rhsNonContracting := [1]
  lhsBatch := []
  rhsBatch := []
  wf := dot_S512x4_S4x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v19) S6272x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S6272x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S6272x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S6272x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51_0) S6272x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v51_1) S1x1x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v51_2) S1x1x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v51_0) S6272x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S6272x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S6272x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S6272x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80_0) S1x1x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v80_1) S1x1x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S6272x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S6272x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg15) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v97) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v98_0) S6272x64.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v98_1) S1x1x64.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v98_2) S1x1x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v98_0) S6272x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S6272x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v21) S1x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v19) S2048x4.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S1x512x4.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v21) S1x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68) S2048x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v118) S1x512x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v21) S1x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S2048x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v120) S1x512x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000 : Shape := ⟨1, ![100000]⟩
abbrev S64x4 : Shape := ⟨2, ![64, 4]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S4x64 : Shape := ⟨2, ![4, 64]⟩
abbrev S100000x64 : Shape := ⟨2, ![100000, 64]⟩
abbrev S1x64 : Shape := ⟨2, ![1, 64]⟩
abbrev S3200000x64 : Shape := ⟨2, ![3200000, 64]⟩
abbrev S512x4 : Shape := ⟨2, ![512, 4]⟩
abbrev S100000x1 : Shape := ⟨2, ![100000, 1]⟩
abbrev S512x64 : Shape := ⟨2, ![512, 64]⟩

abbrev nBuf : Space → Nat
  | .hbm => 314
  | .vmem => 0
  | .smem => 0
  | _ => 0

abbrev hbmTy0_0 (i : Nat) : BufTy := match i % 128 with
  | 0 => ⟨S100000x4, .f32⟩
  | 1 => ⟨S2x3200000, .i32⟩
  | 2 => ⟨S100000, .i32⟩
  | 3 => ⟨S64x4, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64x4, .f32⟩
  | 20 => ⟨S64, .f32⟩
  | 21 => ⟨S64x64, .f32⟩
  | 22 => ⟨S64, .f32⟩
  | 23 => ⟨S64x64, .f32⟩
  | 24 => ⟨S64, .f32⟩
  | 25 => ⟨S64x64, .f32⟩
  | 26 => ⟨S64, .f32⟩
  | 27 => ⟨S64x64, .f32⟩
  | 28 => ⟨S64, .f32⟩
  | 29 => ⟨S1x3200000, .i32⟩
  | 30 => ⟨S3200000, .i32⟩
  | 31 => ⟨S1x3200000, .i32⟩
  | 32 => ⟨S3200000, .i32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x4, .f32⟩
  | 42 => ⟨S_, .f32⟩
  | 43 => ⟨S100000x4, .f32⟩
  | 44 => ⟨S3200000x1, .i32⟩
  | 45 => ⟨S100000x4, .f32⟩
  | 46 => ⟨S100000x4, .f32⟩
  | 47 => ⟨S4x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S100000x64, .f32⟩
  | 65 => ⟨S100000x64, .f32⟩
  | 66 => ⟨S100000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S_, .f32⟩
  | 84 => ⟨S64, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S64x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S100000x4, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x64, .f32⟩
  | 32 => ⟨S_, .f32⟩
  | 33 => ⟨S100000x64, .f32⟩
  | 34 => ⟨S3200000x1, .i32⟩
  | 35 => ⟨S100000x64, .f32⟩
  | 36 => ⟨S100000x64, .f32⟩
  | 37 => ⟨S64x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S64, .f32⟩
  | 44 => ⟨S_, .f32⟩
  | 45 => ⟨S64, .f32⟩
  | 46 => ⟨S64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S100000x64, .f32⟩
  | 55 => ⟨S100000x64, .f32⟩
  | 56 => ⟨S100000x64, .f32⟩
  | 57 => ⟨S_, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .i1⟩
  | 66 => ⟨S_, .f32⟩
  | 67 => ⟨S_, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S64x64, .f32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S100000x64, .f32⟩
  | 107 => ⟨S100000x64, .f32⟩
  | 108 => ⟨S100000x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x4, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S512x4, .f32⟩
  | 15 => ⟨S100000x1, .i32⟩
  | 16 => ⟨S512x4, .f32⟩
  | 17 => ⟨S4x64, .f32⟩
  | 18 => ⟨S512x64, .f32⟩
  | 19 => ⟨S1x64, .f32⟩
  | 20 => ⟨S512x64, .f32⟩
  | 21 => ⟨S512x64, .f32⟩
  | 22 => ⟨S_, .f32⟩
  | 23 => ⟨S512x64, .f32⟩
  | 24 => ⟨S100000x1, .i32⟩
  | 25 => ⟨S512x64, .f32⟩
  | 26 => ⟨S64x64, .f32⟩
  | 27 => ⟨S512x64, .f32⟩
  | 28 => ⟨S1x64, .f32⟩
  | 29 => ⟨S512x64, .f32⟩
  | 30 => ⟨S512x64, .f32⟩
  | 31 => ⟨S512x64, .f32⟩
  | 32 => ⟨S_, .f32⟩
  | 33 => ⟨S512x64, .f32⟩
  | 34 => ⟨S100000x1, .i32⟩
  | 35 => ⟨S512x64, .f32⟩
  | 36 => ⟨S64x64, .f32⟩
  | 37 => ⟨S512x64, .f32⟩
  | 38 => ⟨S1x64, .f32⟩
  | 39 => ⟨S512x64, .f32⟩
  | 40 => ⟨S512x64, .f32⟩
  | 41 => ⟨S512x64, .f32⟩
  | 42 => ⟨S64x64, .f32⟩
  | 43 => ⟨S512x64, .f32⟩
  | 44 => ⟨S1x64, .f32⟩
  | 45 => ⟨S512x64, .f32⟩
  | 46 => ⟨S512x64, .f32⟩
  | 47 => ⟨S_, .f32⟩
  | 48 => ⟨S512x64, .f32⟩
  | 49 => ⟨S512x64, .f32⟩
  | 50 => ⟨S64x64, .f32⟩
  | 51 => ⟨S512x64, .f32⟩
  | 52 => ⟨S1x64, .f32⟩
  | 53 => ⟨S512x64, .f32⟩
  | 54 => ⟨S512x64, .f32⟩
  | 55 => ⟨S_, .f32⟩
  | 56 => ⟨S512x64, .f32⟩
  | 57 => ⟨S512x64, .f32⟩
  | _ => ⟨S100000x4, .f32⟩

abbrev hbmTy (i : Nat) : BufTy := match i / 128 with
  | 0 => hbmTy0_0 i
  | 1 => hbmTy0_1 i
  | 2 => hbmTy0_2 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_1 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_c_3 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst_4 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call1_cst : Ref sig .tc := ⟨.hbm, 96, rfl⟩
abbrev main_call1_v0 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_5 : Ref sig .tc := ⟨.hbm, 104, rfl⟩
abbrev main_v45 : Ref sig .tc := ⟨.hbm, 105, rfl⟩
abbrev main_cst_6 : Ref sig .tc := ⟨.hbm, 106, rfl⟩
abbrev main_v46 : Ref sig .tc := ⟨.hbm, 107, rfl⟩
abbrev main_v47 : Ref sig .tc := ⟨.hbm, 108, rfl⟩
abbrev main_c_7 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_cst_3 : Ref sig .tc := ⟨.hbm, 126, rfl⟩
abbrev main_call2_v12 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_cst_8 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_call3_cst : Ref sig .tc := ⟨.hbm, 148, rfl⟩
abbrev main_call3_v0 : Ref sig .tc := ⟨.hbm, 149, rfl⟩
abbrev main_v64 : Ref sig .tc := ⟨.hbm, 150, rfl⟩
abbrev main_c_9 : Ref sig .tc := ⟨.hbm, 151, rfl⟩
abbrev main_v65 : Ref sig .tc := ⟨.hbm, 152, rfl⟩
abbrev main_v66 : Ref sig .tc := ⟨.hbm, 153, rfl⟩
abbrev main_c_10 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_11 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_cst_12 : Ref sig .tc := ⟨.hbm, 170, rfl⟩
abbrev main_v81 : Ref sig .tc := ⟨.hbm, 171, rfl⟩
abbrev main_cst_13 : Ref sig .tc := ⟨.hbm, 172, rfl⟩
abbrev main_v82 : Ref sig .tc := ⟨.hbm, 173, rfl⟩
abbrev main_v83 : Ref sig .tc := ⟨.hbm, 174, rfl⟩
abbrev main_c_14 : Ref sig .tc := ⟨.hbm, 175, rfl⟩
abbrev main_call4_cst : Ref sig .tc := ⟨.hbm, 176, rfl⟩
abbrev main_call4_v0 : Ref sig .tc := ⟨.hbm, 177, rfl⟩
abbrev main_call4_v1 : Ref sig .tc := ⟨.hbm, 178, rfl⟩
abbrev main_call4_cst_0 : Ref sig .tc := ⟨.hbm, 179, rfl⟩
abbrev main_call4_v2 : Ref sig .tc := ⟨.hbm, 180, rfl⟩
abbrev main_call4_v3 : Ref sig .tc := ⟨.hbm, 181, rfl⟩
abbrev main_call4_v4 : Ref sig .tc := ⟨.hbm, 182, rfl⟩
abbrev main_call4_v5 : Ref sig .tc := ⟨.hbm, 183, rfl⟩
abbrev main_call4_v6 : Ref sig .tc := ⟨.hbm, 184, rfl⟩
abbrev main_call4_v7 : Ref sig .tc := ⟨.hbm, 185, rfl⟩
abbrev main_call4_cst_1 : Ref sig .tc := ⟨.hbm, 186, rfl⟩
abbrev main_call4_v8 : Ref sig .tc := ⟨.hbm, 187, rfl⟩
abbrev main_call4_cst_2 : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_cst_3 : Ref sig .tc := ⟨.hbm, 192, rfl⟩
abbrev main_call4_v12 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_cst_15 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_call5_cst : Ref sig .tc := ⟨.hbm, 214, rfl⟩
abbrev main_call5_v0 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_cst_16 : Ref sig .tc := ⟨.hbm, 222, rfl⟩
abbrev main_v106 : Ref sig .tc := ⟨.hbm, 223, rfl⟩
abbrev main_cst_17 : Ref sig .tc := ⟨.hbm, 224, rfl⟩
abbrev main_v107 : Ref sig .tc := ⟨.hbm, 225, rfl⟩
abbrev main_v108 : Ref sig .tc := ⟨.hbm, 226, rfl⟩
abbrev main_c_18 : Ref sig .tc := ⟨.hbm, 227, rfl⟩
abbrev main_call6_cst : Ref sig .tc := ⟨.hbm, 228, rfl⟩
abbrev main_call6_v0 : Ref sig .tc := ⟨.hbm, 229, rfl⟩
abbrev main_call6_v1 : Ref sig .tc := ⟨.hbm, 230, rfl⟩
abbrev main_call6_cst_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_v6 : Ref sig .tc := ⟨.hbm, 236, rfl⟩
abbrev main_call6_v7 : Ref sig .tc := ⟨.hbm, 237, rfl⟩
abbrev main_call6_cst_1 : Ref sig .tc := ⟨.hbm, 238, rfl⟩
abbrev main_call6_v8 : Ref sig .tc := ⟨.hbm, 239, rfl⟩
abbrev main_call6_cst_2 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_cst_3 : Ref sig .tc := ⟨.hbm, 244, rfl⟩
abbrev main_call6_v12 : Ref sig .tc := ⟨.hbm, 245, rfl⟩
abbrev main_call6_cst_4 : Ref sig .tc := ⟨.hbm, 246, rfl⟩
abbrev main_call6_call0_v0 : Ref sig .tc := ⟨.hbm, 247, rfl⟩
abbrev main_call6_call0_v1 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_cst_19 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_call7_cst : Ref sig .tc := ⟨.hbm, 266, rfl⟩
abbrev main_call7_v0 : Ref sig .tc := ⟨.hbm, 267, rfl⟩
abbrev main_v125 : Ref sig .tc := ⟨.hbm, 268, rfl⟩
abbrev main_cst_20 : Ref sig .tc := ⟨.hbm, 269, rfl⟩
abbrev main_v126 : Ref sig .tc := ⟨.hbm, 270, rfl⟩
abbrev main_v127 : Ref sig .tc := ⟨.hbm, 271, rfl⟩
abbrev main_v128 : Ref sig .tc := ⟨.hbm, 272, rfl⟩
abbrev main_v129 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_v133 : Ref sig .tc := ⟨.hbm, 277, rfl⟩
abbrev main_cst_21 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩
abbrev main_v142 : Ref sig .tc := ⟨.hbm, 287, rfl⟩
abbrev main_cst_22 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_v154 : Ref sig .tc := ⟨.hbm, 300, rfl⟩
abbrev main_v155 : Ref sig .tc := ⟨.hbm, 301, rfl⟩
abbrev main_v156 : Ref sig .tc := ⟨.hbm, 302, rfl⟩
abbrev main_call8_cst : Ref sig .tc := ⟨.hbm, 303, rfl⟩
abbrev main_call8_v0 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_call9_cst : Ref sig .tc := ⟨.hbm, 311, rfl⟩
abbrev main_call9_v0 : Ref sig .tc := ⟨.hbm, 312, rfl⟩
abbrev main_v163 : Ref sig .tc := ⟨.hbm, 313, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x4 : S_.BroadcastsInDim S100000x4 (![] : Fin 0 → Fin S100000x4.rank)
  transposes_S64x4_S4x64_1_0 : S64x4.Transposes [1, 0] S4x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  transposes_S64x64_S64x64_1_0 : S64x64.Transposes [1, 0] S64x64
  bcast_S_S512x4 : S_.BroadcastsInDim S512x4 (![] : Fin 0 → Fin S512x4.rank)
  bcast_S100000_S100000x1_0 : S100000.BroadcastsInDim S100000x1 (![0] : Fin 1 → Fin S100000x1.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S512x4_S100000x1_S100000x4_1_0_0_1_wf : ScatterDims.WF S512x4 S100000x1 S100000x4 [1] [0] [0] 1
  dot_S512x4_S4x64_S512x64_1_0_0_1_n_n_wf : DotDims.WF S512x4 S4x64 S512x64 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S512x4_S100000x1_S100000x4_1_0_0_1 : ScatterDims S512x4 S100000x1 S100000x4 where
  updateWindowDims := [1]
  insertedWindowDims := [0]
  scatterDimsToOperandDims := [0]
  indexVectorDim := 1
  wf := scatter_S512x4_S100000x1_S100000x4_1_0_0_1_wf
def dot_S512x4_S4x64_S512x64_1_0_0_1_n_n : DotDims S512x4 S4x64 S512x64 where
  lhsContracting := [1]
  rhsContracting := [0]
  lhsNonContracting := [0]
  rhsNonContracting := [1]
  lhsBatch := []
  rhsBatch := []
  wf := dot_S512x4_S4x64_S512x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.RefRun1.lean ====
import proofs.«403050_j67860483276910_3_alg».proof.Proof.Gen.ReferenceIdeal
import Idealize.ShloMosaic.Lib.StableHlo.Run

/-!
The reference @main's operations as seven consecutive stretches (a callee's operations inline at the
call site over the call's buffer record); for each stretch: every operation touches TensorCore
references only and determines its results, the list of references it writes, and that a reference
outside that list keeps its contents across the stretch.
-/

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

section General

variable {τ : Topo} {sig : RefSig} {Val : EltTy → Type}

/-- The fold over a concatenation is the second fold after the first. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A property of every element of two lists holds of their concatenation. -/
theorem forall_app {α : Type} {p : α → Prop} {l₁ l₂ : List α} (h₁ : l₁.Forall p) (h₂ : l₂.Forall p) :
    (l₁ ++ l₂).Forall p :=
  List.forall_iff_forall_mem.2 fun a ha => (List.mem_append.1 ha).elim
    (List.forall_iff_forall_mem.1 h₁ a) (List.forall_iff_forall_mem.1 h₂ a)

end General

/-- The 29 argument references. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- Operations of stretch 0: 51 of them, a callee's operations inline over its call's buffer record. -/
abbrev c0 : List (HloOp τ sig (Elt F)) :=
  [
    unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v1 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v1 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg0 main_v9 main_v10 ((fun x i => Host.gather gather_S100000x4_S3200000x1_S3200000x4_1_0_n_n_0_1_14 x i) : (⟨S100000x4, .f32⟩ : BufTy).Contents (Elt F) → (⟨S3200000x1, .i32⟩ : BufTy).Contents (Elt F) → (⟨S3200000x4, .f32⟩ : BufTy).Contents (Elt F)),
    nullary main_cst (constant S_ .f32 0x00000000#32),
    unary main_cst main_v11 (broadcastInDim S100000x4 ![] bcast_S_S100000x4 : (⟨S_, .f32⟩ : BufTy).Contents (Elt F) → (⟨S100000x4, .f32⟩ : BufTy).Contents (Elt F)),
    unary main_v3 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S100000x4_S3200000x1_S3200000x4_1_0_0_1 x i u) : (⟨S100000x4, .f32⟩ : BufTy).Contents (Elt F) → (⟨S3200000x1, .i32⟩ : BufTy).Contents (Elt F) → (⟨S3200000x4, .f32⟩ : BufTy).Contents (Elt F) → (⟨S100000x4, .f32⟩ : BufTy).Contents (Elt F)),
    binary main_arg0 main_v13 main_v14 (addf : (⟨S100000x4, .f32⟩ : BufTy).Contents (Elt F) → (⟨S100000x4, .f32⟩ : BufTy).Contents (Elt F) → (⟨S100000x4, .f32⟩ : BufTy).Contents (Elt F)),
    unary main_arg3 main_v15 ((transpose S4x64 [1, 0] · transposes_S64x4_S4x64_1_0) : (⟨S64x4, .f32⟩ : BufTy).Contents (Elt F) → (⟨S4x64, .f32⟩ : BufTy).Contents (Elt F)),
    binary main_v14 main_v15 main_v16 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)),
    unary main_arg4 main_v17 (broadcastInDim S1x64 ![1] bcast_S64_S1x64_1 : (⟨S64, .f32⟩ : BufTy).Contents (Elt F) → (⟨S1x64, .f32⟩ : BufTy).Contents (Elt F)),
    unary main_v17 main_v18 (broadcastInDim S100000x64 ![0, 1] bcast_S1x64_S100000x64_0_1 : (⟨S1x64, .f32⟩ : BufTy).Contents (Elt F) → (⟨S100000x64, .f32⟩ : BufTy).Contents (Elt F)),
    binary main_v16 main_v18 main_v19 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v19 main_cst_1 main_v20 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v21 (broadcastInDim S64 ![] bcast_S_S64 : (⟨S_, .f32⟩ : BufTy).Contents (Elt F) → (⟨S64, .f32⟩ : BufTy).Contents (Elt F)),
    binary main_v20 main_v21 main_v22 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v19 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v19 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

theorem c0_sub : (c0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c0_fresh : (c0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 0 writes, in order. -/
abbrev w0 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_cst_1, main_v20, main_cst_2, main_v21, main_v22, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v23]

theorem c0_writes : (c0 : List (HloOp τ sig (Elt F))).Forall fun op => op.writes ⊆ (w0.map (Proc.devRef (τ := τ) .tc)).toFinset :=
  ⟨Finset.singleton_subset_iff.2 (List.mem_toFinset.2 (List.mem_map.2 ⟨main_v0, by decide, rfl⟩)),
    Finset.singleton_subset_iff.2 (List.mem_toFinset.2 (List.mem_map.2 ⟨main_v1, by decide, rfl⟩)),
    Finset.singleton_subset_iff.2 (List.mem_toFinset.2 (List.mem_map.2 ⟨main_v2, by decide, rfl⟩)),
    Finset.singleton_subset_iff.2 (List.mem_toFinset.2 (List.mem_map.2 ⟨main_v3, by decide, rfl⟩)),
    Finset.singleton_subset_iff.2 (List.mem_toFinset.2 (List.mem_map.2 ⟨main_c, by decide, rfl⟩)),
    Finset.singleton_subset_iff.2 (List.mem_toFinset.2 (List.mem_map.2 ⟨main_v4, by decide, rfl⟩)),
    Finset.singleton_subset_iff.2 (List.mem_toFinset.2 (List.mem_map.2 ⟨main_v5, by decide, rfl⟩)),
    Finset.singleton_subset_iff.2 (List.mem_toFinset.2 (List.mem_map.2 ⟨main_c_0, by decide, rfl⟩)),
    Finset.singleton_subset_iff.2 (List.mem_toFinset.2 (List.mem_map.2 ⟨main_v6, by decide, rfl⟩)),
    Finset.singleton_subset_iff.2 (List.mem_toFinset.2 (List.mem_map.2 ⟨main_v7, by decide, rfl⟩)),
    Finset.singleton_subset_iff.2 (List.mem_toFinset.2 (List.mem_map.2 ⟨main_v8, by decide, rfl⟩)),
    Finset.singleton_subset_iff.2 (List.mem_toFinset.2 (List.mem_map.2 ⟨main_v9, by decide, rfl⟩)),
    Finset.singleton_subset_iff.2 (List.mem_toFinset.2 (List.mem_map.2 ⟨main_v10, by decide, rfl⟩)),
    Finset.singleton_subset_iff.2 (List.mem_toFinset.2 (List.mem_map.2 ⟨main_cst, by decide, rfl⟩)),
    Finset.singleton_subset_iff.2 (List.mem_toFinset.2 (List.mem_map.2 ⟨main_v11, by decide, rfl⟩)),
    Finset.singleton_subset_iff.2 (List.mem_toFinset.2 (List.mem_map.2 ⟨main_v12, by decide, rfl⟩)),
    Finset.singleton_subset_iff.2 (List.mem_toFinset.2 (List.mem_map.2 ⟨main_v13, by decide, rfl⟩)),
    Finset.singleton_subset_iff.2 (List.mem_toFinset.2 (List.mem_map.2 ⟨main_v14, by decide, rfl⟩)),
    Finset.singleton_subset_iff.2 (List.mem_toFinset.2 (List.mem_map.2 ⟨main_v15, by decide, rfl⟩)),
    Finset.singleton_subset_iff.2 (List.mem_toFinset.2 (List.mem_map.2 ⟨main_v16, by decide, rfl⟩)),
    Finset.singleton_subset_iff.2 (List.mem_toFinset.2 (List.mem_map.2 ⟨main_v17, by decide, rfl⟩)),
    Finset.singleton_subset_iff.2 (List.mem_toFinset.2 (List.mem_map.2 ⟨main_v18, by decide, rfl⟩)),
    Finset.singleton_subset_iff.2 (List.mem_toFinset.2 (List.mem_map.2 ⟨main_v19, by decide, rfl⟩)),
    Finset.singleton_subset_iff.2 (List.mem_toFinset.2 (List.mem_map.2 ⟨main_cst_1, by decide, rfl⟩)),
    Finset.singleton_subset_iff.2 (List.mem_toFinset.2 (List.mem_map.2 ⟨main_v20, by decide, rfl⟩)),
    Finset.singleton_subset_iff.2 (List.mem_toFinset.2 (List.mem_map.2 ⟨main_cst_2, by decide, rfl⟩)),
    Finset.singleton_subset_iff.2 (List.mem_toFinset.2 (List.mem_map.2 ⟨main_v21, by decide, rfl⟩)),
    Finset.singleton_subset_iff.2 (List.mem_toFinset.2 (List.mem_map.2 ⟨main_v22, by decide, rfl⟩)),
    Finset.singleton_subset_iff.2 (List.mem_toFinset.2 (List.mem_map.2 ⟨main_c_3, by decide, rfl⟩)),
    Finset.singleton_subset_iff.2 (List.mem_toFinset.2 (List.mem_map.2 ⟨main_call0_cst, by decide, rfl⟩)),
    Finset.singleton_subset_iff.2 (List.mem_toFinset.2 (List.mem_map.2 ⟨main_call0_v0, by decide, rfl⟩)),
    Finset.singleton_subset_iff.2 (List.mem_toFinset.2 (List.mem_map.2 ⟨main_call0_v1, by decide, rfl⟩)),
    Finset.singleton_subset_iff.2 (List.mem_toFinset.2 (List.mem_map.2 ⟨main_call0_cst_0, by decide, rfl⟩)),
    Finset.singleton_subset_iff.2 (List.mem_toFinset.2 (List.mem_map.2 ⟨main_call0_v2, by decide, rfl⟩)),
    Finset.singleton_subset_iff.2 (List.mem_toFinset.2 (List.mem_map.2 ⟨main_call0_v3, by decide, rfl⟩)),
    Finset.singleton_subset_iff.2 (List.mem_toFinset.2 (List.mem_map.2 ⟨main_call0_v4, by decide, rfl⟩)),
    Finset.singleton_subset_iff.2 (List.mem_toFinset.2 (List.mem_map.2 ⟨main_call0_v5, by decide, rfl⟩)),
    Finset.singleton_subset_iff.2 (List.mem_toFinset.2 (List.mem_map.2 ⟨main_call0_v6, by decide, rfl⟩)),
    Finset.singleton_subset_iff.2 (List.mem_toFinset.2 (List.mem_map.2 ⟨main_call0_v7, by decide, rfl⟩)),
    Finset.singleton_subset_iff.2 (List.mem_toFinset.2 (List.mem_map.2 ⟨main_call0_cst_1, by decide, rfl⟩)),
    Finset.singleton_subset_iff.2 (List.mem_toFinset.2 (List.mem_map.2 ⟨main_call0_v8, by decide, rfl⟩)),
    Finset.singleton_subset_iff.2 (List.mem_toFinset.2 (List.mem_map.2 ⟨main_call0_cst_2, by decide, rfl⟩)),
    Finset.singleton_subset_iff.2 (List.mem_toFinset.2 (List.mem_map.2 ⟨main_call0_v9, by decide, rfl⟩)),
    Finset.singleton_subset_iff.2 (List.mem_toFinset.2 (List.mem_map.2 ⟨main_call0_v10, by decide, rfl⟩)),
    Finset.singleton_subset_iff.2 (List.mem_toFinset.2 (List.mem_map.2 ⟨main_call0_v11, by decide, rfl⟩)),
    Finset.singleton_subset_iff.2 (List.mem_toFinset.2 (List.mem_map.2 ⟨main_call0_cst_3, by decide, rfl⟩)),
    Finset.singleton_subset_iff.2 (List.mem_toFinset.2 (List.mem_map.2 ⟨main_call0_v12, by decide, rfl⟩)),
    Finset.singleton_subset_iff.2 (List.mem_toFinset.2 (List.mem_map.2 ⟨main_call0_cst_4, by decide, rfl⟩)),
    Finset.singleton_subset_iff.2 (List.mem_toFinset.2 (List.mem_map.2 ⟨main_call0_call0_v0, by decide, rfl⟩)),
    Finset.singleton_subset_iff.2 (List.mem_toFinset.2 (List.mem_map.2 ⟨main_call0_call0_v1, by decide, rfl⟩)),
    Finset.singleton_subset_iff.2 (List.mem_toFinset.2 (List.mem_map.2 ⟨main_v23, by decide, rfl⟩))⟩

/-- A reference stretch 0 does not write keeps its contents. -/
theorem c0_keep (W : Valuation τ sig (Elt F)) {r : Ref sig .tc} (hr : r ∉ w0) :
    after c0 W (Proc.devRef .tc r) = W (Proc.devRef .tc r) :=
  after_of_writes_sub c0 W c0_writes hr

theorem args_w0 : ∀ r ∈ argRefs, r ∉ w0 := by decide

/-- Operations of stretch 1: 53 of them, a callee's operations inline over its call's buffer record. -/
abbrev c1 : List (HloOp τ sig (Elt F)) :=
  [
    unary main_v22 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v19 main_v25 main_v26 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v27 (broadcastInDim S64 ![] bcast_S_S64 : (⟨S_, .f32⟩ : BufTy).Contents (Elt F) → (⟨S64, .f32⟩ : BufTy).Contents (Elt F)),
    binary main_v23 main_v27 main_v28 (addf : (⟨S64, .f32⟩ : BufTy).Contents (Elt F) → (⟨S64, .f32⟩ : BufTy).Contents (Elt F) → (⟨S64, .f32⟩ : BufTy).Contents (Elt F)),
    unary main_v28 main_v29 (Host.rsqrt : (⟨S64, .f32⟩ : BufTy).Contents (Elt F) → (⟨S64, .f32⟩ : BufTy).Contents (Elt F)),
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v26 main_v31 main_v32 (mulf : (⟨S100000x64, .f32⟩ : BufTy).Contents (Elt F) → (⟨S100000x64, .f32⟩ : BufTy).Contents (Elt F) → (⟨S100000x64, .f32⟩ : BufTy).Contents (Elt F)),
    unary main_arg5 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (mulf : (⟨S100000x64, .f32⟩ : BufTy).Contents (Elt F) → (⟨S100000x64, .f32⟩ : BufTy).Contents (Elt F) → (⟨S100000x64, .f32⟩ : BufTy).Contents (Elt F)),
    unary main_arg6 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v35 main_v37 main_v38 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v38 : TRef sig ⟨S100000x64, .f32⟩) main_call1.v0 main_call1.v1 maximumf,
    unary main_arg7 main_v40 ((transpose S64x64 [1, 0] · transposes_S64x64_S64x64_1_0) : (⟨S64x64, .f32⟩ : BufTy).Contents (Elt F) → (⟨S64x64, .f32⟩ : BufTy).Contents (Elt F)),
    binary main_v39 main_v40 main_v41 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v41 main_v43 main_v44 (addf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x00000000#32),
    binary main_v44 main_cst_5 main_v45 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_6 (constant S_ .f32 0x47C35000#32),
    unary main_cst_6 main_v46 (broadcastInDim S64 ![] bcast_S_S64 : (⟨S_, .f32⟩ : BufTy).Contents (Elt F) → (⟨S64, .f32⟩ : BufTy).Contents (Elt F)),
    binary main_v45 main_v46 main_v47 (Host.divf : (⟨S64, .f32⟩ : BufTy).Contents (Elt F) → (⟨S64, .f32⟩ : BufTy).Contents (Elt F) → (⟨S64, .f32⟩ : BufTy).Contents (Elt F)),
    nullary main_c_7 (constantI S_ 32 0#32),
    TRef.nullary main_call2.cst (constant S_ .f32 0x00000000#32),
    TRef.binary (.of main_v44 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v44 : TRef sig ⟨S100000x64, .f32⟩) main_call2.v4 main_call2.v5 subf,
    TRef.binary main_call2.v5 main_call2.v5 main_call2.v6 mulf,
    TRef.unary (.of main_c_7 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v47 main_v49 (broadcastInDim S1x64 ![1] bcast_S64_S1x64_1 : (⟨S64, .f32⟩ : BufTy).Contents (Elt F) → (⟨S1x64, .f32⟩ : BufTy).Contents (Elt F)) ]

theorem c1_sub : (c1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 1 writes, in order. -/
abbrev w1 : List (Ref sig .tc) :=
  [main_v24, main_v25, main_v26, main_cst_4, main_v27, main_v28, main_v29, main_v30, main_v31, main_v32, main_v33, main_v34, main_v35, main_v36, main_v37, main_v38, main_call1_cst, main_call1_v0, main_v39, main_v40, main_v41, main_v42, main_v43, main_v44, main_cst_5, main_v45, main_cst_6, main_v46, main_v47, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v48, main_v49]

theorem c1_writes : (c1 : List (HloOp τ sig (Elt F))).Forall fun op => op.writes ⊆ (w1.map (Proc.devRef (τ := τ) .tc)).toFinset :=
  ⟨Finset.singleton_subset_iff.2 (List.mem_toFinset.2 (List.mem_map.2 ⟨main_v24, by decide, rfl⟩)),
    Finset.singleton_subset_iff.2 (List.mem_toFinset.2 (List.mem_map.2 ⟨main_v25, by decide, rfl⟩)),
    Finset.singleton_subset_iff.2 (List.mem_toFinset.2 (List.mem_map.2 ⟨main_v26, by decide, rfl⟩)),
    Finset.singleton_subset_iff.2 (List.mem_toFinset.2 (List.mem_map.2 ⟨main_cst_4, by decide, rfl⟩)),
    Finset.singleton_subset_iff.2 (List.mem_toFinset.2 (List.mem_map.2 ⟨main_v27, by decide, rfl⟩)),
    Finset.singleton_subset_iff.2 (List.mem_toFinset.2 (List.mem_map.2 ⟨main_v28, by decide, rfl⟩)),
    Finset.singleton_subset_iff.2 (List.mem_toFinset.2 (List.mem_map.2 ⟨main_v29, by decide, rfl⟩)),
    Finset.singleton_subset_iff.2 (List.mem_toFinset.2 (List.mem_map.2 ⟨main_v30, by decide, rfl⟩)),
    Finset.singleton_subset_iff.2 (List.mem_toFinset.2 (List.mem_map.2 ⟨main_v31, by decide, rfl⟩)),
    Finset.singleton_subset_iff.2 (List.mem_toFinset.2 (List.mem_map.2 ⟨main_v32, by decide, rfl⟩)),
    Finset.singleton_subset_iff.2 (List.mem_toFinset.2 (List.mem_map.2 ⟨main_v33, by decide, rfl⟩)),
    Finset.singleton_subset_iff.2 (List.mem_toFinset.2 (List.mem_map.2 ⟨main_v34, by decide, rfl⟩)),
    Finset.singleton_subset_iff.2 (List.mem_toFinset.2 (List.mem_map.2 ⟨main_v35, by decide, rfl⟩)),
    Finset.singleton_subset_iff.2 (List.mem_toFinset.2 (List.mem_map.2 ⟨main_v36, by decide, rfl⟩)),
    Finset.singleton_subset_iff.2 (List.mem_toFinset.2 (List.mem_map.2 ⟨main_v37, by decide, rfl⟩)),
    Finset.singleton_subset_iff.2 (List.mem_toFinset.2 (List.mem_map.2 ⟨main_v38, by decide, rfl⟩)),
    Finset.singleton_subset_iff.2 (List.mem_toFinset.2 (List.mem_map.2 ⟨main_call1_cst, by decide, rfl⟩)),
    Finset.singleton_subset_iff.2 (List.mem_toFinset.2 (List.mem_map.2 ⟨main_call1_v0, by decide, rfl⟩)),
    Finset.singleton_subset_iff.2 (List.mem_toFinset.2 (List.mem_map.2 ⟨main_v39, by decide, rfl⟩)),
    Finset.singleton_subset_iff.2 (List.mem_toFinset.2 (List.mem_map.2 ⟨main_v40, by decide, rfl⟩)),
    Finset.singleton_subset_iff.2 (List.mem_toFinset.2 (List.mem_map.2 ⟨main_v41, by decide, rfl⟩)),
    Finset.singleton_subset_iff.2 (List.mem_toFinset.2 (List.mem_map.2 ⟨main_v42, by decide, rfl⟩)),
    Finset.singleton_subset_iff.2 (List.mem_toFinset.2 (List.mem_map.2 ⟨main_v43, by decide, rfl⟩)),
    Finset.singleton_subset_iff.2 (List.mem_toFinset.2 (List.mem_map.2 ⟨main_v44, by decide, rfl⟩)),
    Finset.singleton_subset_iff.2 (List.mem_toFinset.2 (List.mem_map.2 ⟨main_cst_5, by decide, rfl⟩)),
    Finset.singleton_subset_iff.2 (List.mem_toFinset.2 (List.mem_map.2 ⟨main_v45, by decide, rfl⟩)),
    Finset.singleton_subset_iff.2 (List.mem_toFinset.2 (List.mem_map.2 ⟨main_cst_6, by decide, rfl⟩)),
    Finset.singleton_subset_iff.2 (List.mem_toFinset.2 (List.mem_map.2 ⟨main_v46, by decide, rfl⟩)),
    Finset.singleton_subset_iff.2 (List.mem_toFinset.2 (List.mem_map.2 ⟨main_v47, by decide, rfl⟩)),
    Finset.singleton_subset_iff.2 (List.mem_toFinset.2 (List.mem_map.2 ⟨main_c_7, by decide, rfl⟩)),
    Finset.singleton_subset_iff.2 (List.mem_toFinset.2 (List.mem_map.2 ⟨main_call2_cst, by decide, rfl⟩)),
    Finset.singleton_subset_iff.2 (List.mem_toFinset.2 (List.mem_map.2 ⟨main_call2_v0, by decide, rfl⟩)),
    Finset.singleton_subset_iff.2 (List.mem_toFinset.2 (List.mem_map.2 ⟨main_call2_v1, by decide, rfl⟩)),
    Finset.singleton_subset_iff.2 (List.mem_toFinset.2 (List.mem_map.2 ⟨main_call2_cst_0, by decide, rfl⟩)),
    Finset.singleton_subset_iff.2 (List.mem_toFinset.2 (List.mem_map.2 ⟨main_call2_v2, by decide, rfl⟩)),
    Finset.singleton_subset_iff.2 (List.mem_toFinset.2 (List.mem_map.2 ⟨main_call2_v3, by decide, rfl⟩)),
    Finset.singleton_subset_iff.2 (List.mem_toFinset.2 (List.mem_map.2 ⟨main_call2_v4, by decide, rfl⟩)),
    Finset.singleton_subset_iff.2 (List.mem_toFinset.2 (List.mem_map.2 ⟨main_call2_v5, by decide, rfl⟩)),
    Finset.singleton_subset_iff.2 (List.mem_toFinset.2 (List.mem_map.2 ⟨main_call2_v6, by decide, rfl⟩)),
    Finset.singleton_subset_iff.2 (List.mem_toFinset.2 (List.mem_map.2 ⟨main_call2_v7, by decide, rfl⟩)),
    Finset.singleton_subset_iff.2 (List.mem_toFinset.2 (List.mem_map.2 ⟨main_call2_cst_1, by decide, rfl⟩)),
    Finset.singleton_subset_iff.2 (List.mem_toFinset.2 (List.mem_map.2 ⟨main_call2_v8, by decide, rfl⟩)),
    Finset.singleton_subset_iff.2 (List.mem_toFinset.2 (List.mem_map.2 ⟨main_call2_cst_2, by decide, rfl⟩)),
    Finset.singleton_subset_iff.2 (List.mem_toFinset.2 (List.mem_map.2 ⟨main_call2_v9, by decide, rfl⟩)),
    Finset.singleton_subset_iff.2 (List.mem_toFinset.2 (List.mem_map.2 ⟨main_call2_v10, by decide, rfl⟩)),
    Finset.singleton_subset_iff.2 (List.mem_toFinset.2 (List.mem_map.2 ⟨main_call2_v11, by decide, rfl⟩)),
    Finset.singleton_subset_iff.2 (List.mem_toFinset.2 (List.mem_map.2 ⟨main_call2_cst_3, by decide, rfl⟩)),
    Finset.singleton_subset_iff.2 (List.mem_toFinset.2 (List.mem_map.2 ⟨main_call2_v12, by decide, rfl⟩)),
    Finset.singleton_subset_iff.2 (List.mem_toFinset.2 (List.mem_map.2 ⟨main_call2_cst_4, by decide, rfl⟩)),
    Finset.singleton_subset_iff.2 (List.mem_toFinset.2 (List.mem_map.2 ⟨main_call2_call0_v0, by decide, rfl⟩)),
    Finset.singleton_subset_iff.2 (List.mem_toFinset.2 (List.mem_map.2 ⟨main_call2_call0_v1, by decide, rfl⟩)),
    Finset.singleton_subset_iff.2 (List.mem_toFinset.2 (List.mem_map.2 ⟨main_v48, by decide, rfl⟩)),
    Finset.singleton_subset_iff.2 (List.mem_toFinset.2 (List.mem_map.2 ⟨main_v49, by decide, rfl⟩))⟩

/-- A reference stretch 1 does not write keeps its contents. -/
theorem c1_keep (W : Valuation τ sig (Elt F)) {r : Ref sig .tc} (hr : r ∉ w1) :
    after c1 W (Proc.devRef .tc r) = W (Proc.devRef .tc r) :=
  after_of_writes_sub c1 W c1_writes hr

theorem args_w1 : ∀ r ∈ argRefs, r ∉ w1 := by decide

/-- Operations of stretch 2: 32 of them, a callee's operations inline over its call's buffer record. -/
abbrev c2 : List (HloOp τ sig (Elt F)) :=
  [
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v44 main_v50 main_v51 (subf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3727C5AC#32),
    unary main_cst_8 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v51 main_v56 main_v57 (mulf : (⟨S100000x64, .f32⟩ : BufTy).Contents (Elt F) → (⟨S100000x64, .f32⟩ : BufTy).Contents (Elt F) → (⟨S100000x64, .f32⟩ : BufTy).Contents (Elt F)),
    unary main_arg9 main_v58 (broadcastInDim S1x64 ![1] bcast_S64_S1x64_1 : (⟨S64, .f32⟩ : BufTy).Contents (Elt F) → (⟨S1x64, .f32⟩ : BufTy).Contents (Elt F)),
    unary main_v58 main_v59 (broadcastInDim S100000x64 ![0, 1] bcast_S1x64_S100000x64_0_1 : (⟨S1x64, .f32⟩ : BufTy).Contents (Elt F) → (⟨S100000x64, .f32⟩ : BufTy).Contents (Elt F)),
    binary main_v57 main_v59 main_v60 (mulf : (⟨S100000x64, .f32⟩ : BufTy).Contents (Elt F) → (⟨S100000x64, .f32⟩ : BufTy).Contents (Elt F) → (⟨S100000x64, .f32⟩ : BufTy).Contents (Elt F)),
    unary main_arg10 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v63 : TRef sig ⟨S100000x64, .f32⟩) main_call3.v0 main_call3.v1 maximumf,
    nullary main_c_9 (constantI S_ 32 0#32),
    unary main_c_9 main_v65 (broadcastInDim S3200000 ![] bcast_S_S3200000 : (⟨S_, .i32⟩ : BufTy).Contents (Elt F) → (⟨S3200000, .i32⟩ : BufTy).Contents (Elt F)),
    binary main_v1 main_v65 main_v66 (cmpi .slt : (⟨S3200000, .i32⟩ : BufTy).Contents (Elt F) → (⟨S3200000, .i32⟩ : BufTy).Contents (Elt F) → (⟨S3200000, .i1⟩ : BufTy).Contents (Elt F)),
    nullary main_c_10 (constantI S_ 32 100000#32),
    unary main_c_10 main_v67 (broadcastInDim S3200000 ![] bcast_S_S3200000 : (⟨S_, .i32⟩ : BufTy).Contents (Elt F) → (⟨S3200000, .i32⟩ : BufTy).Contents (Elt F)),
    binary main_v1 main_v67 main_v68 (addi : (⟨S3200000, .i32⟩ : BufTy).Contents (Elt F) → (⟨S3200000, .i32⟩ : BufTy).Contents (Elt F) → (⟨S3200000, .i32⟩ : BufTy).Contents (Elt F)),
    ternary main_v66 main_v68 main_v1 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v69 main_v70 (broadcastInDim S3200000x1 ![0] bcast_S3200000_S3200000x1_0 : (⟨S3200000, .i32⟩ : BufTy).Contents (Elt F) → (⟨S3200000x1, .i32⟩ : BufTy).Contents (Elt F)),
    binary main_v64 main_v70 main_v71 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    nullary main_cst_11 (constant S_ .f32 0x00000000#32),
    unary main_cst_11 main_v72 (broadcastInDim S100000x64 ![] bcast_S_S100000x64 : (⟨S_, .f32⟩ : BufTy).Contents (Elt F) → (⟨S100000x64, .f32⟩ : BufTy).Contents (Elt F)),
    unary main_v3 main_v73 (broadcastInDim S3200000x1 ![0] bcast_S3200000_S3200000x1_0 : (⟨S3200000, .i32⟩ : BufTy).Contents (Elt F) → (⟨S3200000x1, .i32⟩ : BufTy).Contents (Elt F)),
    ternary main_v72 main_v73 main_v71 main_v74 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    binary main_v64 main_v74 main_v75 (addf : (⟨S100000x64, .f32⟩ : BufTy).Contents (Elt F) → (⟨S100000x64, .f32⟩ : BufTy).Contents (Elt F) → (⟨S100000x64, .f32⟩ : BufTy).Contents (Elt F)) ]

theorem c2_sub : (c2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 2 writes, in order. -/
abbrev w2 : List (Ref sig .tc) :=
  [main_v50, main_v51, main_cst_8, main_v52, main_v53, main_v54, main_v55, main_v56, main_v57, main_v58, main_v59, main_v60, main_v61, main_v62, main_v63, main_call3_cst, main_call3_v0, main_v64, main_c_9, main_v65, main_v66, main_c_10, main_v67, main_v68, main_v69, main_v70, main_v71, main_cst_11, main_v72, main_v73, main_v74, main_v75]

theorem c2_writes : (c2 : List (HloOp τ sig (Elt F))).Forall fun op => op.writes ⊆ (w2.map (Proc.devRef (τ := τ) .tc)).toFinset :=
  ⟨Finset.singleton_subset_iff.2 (List.mem_toFinset.2 (List.mem_map.2 ⟨main_v50, by decide, rfl⟩)),
    Finset.singleton_subset_iff.2 (List.mem_toFinset.2 (List.mem_map.2 ⟨main_v51, by decide, rfl⟩)),
    Finset.singleton_subset_iff.2 (List.mem_toFinset.2 (List.mem_map.2 ⟨main_cst_8, by decide, rfl⟩)),
    Finset.singleton_subset_iff.2 (List.mem_toFinset.2 (List.mem_map.2 ⟨main_v52, by decide, rfl⟩)),
    Finset.singleton_subset_iff.2 (List.mem_toFinset.2 (List.mem_map.2 ⟨main_v53, by decide, rfl⟩)),
    Finset.singleton_subset_iff.2 (List.mem_toFinset.2 (List.mem_map.2 ⟨main_v54, by decide, rfl⟩)),
    Finset.singleton_subset_iff.2 (List.mem_toFinset.2 (List.mem_map.2 ⟨main_v55, by decide, rfl⟩)),
    Finset.singleton_subset_iff.2 (List.mem_toFinset.2 (List.mem_map.2 ⟨main_v56, by decide, rfl⟩)),
    Finset.singleton_subset_iff.2 (List.mem_toFinset.2 (List.mem_map.2 ⟨main_v57, by decide, rfl⟩)),
    Finset.singleton_subset_iff.2 (List.mem_toFinset.2 (List.mem_map.2 ⟨main_v58, by decide, rfl⟩)),
    Finset.singleton_subset_iff.2 (List.mem_toFinset.2 (List.mem_map.2 ⟨main_v59, by decide, rfl⟩)),
    Finset.singleton_subset_iff.2 (List.mem_toFinset.2 (List.mem_map.2 ⟨main_v60, by decide, rfl⟩)),
    Finset.singleton_subset_iff.2 (List.mem_toFinset.2 (List.mem_map.2 ⟨main_v61, by decide, rfl⟩)),
    Finset.singleton_subset_iff.2 (List.mem_toFinset.2 (List.mem_map.2 ⟨main_v62, by decide, rfl⟩)),
    Finset.singleton_subset_iff.2 (List.mem_toFinset.2 (List.mem_map.2 ⟨main_v63, by decide, rfl⟩)),
    Finset.singleton_subset_iff.2 (List.mem_toFinset.2 (List.mem_map.2 ⟨main_call3_cst, by decide, rfl⟩)),
    Finset.singleton_subset_iff.2 (List.mem_toFinset.2 (List.mem_map.2 ⟨main_call3_v0, by decide, rfl⟩)),
    Finset.singleton_subset_iff.2 (List.mem_toFinset.2 (List.mem_map.2 ⟨main_v64, by decide, rfl⟩)),
    Finset.singleton_subset_iff.2 (List.mem_toFinset.2 (List.mem_map.2 ⟨main_c_9, by decide, rfl⟩)),
    Finset.singleton_subset_iff.2 (List.mem_toFinset.2 (List.mem_map.2 ⟨main_v65, by decide, rfl⟩)),
    Finset.singleton_subset_iff.2 (List.mem_toFinset.2 (List.mem_map.2 ⟨main_v66, by decide, rfl⟩)),
    Finset.singleton_subset_iff.2 (List.mem_toFinset.2 (List.mem_map.2 ⟨main_c_10, by decide, rfl⟩)),
    Finset.singleton_subset_iff.2 (List.mem_toFinset.2 (List.mem_map.2 ⟨main_v67, by decide, rfl⟩)),
    Finset.singleton_subset_iff.2 (List.mem_toFinset.2 (List.mem_map.2 ⟨main_v68, by decide, rfl⟩)),
    Finset.singleton_subset_iff.2 (List.mem_toFinset.2 (List.mem_map.2 ⟨main_v69, by decide, rfl⟩)),
    Finset.singleton_subset_iff.2 (List.mem_toFinset.2 (List.mem_map.2 ⟨main_v70, by decide, rfl⟩)),
    Finset.singleton_subset_iff.2 (List.mem_toFinset.2 (List.mem_map.2 ⟨main_v71, by decide, rfl⟩)),
    Finset.singleton_subset_iff.2 (List.mem_toFinset.2 (List.mem_map.2 ⟨main_cst_11, by decide, rfl⟩)),
    Finset.singleton_subset_iff.2 (List.mem_toFinset.2 (List.mem_map.2 ⟨main_v72, by decide, rfl⟩)),
    Finset.singleton_subset_iff.2 (List.mem_toFinset.2 (List.mem_map.2 ⟨main_v73, by decide, rfl⟩)),
    Finset.singleton_subset_iff.2 (List.mem_toFinset.2 (List.mem_map.2 ⟨main_v74, by decide, rfl⟩)),
    Finset.singleton_subset_iff.2 (List.mem_toFinset.2 (List.mem_map.2 ⟨main_v75, by decide, rfl⟩))⟩

/-- A reference stretch 2 does not write keeps its contents. -/
theorem c2_keep (W : Valuation τ sig (Elt F)) {r : Ref sig .tc} (hr : r ∉ w2) :
    after c2 W (Proc.devRef .tc r) = W (Proc.devRef .tc r) :=
  after_of_writes_sub c2 W c2_writes hr

theorem args_w2 : ∀ r ∈ argRefs, r ∉ w2 := by decide

/-- Operations of stretch 3: 53 of them, a callee's operations inline over its call's buffer record. -/
abbrev c3 : List (HloOp τ sig (Elt F)) :=
  [
    unary main_arg11 main_v76 ((transpose S64x64 [1, 0] · transposes_S64x64_S64x64_1_0) : (⟨S64x64, .f32⟩ : BufTy).Contents (Elt F) → (⟨S64x64, .f32⟩ : BufTy).Contents (Elt F)),
    binary main_v75 main_v76 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v78 (broadcastInDim S1x64 ![1] bcast_S64_S1x64_1 : (⟨S64, .f32⟩ : BufTy).Contents (Elt F) → (⟨S1x64, .f32⟩ : BufTy).Contents (Elt F)),
    unary main_v78 main_v79 (broadcastInDim S100000x64 ![0, 1] bcast_S1x64_S100000x64_0_1 : (⟨S1x64, .f32⟩ : BufTy).Contents (Elt F) → (⟨S100000x64, .f32⟩ : BufTy).Contents (Elt F)),
    binary main_v77 main_v79 main_v80 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    binary main_v80 main_cst_12 main_v81 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_13 (constant S_ .f32 0x47C35000#32),
    unary main_cst_13 main_v82 (broadcastInDim S64 ![] bcast_S_S64 : (⟨S_, .f32⟩ : BufTy).Contents (Elt F) → (⟨S64, .f32⟩ : BufTy).Contents (Elt F)),
    binary main_v81 main_v82 main_v83 (Host.divf : (⟨S64, .f32⟩ : BufTy).Contents (Elt F) → (⟨S64, .f32⟩ : BufTy).Contents (Elt F) → (⟨S64, .f32⟩ : BufTy).Contents (Elt F)),
    nullary main_c_14 (constantI S_ 32 0#32),
    TRef.nullary main_call4.cst (constant S_ .f32 0x00000000#32),
    TRef.binary (.of main_v80 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v80 : TRef sig ⟨S100000x64, .f32⟩) main_call4.v4 main_call4.v5 subf,
    TRef.binary main_call4.v5 main_call4.v5 main_call4.v6 mulf,
    TRef.unary (.of main_c_14 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v83 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v80 main_v86 main_v87 (subf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3727C5AC#32),
    unary main_cst_15 main_v88 (broadcastInDim S64 ![] bcast_S_S64 : (⟨S_, .f32⟩ : BufTy).Contents (Elt F) → (⟨S64, .f32⟩ : BufTy).Contents (Elt F)),
    binary main_v84 main_v88 main_v89 (addf : (⟨S64, .f32⟩ : BufTy).Contents (Elt F) → (⟨S64, .f32⟩ : BufTy).Contents (Elt F) → (⟨S64, .f32⟩ : BufTy).Contents (Elt F)),
    unary main_v89 main_v90 (Host.rsqrt : (⟨S64, .f32⟩ : BufTy).Contents (Elt F) → (⟨S64, .f32⟩ : BufTy).Contents (Elt F)),
    unary main_v90 main_v91 (broadcastInDim S1x64 ![1] bcast_S64_S1x64_1 : (⟨S64, .f32⟩ : BufTy).Contents (Elt F) → (⟨S1x64, .f32⟩ : BufTy).Contents (Elt F)),
    unary main_v91 main_v92 (broadcastInDim S100000x64 ![0, 1] bcast_S1x64_S100000x64_0_1 : (⟨S1x64, .f32⟩ : BufTy).Contents (Elt F) → (⟨S100000x64, .f32⟩ : BufTy).Contents (Elt F)),
    binary main_v87 main_v92 main_v93 (mulf : (⟨S100000x64, .f32⟩ : BufTy).Contents (Elt F) → (⟨S100000x64, .f32⟩ : BufTy).Contents (Elt F) → (⟨S100000x64, .f32⟩ : BufTy).Contents (Elt F)),
    unary main_arg13 main_v94 (broadcastInDim S1x64 ![1] bcast_S64_S1x64_1 : (⟨S64, .f32⟩ : BufTy).Contents (Elt F) → (⟨S1x64, .f32⟩ : BufTy).Contents (Elt F)),
    unary main_v94 main_v95 (broadcastInDim S100000x64 ![0, 1] bcast_S1x64_S100000x64_0_1 : (⟨S1x64, .f32⟩ : BufTy).Contents (Elt F) → (⟨S100000x64, .f32⟩ : BufTy).Contents (Elt F)),
    binary main_v93 main_v95 main_v96 (mulf : (⟨S100000x64, .f32⟩ : BufTy).Contents (Elt F) → (⟨S100000x64, .f32⟩ : BufTy).Contents (Elt F) → (⟨S100000x64, .f32⟩ : BufTy).Contents (Elt F)),
    unary main_arg14 main_v97 (broadcastInDim S1x64 ![1] bcast_S64_S1x64_1 : (⟨S64, .f32⟩ : BufTy).Contents (Elt F) → (⟨S1x64, .f32⟩ : BufTy).Contents (Elt F)),
    unary main_v97 main_v98 (broadcastInDim S100000x64 ![0, 1] bcast_S1x64_S100000x64_0_1 : (⟨S1x64, .f32⟩ : BufTy).Contents (Elt F) → (⟨S100000x64, .f32⟩ : BufTy).Contents (Elt F)),
    binary main_v96 main_v98 main_v99 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v99 : TRef sig ⟨S100000x64, .f32⟩) main_call5.v0 main_call5.v1 maximumf,
    unary main_arg15 main_v101 ((transpose S64x64 [1, 0] · transposes_S64x64_S64x64_1_0) : (⟨S64x64, .f32⟩ : BufTy).Contents (Elt F) → (⟨S64x64, .f32⟩ : BufTy).Contents (Elt F)) ]

theorem c3_sub : (c3 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub ..⟩

theorem c3_fresh : (c3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 3 writes, in order. -/
abbrev w3 : List (Ref sig .tc) :=
  [main_v76, main_v77, main_v78, main_v79, main_v80, main_cst_12, main_v81, main_cst_13, main_v82, main_v83, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v84, main_v85, main_v86, main_v87, main_cst_15, main_v88, main_v89, main_v90, main_v91, main_v92, main_v93, main_v94, main_v95, main_v96, main_v97, main_v98, main_v99, main_call5_cst, main_call5_v0, main_v100, main_v101]

theorem c3_writes : (c3 : List (HloOp τ sig (Elt F))).Forall fun op => op.writes ⊆ (w3.map (Proc.devRef (τ := τ) .tc)).toFinset :=
  ⟨Finset.singleton_subset_iff.2 (List.mem_toFinset.2 (List.mem_map.2 ⟨main_v76, by decide, rfl⟩)),
    Finset.singleton_subset_iff.2 (List.mem_toFinset.2 (List.mem_map.2 ⟨main_v77, by decide, rfl⟩)),
    Finset.singleton_subset_iff.2 (List.mem_toFinset.2 (List.mem_map.2 ⟨main_v78, by decide, rfl⟩)),
    Finset.singleton_subset_iff.2 (List.mem_toFinset.2 (List.mem_map.2 ⟨main_v79, by decide, rfl⟩)),
    Finset.singleton_subset_iff.2 (List.mem_toFinset.2 (List.mem_map.2 ⟨main_v80, by decide, rfl⟩)),
    Finset.singleton_subset_iff.2 (List.mem_toFinset.2 (List.mem_map.2 ⟨main_cst_12, by decide, rfl⟩)),
    Finset.singleton_subset_iff.2 (List.mem_toFinset.2 (List.mem_map.2 ⟨main_v81, by decide, rfl⟩)),
    Finset.singleton_subset_iff.2 (List.mem_toFinset.2 (List.mem_map.2 ⟨main_cst_13, by decide, rfl⟩)),
    Finset.singleton_subset_iff.2 (List.mem_toFinset.2 (List.mem_map.2 ⟨main_v82, by decide, rfl⟩)),
    Finset.singleton_subset_iff.2 (List.mem_toFinset.2 (List.mem_map.2 ⟨main_v83, by decide, rfl⟩)),
    Finset.singleton_subset_iff.2 (List.mem_toFinset.2 (List.mem_map.2 ⟨main_c_14, by decide, rfl⟩)),
    Finset.singleton_subset_iff.2 (List.mem_toFinset.2 (List.mem_map.2 ⟨main_call4_cst, by decide, rfl⟩)),
    Finset.singleton_subset_iff.2 (List.mem_toFinset.2 (List.mem_map.2 ⟨main_call4_v0, by decide, rfl⟩)),
    Finset.singleton_subset_iff.2 (List.mem_toFinset.2 (List.mem_map.2 ⟨main_call4_v1, by decide, rfl⟩)),
    Finset.singleton_subset_iff.2 (List.mem_toFinset.2 (List.mem_map.2 ⟨main_call4_cst_0, by decide, rfl⟩)),
    Finset.singleton_subset_iff.2 (List.mem_toFinset.2 (List.mem_map.2 ⟨main_call4_v2, by decide, rfl⟩)),
    Finset.singleton_subset_iff.2 (List.mem_toFinset.2 (List.mem_map.2 ⟨main_call4_v3, by decide, rfl⟩)),
    Finset.singleton_subset_iff.2 (List.mem_toFinset.2 (List.mem_map.2 ⟨main_call4_v4, by decide, rfl⟩)),
    Finset.singleton_subset_iff.2 (List.mem_toFinset.2 (List.mem_map.2 ⟨main_call4_v5, by decide, rfl⟩)),
    Finset.singleton_subset_iff.2 (List.mem_toFinset.2 (List.mem_map.2 ⟨main_call4_v6, by decide, rfl⟩)),
    Finset.singleton_subset_iff.2 (List.mem_toFinset.2 (List.mem_map.2 ⟨main_call4_v7, by decide, rfl⟩)),
    Finset.singleton_subset_iff.2 (List.mem_toFinset.2 (List.mem_map.2 ⟨main_call4_cst_1, by decide, rfl⟩)),
    Finset.singleton_subset_iff.2 (List.mem_toFinset.2 (List.mem_map.2 ⟨main_call4_v8, by decide, rfl⟩)),
    Finset.singleton_subset_iff.2 (List.mem_toFinset.2 (List.mem_map.2 ⟨main_call4_cst_2, by decide, rfl⟩)),
    Finset.singleton_subset_iff.2 (List.mem_toFinset.2 (List.mem_map.2 ⟨main_call4_v9, by decide, rfl⟩)),
    Finset.singleton_subset_iff.2 (List.mem_toFinset.2 (List.mem_map.2 ⟨main_call4_v10, by decide, rfl⟩)),
    Finset.singleton_subset_iff.2 (List.mem_toFinset.2 (List.mem_map.2 ⟨main_call4_v11, by decide, rfl⟩)),
    Finset.singleton_subset_iff.2 (List.mem_toFinset.2 (List.mem_map.2 ⟨main_call4_cst_3, by decide, rfl⟩)),
    Finset.singleton_subset_iff.2 (List.mem_toFinset.2 (List.mem_map.2 ⟨main_call4_v12, by decide, rfl⟩)),
    Finset.singleton_subset_iff.2 (List.mem_toFinset.2 (List.mem_map.2 ⟨main_call4_cst_4, by decide, rfl⟩)),
    Finset.singleton_subset_iff.2 (List.mem_toFinset.2 (List.mem_map.2 ⟨main_call4_call0_v0, by decide, rfl⟩)),
    Finset.singleton_subset_iff.2 (List.mem_toFinset.2 (List.mem_map.2 ⟨main_call4_call0_v1, by decide, rfl⟩)),
    Finset.singleton_subset_iff.2 (List.mem_toFinset.2 (List.mem_map.2 ⟨main_v84, by decide, rfl⟩)),
    Finset.singleton_subset_iff.2 (List.mem_toFinset.2 (List.mem_map.2 ⟨main_v85, by decide, rfl⟩)),
    Finset.singleton_subset_iff.2 (List.mem_toFinset.2 (List.mem_map.2 ⟨main_v86, by decide, rfl⟩)),
    Finset.singleton_subset_iff.2 (List.mem_toFinset.2 (List.mem_map.2 ⟨main_v87, by decide, rfl⟩)),
    Finset.singleton_subset_iff.2 (List.mem_toFinset.2 (List.mem_map.2 ⟨main_cst_15, by decide, rfl⟩)),
    Finset.singleton_subset_iff.2 (List.mem_toFinset.2 (List.mem_map.2 ⟨main_v88, by decide, rfl⟩)),
    Finset.singleton_subset_iff.2 (List.mem_toFinset.2 (List.mem_map.2 ⟨main_v89, by decide, rfl⟩)),
    Finset.singleton_subset_iff.2 (List.mem_toFinset.2 (List.mem_map.2 ⟨main_v90, by decide, rfl⟩)),
    Finset.singleton_subset_iff.2 (List.mem_toFinset.2 (List.mem_map.2 ⟨main_v91, by decide, rfl⟩)),
    Finset.singleton_subset_iff.2 (List.mem_toFinset.2 (List.mem_map.2 ⟨main_v92, by decide, rfl⟩)),
    Finset.singleton_subset_iff.2 (List.mem_toFinset.2 (List.mem_map.2 ⟨main_v93, by decide, rfl⟩)),
    Finset.singleton_subset_iff.2 (List.mem_toFinset.2 (List.mem_map.2 ⟨main_v94, by decide, rfl⟩)),
    Finset.singleton_subset_iff.2 (List.mem_toFinset.2 (List.mem_map.2 ⟨main_v95, by decide, rfl⟩)),
    Finset.singleton_subset_iff.2 (List.mem_toFinset.2 (List.mem_map.2 ⟨main_v96, by decide, rfl⟩)),
    Finset.singleton_subset_iff.2 (List.mem_toFinset.2 (List.mem_map.2 ⟨main_v97, by decide, rfl⟩)),
    Finset.singleton_subset_iff.2 (List.mem_toFinset.2 (List.mem_map.2 ⟨main_v98, by decide, rfl⟩)),
    Finset.singleton_subset_iff.2 (List.mem_toFinset.2 (List.mem_map.2 ⟨main_v99, by decide, rfl⟩)),
    Finset.singleton_subset_iff.2 (List.mem_toFinset.2 (List.mem_map.2 ⟨main_call5_cst, by decide, rfl⟩)),
    Finset.singleton_subset_iff.2 (List.mem_toFinset.2 (List.mem_map.2 ⟨main_call5_v0, by decide, rfl⟩)),
    Finset.singleton_subset_iff.2 (List.mem_toFinset.2 (List.mem_map.2 ⟨main_v100, by decide, rfl⟩)),
    Finset.singleton_subset_iff.2 (List.mem_toFinset.2 (List.mem_map.2 ⟨main_v101, by decide, rfl⟩))⟩

/-- A reference stretch 3 does not write keeps its contents. -/
theorem c3_keep (W : Valuation τ sig (Elt F)) {r : Ref sig .tc} (hr : r ∉ w3) :
    after c3 W (Proc.devRef .tc r) = W (Proc.devRef .tc r) :=
  after_of_writes_sub c3 W c3_writes hr

theorem args_w3 : ∀ r ∈ argRefs, r ∉ w3 := by decide

/-- Operations of stretch 4: 51 of them, a callee's operations inline over its call's buffer record. -/
abbrev c4 : List (HloOp τ sig (Elt F)) :=
  [
    binary main_v100 main_v101 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v105 main_cst_16 main_v106 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v107 (broadcastInDim S64 ![] bcast_S_S64 : (⟨S_, .f32⟩ : BufTy).Contents (Elt F) → (⟨S64, .f32⟩ : BufTy).Contents (Elt F)),
    binary main_v106 main_v107 main_v108 (Host.divf : (⟨S64, .f32⟩ : BufTy).Contents (Elt F) → (⟨S64, .f32⟩ : BufTy).Contents (Elt F) → (⟨S64, .f32⟩ : BufTy).Contents (Elt F)),
    nullary main_c_18 (constantI S_ 32 0#32),
    TRef.nullary main_call6.cst (constant S_ .f32 0x00000000#32),
    TRef.binary (.of main_v105 : TRef sig ⟨S100000x64, .f32⟩) main_call6.cst main_call6.v0 (fun x v => Host.reduceAdd x v reducesTo_S100000x64_S64_d0 h_S_),
    TRef.unary main_call6.v0 main_call6.v1 (broadcastInDim S1x64 ![1] bcast_S64_S1x64_1),
    TRef.nullary main_call6.cst_0 (constant S_ .f32 0x47C35000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S100000x64 ![0, 1] bcast_S1x64_S100000x64_0_1),
    TRef.binary (.of main_v105 : TRef sig ⟨S100000x64, .f32⟩) main_call6.v4 main_call6.v5 subf,
    TRef.binary main_call6.v5 main_call6.v5 main_call6.v6 mulf,
    TRef.unary (.of main_c_18 : TRef sig ⟨S_, .i32⟩) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v108 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v105 main_v111 main_v112 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v113 (broadcastInDim S64 ![] bcast_S_S64 : (⟨S_, .f32⟩ : BufTy).Contents (Elt F) → (⟨S64, .f32⟩ : BufTy).Contents (Elt F)),
    binary main_v109 main_v113 main_v114 (addf : (⟨S64, .f32⟩ : BufTy).Contents (Elt F) → (⟨S64, .f32⟩ : BufTy).Contents (Elt F) → (⟨S64, .f32⟩ : BufTy).Contents (Elt F)),
    unary main_v114 main_v115 (Host.rsqrt : (⟨S64, .f32⟩ : BufTy).Contents (Elt F) → (⟨S64, .f32⟩ : BufTy).Contents (Elt F)),
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v112 main_v117 main_v118 (mulf : (⟨S100000x64, .f32⟩ : BufTy).Contents (Elt F) → (⟨S100000x64, .f32⟩ : BufTy).Contents (Elt F) → (⟨S100000x64, .f32⟩ : BufTy).Contents (Elt F)),
    unary main_arg17 main_v119 (broadcastInDim S1x64 ![1] bcast_S64_S1x64_1 : (⟨S64, .f32⟩ : BufTy).Contents (Elt F) → (⟨S1x64, .f32⟩ : BufTy).Contents (Elt F)),
    unary main_v119 main_v120 (broadcastInDim S100000x64 ![0, 1] bcast_S1x64_S100000x64_0_1 : (⟨S1x64, .f32⟩ : BufTy).Contents (Elt F) → (⟨S100000x64, .f32⟩ : BufTy).Contents (Elt F)),
    binary main_v118 main_v120 main_v121 (mulf : (⟨S100000x64, .f32⟩ : BufTy).Contents (Elt F) → (⟨S100000x64, .f32⟩ : BufTy).Contents (Elt F) → (⟨S100000x64, .f32⟩ : BufTy).Contents (Elt F)),
    unary main_arg18 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v121 main_v123 main_v124 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v124 : TRef sig ⟨S100000x64, .f32⟩) main_call7.v0 main_call7.v1 maximumf ]

theorem c4_sub : (c4 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 4 writes, in order. -/
abbrev w4 : List (Ref sig .tc) :=
  [main_v102, main_v103, main_v104, main_v105, main_cst_16, main_v106, main_cst_17, main_v107, main_v108, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v109, main_v110, main_v111, main_v112, main_cst_19, main_v113, main_v114, main_v115, main_v116, main_v117, main_v118, main_v119, main_v120, main_v121, main_v122, main_v123, main_v124, main_call7_cst, main_call7_v0, main_v125]

theorem c4_writes : (c4 : List (HloOp τ sig (Elt F))).Forall fun op => op.writes ⊆ (w4.map (Proc.devRef (τ := τ) .tc)).toFinset :=
  ⟨Finset.singleton_subset_iff.2 (List.mem_toFinset.2 (List.mem_map.2 ⟨main_v102, by decide, rfl⟩)),
    Finset.singleton_subset_iff.2 (List.mem_toFinset.2 (List.mem_map.2 ⟨main_v103, by decide, rfl⟩)),
    Finset.singleton_subset_iff.2 (List.mem_toFinset.2 (List.mem_map.2 ⟨main_v104, by decide, rfl⟩)),
    Finset.singleton_subset_iff.2 (List.mem_toFinset.2 (List.mem_map.2 ⟨main_v105, by decide, rfl⟩)),
    Finset.singleton_subset_iff.2 (List.mem_toFinset.2 (List.mem_map.2 ⟨main_cst_16, by decide, rfl⟩)),
    Finset.singleton_subset_iff.2 (List.mem_toFinset.2 (List.mem_map.2 ⟨main_v106, by decide, rfl⟩)),
    Finset.singleton_subset_iff.2 (List.mem_toFinset.2 (List.mem_map.2 ⟨main_cst_17, by decide, rfl⟩)),
    Finset.singleton_subset_iff.2 (List.mem_toFinset.2 (List.mem_map.2 ⟨main_v107, by decide, rfl⟩)),
    Finset.singleton_subset_iff.2 (List.mem_toFinset.2 (List.mem_map.2 ⟨main_v108, by decide, rfl⟩)),
    Finset.singleton_subset_iff.2 (List.mem_toFinset.2 (List.mem_map.2 ⟨main_c_18, by decide, rfl⟩)),
    Finset.singleton_subset_iff.2 (List.mem_toFinset.2 (List.mem_map.2 ⟨main_call6_cst, by decide, rfl⟩)),
    Finset.singleton_subset_iff.2 (List.mem_toFinset.2 (List.mem_map.2 ⟨main_call6_v0, by decide, rfl⟩)),
    Finset.singleton_subset_iff.2 (List.mem_toFinset.2 (List.mem_map.2 ⟨main_call6_v1, by decide, rfl⟩)),
    Finset.singleton_subset_iff.2 (List.mem_toFinset.2 (List.mem_map.2 ⟨main_call6_cst_0, by decide, rfl⟩)),
    Finset.singleton_subset_iff.2 (List.mem_toFinset.2 (List.mem_map.2 ⟨main_call6_v2, by decide, rfl⟩)),
    Finset.singleton_subset_iff.2 (List.mem_toFinset.2 (List.mem_map.2 ⟨main_call6_v3, by decide, rfl⟩)),
    Finset.singleton_subset_iff.2 (List.mem_toFinset.2 (List.mem_map.2 ⟨main_call6_v4, by decide, rfl⟩)),
    Finset.singleton_subset_iff.2 (List.mem_toFinset.2 (List.mem_map.2 ⟨main_call6_v5, by decide, rfl⟩)),
    Finset.singleton_subset_iff.2 (List.mem_toFinset.2 (List.mem_map.2 ⟨main_call6_v6, by decide, rfl⟩)),
    Finset.singleton_subset_iff.2 (List.mem_toFinset.2 (List.mem_map.2 ⟨main_call6_v7, by decide, rfl⟩)),
    Finset.singleton_subset_iff.2 (List.mem_toFinset.2 (List.mem_map.2 ⟨main_call6_cst_1, by decide, rfl⟩)),
    Finset.singleton_subset_iff.2 (List.mem_toFinset.2 (List.mem_map.2 ⟨main_call6_v8, by decide, rfl⟩)),
    Finset.singleton_subset_iff.2 (List.mem_toFinset.2 (List.mem_map.2 ⟨main_call6_cst_2, by decide, rfl⟩)),
    Finset.singleton_subset_iff.2 (List.mem_toFinset.2 (List.mem_map.2 ⟨main_call6_v9, by decide, rfl⟩)),
    Finset.singleton_subset_iff.2 (List.mem_toFinset.2 (List.mem_map.2 ⟨main_call6_v10, by decide, rfl⟩)),
    Finset.singleton_subset_iff.2 (List.mem_toFinset.2 (List.mem_map.2 ⟨main_call6_v11, by decide, rfl⟩)),
    Finset.singleton_subset_iff.2 (List.mem_toFinset.2 (List.mem_map.2 ⟨main_call6_cst_3, by decide, rfl⟩)),
    Finset.singleton_subset_iff.2 (List.mem_toFinset.2 (List.mem_map.2 ⟨main_call6_v12, by decide, rfl⟩)),
    Finset.singleton_subset_iff.2 (List.mem_toFinset.2 (List.mem_map.2 ⟨main_call6_cst_4, by decide, rfl⟩)),
    Finset.singleton_subset_iff.2 (List.mem_toFinset.2 (List.mem_map.2 ⟨main_call6_call0_v0, by decide, rfl⟩)),
    Finset.singleton_subset_iff.2 (List.mem_toFinset.2 (List.mem_map.2 ⟨main_call6_call0_v1, by decide, rfl⟩)),
    Finset.singleton_subset_iff.2 (List.mem_toFinset.2 (List.mem_map.2 ⟨main_v109, by decide, rfl⟩)),
    Finset.singleton_subset_iff.2 (List.mem_toFinset.2 (List.mem_map.2 ⟨main_v110, by decide, rfl⟩)),
    Finset.singleton_subset_iff.2 (List.mem_toFinset.2 (List.mem_map.2 ⟨main_v111, by decide, rfl⟩)),
    Finset.singleton_subset_iff.2 (List.mem_toFinset.2 (List.mem_map.2 ⟨main_v112, by decide, rfl⟩)),
    Finset.singleton_subset_iff.2 (List.mem_toFinset.2 (List.mem_map.2 ⟨main_cst_19, by decide, rfl⟩)),
    Finset.singleton_subset_iff.2 (List.mem_toFinset.2 (List.mem_map.2 ⟨main_v113, by decide, rfl⟩)),
    Finset.singleton_subset_iff.2 (List.mem_toFinset.2 (List.mem_map.2 ⟨main_v114, by decide, rfl⟩)),
    Finset.singleton_subset_iff.2 (List.mem_toFinset.2 (List.mem_map.2 ⟨main_v115, by decide, rfl⟩)),
    Finset.singleton_subset_iff.2 (List.mem_toFinset.2 (List.mem_map.2 ⟨main_v116, by decide, rfl⟩)),
    Finset.singleton_subset_iff.2 (List.mem_toFinset.2 (List.mem_map.2 ⟨main_v117, by decide, rfl⟩)),
    Finset.singleton_subset_iff.2 (List.mem_toFinset.2 (List.mem_map.2 ⟨main_v118, by decide, rfl⟩)),
    Finset.singleton_subset_iff.2 (List.mem_toFinset.2 (List.mem_map.2 ⟨main_v119, by decide, rfl⟩)),
    Finset.singleton_subset_iff.2 (List.mem_toFinset.2 (List.mem_map.2 ⟨main_v120, by decide, rfl⟩)),
    Finset.singleton_subset_iff.2 (List.mem_toFinset.2 (List.mem_map.2 ⟨main_v121, by decide, rfl⟩)),
    Finset.singleton_subset_iff.2 (List.mem_toFinset.2 (List.mem_map.2 ⟨main_v122, by decide, rfl⟩)),
    Finset.singleton_subset_iff.2 (List.mem_toFinset.2 (List.mem_map.2 ⟨main_v123, by decide, rfl⟩)),
    Finset.singleton_subset_iff.2 (List.mem_toFinset.2 (List.mem_map.2 ⟨main_v124, by decide, rfl⟩)),
    Finset.singleton_subset_iff.2 (List.mem_toFinset.2 (List.mem_map.2 ⟨main_call7_cst, by decide, rfl⟩)),
    Finset.singleton_subset_iff.2 (List.mem_toFinset.2 (List.mem_map.2 ⟨main_call7_v0, by decide, rfl⟩)),
    Finset.singleton_subset_iff.2 (List.mem_toFinset.2 (List.mem_map.2 ⟨main_v125, by decide, rfl⟩))⟩

/-- A reference stretch 4 does not write keeps its contents. -/
theorem c4_keep (W : Valuation τ sig (Elt F)) {r : Ref sig .tc} (hr : r ∉ w4) :
    after c4 W (Proc.devRef .tc r) = W (Proc.devRef .tc r) :=
  after_of_writes_sub c4 W c4_writes hr

theorem args_w4 : ∀ r ∈ argRefs, r ∉ w4 := by decide

/-- Operations of stretch 5: 32 of them, a callee's operations inline over its call's buffer record. -/
abbrev c5 : List (HloOp τ sig (Elt F)) :=
  [
    nullary main_cst_20 (constant S_ .f32 0x00000000#32),
    unary main_cst_20 main_v126 (broadcastInDim S512x4 ![] bcast_S_S512x4 : (⟨S_, .f32⟩ : BufTy).Contents (Elt F) → (⟨S512x4, .f32⟩ : BufTy).Contents (Elt F)),
    unary main_arg2 main_v127 (broadcastInDim S100000x1 ![0] bcast_S100000_S100000x1_0 : (⟨S100000, .i32⟩ : BufTy).Contents (Elt F) → (⟨S100000x1, .i32⟩ : BufTy).Contents (Elt F)),
    ternary main_v126 main_v127 main_arg0 main_v128 ((fun x i u => Host.scatterAdd scatter_S512x4_S100000x1_S100000x4_1_0_0_1 x i u) : (⟨S512x4, .f32⟩ : BufTy).Contents (Elt F) → (⟨S100000x1, .i32⟩ : BufTy).Contents (Elt F) → (⟨S100000x4, .f32⟩ : BufTy).Contents (Elt F) → (⟨S512x4, .f32⟩ : BufTy).Contents (Elt F)),
    unary main_arg19 main_v129 ((transpose S4x64 [1, 0] · transposes_S64x4_S4x64_1_0) : (⟨S64x4, .f32⟩ : BufTy).Contents (Elt F) → (⟨S4x64, .f32⟩ : BufTy).Contents (Elt F)),
    binary main_v128 main_v129 main_v130 ((fun l r => Host.dotGeneral dot_S512x4_S4x64_S512x64_1_0_0_1_n_n none l r) : (⟨S512x4, .f32⟩ : BufTy).Contents (Elt F) → (⟨S4x64, .f32⟩ : BufTy).Contents (Elt F) → (⟨S512x64, .f32⟩ : BufTy).Contents (Elt F)),
    unary main_arg20 main_v131 (broadcastInDim S1x64 ![1] bcast_S64_S1x64_1 : (⟨S64, .f32⟩ : BufTy).Contents (Elt F) → (⟨S1x64, .f32⟩ : BufTy).Contents (Elt F)),
    unary main_v131 main_v132 (broadcastInDim S512x64 ![0, 1] bcast_S1x64_S512x64_0_1 : (⟨S1x64, .f32⟩ : BufTy).Contents (Elt F) → (⟨S512x64, .f32⟩ : BufTy).Contents (Elt F)),
    binary main_v130 main_v132 main_v133 (addf : (⟨S512x64, .f32⟩ : BufTy).Contents (Elt F) → (⟨S512x64, .f32⟩ : BufTy).Contents (Elt F) → (⟨S512x64, .f32⟩ : BufTy).Contents (Elt F)),
    nullary main_cst_21 (constant S_ .f32 0x00000000#32),
    unary main_cst_21 main_v134 (broadcastInDim S512x64 ![] bcast_S_S512x64 : (⟨S_, .f32⟩ : BufTy).Contents (Elt F) → (⟨S512x64, .f32⟩ : BufTy).Contents (Elt F)),
    unary main_arg2 main_v135 (broadcastInDim S100000x1 ![0] bcast_S100000_S100000x1_0 : (⟨S100000, .i32⟩ : BufTy).Contents (Elt F) → (⟨S100000x1, .i32⟩ : BufTy).Contents (Elt F)),
    ternary main_v134 main_v135 main_v64 main_v136 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    unary main_arg21 main_v137 ((transpose S64x64 [1, 0] · transposes_S64x64_S64x64_1_0) : (⟨S64x64, .f32⟩ : BufTy).Contents (Elt F) → (⟨S64x64, .f32⟩ : BufTy).Contents (Elt F)),
    binary main_v136 main_v137 main_v138 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg22 main_v139 (broadcastInDim S1x64 ![1] bcast_S64_S1x64_1 : (⟨S64, .f32⟩ : BufTy).Contents (Elt F) → (⟨S1x64, .f32⟩ : BufTy).Contents (Elt F)),
    unary main_v139 main_v140 (broadcastInDim S512x64 ![0, 1] bcast_S1x64_S512x64_0_1 : (⟨S1x64, .f32⟩ : BufTy).Contents (Elt F) → (⟨S512x64, .f32⟩ : BufTy).Contents (Elt F)),
    binary main_v138 main_v140 main_v141 (addf : (⟨S512x64, .f32⟩ : BufTy).Contents (Elt F) → (⟨S512x64, .f32⟩ : BufTy).Contents (Elt F) → (⟨S512x64, .f32⟩ : BufTy).Contents (Elt F)),
    binary main_v133 main_v141 main_v142 (addf : (⟨S512x64, .f32⟩ : BufTy).Contents (Elt F) → (⟨S512x64, .f32⟩ : BufTy).Contents (Elt F) → (⟨S512x64, .f32⟩ : BufTy).Contents (Elt F)),
    nullary main_cst_22 (constant S_ .f32 0x00000000#32),
    unary main_cst_22 main_v143 (broadcastInDim S512x64 ![] bcast_S_S512x64 : (⟨S_, .f32⟩ : BufTy).Contents (Elt F) → (⟨S512x64, .f32⟩ : BufTy).Contents (Elt F)),
    unary main_arg2 main_v144 (broadcastInDim S100000x1 ![0] bcast_S100000_S100000x1_0 : (⟨S100000, .i32⟩ : BufTy).Contents (Elt F) → (⟨S100000x1, .i32⟩ : BufTy).Contents (Elt F)),
    ternary main_v143 main_v144 main_v125 main_v145 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    unary main_arg23 main_v146 ((transpose S64x64 [1, 0] · transposes_S64x64_S64x64_1_0) : (⟨S64x64, .f32⟩ : BufTy).Contents (Elt F) → (⟨S64x64, .f32⟩ : BufTy).Contents (Elt F)),
    binary main_v145 main_v146 main_v147 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg24 main_v148 (broadcastInDim S1x64 ![1] bcast_S64_S1x64_1 : (⟨S64, .f32⟩ : BufTy).Contents (Elt F) → (⟨S1x64, .f32⟩ : BufTy).Contents (Elt F)),
    unary main_v148 main_v149 (broadcastInDim S512x64 ![0, 1] bcast_S1x64_S512x64_0_1 : (⟨S1x64, .f32⟩ : BufTy).Contents (Elt F) → (⟨S512x64, .f32⟩ : BufTy).Contents (Elt F)),
    binary main_v147 main_v149 main_v150 (addf : (⟨S512x64, .f32⟩ : BufTy).Contents (Elt F) → (⟨S512x64, .f32⟩ : BufTy).Contents (Elt F) → (⟨S512x64, .f32⟩ : BufTy).Contents (Elt F)),
    binary main_v142 main_v150 main_v151 (addf : (⟨S512x64, .f32⟩ : BufTy).Contents (Elt F) → (⟨S512x64, .f32⟩ : BufTy).Contents (Elt F) → (⟨S512x64, .f32⟩ : BufTy).Contents (Elt F)),
    unary main_arg25 main_v152 ((transpose S64x64 [1, 0] · transposes_S64x64_S64x64_1_0) : (⟨S64x64, .f32⟩ : BufTy).Contents (Elt F) → (⟨S64x64, .f32⟩ : BufTy).Contents (Elt F)),
    binary main_v151 main_v152 main_v153 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg26 main_v154 (broadcastInDim S1x64 ![1] bcast_S64_S1x64_1 : (⟨S64, .f32⟩ : BufTy).Contents (Elt F) → (⟨S1x64, .f32⟩ : BufTy).Contents (Elt F)) ]

theorem c5_sub : (c5 : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., nullary_bufs_sub .., unary_bufs_sub .., unary_bufs_sub .., ternary_bufs_sub .., unary_bufs_sub .., binary_bufs_sub .., unary_bufs_sub .., unary_bufs_sub .., binary_bufs_sub .., binary_bufs_sub .., unary_bufs_sub .., binary_bufs_sub .., unary_bufs_sub ..⟩

theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 5 writes, in order. -/
abbrev w5 : List (Ref sig .tc) :=
  [main_cst_20, main_v126, main_v127, main_v128, main_v129, main_v130, main_v131, main_v132, main_v133, main_cst_21, main_v134, main_v135, main_v136, main_v137, main_v138, main_v139, main_v140, main_v141, main_v142, main_cst_22, main_v143, main_v144, main_v145, main_v146, main_v147, main_v148, main_v149, main_v150, main_v151, main_v152, main_v153, main_v154]

theorem c5_writes : (c5 : List (HloOp τ sig (Elt F))).Forall fun op => op.writes ⊆ (w5.map (Proc.devRef (τ := τ) .tc)).toFinset :=
  ⟨Finset.singleton_subset_iff.2 (List.mem_toFinset.2 (List.mem_map.2 ⟨main_cst_20, by decide, rfl⟩)),
    Finset.singleton_subset_iff.2 (List.mem_toFinset.2 (List.mem_map.2 ⟨main_v126, by decide, rfl⟩)),
    Finset.singleton_subset_iff.2 (List.mem_toFinset.2 (List.mem_map.2 ⟨main_v127, by decide, rfl⟩)),
    Finset.singleton_subset_iff.2 (List.mem_toFinset.2 (List.mem_map.2 ⟨main_v128, by decide, rfl⟩)),
    Finset.singleton_subset_iff.2 (List.mem_toFinset.2 (List.mem_map.2 ⟨main_v129, by decide, rfl⟩)),
    Finset.singleton_subset_iff.2 (List.mem_toFinset.2 (List.mem_map.2 ⟨main_v130, by decide, rfl⟩)),
    Finset.singleton_subset_iff.2 (List.mem_toFinset.2 (List.mem_map.2 ⟨main_v131, by decide, rfl⟩)),
    Finset.singleton_subset_iff.2 (List.mem_toFinset.2 (List.mem_map.2 ⟨main_v132, by decide, rfl⟩)),
    Finset.singleton_subset_iff.2 (List.mem_toFinset.2 (List.mem_map.2 ⟨main_v133, by decide, rfl⟩)),
    Finset.singleton_subset_iff.2 (List.mem_toFinset.2 (List.mem_map.2 ⟨main_cst_21, by decide, rfl⟩)),
    Finset.singleton_subset_iff.2 (List.mem_toFinset.2 (List.mem_map.2 ⟨main_v134, by decide, rfl⟩)),
    Finset.singleton_subset_iff.2 (List.mem_toFinset.2 (List.mem_map.2 ⟨main_v135, by decide, rfl⟩)),
    Finset.singleton_subset_iff.2 (List.mem_toFinset.2 (List.mem_map.2 ⟨main_v136, by decide, rfl⟩)),
    Finset.singleton_subset_iff.2 (List.mem_toFinset.2 (List.mem_map.2 ⟨main_v137, by decide, rfl⟩)),
    Finset.singleton_subset_iff.2 (List.mem_toFinset.2 (List.mem_map.2 ⟨main_v138, by decide, rfl⟩)),
    Finset.singleton_subset_iff.2 (List.mem_toFinset.2 (List.mem_map.2 ⟨main_v139, by decide, rfl⟩)),
    Finset.singleton_subset_iff.2 (List.mem_toFinset.2 (List.mem_map.2 ⟨main_v140, by decide, rfl⟩)),
    Finset.singleton_subset_iff.2 (List.mem_toFinset.2 (List.mem_map.2 ⟨main_v141, by decide, rfl⟩)),
    Finset.singleton_subset_iff.2 (List.mem_toFinset.2 (List.mem_map.2 ⟨main_v142, by decide, rfl⟩)),
    Finset.singleton_subset_iff.2 (List.mem_toFinset.2 (List.mem_map.2 ⟨main_cst_22, by decide, rfl⟩)),
    Finset.singleton_subset_iff.2 (List.mem_toFinset.2 (List.mem_map.2 ⟨main_v143, by decide, rfl⟩)),
    Finset.singleton_subset_iff.2 (List.mem_toFinset.2 (List.mem_map.2 ⟨main_v144, by decide, rfl⟩)),
    Finset.singleton_subset_iff.2 (List.mem_toFinset.2 (List.mem_map.2 ⟨main_v145, by decide, rfl⟩)),
    Finset.singleton_subset_iff.2 (List.mem_toFinset.2 (List.mem_map.2 ⟨main_v146, by decide, rfl⟩)),
    Finset.singleton_subset_iff.2 (List.mem_toFinset.2 (List.mem_map.2 ⟨main_v147, by decide, rfl⟩)),
    Finset.singleton_subset_iff.2 (List.mem_toFinset.2 (List.mem_map.2 ⟨main_v148, by decide, rfl⟩)),
    Finset.singleton_subset_iff.2 (List.mem_toFinset.2 (List.mem_map.2 ⟨main_v149, by decide, rfl⟩)),
    Finset.singleton_subset_iff.2 (List.mem_toFinset.2 (List.mem_map.2 ⟨main_v150, by decide, rfl⟩)),
    Finset.singleton_subset_iff.2 (List.mem_toFinset.2 (List.mem_map.2 ⟨main_v151, by decide, rfl⟩)),
    Finset.singleton_subset_iff.2 (List.mem_toFinset.2 (List.mem_map.2 ⟨main_v152, by decide, rfl⟩)),
    Finset.singleton_subset_iff.2 (List.mem_toFinset.2 (List.mem_map.2 ⟨main_v153, by decide, rfl⟩)),
    Finset.singleton_subset_iff.2 (List.mem_toFinset.2 (List.mem_map.2 ⟨main_v154, by decide, rfl⟩))⟩

/-- A reference stretch 5 does not write keeps its contents. -/
theorem c5_keep (W : Valuation τ sig (Elt F)) {r : Ref sig .tc} (hr : r ∉ w5) :
    after c5 W (Proc.devRef .tc r) = W (Proc.devRef .tc r) :=
  after_of_writes_sub c5 W c5_writes hr

theorem args_w5 : ∀ r ∈ argRefs, r ∉ w5 := by decide

/-- Operations of stretch 6: 13 of them, a callee's operations inline over its call's buffer record. -/
abbrev c6 : List (HloOp τ sig (Elt F)) :=
  [
    unary main_v154 main_v155 (broadcastInDim S512x64 ![0, 1] bcast_S1x64_S512x64_0_1 : (⟨S1x64, .f32⟩ : BufTy).Contents (Elt F) → (⟨S512x64, .f32⟩ : BufTy).Contents (Elt F)),
    binary main_v153 main_v155 main_v156 (addf : (⟨S512x64, .f32⟩ : BufTy).Contents (Elt F) → (⟨S512x64, .f32⟩ : BufTy).Contents (Elt F) → (⟨S512x64, .f32⟩ : BufTy).Contents (Elt F)),
    TRef.nullary main_call8.cst (constant S_ .f32 0x00000000#32),
    TRef.unary main_call8.cst main_call8.v0 (broadcastInDim S512x64 ![] bcast_S_S512x64),
    TRef.binary (.of main_v156 : TRef sig ⟨S512x64, .f32⟩) main_call8.v0 main_call8.v1 maximumf,
    unary main_arg27 main_v158 ((transpose S64x64 [1, 0] · transposes_S64x64_S64x64_1_0) : (⟨S64x64, .f32⟩ : BufTy).Contents (Elt F) → (⟨S64x64, .f32⟩ : BufTy).Contents (Elt F)),
    binary main_v151 main_v158 main_v159 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg28 main_v160 (broadcastInDim S1x64 ![1] bcast_S64_S1x64_1 : (⟨S64, .f32⟩ : BufTy).Contents (Elt F) → (⟨S1x64, .f32⟩ : BufTy).Contents (Elt F)),
    unary main_v160 main_v161 (broadcastInDim S512x64 ![0, 1] bcast_S1x64_S512x64_0_1 : (⟨S1x64, .f32⟩ : BufTy).Contents (Elt F) → (⟨S512x64, .f32⟩ : BufTy).Contents (Elt F)),
    binary main_v159 main_v161 main_v162 (addf : (⟨S512x64, .f32⟩ : BufTy).Contents (Elt F) → (⟨S512x64, .f32⟩ : BufTy).Contents (Elt F) → (⟨S512x64, .f32⟩ : BufTy).Contents (Elt F)),
    TRef.nullary main_call9.cst (constant S_ .f32 0x00000000#32),
    TRef.unary main_call9.cst main_call9.v0 (broadcastInDim S512x64 ![] bcast_S_S512x64),
    TRef.binary (.of main_v162 : TRef sig ⟨S512x64, .f32⟩) main_call9.v0 main_call9.v1 maximumf ]

theorem c6_sub : (c6 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub ..⟩

theorem c6_fresh : (c6 : List (HloOp τ sig (Elt F))).Forall fun op => op.fresh = ∅ :=
  ⟨rfl, rfl, rfl, rfl, rfl, rfl, rfl, rfl, rfl, rfl, rfl, rfl, rfl⟩

/-- The references stretch 6 writes, in order. -/
abbrev w6 : List (Ref sig .tc) :=
  [main_v155, main_v156, main_call8_cst, main_call8_v0, main_v157, main_v158, main_v159, main_v160, main_v161, main_v162, main_call9_cst, main_call9_v0, main_v163]

theorem c6_writes : (c6 : List (HloOp τ sig (Elt F))).Forall fun op => op.writes ⊆ (w6.map (Proc.devRef (τ := τ) .tc)).toFinset :=
  ⟨Finset.singleton_subset_iff.2 (List.mem_toFinset.2 (List.mem_map.2 ⟨main_v155, by decide, rfl⟩)),
    Finset.singleton_subset_iff.2 (List.mem_toFinset.2 (List.mem_map.2 ⟨main_v156, by decide, rfl⟩)),
    Finset.singleton_subset_iff.2 (List.mem_toFinset.2 (List.mem_map.2 ⟨main_call8_cst, by decide, rfl⟩)),
    Finset.singleton_subset_iff.2 (List.mem_toFinset.2 (List.mem_map.2 ⟨main_call8_v0, by decide, rfl⟩)),
    Finset.singleton_subset_iff.2 (List.mem_toFinset.2 (List.mem_map.2 ⟨main_v157, by decide, rfl⟩)),
    Finset.singleton_subset_iff.2 (List.mem_toFinset.2 (List.mem_map.2 ⟨main_v158, by decide, rfl⟩)),
    Finset.singleton_subset_iff.2 (List.mem_toFinset.2 (List.mem_map.2 ⟨main_v159, by decide, rfl⟩)),
    Finset.singleton_subset_iff.2 (List.mem_toFinset.2 (List.mem_map.2 ⟨main_v160, by decide, rfl⟩)),
    Finset.singleton_subset_iff.2 (List.mem_toFinset.2 (List.mem_map.2 ⟨main_v161, by decide, rfl⟩)),
    Finset.singleton_subset_iff.2 (List.mem_toFinset.2 (List.mem_map.2 ⟨main_v162, by decide, rfl⟩)),
    Finset.singleton_subset_iff.2 (List.mem_toFinset.2 (List.mem_map.2 ⟨main_call9_cst, by decide, rfl⟩)),
    Finset.singleton_subset_iff.2 (List.mem_toFinset.2 (List.mem_map.2 ⟨main_call9_v0, by decide, rfl⟩)),
    Finset.singleton_subset_iff.2 (List.mem_toFinset.2 (List.mem_map.2 ⟨main_v163, by decide, rfl⟩))⟩

/-- A reference stretch 6 does not write keeps its contents. -/
theorem c6_keep (W : Valuation τ sig (Elt F)) {r : Ref sig .tc} (hr : r ∉ w6) :
    after c6 W (Proc.devRef .tc r) = W (Proc.devRef .tc r) :=
  after_of_writes_sub c6 W c6_writes hr

theorem args_w6 : ∀ r ∈ argRefs, r ∉ w6 := by decide

end Cert.ReferenceIdeal.RefRun

end
-- ==== Proof.RefRun2.lean ====
import proofs.«403050_j67860483276910_3_alg».proof.Proof.RefRun1

/-!
The reference @main is the straight line of its seven stretches, and its run: every weakly fair
execution terminates with each TensorCore buffer at the fold of the operations over the launch
contents.
-/

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- @main's 285 operations, in order: the seven stretches, grouped as @main's four windows. -/
abbrev ops : List (HloOp τ sig (Elt F)) := (c0 ++ c1) ++ ((c2 ++ c3) ++ ((c4 ++ c5) ++ c6))

set_option maxRecDepth 8192 in
set_option maxHeartbeats 4000000 in
/-- The first window is its two stretches: the callees' definitions unfolded at their calls, both
    sides are one chain of steps once sequencing is reassociated. -/
theorem part0_eq (d : Dev nD) : main_part0 (F := F) d = seq (c0 ++ c1) := by
  simp only [main_part0, fn_var.body, fn_where.body, fn_relu.body, bind_assoc, pure_bind]
  rfl

set_option maxRecDepth 8192 in
set_option maxHeartbeats 4000000 in
theorem part1_eq (d : Dev nD) : main_part1 (F := F) d = seq (c2 ++ c3) := by
  simp only [main_part1, fn_var.body, fn_where.body, fn_relu.body, bind_assoc, pure_bind]
  rfl

set_option maxRecDepth 8192 in
set_option maxHeartbeats 4000000 in
theorem part2_eq (d : Dev nD) : main_part2 (F := F) d = seq (c4 ++ c5) := by
  simp only [main_part2, fn_var.body, fn_where.body, fn_relu.body, bind_assoc, pure_bind]
  rfl

set_option maxRecDepth 8192 in
set_option maxHeartbeats 4000000 in
theorem part3_eq (d : Dev nD) : main_part3 (F := F) d = seq c6 := by
  simp only [main_part3, fn_relu_0.body, bind_assoc, pure_bind]
  rfl

/-- @main is the straight line of its operations. -/
theorem main_eq (c : Dev nD) : main (F := F) c = seq ops := by
  simp only [main, part0_eq, part1_eq, part2_eq, part3_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app c0_sub c1_sub) (forall_app (forall_app c2_sub c3_sub) (forall_app (forall_app c4_sub c5_sub) c6_sub))

theorem ops_fresh : ∀ op ∈ (ops : List (HloOp τ sig (Elt F))), op.fresh = ∅ :=
  List.forall_iff_forall_mem.1
    (forall_app (forall_app c0_fresh c1_fresh) (forall_app (forall_app c2_fresh c3_fresh) (forall_app (forall_app c4_fresh c5_fresh) c6_fresh)))

/-- The fold over all the operations is the stretches' folds in turn. -/
theorem after_ops (V : Valuation τ sig (Elt F)) :
    after ops V = after c6 (after c5 (after c4 (after c3 (after c2 (after c1 (after c0 V)))))) := by
  simp only [ops, after_app]

/-- On every device, for any float values, from any memory with zero counters: every weakly fair
    execution of @main terminates with each TensorCore buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefTerm.lean ====
import proofs.«403050_j67860483276910_3_alg».proof.ReferenceIdeal

/-!
The reference network's @main as pure functions of its 29 argument arrays, for any float values:
each repeated block (linear layer, column mean, column variance with its guarded divisor,
normalisation, rectifier, neighbour sum, pooled sum) is one definition built from the printed
operations in the printed order, and the two results are their composition.
-/

noncomputable section

namespace Cert.ReferenceIdeal.RefTerm

open Cert.ReferenceIdeal Idealize.ShloMosaic

variable {F : FTy → Type} [FloatOps F] [Facts]
open Facts₀ Facts

/-! ## The blocks -/

/-- A bias row over 100000 rows: the word array as one row, then as every row. -/
def biasN (b : FVec F S64 .f32) : FVec F S100000x64 .f32 :=
  broadcastInDim S100000x64 ![0, 1] bcast_S1x64_S100000x64_0_1 (broadcastInDim S1x64 ![1] bcast_S64_S1x64_1 b)

/-- A bias row over 512 rows. -/
def biasG (b : FVec F S64 .f32) : FVec F S512x64 .f32 :=
  broadcastInDim S512x64 ![0, 1] bcast_S1x64_S512x64_0_1 (broadcastInDim S1x64 ![1] bcast_S64_S1x64_1 b)

/-- The linear layer on 100000 rows of 4: the contraction with the transposed weight, plus the bias row. -/
def lin4 (x : FVec F S100000x4 .f32) (w : FVec F S64x4 .f32) (b : FVec F S64 .f32) : FVec F S100000x64 .f32 :=
  addf (Host.dotGeneral dot_S100000x4_S4x64_S100000x64_1_0_0_1_n_n none x (transpose S4x64 [1, 0] w transposes_S64x4_S4x64_1_0)) (biasN b)

/-- The linear layer on 100000 rows of 64. -/
def lin64 (x : FVec F S100000x64 .f32) (w : FVec F S64x64 .f32) (b : FVec F S64 .f32) : FVec F S100000x64 .f32 :=
  addf (Host.dotGeneral dot_S100000x64_S64x64_S100000x64_1_0_0_1_n_n none x (transpose S64x64 [1, 0] w transposes_S64x64_S64x64_1_0)) (biasN b)

/-- The linear layer on 512 rows of 4. -/
def linG4 (x : FVec F S512x4 .f32) (w : FVec F S64x4 .f32) (b : FVec F S64 .f32) : FVec F S512x64 .f32 :=
  addf (Host.dotGeneral dot_S512x4_S4x64_S512x64_1_0_0_1_n_n none x (transpose S4x64 [1, 0] w transposes_S64x4_S4x64_1_0)) (biasG b)

/-- The linear layer on 512 rows of 64. -/
def linG64 (x : FVec F S512x64 .f32) (w : FVec F S64x64 .f32) (b : FVec F S64 .f32) : FVec F S512x64 .f32 :=
  addf (Host.dotGeneral dot_S512x64_S64x64_S512x64_1_0_0_1_n_n none x (transpose S64x64 [1, 0] w transposes_S64x64_S64x64_1_0)) (biasG b)

/-- The column sums of a 100000 × 64 array from zero. -/
def colSum (x : FVec F S100000x64 .f32) : FVec F S64 .f32 :=
  Host.reduceAdd x (constant S_ .f32 0x00000000#32) reducesTo_S100000x64_S64_d0 h_S_

/-- The column mean: the column sums over the word 1e5. -/
def mean (x : FVec F S100000x64 .f32) : FVec F S64 .f32 :=
  Host.divf (colSum x) (broadcastInDim S64 ![] bcast_S_S64 (constant S_ .f32 0x47C35000#32))

/-- The divisor of the variance: 1e5 minus the converted zero correction. -/
def varDen : FVec F S_ .f32 :=
  subf (constant S_ .f32 0x47C35000#32) (sitofp .f32 (constantI S_ 32 0#32))

/-- The squared deviations from the column mean taken on one row of 64. -/
def sqDev (x : FVec F S100000x64 .f32) : FVec F S100000x64 .f32 :=
  let d := subf x (broadcastInDim S100000x64 ![0, 1] bcast_S1x64_S100000x64_0_1
    (Host.divf (broadcastInDim S1x64 ![1] bcast_S64_S1x64_1 (colSum x))
      (broadcastInDim S1x64 ![] bcast_S_S1x64 (constant S_ .f32 0x47C35000#32))))
  mulf d d

/-- The column variance: the summed squared deviations over the divisor where the divisor is
    positive, the quiet-NaN word elsewhere. -/
def var (x : FVec F S100000x64 .f32) : FVec F S64 .f32 :=
  select (broadcastInDim S64 ![] bcast_S_S64 (cmpf .ogt (varDen (F := F)) (constant S_ .f32 0x00000000#32)))
    (Host.divf (colSum (sqDev x)) (broadcastInDim S64 ![] bcast_S_S64 (varDen (F := F))))
    (broadcastInDim S64 ![] bcast_S_S64 (id (constant S_ .f32 0x7FC00000#32 : FVec F S_ .f32)))

/-- The normalisation: the deviations from the mean times the reciprocal root of variance plus the
    1e-5 word, times the scale row, plus the shift row. -/
def bn (x : FVec F S100000x64 .f32) (g b : FVec F S64 .f32) : FVec F S100000x64 .f32 :=
  addf (mulf (mulf (subf x (biasN (mean x)))
      (biasN (Host.rsqrt (addf (var x) (broadcastInDim S64 ![] bcast_S_S64 (constant S_ .f32 0x3727C5AC#32))))))
    (biasN g)) (biasN b)

/-- The rectifier on 100000 rows. -/
def reluN (x : FVec F S100000x64 .f32) : FVec F S100000x64 .f32 :=
  maximumf x (broadcastInDim S100000x64 ![] bcast_S_S100000x64 (constant S_ .f32 0x00000000#32))

/-- The rectifier on 512 rows. -/
def reluG (x : FVec F S512x64 .f32) : FVec F S512x64 .f32 :=
  maximumf x (broadcastInDim S512x64 ![] bcast_S_S512x64 (constant S_ .f32 0x00000000#32))

/-- Row 0 of the edge array: the source of every edge. -/
def srcRow (e : IVec S2x3200000 32) : IVec S3200000 32 :=
  shapeCast S3200000 (extractStridedSlice S1x3200000 ![0, 0] e slices_S2x3200000_S1x3200000_0_0) shapeCasts_S1x3200000_S3200000

/-- Row 1 of the edge array: the destination of every edge. -/
def dstRow (e : IVec S2x3200000 32) : IVec S3200000 32 :=
  shapeCast S3200000 (extractStridedSlice S1x3200000 ![1, 0] e slices_S2x3200000_S1x3200000_1_0) shapeCasts_S1x3200000_S3200000

/-- The source index with a negative one wrapped by the row count, as a column. -/
def srcIdx (e : IVec S2x3200000 32) : IVec S3200000x1 32 :=
  broadcastInDim S3200000x1 ![0] bcast_S3200000_S3200000x1_0
    (select (cmpi .slt (srcRow e) (broadcastInDim S3200000 ![] bcast_S_S3200000 (constantI S_ 32 0#32)))
      (addi (srcRow e) (broadcastInDim S3200000 ![] bcast_S_S3200000 (constantI S_ 32 100000#32)))
      (srcRow e))

/-- The destination index as a column. -/
def dstIdx (e : IVec S2x3200000 32) : IVec S3200000x1 32 :=
  broadcastInDim S3200000x1 ![0] bcast_S3200000_S3200000x1_0 (dstRow e)

/-- The neighbour sum on rows of 4: each edge's source row gathered, added into zeros at its destination. -/
def agg4 (x : FVec F S100000x4 .f32) (e : IVec S2x3200000 32) : FVec F S100000x4 .f32 :=
  Host.scatterAdd scatter_S100000x4_S3200000x1_S3200000x4_1_0_0_1
    (broadcastInDim S100000x4 ![] bcast_S_S100000x4 (constant S_ .f32 0x00000000#32))
    (dstIdx e)
    (Host.gather gather_S100000x4_S3200000x1_S3200000x4_1_0_n_n_0_1_14 x (srcIdx e))

/-- The neighbour sum on rows of 64. -/
def agg64 (x : FVec F S100000x64 .f32) (e : IVec S2x3200000 32) : FVec F S100000x64 .f32 :=
  Host.scatterAdd scatter_S100000x64_S3200000x1_S3200000x64_1_0_0_1
    (broadcastInDim S100000x64 ![] bcast_S_S100000x64 (constant S_ .f32 0x00000000#32))
    (dstIdx e)
    (Host.gather gather_S100000x64_S3200000x1_S3200000x64_1_0_n_n_0_1_164 x (srcIdx e))

/-- The batch index as a column. -/
def batIdx (bt : IVec S100000 32) : IVec S100000x1 32 :=
  broadcastInDim S100000x1 ![0] bcast_S100000_S100000x1_0 bt

/-- The pooled sum of rows of 4 by batch index, into 512 zero rows. -/
def pool4 (x : FVec F S100000x4 .f32) (bt : IVec S100000 32) : FVec F S512x4 .f32 :=
  Host.scatterAdd scatter_S512x4_S100000x1_S100000x4_1_0_0_1
    (broadcastInDim S512x4 ![] bcast_S_S512x4 (constant S_ .f32 0x00000000#32)) (batIdx bt) x

/-- The pooled sum of rows of 64 by batch index. -/
def pool64 (x : FVec F S100000x64 .f32) (bt : IVec S100000 32) : FVec F S512x64 .f32 :=
  Host.scatterAdd scatter_S512x64_S100000x1_S100000x64_1_0_0_1
    (broadcastInDim S512x64 ![] bcast_S_S512x64 (constant S_ .f32 0x00000000#32)) (batIdx bt) x

/-- A layer's two halves after the neighbour sum: linear, normalise, rectify, twice. -/
def mlp (z : FVec F S100000x64 .f32) (w2 : FVec F S64x64 .f32) (b2 g2 s2 : FVec F S64 .f32) : FVec F S100000x64 .f32 :=
  reluN (bn (lin64 z w2 b2) g2 s2)

/-! ## The network -/

section Net

variable (a0 : FVec F S100000x4 .f32) (a1 : IVec S2x3200000 32) (a2 : IVec S100000 32)
  (a3 : FVec F S64x4 .f32) (a4 a5 a6 : FVec F S64 .f32) (a7 : FVec F S64x64 .f32) (a8 a9 a10 : FVec F S64 .f32)
  (a11 : FVec F S64x64 .f32) (a12 a13 a14 : FVec F S64 .f32) (a15 : FVec F S64x64 .f32) (a16 a17 a18 : FVec F S64 .f32)
  (a19 : FVec F S64x4 .f32) (a20 : FVec F S64 .f32) (a21 : FVec F S64x64 .f32) (a22 : FVec F S64 .f32)
  (a23 : FVec F S64x64 .f32) (a24 : FVec F S64 .f32) (a25 : FVec F S64x64 .f32) (a26 : FVec F S64 .f32)
  (a27 : FVec F S64x64 .f32) (a28 : FVec F S64 .f32)

/-- %39: the first layer's first half. -/
def v39 : FVec F S100000x64 .f32 := reluN (bn (lin4 (addf a0 (agg4 a0 a1)) a3 a4) a5 a6)
/-- %64: the first layer's output. -/
def v64 : FVec F S100000x64 .f32 := mlp (v39 a0 a1 a3 a4 a5 a6) a7 a8 a9 a10
/-- %100: the second layer's first half. -/
def v100 : FVec F S100000x64 .f32 :=
  let h := v64 a0 a1 a3 a4 a5 a6 a7 a8 a9 a10
  reluN (bn (lin64 (addf h (agg64 h a1)) a11 a12) a13 a14)
/-- %125: the second layer's output. -/
def v125 : FVec F S100000x64 .f32 := mlp (v100 a0 a1 a3 a4 a5 a6 a7 a8 a9 a10 a11 a12 a13 a14) a15 a16 a17 a18
/-- %151: the three pooled linear terms added. -/
def v151 : FVec F S512x64 .f32 :=
  addf (addf (linG4 (pool4 a0 a2) a19 a20)
      (linG64 (pool64 (v64 a0 a1 a3 a4 a5 a6 a7 a8 a9 a10) a2) a21 a22))
    (linG64 (pool64 (v125 a0 a1 a3 a4 a5 a6 a7 a8 a9 a10 a11 a12 a13 a14 a15 a16 a17 a18) a2) a23 a24)
/-- %157: the first result. -/
def res_v157 : FVec F S512x64 .f32 :=
  reluG (linG64 (v151 a0 a1 a2 a3 a4 a5 a6 a7 a8 a9 a10 a11 a12 a13 a14 a15 a16 a17 a18 a19 a20 a21 a22 a23 a24) a25 a26)
/-- %163: the second result. -/
def res_v163 : FVec F S512x64 .f32 :=
  reluG (linG64 (v151 a0 a1 a2 a3 a4 a5 a6 a7 a8 a9 a10 a11 a12 a13 a14 a15 a16 a17 a18 a19 a20 a21 a22 a23 a24) a27 a28)

end Net

end Cert.ReferenceIdeal.RefTerm

end
-- ==== Proof.RefRun3.lean ====
import proofs.«403050_j67860483276910_3_alg».proof.Proof.RefTerm
import proofs.«403050_j67860483276910_3_alg».proof.Proof.RefRun1

/-!
What each of the reference @main's seven stretches leaves in the buffers later stretches read, from
any contents: the stretch's fold at that buffer is the blocks' term of the contents it reads.
-/

noncomputable section

namespace Cert.ReferenceIdeal.RefRun

open Cert.ReferenceIdeal Cert.ReferenceIdeal.Gen Cert.ReferenceIdeal.RefTerm
open Idealize.ShloMosaic Idealize.ShloMosaic.TcCoe Idealize.SL.Sem Idealize.ShloMosaic.StableHlo

variable {F : FTy → Type} [FloatOps F]

/-! ## What the stretches compute, over given contents -/

/-- A word array as one row of 64. -/
def row (v : FVec F S64 .f32) : FVec F S1x64 .f32 := broadcastInDim S1x64 ![1] bcast_S64_S1x64_1 v

/-- The normalisation from a given mean row and variance: the deviations from the mean times the
    reciprocal root of variance plus the 1e-5 word, times the scale row, plus the shift row. -/
def bnRow (x : FVec F S100000x64 .f32) (mrow : FVec F S1x64 .f32) (vr g b : FVec F S64 .f32) : FVec F S100000x64 .f32 :=
  addf (mulf (mulf (subf x (broadcastInDim S100000x64 ![0, 1] bcast_S1x64_S100000x64_0_1 mrow))
      (biasN (Host.rsqrt (addf vr (broadcastInDim S64 ![] bcast_S_S64 (constant S_ .f32 0x3727C5AC#32))))))
    (biasN g)) (biasN b)

/-- The neighbour sum on rows of 64 from given source and destination rows. -/
def aggRows (x : FVec F S100000x64 .f32) (s d : IVec S3200000 32) : FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 d)
    (Host.gather gather_S100000x64_S3200000x1_S3200000x64_1_0_n_n_0_1_164 x
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

/-- The first linear layer's input and output: the features plus their neighbour sum, through the layer. -/
def h0 (a0 : FVec F S100000x4 .f32) (a1 : IVec S2x3200000 32) (a3 : FVec F S64x4 .f32) (a4 : FVec F S64 .f32) : FVec F S100000x64 .f32 :=
  lin4 (addf a0 (agg4 a0 a1)) a3 a4

/-! ## Each stretch's results, from any contents -/

attribute [local irreducible] Host.reduceAdd Host.scatterAdd Host.gather

set_option maxRecDepth 8192
set_option maxHeartbeats 1600000

theorem c0_v1 (W : Valuation τ sig (Elt F)) :
    after c0 W (main_v1 : DevRef τ sig) = srcRow (W (main_arg1 : DevRef τ sig)) := by
  after_results_simp <;> rfl

theorem c0_v3 (W : Valuation τ sig (Elt F)) :
    after c0 W (main_v3 : DevRef τ sig) = dstRow (W (main_arg1 : DevRef τ sig)) := by
  after_results_simp <;> rfl

theorem c0_v19 (W : Valuation τ sig (Elt F)) :
    after c0 W (main_v19 : DevRef τ sig) = h0 (W (main_arg0 : DevRef τ sig)) (W (main_arg1 : DevRef τ sig)) (W (main_arg3 : DevRef τ sig)) (W (main_arg4 : DevRef τ sig)) := by
  after_results_simp <;> rfl

theorem c0_v22 (W : Valuation τ sig (Elt F)) :
    after c0 W (main_v22 : DevRef τ sig) = mean (h0 (W (main_arg0 : DevRef τ sig)) (W (main_arg1 : DevRef τ sig)) (W (main_arg3 : DevRef τ sig)) (W (main_arg4 : DevRef τ sig))) := by
  after_results_simp <;> rfl

theorem c0_v23 (W : Valuation τ sig (Elt F)) :
    after c0 W (main_v23 : DevRef τ sig) = var (h0 (W (main_arg0 : DevRef τ sig)) (W (main_arg1 : DevRef τ sig)) (W (main_arg3 : DevRef τ sig)) (W (main_arg4 : DevRef τ sig))) := by
  after_results_simp <;> rfl

theorem c1_v44 (W : Valuation τ sig (Elt F)) :
    after c1 W (main_v44 : DevRef τ sig) = lin64 (reluN (bnRow (W (main_v19 : DevRef τ sig)) (row (W (main_v22 : DevRef τ sig))) (W (main_v23 : DevRef τ sig)) (W (main_arg5 : DevRef τ sig)) (W (main_arg6 : DevRef τ sig)))) (W (main_arg7 : DevRef τ sig)) (W (main_arg8 : DevRef τ sig)) := by
  after_results_simp <;> rfl

theorem c1_v49 (W : Valuation τ sig (Elt F)) :
    after c1 W (main_v49 : DevRef τ sig) = row (mean (lin64 (reluN (bnRow (W (main_v19 : DevRef τ sig)) (row (W (main_v22 : DevRef τ sig))) (W (main_v23 : DevRef τ sig)) (W (main_arg5 : DevRef τ sig)) (W (main_arg6 : DevRef τ sig)))) (W (main_arg7 : DevRef τ sig)) (W (main_arg8 : DevRef τ sig)))) := by
  after_results_simp <;> rfl

theorem c1_v48 (W : Valuation τ sig (Elt F)) :
    after c1 W (main_v48 : DevRef τ sig) = var (lin64 (reluN (bnRow (W (main_v19 : DevRef τ sig)) (row (W (main_v22 : DevRef τ sig))) (W (main_v23 : DevRef τ sig)) (W (main_arg5 : DevRef τ sig)) (W (main_arg6 : DevRef τ sig)))) (W (main_arg7 : DevRef τ sig)) (W (main_arg8 : DevRef τ sig))) := by
  after_results_simp <;> rfl

theorem c2_v64 (W : Valuation τ sig (Elt F)) :
    after c2 W (main_v64 : DevRef τ sig) = reluN (bnRow (W (main_v44 : DevRef τ sig)) (W (main_v49 : DevRef τ sig)) (W (main_v48 : DevRef τ sig)) (W (main_arg9 : DevRef τ sig)) (W (main_arg10 : DevRef τ sig))) := by
  after_results_simp <;> rfl

theorem c2_v75 (W : Valuation τ sig (Elt F)) :
    after c2 W (main_v75 : DevRef τ sig) = addf (reluN (bnRow (W (main_v44 : DevRef τ sig)) (W (main_v49 : DevRef τ sig)) (W (main_v48 : DevRef τ sig)) (W (main_arg9 : DevRef τ sig)) (W (main_arg10 : DevRef τ sig)))) (aggRows (reluN (bnRow (W (main_v44 : DevRef τ sig)) (W (main_v49 : DevRef τ sig)) (W (main_v48 : DevRef τ sig)) (W (main_arg9 : DevRef τ sig)) (W (main_arg10 : DevRef τ sig)))) (W (main_v1 : DevRef τ sig)) (W (main_v3 : DevRef τ sig))) := by
  after_results_simp <;> rfl

theorem c3_v100 (W : Valuation τ sig (Elt F)) :
    after c3 W (main_v100 : DevRef τ sig) = reluN (bn (lin64 (W (main_v75 : DevRef τ sig)) (W (main_arg11 : DevRef τ sig)) (W (main_arg12 : DevRef τ sig))) (W (main_arg13 : DevRef τ sig)) (W (main_arg14 : DevRef τ sig))) := by
  after_results_simp <;> rfl

theorem c3_v101 (W : Valuation τ sig (Elt F)) :
    after c3 W (main_v101 : DevRef τ sig) = transpose S64x64 [1, 0] (W (main_arg15 : DevRef τ sig)) transposes_S64x64_S64x64_1_0 := by
  after_results_simp <;> rfl

theorem c4_v125 (W : Valuation τ sig (Elt F)) :
    after c4 W (main_v125 : DevRef τ sig) = reluN (bn (addf (Host.dotGeneral dot_S100000x64_S64x64_S100000x64_1_0_0_1_n_n none (W (main_v100 : DevRef τ sig)) (W (main_v101 : DevRef τ sig))) (biasN (W (main_arg16 : DevRef τ sig)))) (W (main_arg17 : DevRef τ sig)) (W (main_arg18 : DevRef τ sig))) := by
  after_results_simp <;> rfl

theorem c5_v151 (W : Valuation τ sig (Elt F)) :
    after c5 W (main_v151 : DevRef τ sig) = addf (addf (linG4 (pool4 (W (main_arg0 : DevRef τ sig)) (W (main_arg2 : DevRef τ sig))) (W (main_arg19 : DevRef τ sig)) (W (main_arg20 : DevRef τ sig))) (linG64 (pool64 (W (main_v64 : DevRef τ sig)) (W (main_arg2 : DevRef τ sig))) (W (main_arg21 : DevRef τ sig)) (W (main_arg22 : DevRef τ sig)))) (linG64 (pool64 (W (main_v125 : DevRef τ sig)) (W (main_arg2 : DevRef τ sig))) (W (main_arg23 : DevRef τ sig)) (W (main_arg24 : DevRef τ sig))) := by
  after_results_simp <;> rfl

theorem c5_v153 (W : Valuation τ sig (Elt F)) :
    after c5 W (main_v153 : DevRef τ sig) = Host.dotGeneral dot_S512x64_S64x64_S512x64_1_0_0_1_n_n none (addf (addf (linG4 (pool4 (W (main_arg0 : DevRef τ sig)) (W (main_arg2 : DevRef τ sig))) (W (main_arg19 : DevRef τ sig)) (W (main_arg20 : DevRef τ sig))) (linG64 (pool64 (W (main_v64 : DevRef τ sig)) (W (main_arg2 : DevRef τ sig))) (W (main_arg21 : DevRef τ sig)) (W (main_arg22 : DevRef τ sig)))) (linG64 (pool64 (W (main_v125 : DevRef τ sig)) (W (main_arg2 : DevRef τ sig))) (W (main_arg23 : DevRef τ sig)) (W (main_arg24 : DevRef τ sig)))) (transpose S64x64 [1, 0] (W (main_arg25 : DevRef τ sig)) transposes_S64x64_S64x64_1_0) := by
  after_results_simp <;> rfl

theorem c5_v154 (W : Valuation τ sig (Elt F)) :
    after c5 W (main_v154 : DevRef τ sig) = row (W (main_arg26 : DevRef τ sig)) := by
  after_results_simp <;> rfl

theorem c6_v157 (W : Valuation τ sig (Elt F)) :
    after c6 W (main_v157 : DevRef τ sig) = reluG (addf (W (main_v153 : DevRef τ sig)) (broadcastInDim S512x64 ![0, 1] bcast_S1x64_S512x64_0_1 (W (main_v154 : DevRef τ sig)))) := by
  after_results_simp <;> rfl

theorem c6_v163 (W : Valuation τ sig (Elt F)) :
    after c6 W (main_v163 : DevRef τ sig) = reluG (linG64 (W (main_v151 : DevRef τ sig)) (W (main_arg27 : DevRef τ sig)) (W (main_arg28 : DevRef τ sig))) := by
  after_results_simp <;> rfl

end Cert.ReferenceIdeal.RefRun

end
-- ==== Proof.RefRun.lean ====
import proofs.«403050_j67860483276910_3_alg».proof.Proof.RefRun2
import proofs.«403050_j67860483276910_3_alg».proof.Proof.RefRun3

/-!
The reference @main's run read back: the stretches' results composed into the two result buffers'
terms of the 29 argument arrays, and the run's statement over them.
-/

noncomputable section

namespace Cert.ReferenceIdeal.RefRun

open Cert.ReferenceIdeal Cert.ReferenceIdeal.Gen Cert.ReferenceIdeal.RefTerm
open Idealize.ShloMosaic Idealize.ShloMosaic.TcCoe Idealize.SL.Sem Idealize.ShloMosaic.StableHlo

variable {F : FTy → Type} [FloatOps F]

attribute [local irreducible] Host.reduceAdd Host.scatterAdd Host.gather

/-! ## The stretches composed: what each live buffer holds, as a function of the launch contents -/

theorem k1 (V : Valuation τ sig (Elt F)) {r : Ref sig .tc} (h : r ∈ argRefs) :
    after c0 V (Proc.devRef .tc r) = V (Proc.devRef .tc r) :=
  c0_keep V (args_w0 r h)

theorem k2 (V : Valuation τ sig (Elt F)) {r : Ref sig .tc} (h : r ∈ argRefs) :
    after c1 (after c0 V) (Proc.devRef .tc r) = V (Proc.devRef .tc r) :=
  (c1_keep _ (args_w1 r h)).trans (k1 V h)

theorem k3 (V : Valuation τ sig (Elt F)) {r : Ref sig .tc} (h : r ∈ argRefs) :
    after c2 (after c1 (after c0 V)) (Proc.devRef .tc r) = V (Proc.devRef .tc r) :=
  (c2_keep _ (args_w2 r h)).trans (k2 V h)

theorem k4 (V : Valuation τ sig (Elt F)) {r : Ref sig .tc} (h : r ∈ argRefs) :
    after c3 (after c2 (after c1 (after c0 V))) (Proc.devRef .tc r) = V (Proc.devRef .tc r) :=
  (c3_keep _ (args_w3 r h)).trans (k3 V h)

theorem k5 (V : Valuation τ sig (Elt F)) {r : Ref sig .tc} (h : r ∈ argRefs) :
    after c4 (after c3 (after c2 (after c1 (after c0 V)))) (Proc.devRef .tc r) = V (Proc.devRef .tc r) :=
  (c4_keep _ (args_w4 r h)).trans (k4 V h)

theorem k6 (V : Valuation τ sig (Elt F)) {r : Ref sig .tc} (h : r ∈ argRefs) :
    after c5 (after c4 (after c3 (after c2 (after c1 (after c0 V))))) (Proc.devRef .tc r) = V (Proc.devRef .tc r) :=
  (c5_keep _ (args_w5 r h)).trans (k5 V h)

theorem k7 (V : Valuation τ sig (Elt F)) {r : Ref sig .tc} (h : r ∈ argRefs) :
    after c6 (after c5 (after c4 (after c3 (after c2 (after c1 (after c0 V)))))) (Proc.devRef .tc r) = V (Proc.devRef .tc r) :=
  (c6_keep _ (args_w6 r h)).trans (k6 V h)

section Stages

variable (V : Valuation τ sig (Elt F))

theorem s2_44 : after c1 (after c0 V) (main_v44 : DevRef τ sig) = lin64 (v39 (V (main_arg0 : DevRef τ sig)) (V (main_arg1 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig)) := by
  rw [c1_v44, c0_v19, c0_v22, c0_v23, k1 V (r := main_arg5) (by decide), k1 V (r := main_arg6) (by decide), k1 V (r := main_arg7) (by decide), k1 V (r := main_arg8) (by decide)]
  rfl

theorem s2_49 : after c1 (after c0 V) (main_v49 : DevRef τ sig) = row (mean (lin64 (v39 (V (main_arg0 : DevRef τ sig)) (V (main_arg1 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig)))) := by
  rw [c1_v49, c0_v19, c0_v22, c0_v23, k1 V (r := main_arg5) (by decide), k1 V (r := main_arg6) (by decide), k1 V (r := main_arg7) (by decide), k1 V (r := main_arg8) (by decide)]
  rfl

theorem s2_48 : after c1 (after c0 V) (main_v48 : DevRef τ sig) = var (lin64 (v39 (V (main_arg0 : DevRef τ sig)) (V (main_arg1 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig))) := by
  rw [c1_v48, c0_v19, c0_v22, c0_v23, k1 V (r := main_arg5) (by decide), k1 V (r := main_arg6) (by decide), k1 V (r := main_arg7) (by decide), k1 V (r := main_arg8) (by decide)]
  rfl

theorem s2_1 : after c1 (after c0 V) (main_v1 : DevRef τ sig) = srcRow (V (main_arg1 : DevRef τ sig)) := by
  rw [c1_keep _ (by decide : main_v1 ∉ w1), c0_v1]

theorem s2_3 : after c1 (after c0 V) (main_v3 : DevRef τ sig) = dstRow (V (main_arg1 : DevRef τ sig)) := by
  rw [c1_keep _ (by decide : main_v3 ∉ w1), c0_v3]

theorem s3_64 : after c2 (after c1 (after c0 V)) (main_v64 : DevRef τ sig) = v64 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [c2_v64, s2_44, s2_49, s2_48, k2 V (r := main_arg9) (by decide), k2 V (r := main_arg10) (by decide)]
  rfl

theorem s3_75 : after c2 (after c1 (after c0 V)) (main_v75 : DevRef τ sig) = addf (v64 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (agg64 (v64 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig))) (V (main_arg1 : DevRef τ sig))) := by
  rw [c2_v75, s2_44, s2_49, s2_48, k2 V (r := main_arg9) (by decide), k2 V (r := main_arg10) (by decide), s2_1, s2_3]
  rfl

theorem s4_100 : after c3 (after c2 (after c1 (after c0 V))) (main_v100 : DevRef τ sig) = v100 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [c3_v100, s3_75, k3 V (r := main_arg11) (by decide), k3 V (r := main_arg12) (by decide), k3 V (r := main_arg13) (by decide), k3 V (r := main_arg14) (by decide)]
  rfl

theorem s4_101 : after c3 (after c2 (after c1 (after c0 V))) (main_v101 : DevRef τ sig) = transpose S64x64 [1, 0] (V (main_arg15 : DevRef τ sig)) transposes_S64x64_S64x64_1_0 := by
  rw [c3_v101, k3 V (r := main_arg15) (by decide)]

theorem s4_64 : after c3 (after c2 (after c1 (after c0 V))) (main_v64 : DevRef τ sig) = v64 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [c3_keep _ (by decide : main_v64 ∉ w3), s3_64]

theorem s5_125 : after c4 (after c3 (after c2 (after c1 (after c0 V)))) (main_v125 : DevRef τ sig) = v125 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [c4_v125, s4_100, s4_101, k4 V (r := main_arg16) (by decide), k4 V (r := main_arg17) (by decide), k4 V (r := main_arg18) (by decide)]
  rfl

theorem s5_64 : after c4 (after c3 (after c2 (after c1 (after c0 V)))) (main_v64 : DevRef τ sig) = v64 (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [c4_keep _ (by decide : main_v64 ∉ w4), s4_64]

theorem s6_151 : after c5 (after c4 (after c3 (after c2 (after c1 (after c0 V))))) (main_v151 : DevRef τ sig) = v151 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) := by
  rw [c5_v151, s5_64, s5_125, k5 V (r := main_arg0) (by decide), k5 V (r := main_arg2) (by decide), k5 V (r := main_arg19) (by decide), k5 V (r := main_arg20) (by decide), k5 V (r := main_arg21) (by decide), k5 V (r := main_arg22) (by decide), k5 V (r := main_arg23) (by decide), k5 V (r := main_arg24) (by decide)]
  rfl

theorem s6_153 : after c5 (after c4 (after c3 (after c2 (after c1 (after c0 V))))) (main_v153 : DevRef τ sig) = Host.dotGeneral dot_S512x64_S64x64_S512x64_1_0_0_1_n_n none (v151 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig))) (transpose S64x64 [1, 0] (V (main_arg25 : DevRef τ sig)) transposes_S64x64_S64x64_1_0) := by
  rw [c5_v153, s5_64, s5_125, k5 V (r := main_arg0) (by decide), k5 V (r := main_arg2) (by decide), k5 V (r := main_arg19) (by decide), k5 V (r := main_arg20) (by decide), k5 V (r := main_arg21) (by decide), k5 V (r := main_arg22) (by decide), k5 V (r := main_arg23) (by decide), k5 V (r := main_arg24) (by decide), k5 V (r := main_arg25) (by decide)]
  rfl

theorem s6_154 : after c5 (after c4 (after c3 (after c2 (after c1 (after c0 V))))) (main_v154 : DevRef τ sig) = row (V (main_arg26 : DevRef τ sig)) := by
  rw [c5_v154, k5 V (r := main_arg26) (by decide)]

/-- The first result buffer after all the operations: the composed term of the launch contents. -/
theorem after_v157 : after ops V (main_v157 : DevRef τ sig) = res_v157 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) := by
  rw [after_ops, c6_v157, s6_153, s6_154]
  rfl

/-- The second result buffer after all the operations. -/
theorem after_v163 : after ops V (main_v163 : DevRef τ sig) = res_v163 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg27 : DevRef τ sig)) (V (main_arg28 : DevRef τ sig)) := by
  rw [after_ops, c6_v163, s6_151, k6 V (r := main_arg27) (by decide), k6 V (r := main_arg28) (by decide)]
  rfl

/-- An argument buffer after all the operations holds what it held. -/
theorem after_arg {r : Ref sig .tc} (h : r ∈ argRefs) : after ops V (Proc.devRef .tc r) = V (Proc.devRef .tc r) := by
  rw [after_ops]; exact k7 V h

end Stages

/-- On every device, for any float values, from any memory with zero counters: every weakly fair
    execution of @main terminates with each result buffer at the composed term of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = RefTerm.res_v157 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_v163) = RefTerm.res_v163 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c =>
    ⟨(h c main_v157).trans (after_v157 _),
      (h c main_v163).trans (after_v163 _),
      (h c main_arg0).trans (after_arg _ (by decide)),
      (h c main_arg1).trans (after_arg _ (by decide)),
      (h c main_arg2).trans (after_arg _ (by decide)),
      (h c main_arg3).trans (after_arg _ (by decide)),
      (h c main_arg4).trans (after_arg _ (by decide)),
      (h c main_arg5).trans (after_arg _ (by decide)),
      (h c main_arg6).trans (after_arg _ (by decide)),
      (h c main_arg7).trans (after_arg _ (by decide)),
      (h c main_arg8).trans (after_arg _ (by decide)),
      (h c main_arg9).trans (after_arg _ (by decide)),
      (h c main_arg10).trans (after_arg _ (by decide)),
      (h c main_arg11).trans (after_arg _ (by decide)),
      (h c main_arg12).trans (after_arg _ (by decide)),
      (h c main_arg13).trans (after_arg _ (by decide)),
      (h c main_arg14).trans (after_arg _ (by decide)),
      (h c main_arg15).trans (after_arg _ (by decide)),
      (h c main_arg16).trans (after_arg _ (by decide)),
      (h c main_arg17).trans (after_arg _ (by decide)),
      (h c main_arg18).trans (after_arg _ (by decide)),
      (h c main_arg19).trans (after_arg _ (by decide)),
      (h c main_arg20).trans (after_arg _ (by decide)),
      (h c main_arg21).trans (after_arg _ (by decide)),
      (h c main_arg22).trans (after_arg _ (by decide)),
      (h c main_arg23).trans (after_arg _ (by decide)),
      (h c main_arg24).trans (after_arg _ (by decide)),
      (h c main_arg25).trans (after_arg _ (by decide)),
      (h c main_arg26).trans (after_arg _ (by decide)),
      (h c main_arg27).trans (after_arg _ (by decide)),
      (h c main_arg28).trans (after_arg _ (by decide))⟩)
    (run_after m ρ)

end Cert.ReferenceIdeal.RefRun

end
-- ==== Proof.Lift.lean ====
/-
  How an array of extended reals is said to hold given real numbers: entry by entry, through the coercion. The
  statements about the two programs' buffers are phrased with these, so that one program's conclusion is the next one's
  hypothesis.
-/
import Idealize.ShloMosaic.PureOps.Ideal
import Idealize.ShloMosaic.Lib.ValueIdx
import Idealize.ShloMosaic.Lib.ValueIdxRank1

noncomputable section

namespace Cert.Lift

open Idealize.ShloMosaic Idealize.ShloMosaic.ValueIdx

/-- The rows `i < N` of a `[P, D]` array are the rows of `X` (the array may be taller than `N`; nothing is said of the
    rows from `N` on). -/
def Rows {P D N : ℕ} (A : (⟨2, ![P, D]⟩ : Shape).Idx → EReal) (X : Fin N → Fin D → ℝ) : Prop :=
  ∀ (i : Fin N) (h : i.val < P) (k : Fin D), A (ix2 ⟨i.val, h⟩ k) = ((X i k : ℝ) : EReal)

/-- A `[A, B]` array is the matrix `W`. -/
def Mat {A B : ℕ} (M : (⟨2, ![A, B]⟩ : Shape).Idx → EReal) (W : Fin A → Fin B → ℝ) : Prop :=
  ∀ (a : Fin A) (b : Fin B), M (ix2 a b) = ((W a b : ℝ) : EReal)

/-- A `[D]` array is the vector `b`. -/
def Vec1 {D : ℕ} (v : (⟨1, ![D]⟩ : Shape).Idx → EReal) (b : Fin D → ℝ) : Prop :=
  ∀ o : Fin D, v (ix1 o) = ((b o : ℝ) : EReal)

/-- A `[1, D]` array is the vector `b`. -/
def Row1 {D : ℕ} (v : (⟨2, ![1, D]⟩ : Shape).Idx → EReal) (b : Fin D → ℝ) : Prop :=
  ∀ o : Fin D, v (ix2 0 o) = ((b o : ℝ) : EReal)

/-- Every entry of an array is a real number. -/
def IsReal {s : Shape} (A : s.Idx → EReal) : Prop := ∀ j, ∃ r : ℝ, A j = (r : EReal)

theorem Mat.of_isReal {A B : ℕ} {M : (⟨2, ![A, B]⟩ : Shape).Idx → EReal} (h : IsReal M) :
    ∃ W : Fin A → Fin B → ℝ, Mat M W :=
  ⟨fun a b => (h (ix2 a b)).choose, fun a b => (h (ix2 a b)).choose_spec⟩

theorem Vec1.of_isReal {D : ℕ} {v : (⟨1, ![D]⟩ : Shape).Idx → EReal} (h : IsReal v) :
    ∃ b : Fin D → ℝ, Vec1 v b :=
  ⟨fun o => (h (ix1 o)).choose, fun o => (h (ix1 o)).choose_spec⟩

theorem Mat.rows {A B : ℕ} {M : (⟨2, ![A, B]⟩ : Shape).Idx → EReal} {W : Fin A → Fin B → ℝ} (h : Mat M W) :
    Rows M W := fun i _ k => h ⟨i.val, i.isLt⟩ k

/-- Two arrays that hold the same matrix are equal. -/
theorem Mat.ext {A B : ℕ} {M M' : (⟨2, ![A, B]⟩ : Shape).Idx → EReal} {W : Fin A → Fin B → ℝ} (h : Mat M W) (h' : Mat M' W) :
    M = M' := by
  funext j
  rw [eq_ix2 j]
  exact (h _ _).trans (h' _ _).symm

/-- An array holds at most one matrix. -/
theorem Mat.unique {A B : ℕ} {M : (⟨2, ![A, B]⟩ : Shape).Idx → EReal} {W W' : Fin A → Fin B → ℝ} (h : Mat M W) (h' : Mat M W') :
    W = W' := by
  funext a b
  exact EReal.coe_injective ((h a b).symm.trans (h' a b))

/-! ## The graph, read off the integer inputs -/

/-- Edge `e`'s source node: the word `edge_index[0, e]` read signed, clipped into the node range (inside the range it is
    the word itself). -/
def srcOf {N E : ℕ} (hN : 0 < N) (ei : (⟨2, ![2, E]⟩ : Shape).Idx → BitVec 32) (e : Fin E) : Fin N :=
  ⟨min (ei (ix2 0 e)).toInt.toNat (N - 1), by omega⟩

/-- Edge `e`'s destination: the word `edge_index[1, e]` read signed (any integer: an edge whose destination is no
    node's number carries nothing). -/
def dstOf {E : ℕ} (ei : (⟨2, ![2, E]⟩ : Shape).Idx → BitVec 32) (e : Fin E) : ℤ := (ei (ix2 1 e)).toInt

/-- Node `i`'s graph number: the word `batch[i]` read signed. -/
def batOf {N : ℕ} (b : (⟨1, ![N]⟩ : Shape).Idx → BitVec 32) (i : Fin N) : ℤ := (b (ix1 i)).toInt

/-- The precondition's range fact on the sources: every `edge_index[0, e]`, read signed, is a node's number. -/
def SrcInRange (N : ℕ) {E : ℕ} (ei : (⟨2, ![2, E]⟩ : Shape).Idx → BitVec 32) : Prop :=
  ∀ e : Fin E, 0 ≤ (ei (ix2 0 e)).toInt ∧ (ei (ix2 0 e)).toInt < (N : ℤ)

end Cert.Lift

end
-- ==== Proof.Spec.lean ====
/-
  The network both programs compute, over the real numbers.

  A graph of `N` nodes and `E` edges; edge `e` carries the feature row of node `src e` to the node whose number is the
  integer `dst e` (an edge whose `dst` is no node's number carries nothing). One message-passing layer sends the node
  features `X` to `lin₂ (relu (bn (lin₁ (X + agg X))))`, `bn` the normalisation of every column by that column's mean and
  (population) variance over all the nodes; the network is two such layers, each followed by another `bn` and `relu`, the
  three node-feature arrays `X`, `H₁`, `H₂` summed per graph (`pool`: node `i` belongs to the graph whose number is the
  integer `bat i`), three linear maps of the pooled sums added, and two heads `relu (lin ·)` of that sum.

  Also here: the variance as "mean of squares minus squared mean" and the normalisation as one multiply-add per entry
  (`scale`, `shift`), with the two identities that say these are the same numbers.
-/
import Mathlib.Analysis.SpecialFunctions.Pow.Real
import Mathlib.Algebra.BigOperators.Field
import Mathlib.Algebra.BigOperators.Ring.Finset
import Mathlib.Tactic.Ring
import Mathlib.Tactic.FieldSimp

noncomputable section

open scoped BigOperators

namespace Cert.Spec

variable {N E : ℕ}

/-- Node `i`'s neighbour sum: the rows `X (src e)` over the edges `e` that point at `i`. -/
def agg {D : ℕ} (src : Fin E → Fin N) (dst : Fin E → ℤ) (X : Fin N → Fin D → ℝ) (i : Fin N) (k : Fin D) : ℝ :=
  ∑ e ∈ Finset.univ.filter (fun e : Fin E => dst e = (i.val : ℤ)), X (src e) k

/-- A linear layer `X · Wᵀ + b`. -/
def lin {A B : ℕ} (X : Fin N → Fin A → ℝ) (W : Fin B → Fin A → ℝ) (b : Fin B → ℝ) (i : Fin N) (o : Fin B) : ℝ :=
  ∑ k, X i k * W o k + b o

/-- Column mean over the nodes. -/
def mean {D : ℕ} (Y : Fin N → Fin D → ℝ) (o : Fin D) : ℝ := (∑ i, Y i o) / (N : ℝ)

/-- Column variance over the nodes (population): the mean of the squared deviations. -/
def var {D : ℕ} (Y : Fin N → Fin D → ℝ) (o : Fin D) : ℝ :=
  (∑ i, (Y i o - mean Y o) * (Y i o - mean Y o)) / (N : ℝ)

/-- The same variance as the mean of the squares minus the squared mean. -/
def var' {D : ℕ} (Y : Fin N → Fin D → ℝ) (o : Fin D) : ℝ :=
  (∑ i, Y i o * Y i o) / (N : ℝ) - mean Y o * mean Y o

/-- Batch normalisation with the batch's own statistics. -/
def bn {D : ℕ} (ε : ℝ) (Y : Fin N → Fin D → ℝ) (g b : Fin D → ℝ) (i : Fin N) (o : Fin D) : ℝ :=
  (Y i o - mean Y o) * (Real.sqrt (var Y o + ε))⁻¹ * g o + b o

/-- The normalisation's slope per column … -/
def scale {D : ℕ} (ε : ℝ) (Y : Fin N → Fin D → ℝ) (g : Fin D → ℝ) (o : Fin D) : ℝ :=
  g o * (Real.sqrt (var' Y o + ε))⁻¹

/-- … and its intercept: `bn Y g b i o = Y i o * scale + shift`. -/
def shift {D : ℕ} (ε : ℝ) (Y : Fin N → Fin D → ℝ) (g b : Fin D → ℝ) (o : Fin D) : ℝ :=
  b o - mean Y o * scale ε Y g o

def relu {D : ℕ} (Y : Fin N → Fin D → ℝ) (i : Fin N) (o : Fin D) : ℝ := max (Y i o) 0

/-- The first linear map of a message-passing layer, on `X + agg X`. -/
def pre₁ {A D : ℕ} (src : Fin E → Fin N) (dst : Fin E → ℤ) (X : Fin N → Fin A → ℝ) (w1 : Fin D → Fin A → ℝ) (b1 : Fin D → ℝ) :
    Fin N → Fin D → ℝ :=
  lin (fun i k => X i k + agg src dst X i k) w1 b1

/-- One message-passing layer. -/
def gin {A D : ℕ} (ε : ℝ) (src : Fin E → Fin N) (dst : Fin E → ℤ) (X : Fin N → Fin A → ℝ)
    (w1 : Fin D → Fin A → ℝ) (b1 g1 be1 : Fin D → ℝ) (w2 : Fin D → Fin D → ℝ) (b2 : Fin D → ℝ) : Fin N → Fin D → ℝ :=
  lin (relu (bn ε (pre₁ src dst X w1 b1) g1 be1)) w2 b2

/-- A layer, normalised again and rectified: what the next layer and the pooling read. -/
def layer {A D : ℕ} (ε : ℝ) (src : Fin E → Fin N) (dst : Fin E → ℤ) (X : Fin N → Fin A → ℝ)
    (w1 : Fin D → Fin A → ℝ) (b1 g1 be1 : Fin D → ℝ) (w2 : Fin D → Fin D → ℝ) (b2 go bo : Fin D → ℝ) : Fin N → Fin D → ℝ :=
  relu (bn ε (gin ε src dst X w1 b1 g1 be1 w2 b2) go bo)

/-- Per-graph sums of node rows. -/
def pool {D G : ℕ} (bat : Fin N → ℤ) (H : Fin N → Fin D → ℝ) (g : Fin G) (k : Fin D) : ℝ :=
  ∑ i ∈ Finset.univ.filter (fun i : Fin N => bat i = (g.val : ℤ)), H i k

/-- A linear layer on per-graph rows. -/
def linG {G A B : ℕ} (X : Fin G → Fin A → ℝ) (W : Fin B → Fin A → ℝ) (b : Fin B → ℝ) (g : Fin G) (o : Fin B) : ℝ :=
  ∑ k, X g k * W o k + b o

/-- The sum of the three pooled linear maps, which both heads read. -/
def trunk {A D G : ℕ} (bat : Fin N → ℤ) (X : Fin N → Fin A → ℝ) (H1 H2 : Fin N → Fin D → ℝ)
    (f0w : Fin D → Fin A → ℝ) (f0b : Fin D → ℝ) (f1w : Fin D → Fin D → ℝ) (f1b : Fin D → ℝ) (f2w : Fin D → Fin D → ℝ) (f2b : Fin D → ℝ)
    (g : Fin G) (o : Fin D) : ℝ :=
  linG (pool bat X) f0w f0b g o + linG (pool bat H1) f1w f1b g o + linG (pool bat H2) f2w f2b g o

/-- A head. -/
def head {D G : ℕ} (T : Fin G → Fin D → ℝ) (w : Fin D → Fin D → ℝ) (b : Fin D → ℝ) (g : Fin G) (o : Fin D) : ℝ :=
  max (linG T w b g o) 0

/-! ## The two identities -/

/-- The mean of the squared deviations is the mean of the squares minus the squared mean. -/
theorem var'_eq_var {D : ℕ} (hN : 0 < N) (Y : Fin N → Fin D → ℝ) (o : Fin D) : var' Y o = var Y o := by
  have hN' : (N : ℝ) ≠ 0 := by exact_mod_cast hN.ne'
  unfold var' var
  generalize hm : mean Y o = m
  have hS : ∑ i, Y i o = (N : ℝ) * m := by
    rw [← hm, mean]; field_simp
  have h : ∑ i, (Y i o - m) * (Y i o - m) = ∑ i, Y i o * Y i o - (N : ℝ) * m * m := by
    have e : ∀ i, (Y i o - m) * (Y i o - m) = Y i o * Y i o - 2 * m * Y i o + m * m := fun i => by ring
    simp only [e]
    rw [Finset.sum_add_distrib, Finset.sum_sub_distrib, ← Finset.mul_sum, hS, Finset.sum_const, Finset.card_univ,
      Fintype.card_fin, nsmul_eq_mul]
    ring
  rw [h]
  field_simp

/-- The variance is not negative. -/
theorem var_nonneg {D : ℕ} (Y : Fin N → Fin D → ℝ) (o : Fin D) : 0 ≤ var Y o := by
  exact div_nonneg (Finset.sum_nonneg fun i _ => mul_self_nonneg _) (Nat.cast_nonneg N)

/-- Normalising is one multiply-add per entry. -/
theorem mul_scale_add_shift {D : ℕ} (hN : 0 < N) (ε : ℝ) (Y : Fin N → Fin D → ℝ) (g b : Fin D → ℝ) (i : Fin N) (o : Fin D) :
    Y i o * scale ε Y g o + shift ε Y g b o = bn ε Y g b i o := by
  unfold shift scale bn
  rw [var'_eq_var hN]
  ring

end Cert.Spec

end
-- ==== Proof.LibSums.lean ====
/-
  General facts about finite sums and about the extended reals, none of them about one particular program:
  the coercion of a finite real sum, the regrouping of a sum over `Fin (T * B)` into blocks, sums cut down by a
  mask or by a one-hot factor, a filtered sum carried along a permutation, and the values at real arguments of the
  reciprocal square root, of division, of `max` and of a few float constants.
-/
import Idealize.ShloMosaic.PureOps.Ideal
import Mathlib.Data.EReal.Basic
import Mathlib.Data.EReal.Operations
import Mathlib.Algebra.BigOperators.Fin
import Mathlib.Algebra.BigOperators.Group.Finset.Basic
import Mathlib.Logic.Equiv.Fin.Basic
import Mathlib.Tactic.NormNum

noncomputable section

open scoped BigOperators

namespace Cert.LibSums

open Idealize.ShloMosaic

section General

/-- The coercion of the reals into the extended reals carries a finite sum to the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `T` blocks of `B` consecutive indices each is the sum over all `T * B` indices. -/
theorem sum_blocks (T B : ℕ) {M : Type*} [AddCommMonoid M] (G : ℕ → M) :
    ∑ t : Fin T, ∑ y : Fin B, G (B * t.val + y.val) = ∑ r : Fin (T * B), G r.val := by
  rw [← Fintype.sum_prod_type' (fun (t : Fin T) (y : Fin B) => G (B * t.val + y.val))]
  refine Fintype.sum_equiv finProdFinEquiv _ _ ?_
  rintro ⟨t, y⟩
  simp [finProdFinEquiv, add_comm]

/-- A sum over `P` indices whose terms vanish from index `N` on is the sum over the first `N` indices. -/
theorem sum_masked {M : Type*} [AddCommMonoid M] (N P : ℕ) (h : N ≤ P) (F : ℕ → M) :
    ∑ r : Fin P, (if r.val < N then F r.val else 0) = ∑ i : Fin N, F i.val := by
  obtain ⟨K, rfl⟩ := Nat.exists_eq_add_of_le h
  rw [Fin.sum_univ_add]
  have h1 : ∀ i : Fin N, (if (Fin.castAdd K i).val < N then F (Fin.castAdd K i).val else 0) = F i.val := by
    intro i; simp [i.isLt]
  have h2 : ∀ j : Fin K, (if (Fin.natAdd N j).val < N then F (Fin.natAdd N j).val else 0) = 0 := by
    intro j; simp
  simp only [h1, h2, Finset.sum_const_zero, add_zero]

/-- The same with the mask as a factor `1` or `0`: in the extended reals `x * 1 = x` and `x * 0 = 0` for every `x`,
    the infinite ones included. -/
theorem sum_mul_mask (N P : ℕ) (h : N ≤ P) (F : ℕ → EReal) :
    ∑ r : Fin P, F r.val * (if r.val < N then (1 : EReal) else 0) = ∑ i : Fin N, F i.val := by
  rw [← sum_masked N P h F]
  refine Finset.sum_congr rfl fun r _ => ?_
  split_ifs <;> simp

/-- A sum weighted by the one-hot factor "`b r = g`" is the sum over the indices `r` with `b r = g`. -/
theorem sum_onehot {β : Type*} [DecidableEq β] {P : ℕ} (b : Fin P → β) (g : β) (F : Fin P → EReal) :
    ∑ r : Fin P, (if b r = g then (1 : EReal) else 0) * F r = ∑ r ∈ Finset.univ.filter (fun r => b r = g), F r := by
  rw [Finset.sum_filter]
  refine Finset.sum_congr rfl fun r _ => ?_
  split_ifs <;> simp

/-- A filtered sum read along a permutation of the index set is the filtered sum itself. -/
theorem sum_filter_perm {ι : Type*} [Fintype ι] (σ : Equiv.Perm ι) (p : ι → Prop) [DecidablePred p]
    {M : Type*} [AddCommMonoid M] (f : ι → M) :
    ∑ e ∈ Finset.univ.filter (fun e => p (σ e)), f (σ e) = ∑ e ∈ Finset.univ.filter p, f e := by
  refine Finset.sum_bij (fun e _ => σ e) ?_ ?_ ?_ ?_
  · intro e he; simpa using he
  · intro a _ b _ hab; exact σ.injective hab
  · intro e he
    refine ⟨σ.symm e, ?_, by simp⟩
    simpa using he
  · intro e _; rfl

/-- The reciprocal square root of a positive real is the real `(√r)⁻¹`. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- The quotient of a real by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

/-- The larger of two reals, taken in the extended reals, is the real `max`. -/
theorem max_coe (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

/-- The float word `0x47C35000` denotes the real `100000`. -/
theorem ofBits_1e5 : Ideal.ofBits .f32 0x47C35000#32 = ((100000 : ℝ) : EReal) := by
  simp [Ideal.ofBits, Ideal.ieee, -EReal.coe_mul]; norm_num

/-- The real the float word `0x3727C5AC` denotes (the float nearest `1e-5`). -/
def eps : ℝ := 10995116 / 2 ^ 40

/-- The float word `0x3727C5AC` denotes `eps`. -/
theorem ofBits_eps : Ideal.ofBits .f32 0x3727C5AC#32 = ((eps : ℝ) : EReal) := by
  simp [Ideal.ofBits, Ideal.ieee, -EReal.coe_mul, eps]; norm_num

/-- `eps` is positive. -/
theorem eps_pos : 0 < eps := by
  unfold eps; positivity

/-- The float word `0x3F800000` denotes the real `1`. -/
theorem ofBits_one : Ideal.ofBits .f32 0x3F800000#32 = ((1 : ℝ) : EReal) := by
  simp [Ideal.ofBits, Ideal.ieee, -EReal.coe_mul]; norm_num

end General

end Cert.LibSums

end
-- ==== Proof.Inputs.lean ====
/-
  The 27 real-valued inputs of the network as one record, what it means for the 29 argument arrays of a program to hold
  them, and the network's intermediate and final values as functions of the record and of the two integer inputs.
-/
import proofs.«403050_j67860483276910_3_alg».proof.Proof.Spec
import proofs.«403050_j67860483276910_3_alg».proof.Proof.Lift
import proofs.«403050_j67860483276910_3_alg».proof.Proof.LibSums

noncomputable section

namespace Cert

open Idealize.ShloMosaic Idealize.ShloMosaic.ValueIdx Cert.Lift

/-- The real inputs: node features, the two layers' weights and normalisation parameters, the three pooled linear maps,
    the two heads. -/
structure Inputs where
  x : Fin 100000 → Fin 4 → ℝ
  c1w1 : Fin 64 → Fin 4 → ℝ
  c1b1 : Fin 64 → ℝ
  c1g1 : Fin 64 → ℝ
  c1be1 : Fin 64 → ℝ
  c1w2 : Fin 64 → Fin 64 → ℝ
  c1b2 : Fin 64 → ℝ
  bn1g : Fin 64 → ℝ
  bn1b : Fin 64 → ℝ
  c2w1 : Fin 64 → Fin 64 → ℝ
  c2b1 : Fin 64 → ℝ
  c2g1 : Fin 64 → ℝ
  c2be1 : Fin 64 → ℝ
  c2w2 : Fin 64 → Fin 64 → ℝ
  c2b2 : Fin 64 → ℝ
  bn2g : Fin 64 → ℝ
  bn2b : Fin 64 → ℝ
  fc0w : Fin 64 → Fin 4 → ℝ
  fc0b : Fin 64 → ℝ
  fc1w : Fin 64 → Fin 64 → ℝ
  fc1b : Fin 64 → ℝ
  fc2w : Fin 64 → Fin 64 → ℝ
  fc2b : Fin 64 → ℝ
  piw : Fin 64 → Fin 64 → ℝ
  pib : Fin 64 → ℝ
  vfw : Fin 64 → Fin 64 → ℝ
  vfb : Fin 64 → ℝ

namespace Inputs

abbrev A2 (a b : ℕ) : Type := (⟨2, ![a, b]⟩ : Shape).Idx → EReal
abbrev A1 (a : ℕ) : Type := (⟨1, ![a]⟩ : Shape).Idx → EReal

/-- The 27 float argument arrays hold the record's numbers (the arguments in the programs' order, the two integer
    arguments left out). -/
structure Holds (I : Inputs) (a0 : A2 100000 4) (a3 : A2 64 4) (a4 a5 a6 : A1 64) (a7 : A2 64 64) (a8 a9 a10 : A1 64)
    (a11 : A2 64 64) (a12 a13 a14 : A1 64) (a15 : A2 64 64) (a16 a17 a18 : A1 64) (a19 : A2 64 4) (a20 : A1 64)
    (a21 : A2 64 64) (a22 : A1 64) (a23 : A2 64 64) (a24 : A1 64) (a25 : A2 64 64) (a26 : A1 64) (a27 : A2 64 64)
    (a28 : A1 64) : Prop where
  h0 : Mat a0 I.x
  h3 : Mat a3 I.c1w1
  h4 : Vec1 a4 I.c1b1
  h5 : Vec1 a5 I.c1g1
  h6 : Vec1 a6 I.c1be1
  h7 : Mat a7 I.c1w2
  h8 : Vec1 a8 I.c1b2
  h9 : Vec1 a9 I.bn1g
  h10 : Vec1 a10 I.bn1b
  h11 : Mat a11 I.c2w1
  h12 : Vec1 a12 I.c2b1
  h13 : Vec1 a13 I.c2g1
  h14 : Vec1 a14 I.c2be1
  h15 : Mat a15 I.c2w2
  h16 : Vec1 a16 I.c2b2
  h17 : Vec1 a17 I.bn2g
  h18 : Vec1 a18 I.bn2b
  h19 : Mat a19 I.fc0w
  h20 : Vec1 a20 I.fc0b
  h21 : Mat a21 I.fc1w
  h22 : Vec1 a22 I.fc1b
  h23 : Mat a23 I.fc2w
  h24 : Vec1 a24 I.fc2b
  h25 : Mat a25 I.piw
  h26 : Vec1 a26 I.pib
  h27 : Mat a27 I.vfw
  h28 : Vec1 a28 I.vfb

variable (I : Inputs) (ei : (⟨2, ![2, 3200000]⟩ : Shape).Idx → BitVec 32) (bt : (⟨1, ![100000]⟩ : Shape).Idx → BitVec 32)

/-- The edges' source nodes and destination numbers, and the nodes' graph numbers. -/
abbrev src : Fin 3200000 → Fin 100000 := srcOf (by decide) ei
abbrev dst : Fin 3200000 → ℤ := dstOf ei
abbrev bat : Fin 100000 → ℤ := batOf bt

/-- The first layer's message-passing output before its outer normalisation. -/
def Z1 : Fin 100000 → Fin 64 → ℝ :=
  Spec.gin LibSums.eps (src ei) (dst ei) I.x I.c1w1 I.c1b1 I.c1g1 I.c1be1 I.c1w2 I.c1b2
/-- The node features after the first layer. -/
def H1 : Fin 100000 → Fin 64 → ℝ :=
  Spec.layer LibSums.eps (src ei) (dst ei) I.x I.c1w1 I.c1b1 I.c1g1 I.c1be1 I.c1w2 I.c1b2 I.bn1g I.bn1b
/-- The second layer's message-passing output before its outer normalisation. -/
def Z2 : Fin 100000 → Fin 64 → ℝ :=
  Spec.gin LibSums.eps (src ei) (dst ei) (I.H1 ei) I.c2w1 I.c2b1 I.c2g1 I.c2be1 I.c2w2 I.c2b2
/-- The node features after the second layer. -/
def H2 : Fin 100000 → Fin 64 → ℝ :=
  Spec.layer LibSums.eps (src ei) (dst ei) (I.H1 ei) I.c2w1 I.c2b1 I.c2g1 I.c2be1 I.c2w2 I.c2b2 I.bn2g I.bn2b
/-- The sum of the three pooled linear maps. -/
def T : Fin 512 → Fin 64 → ℝ :=
  Spec.trunk (G := 512) (bat bt) I.x (I.H1 ei) (I.H2 ei) I.fc0w I.fc0b I.fc1w I.fc1b I.fc2w I.fc2b
/-- The two results. -/
def pi : Fin 512 → Fin 64 → ℝ := Spec.head (I.T ei bt) I.piw I.pib
def vf : Fin 512 → Fin 64 → ℝ := Spec.head (I.T ei bt) I.vfw I.vfb

theorem H1_eq : I.H1 ei = Spec.relu (Spec.bn LibSums.eps (I.Z1 ei) I.bn1g I.bn1b) := rfl
theorem H2_eq : I.H2 ei = Spec.relu (Spec.bn LibSums.eps (I.Z2 ei) I.bn2g I.bn2b) := rfl

end Inputs

end Cert

end
-- ==== Proof.PreFacts.lean ====
/-
  What the precondition says of the argument arrays. The precondition is a conjunction, over the float arguments, of
  "every entry's absolute value is below +∞", and, for the edge sources, of "every word of row 0, read signed, is at
  least 0 and below 100000". Read back entry by entry: each float argument holds real numbers, and every source is a
  node's number.
-/
import proofs.«403050_j67860483276910_3_alg».proof.Defs
import proofs.«403050_j67860483276910_3_alg».proof.Proof.Gen.Pre_finite_inputs
import proofs.«403050_j67860483276910_3_alg».proof.Proof.Lift
import Idealize.ShloMosaic.Lib.ReduceAll
import Idealize.ShloMosaic.Lib.ValueLayout
import Idealize.ShloMosaic.Lib.IdealHost

noncomputable section

namespace Cert.PreFacts

open Idealize.ShloMosaic Idealize.ShloMosaic.ValueIdx Cert.Lift

section General

/-- The scalar shape has one index. -/
instance subsingleton_scalarIdx : Subsingleton (⟨0, ![]⟩ : Shape).Idx := ⟨fun a b => funext fun d => d.elim0⟩

/-- A bit made from a Boolean is 1 exactly when the Boolean is true. -/
theorem ofBool_eq_one {b : Bool} : BitVec.ofBool b = 1#1 ↔ b = true := by cases b <;> decide

/-- An extended real whose absolute value (the larger of it and its negation) is below +∞ is a real number: at −∞ the
    negation is +∞, at +∞ it is itself. -/
theorem exists_real_of_abs_lt_top (x : EReal) (h : max x (-x) < ⊤) : ∃ r : ℝ, x = (r : EReal) := by
  induction x using EReal.rec with
  | bot => simp at h
  | coe r => exact ⟨r, rfl⟩
  | top => simp at h

/-- The all-reduction by `and` of "|x| < +∞" being 1 says every entry of `x` is real: each entry's comparison word is 1,
    the comparison is the order's, the constant's pattern is +∞'s. -/
theorem isReal_of_all_abs_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi (cmpf .olt (Host.absf x) (broadcastInDim s ![] hb (constant ⟨0, ![]⟩ .f32 0x7F800000#32)))
      init hr hu j = 1#1) : IsReal x := by
  intro i
  have h1 := Host.reduce_andi_all _ init hr hu j e i
  have h2 : Ideal.cmp .olt (max (x i) (-(x i))) (Ideal.ofBits .f32 0x7F800000#32) = 1#1 := h1
  have h3 : max (x i) (-(x i)) < Ideal.ofBits .f32 0x7F800000#32 := of_decide_eq_true (ofBool_eq_one.1 h2)
  have htop : Ideal.ofBits .f32 0x7F800000#32 = ⊤ := by simp [Ideal.ofBits, Ideal.ieee]
  rw [htop] at h3
  exact exists_real_of_abs_lt_top _ h3

/-- The all-reduction by `and` of "0 ≤ w ∧ w < n" over row 0 of a two-row table of words being 1 says every word of
    row 0, read signed, lies in [0, n): each entry's conjunction word is 1, signed comparisons read their operands
    signed, and the reshaped one-row slice at `e` is the table at (0, e). -/
theorem srcInRange_of_all {E : ℕ} (n : ℕ) (hn : n < 2 ^ 31) (ei : IVec ⟨2, ![2, E]⟩ 32)
    (hs : (⟨2, ![2, E]⟩ : Shape).Slices ![0, 0] ⟨2, ![1, E]⟩) (hc : (⟨2, ![1, E]⟩ : Shape).ShapeCasts ⟨1, ![E]⟩)
    (hb : (⟨0, ![]⟩ : Shape).BroadcastsInDim ⟨1, ![E]⟩ (![] : Fin 0 → Fin 1))
    (hr : (⟨1, ![E]⟩ : Shape).ReducesTo [0] ⟨0, ![]⟩) (hu : 0 < (⟨0, ![]⟩ : Shape).numel)
    (init : IVec ⟨0, ![]⟩ 1) (j : (⟨0, ![]⟩ : Shape).Idx)
    (e : Host.reduce IntOp.andi
      (andi
        (cmpi .sge (shapeCast ⟨1, ![E]⟩ (extractStridedSlice ⟨2, ![1, E]⟩ ![0, 0] ei hs) hc)
          (broadcastInDim ⟨1, ![E]⟩ ![] hb (constantI ⟨0, ![]⟩ 32 0#32)))
        (cmpi .slt (shapeCast ⟨1, ![E]⟩ (extractStridedSlice ⟨2, ![1, E]⟩ ![0, 0] ei hs) hc)
          (broadcastInDim ⟨1, ![E]⟩ ![] hb (constantI ⟨0, ![]⟩ 32 (BitVec.ofNat 32 n)))))
      init hr hu j = 1#1) : SrcInRange n ei := by
  intro k
  have h1 := Host.reduce_andi_all _ init hr hu j e (ix1 k)
  have hrd : shapeCast ⟨1, ![E]⟩ (extractStridedSlice ⟨2, ![1, E]⟩ ![0, 0] ei hs) hc (ix1 k) = ei (ix2 0 k) := by
    rw [shapeCast_1a_a_apply, slice2_axis0_apply 0 ei hs (0 : Fin 1) k (0 : Fin 2) rfl]
  have h2 : IntOp.andi (IntOp.cmpi .sge (ei (ix2 0 k)) 0#32) (IntOp.cmpi .slt (ei (ix2 0 k)) (BitVec.ofNat 32 n)) = 1#1 := by
    rw [← hrd]; exact h1
  obtain ⟨hge, hlt⟩ := IntOp.andi_eq_one.1 h2
  rw [IntOp.cmpi_sge] at hge
  rw [IntOp.cmpi_slt] at hlt
  have hnI : (BitVec.ofNat 32 n).toInt = (n : ℤ) := by
    rw [BitVec.toInt_ofNat']; exact Int.bmod_eq_of_le (by omega) (by omega)
  rw [hnI] at hlt
  exact ⟨by simpa using hge, hlt⟩

end General

open Cert.Pre_finite_inputs in
/-- The precondition's function, all ones: every float argument is real and the sources are in range. The function is the
    `and` of one all-reduction per argument; a conjunction word is 1 exactly when both conjuncts are. -/
theorem fn_decode (a0 : FVec Ideal S100000x4 .f32) (a1 : IVec S2x3200000 32) (a2 : IVec S100000 32) (a3 : FVec Ideal S64x4 .f32) (a4 : FVec Ideal S64 .f32) (a5 : FVec Ideal S64 .f32) (a6 : FVec Ideal S64 .f32) (a7 : FVec Ideal S64x64 .f32) (a8 : FVec Ideal S64 .f32) (a9 : FVec Ideal S64 .f32) (a10 : FVec Ideal S64 .f32) (a11 : FVec Ideal S64x64 .f32) (a12 : FVec Ideal S64 .f32) (a13 : FVec Ideal S64 .f32) (a14 : FVec Ideal S64 .f32) (a15 : FVec Ideal S64x64 .f32) (a16 : FVec Ideal S64 .f32) (a17 : FVec Ideal S64 .f32) (a18 : FVec Ideal S64 .f32) (a19 : FVec Ideal S64x4 .f32) (a20 : FVec Ideal S64 .f32) (a21 : FVec Ideal S64x64 .f32) (a22 : FVec Ideal S64 .f32) (a23 : FVec Ideal S64x64 .f32) (a24 : FVec Ideal S64 .f32) (a25 : FVec Ideal S64x64 .f32) (a26 : FVec Ideal S64 .f32) (a27 : FVec Ideal S64x64 .f32) (a28 : FVec Ideal S64 .f32)
    (h : fn (F := Ideal) a0 a1 a2 a3 a4 a5 a6 a7 a8 a9 a10 a11 a12 a13 a14 a15 a16 a17 a18 a19 a20 a21 a22 a23 a24 a25 a26 a27 a28 = fun _ => 1#1) :
    IsReal a0 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16 ∧ IsReal a17 ∧ IsReal a18 ∧ IsReal a19 ∧ IsReal a20 ∧ IsReal a21 ∧ IsReal a22 ∧ IsReal a23 ∧ IsReal a24 ∧ IsReal a25 ∧ IsReal a26 ∧ IsReal a27 ∧ IsReal a28 ∧ SrcInRange 100000 a1 := by
  have h0 := congrFun h ix0
  dsimp only [fn, fn_part1, fn_part2, fn_part3, fn_part4, fn_part5, fn_part6, fn_part7, fn_part8, andi] at h0
  simp only [IntOp.andi_eq_one, and_assoc] at h0
  obtain ⟨h0, h3, h4, h5, h6, h7, h8, h9, h10, h11, h12, h13, h14, h15, h16, h17, h18, h19, h20, h21, h22, h23, h24, h25, h26, h27, h28, hI⟩ := h0
  exact ⟨isReal_of_all_abs_lt_inf a0 _ _ _ _ _ h0,
    isReal_of_all_abs_lt_inf a3 _ _ _ _ _ h3,
    isReal_of_all_abs_lt_inf a4 _ _ _ _ _ h4,
    isReal_of_all_abs_lt_inf a5 _ _ _ _ _ h5,
    isReal_of_all_abs_lt_inf a6 _ _ _ _ _ h6,
    isReal_of_all_abs_lt_inf a7 _ _ _ _ _ h7,
    isReal_of_all_abs_lt_inf a8 _ _ _ _ _ h8,
    isReal_of_all_abs_lt_inf a9 _ _ _ _ _ h9,
    isReal_of_all_abs_lt_inf a10 _ _ _ _ _ h10,
    isReal_of_all_abs_lt_inf a11 _ _ _ _ _ h11,
    isReal_of_all_abs_lt_inf a12 _ _ _ _ _ h12,
    isReal_of_all_abs_lt_inf a13 _ _ _ _ _ h13,
    isReal_of_all_abs_lt_inf a14 _ _ _ _ _ h14,
    isReal_of_all_abs_lt_inf a15 _ _ _ _ _ h15,
    isReal_of_all_abs_lt_inf a16 _ _ _ _ _ h16,
    isReal_of_all_abs_lt_inf a17 _ _ _ _ _ h17,
    isReal_of_all_abs_lt_inf a18 _ _ _ _ _ h18,
    isReal_of_all_abs_lt_inf a19 _ _ _ _ _ h19,
    isReal_of_all_abs_lt_inf a20 _ _ _ _ _ h20,
    isReal_of_all_abs_lt_inf a21 _ _ _ _ _ h21,
    isReal_of_all_abs_lt_inf a22 _ _ _ _ _ h22,
    isReal_of_all_abs_lt_inf a23 _ _ _ _ _ h23,
    isReal_of_all_abs_lt_inf a24 _ _ _ _ _ h24,
    isReal_of_all_abs_lt_inf a25 _ _ _ _ _ h25,
    isReal_of_all_abs_lt_inf a26 _ _ _ _ _ h26,
    isReal_of_all_abs_lt_inf a27 _ _ _ _ _ h27,
    isReal_of_all_abs_lt_inf a28 _ _ _ _ _ h28,
    srcInRange_of_all 100000 (by norm_num) a1 _ _ _ _ _ _ _ hI⟩

/-! ## The kernel's argument arrays -/

section Kernel

open Idealize.SL.Sem

variable (m : (ℓ : Loc Cert.KernelIdeal.nD Cert.KernelIdeal.τ Cert.KernelIdeal.sig) → Buf (Elt Ideal) ℓ)

/-- The precondition, read back at device `c`'s argument arrays, all facts at once. -/
theorem decode (h : Cert.Pre_KernelIdeal m) (c : Dev Cert.KernelIdeal.nD) :
    IsReal (s := Cert.Pre_finite_inputs.S100000x4) (m ((c.tc : Thread Cert.KernelIdeal.nD Cert.KernelIdeal.τ).loc Cert.KernelIdeal.main_arg0)) ∧
    IsReal (s := Cert.Pre_finite_inputs.S64x4) (m ((c.tc : Thread Cert.KernelIdeal.nD Cert.KernelIdeal.τ).loc Cert.KernelIdeal.main_arg3)) ∧
    IsReal (s := Cert.Pre_finite_inputs.S64) (m ((c.tc : Thread Cert.KernelIdeal.nD Cert.KernelIdeal.τ).loc Cert.KernelIdeal.main_arg4)) ∧
    IsReal (s := Cert.Pre_finite_inputs.S64) (m ((c.tc : Thread Cert.KernelIdeal.nD Cert.KernelIdeal.τ).loc Cert.KernelIdeal.main_arg5)) ∧
    IsReal (s := Cert.Pre_finite_inputs.S64) (m ((c.tc : Thread Cert.KernelIdeal.nD Cert.KernelIdeal.τ).loc Cert.KernelIdeal.main_arg6)) ∧
    IsReal (s := Cert.Pre_finite_inputs.S64x64) (m ((c.tc : Thread Cert.KernelIdeal.nD Cert.KernelIdeal.τ).loc Cert.KernelIdeal.main_arg7)) ∧
    IsReal (s := Cert.Pre_finite_inputs.S64) (m ((c.tc : Thread Cert.KernelIdeal.nD Cert.KernelIdeal.τ).loc Cert.KernelIdeal.main_arg8)) ∧
    IsReal (s := Cert.Pre_finite_inputs.S64) (m ((c.tc : Thread Cert.KernelIdeal.nD Cert.KernelIdeal.τ).loc Cert.KernelIdeal.main_arg9)) ∧
    IsReal (s := Cert.Pre_finite_inputs.S64) (m ((c.tc : Thread Cert.KernelIdeal.nD Cert.KernelIdeal.τ).loc Cert.KernelIdeal.main_arg10)) ∧
    IsReal (s := Cert.Pre_finite_inputs.S64x64) (m ((c.tc : Thread Cert.KernelIdeal.nD Cert.KernelIdeal.τ).loc Cert.KernelIdeal.main_arg11)) ∧
    IsReal (s := Cert.Pre_finite_inputs.S64) (m ((c.tc : Thread Cert.KernelIdeal.nD Cert.KernelIdeal.τ).loc Cert.KernelIdeal.main_arg12)) ∧
    IsReal (s := Cert.Pre_finite_inputs.S64) (m ((c.tc : Thread Cert.KernelIdeal.nD Cert.KernelIdeal.τ).loc Cert.KernelIdeal.main_arg13)) ∧
    IsReal (s := Cert.Pre_finite_inputs.S64) (m ((c.tc : Thread Cert.KernelIdeal.nD Cert.KernelIdeal.τ).loc Cert.KernelIdeal.main_arg14)) ∧
    IsReal (s := Cert.Pre_finite_inputs.S64x64) (m ((c.tc : Thread Cert.KernelIdeal.nD Cert.KernelIdeal.τ).loc Cert.KernelIdeal.main_arg15)) ∧
    IsReal (s := Cert.Pre_finite_inputs.S64) (m ((c.tc : Thread Cert.KernelIdeal.nD Cert.KernelIdeal.τ).loc Cert.KernelIdeal.main_arg16)) ∧
    IsReal (s := Cert.Pre_finite_inputs.S64) (m ((c.tc : Thread Cert.KernelIdeal.nD Cert.KernelIdeal.τ).loc Cert.KernelIdeal.main_arg17)) ∧
    IsReal (s := Cert.Pre_finite_inputs.S64) (m ((c.tc : Thread Cert.KernelIdeal.nD Cert.KernelIdeal.τ).loc Cert.KernelIdeal.main_arg18)) ∧
    IsReal (s := Cert.Pre_finite_inputs.S64x4) (m ((c.tc : Thread Cert.KernelIdeal.nD Cert.KernelIdeal.τ).loc Cert.KernelIdeal.main_arg19)) ∧
    IsReal (s := Cert.Pre_finite_inputs.S64) (m ((c.tc : Thread Cert.KernelIdeal.nD Cert.KernelIdeal.τ).loc Cert.KernelIdeal.main_arg20)) ∧
    IsReal (s := Cert.Pre_finite_inputs.S64x64) (m ((c.tc : Thread Cert.KernelIdeal.nD Cert.KernelIdeal.τ).loc Cert.KernelIdeal.main_arg21)) ∧
    IsReal (s := Cert.Pre_finite_inputs.S64) (m ((c.tc : Thread Cert.KernelIdeal.nD Cert.KernelIdeal.τ).loc Cert.KernelIdeal.main_arg22)) ∧
    IsReal (s := Cert.Pre_finite_inputs.S64x64) (m ((c.tc : Thread Cert.KernelIdeal.nD Cert.KernelIdeal.τ).loc Cert.KernelIdeal.main_arg23)) ∧
    IsReal (s := Cert.Pre_finite_inputs.S64) (m ((c.tc : Thread Cert.KernelIdeal.nD Cert.KernelIdeal.τ).loc Cert.KernelIdeal.main_arg24)) ∧
    IsReal (s := Cert.Pre_finite_inputs.S64x64) (m ((c.tc : Thread Cert.KernelIdeal.nD Cert.KernelIdeal.τ).loc Cert.KernelIdeal.main_arg25)) ∧
    IsReal (s := Cert.Pre_finite_inputs.S64) (m ((c.tc : Thread Cert.KernelIdeal.nD Cert.KernelIdeal.τ).loc Cert.KernelIdeal.main_arg26)) ∧
    IsReal (s := Cert.Pre_finite_inputs.S64x64) (m ((c.tc : Thread Cert.KernelIdeal.nD Cert.KernelIdeal.τ).loc Cert.KernelIdeal.main_arg27)) ∧
    IsReal (s := Cert.Pre_finite_inputs.S64) (m ((c.tc : Thread Cert.KernelIdeal.nD Cert.KernelIdeal.τ).loc Cert.KernelIdeal.main_arg28)) ∧
    SrcInRange 100000 (E := 3200000) (m ((c.tc : Thread Cert.KernelIdeal.nD Cert.KernelIdeal.τ).loc Cert.KernelIdeal.main_arg1)) :=
  fn_decode _ _ _ _ _ _ _ _ _ _ _ _ _ _ _ _ _ _ _ _ _ _ _ _ _ _ _ _ _ (h c)

theorem real_arg0 (h : Cert.Pre_KernelIdeal m) (c : Dev Cert.KernelIdeal.nD) :
    IsReal (s := Cert.Pre_finite_inputs.S100000x4) (m ((c.tc : Thread Cert.KernelIdeal.nD Cert.KernelIdeal.τ).loc Cert.KernelIdeal.main_arg0)) := (decode m h c).1

theorem real_arg3 (h : Cert.Pre_KernelIdeal m) (c : Dev Cert.KernelIdeal.nD) :
    IsReal (s := Cert.Pre_finite_inputs.S64x4) (m ((c.tc : Thread Cert.KernelIdeal.nD Cert.KernelIdeal.τ).loc Cert.KernelIdeal.main_arg3)) := (decode m h c).2.1

theorem real_arg4 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg4)) := (decode m h c).2.2.1

theorem real_arg5 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg5)) := (decode m h c).2.2.2.1

theorem real_arg6 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg6)) := (decode m h c).2.2.2.2.1

theorem real_arg7 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg7)) := (decode m h c).2.2.2.2.2.1

theorem real_arg8 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg8)) := (decode m h c).2.2.2.2.2.2.1

theorem real_arg9 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg9)) := (decode m h c).2.2.2.2.2.2.2.1

theorem real_arg10 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg10)) := (decode m h c).2.2.2.2.2.2.2.2.1

theorem real_arg11 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg11)) := (decode m h c).2.2.2.2.2.2.2.2.2.1

theorem real_arg12 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg12)) := (decode m h c).2.2.2.2.2.2.2.2.2.2.1

theorem real_arg13 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg13)) := (decode m h c).2.2.2.2.2.2.2.2.2.2.2.1

theorem real_arg14 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg14)) := (decode m h c).2.2.2.2.2.2.2.2.2.2.2.2.1

theorem real_arg15 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg15)) := (decode m h c).2.2.2.2.2.2.2.2.2.2.2.2.2.1

theorem real_arg16 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg16)) := (decode m h c).2.2.2.2.2.2.2.2.2.2.2.2.2.2.1

theorem real_arg17 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg17)) := (decode m h c).2.2.2.2.2.2.2.2.2.2.2.2.2.2.2.1

theorem real_arg18 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg18)) := (decode m h c).2.2.2.2.2.2.2.2.2.2.2.2.2.2.2.2.1

theorem real_arg19 (h : Cert.Pre_KernelIdeal m) (c : Dev Cert.KernelIdeal.nD) :
    IsReal (s := Cert.Pre_finite_inputs.S64x4) (m ((c.tc : Thread Cert.KernelIdeal.nD Cert.KernelIdeal.τ).loc Cert.KernelIdeal.main_arg19)) := (decode m h c).2.2.2.2.2.2.2.2.2.2.2.2.2.2.2.2.2.1

theorem real_arg20 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg20)) := (decode m h c).2.2.2.2.2.2.2.2.2.2.2.2.2.2.2.2.2.2.1

theorem real_arg21 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg21)) := (decode m h c).2.2.2.2.2.2.2.2.2.2.2.2.2.2.2.2.2.2.2.1

theorem real_arg22 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg22)) := (decode m h c).2.2.2.2.2.2.2.2.2.2.2.2.2.2.2.2.2.2.2.2.1

theorem real_arg23 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg23)) := (decode m h c).2.2.2.2.2.2.2.2.2.2.2.2.2.2.2.2.2.2.2.2.2.1

theorem real_arg24 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg24)) := (decode m h c).2.2.2.2.2.2.2.2.2.2.2.2.2.2.2.2.2.2.2.2.2.2.1

theorem real_arg25 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg25)) := (decode m h c).2.2.2.2.2.2.2.2.2.2.2.2.2.2.2.2.2.2.2.2.2.2.2.1

theorem real_arg26 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg26)) := (decode m h c).2.2.2.2.2.2.2.2.2.2.2.2.2.2.2.2.2.2.2.2.2.2.2.2.1

theorem real_arg27 (h : Cert.Pre_KernelIdeal m) (c : Dev Cert.KernelIdeal.nD) :
    IsReal (s := Cert.Pre_finite_inputs.S64x64) (m ((c.tc : Thread Cert.KernelIdeal.nD Cert.KernelIdeal.τ).loc Cert.KernelIdeal.main_arg27)) := (decode m h c).2.2.2.2.2.2.2.2.2.2.2.2.2.2.2.2.2.2.2.2.2.2.2.2.2.1

theorem real_arg28 (h : Cert.Pre_KernelIdeal m) (c : Dev Cert.KernelIdeal.nD) :
    IsReal (s := Cert.Pre_finite_inputs.S64) (m ((c.tc : Thread Cert.KernelIdeal.nD Cert.KernelIdeal.τ).loc Cert.KernelIdeal.main_arg28)) := (decode m h c).2.2.2.2.2.2.2.2.2.2.2.2.2.2.2.2.2.2.2.2.2.2.2.2.2.2.1

theorem src_in_range (h : Cert.Pre_KernelIdeal m) (c : Dev Cert.KernelIdeal.nD) :
    SrcInRange 100000 (E := 3200000) (m ((c.tc : Thread Cert.KernelIdeal.nD Cert.KernelIdeal.τ).loc Cert.KernelIdeal.main_arg1)) := (decode m h c).2.2.2.2.2.2.2.2.2.2.2.2.2.2.2.2.2.2.2.2.2.2.2.2.2.2.2

end Kernel

end Cert.PreFacts

end
-- ==== Proof.KHost0.lean ====
/-
  The kernel program's host prologue: what the buffers hold when the first kernel region is entered.

  `src = edge_index[0]`, `dst = edge_index[1]`; `order = argsort(dst)`; `src' = src[order]`, `dst' = dst[order]`;
  `x` and `batch` padded to 100352 rows (with zeros, with −1); `b1` as a row.

  The one fact about the sort that the network's value needs is that it PERMUTES the edges: a sum over the edges is
  the same sum in any order. So the sorted edge list is stated as "there is a permutation `σ` of the edges with
  `src'[e] = edge_index[0, σ e]` and `dst'[e] = edge_index[1, σ e]`", and nothing is said of the order itself.
  The argsort holds the NUMBERS `σ e` as 32-bit words; they are below `3200000 < 2³¹`, hence non-negative as signed
  integers and inside the gathered array, so the negative-index wrap `select(i < 0, i + 3200000, i)` and the
  gather's clip into `[0, 3199999]` both leave them unchanged.

  Each stretch of host operations is read over ARBITRARY contents `V` at its start (what it writes, as a function
  of `V`; what it does not write, unchanged); the run's contents are these composed from the launch memory.
-/
import proofs.«403050_j67860483276910_3_alg».proof.Proof.KernelIdealFrame
import proofs.«403050_j67860483276910_3_alg».proof.Proof.Lift
import Idealize.ShloMosaic.Lib.SortFacts
import Idealize.ShloMosaic.Lib.ValueIdx
import Idealize.ShloMosaic.Lib.ValueIdxRank1
import Idealize.ShloMosaic.Lib.ValueLayout
import Idealize.ShloMosaic.Lib.KernelVsHost
import Idealize.ShloMosaic.Lib.Pipeline.Value
import Idealize.ShloMosaic.PureOps.Ideal

noncomputable section

namespace Cert.KHost0

open Idealize.ShloMosaic Idealize.ShloMosaic.TcCoe Idealize.ShloMosaic.ValueIdx
open Cert.KernelIdeal Cert.KernelIdeal.Gen

/-! ## General: a sort carrying an iota, a rank-one gather, a padded array, read at an index -/

section General

section Sorting

variable {α β : Type}

/-- The rank-one index the sort facts use is the literal-size constructor's. -/
theorem ofFin_eq_ix1 {n : Nat} (k : Fin n) : Shape.Idx.ofFin k = ix1 k := by
  funext d
  match d with
  | ⟨0, _⟩ => exact Fin.ext rfl

/-- "Sorts before" on the positions of a rank-one table of pairs. -/
def pairBefore {n : Nat} (cmp : α × β → α × β → BitVec 1) (x : (⟨1, ![n]⟩ : Shape).Idx → α)
    (y : (⟨1, ![n]⟩ : Shape).Idx → β) : Fin n → Fin n → Bool :=
  fun k k' => cmp (x (Shape.Idx.ofFin k), y (Shape.Idx.ofFin k)) (x (Shape.Idx.ofFin k'), y (Shape.Idx.ofFin k')) == 1#1

/-- On a rank-one shape a two-operand sort along axis 0 reads its second operand through ONE self-map of the
    positions: the stable sorting map of the comparator on the pairs. -/
theorem sort2_rank1_snd {n : Nat} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortedFrom (pairBefore cmp x y) (j 0))) := by
  unfold Host.sort2 pairBefore
  simp

/-- The stable sorting map is a permutation of the positions. -/
def sortPerm {n : Nat} (before : Fin n → Fin n → Bool) : Equiv.Perm (Fin n) :=
  Equiv.ofBijective (sortedFrom before) ⟨sortedFrom_injective before, sortedFrom_surjective before⟩

theorem sortPerm_apply {n : Nat} (before : Fin n → Fin n → Bool) (k : Fin n) : sortPerm before k = sortedFrom before k := rfl

/-- An argsort (a sort of the keys carrying the iota, second component) holds at position `e` the number of the
    position the sorting permutation brings there. -/
theorem argsort_apply {n : Nat} (cmp : α × BitVec 32 → α × BitVec 32 → BitVec 1) (x : (⟨1, ![n]⟩ : Shape).Idx → α)
    (e : Fin n) :
    (Host.sort2 ⟨1, ![n]⟩ 0 cmp x (iotaInDim ⟨1, ![n]⟩ 32 0)).2 (ix1 e)
      = BitVec.ofNat 32 (sortPerm (pairBefore cmp x (iotaInDim ⟨1, ![n]⟩ 32 0)) e).val := by
  rw [sort2_rank1_snd, sortPerm_apply]
  rfl

end Sorting

section Reading

variable {α : Type}

/-- The dimension numbers of `x[idx]` for a flat array `x : [N]` and a flat index array given as a column `[E, 1]`:
    no offset axis, axis 0 collapsed and named by the start index map, the index vector along axis 1. -/
abbrev colTakeDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The one operand coordinate that gather reads for result position `e`: the start index `idx[e, 0]`, read signed
    and clipped into `[0, N − 1]` (no batching axis and no offset axis add to it). -/
theorem colTake_operandIdx {N E w : Nat} (wf : GatherDims.WF ⟨1, ![N]⟩ ⟨2, ![E, 1]⟩ ⟨1, ![E]⟩ [] [0] [] [0] [] 1 ![1])
    (idx : IVec ⟨2, ![E, 1]⟩ w) (e : Fin E) :
    ((colTakeDims N E wf).operandIdx (ix1 e) idx 0).val = min (idx (ix2 e 0)).toInt.toNat (N - 1) := by
  have hb : (colTakeDims N E wf).batchCoord (ix1 e) 0 = 0 :=
    GatherDims.batchCoord_eq_zero _ _ _ List.not_mem_nil
  have ho : (colTakeDims N E wf).offCoord (ix1 e) 0 = 0 :=
    GatherDims.offCoord_eq_zero _ _ _ (fun h => ((GatherDims.mem_sKept _ _).mp h).1 (List.mem_singleton.mpr rfl))
  have hmem : (0 : Fin 1) ∈ (colTakeDims N E wf).startIndexMap := List.mem_singleton.mpr rfl
  have hsi : (colTakeDims N E wf).siIdx (ix1 e) ⟨List.idxOf (0 : Fin 1) (colTakeDims N E wf).startIndexMap,
      List.idxOf_lt_length_iff.2 hmem⟩ = ix2 e 0 := by
    funext b
    refine Fin.ext ?_
    match b with
    | ⟨0, _⟩ => rfl
    | ⟨1, _⟩ => rfl
  show (colTakeDims N E wf).start (ix1 e) idx 0 + (colTakeDims N E wf).batchCoord (ix1 e) 0
      + (colTakeDims N E wf).offCoord (ix1 e) 0 = _
  simp only [hb, ho, Nat.add_zero]
  unfold GatherDims.start
  rw [dif_pos hmem, hsi]
  rfl

/-- The gather read at position `e`. -/
theorem colTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colTakeDims N E wf) x idx (ix1 e) = x (ix1 ⟨min (idx (ix2 e 0)).toInt.toNat (N - 1), by omega⟩) := by
  unfold Host.gather
  refine congrArg x (funext fun a => ?_)
  obtain rfl : a = 0 := Subsingleton.elim _ _
  exact Fin.ext (colTake_operandIdx wf idx e)

/-- A flat array broadcast to a column reads, at `(e, 0)`, the array at `e`. -/
theorem toColumn_apply {E : Nat} (x : (⟨1, ![E]⟩ : Shape).Idx → α)
    (h : (⟨1, ![E]⟩ : Shape).BroadcastsInDim ⟨2, ![E, 1]⟩ (![0] : Fin 1 → Fin 2)) (e : Fin E) (z : Fin 1) :
    broadcastInDim ⟨2, ![E, 1]⟩ ![0] h x (ix2 e z) = x (ix1 e) := by
  unfold broadcastInDim
  refine congrArg x (funext fun a => ?_)
  obtain rfl : a = 0 := Subsingleton.elim _ _
  by_cases h1 : (⟨1, ![E]⟩ : Shape).size 0 = 1
  · rw [dif_pos h1]
    have hE : E = 1 := h1
    exact Fin.ext (by show 0 = e.val; omega)
  · rw [dif_neg h1]
    exact Fin.ext rfl

/-- The index wrap `select(i < 0, i + K, i)` followed by the gather's clip does nothing to the number of a position:
    a table `ord` whose word at `e` is the number `π e < N ≤ 2³¹` gathers `x` at `π e`. -/
theorem take_of_positions {N E : Nat} (hN : N ≤ 2 ^ 31)
    (wf : GatherDims.WF ⟨1, ![N]⟩ ⟨2, ![E, 1]⟩ ⟨1, ![E]⟩ [] [0] [] [0] [] 1 ![1])
    (hcol : (⟨1, ![E]⟩ : Shape).BroadcastsInDim ⟨2, ![E, 1]⟩ (![0] : Fin 1 → Fin 2))
    (x : (⟨1, ![N]⟩ : Shape).Idx → α) (ord Z K : IVec ⟨1, ![E]⟩ 32) (hZ : ∀ i, Z i = 0#32)
    (π : Fin E → Fin N) (hord : ∀ e, ord (ix1 e) = BitVec.ofNat 32 (π e).val) (e : Fin E) :
    Host.gather (colTakeDims N E wf) x
        (broadcastInDim ⟨2, ![E, 1]⟩ ![0] hcol (select (cmpi .slt ord Z) (addi ord K) ord)) (ix1 e)
      = x (ix1 (π e)) := by
  have hπ : (π e).val < 2 ^ 31 := lt_of_lt_of_le (π e).isLt hN
  have hnat : (BitVec.ofNat 32 (π e).val).toNat = (π e).val := by
    rw [BitVec.toNat_ofNat]
    exact Nat.mod_eq_of_lt (by omega)
  have hint : (BitVec.ofNat 32 (π e).val).toInt = ((π e).val : ℤ) := by
    rw [BitVec.toInt_eq_toNat_of_lt (by rw [hnat]; omega), hnat]
  have hf : (BitVec.ofNat 32 (π e).val).slt 0#32 = false := by
    rw [BitVec.slt_eq_decide, hint, BitVec.toInt_zero]
    exact decide_eq_false (by omega)
  have hc : IntOp.cmpi .slt (BitVec.ofNat 32 (π e).val) 0#32 = 0#1 := by
    show BitVec.ofBool ((BitVec.ofNat 32 (π e).val).slt 0#32) = 0#1
    rw [hf]
    rfl
  have hsel : select (cmpi .slt ord Z) (addi ord K) ord (ix1 e) = BitVec.ofNat 32 (π e).val := by
    show Scalar.select (IntOp.cmpi .slt (ord (ix1 e)) (Z (ix1 e))) (IntOp.addi (ord (ix1 e)) (K (ix1 e))) (ord (ix1 e)) = _
    rw [hZ, hord, hc]
    exact select_zero _ _
  rw [colTake_apply (lt_of_le_of_lt (Nat.zero_le _) (π e).isLt) wf]
  refine congrArg x (congrArg ix1 (Fin.ext ?_))
  show min (broadcastInDim ⟨2, ![E, 1]⟩ ![0] hcol (select (cmpi .slt ord Z) (addi ord K) ord) (ix2 e 0)).toInt.toNat (N - 1) = (π e).val
  rw [toColumn_apply, hsel, hint]
  have := (π e).isLt
  simp only [Int.toNat_natCast]
  omega

/-- A `[N, D]` array padded with rows below reads, at a row `r < N`, the array there. -/
theorem padRows_apply_lt {N P D : Nat} {hi : Fin 2 → Nat} (x : (⟨2, ![N, D]⟩ : Shape).Idx → α) {u : Shape} (v : u.Idx → α)
    (h : (⟨2, ![N, D]⟩ : Shape).Pads (![0, 0] : Fin 2 → Nat) hi ![0, 0] ⟨2, ![P, D]⟩) (hu : 0 < u.numel)
    (r : Fin P) (k : Fin D) (hr : r.val < N) :
    pad ⟨2, ![P, D]⟩ ![0, 0] hi ![0, 0] x v h hu (ix2 r k) = x (ix2 ⟨r.val, hr⟩ k) :=
  pad_apply_of_inside _ _ _ x v h hu _ _ (fun a => by
    match a with
    | ⟨0, _⟩ => show r.val = 0 + r.val * (0 + 1); omega
    | ⟨1, _⟩ => show k.val = 0 + k.val * (0 + 1); omega)

/-- … and at a row `r ≥ N` the padding value. -/
theorem padRows_apply_ge {N P D : Nat} {hi : Fin 2 → Nat} (x : (⟨2, ![N, D]⟩ : Shape).Idx → α) {u : Shape} (v : u.Idx → α)
    (h : (⟨2, ![N, D]⟩ : Shape).Pads (![0, 0] : Fin 2 → Nat) hi ![0, 0] ⟨2, ![P, D]⟩) (hu : 0 < u.numel)
    (r : Fin P) (k : Fin D) (hr : N ≤ r.val) :
    pad ⟨2, ![P, D]⟩ ![0, 0] hi ![0, 0] x v h hu (ix2 r k) = v (Shape.Idx.first hu) :=
  pad_apply_of_not_inside _ _ _ x v h hu _ (0 : Fin 2) (by
    show ¬(0 ≤ r.val ∧ (r.val - 0) % (0 + 1) = 0 ∧ (r.val - 0) / (0 + 1) < N)
    omega)

/-- A flat `[N]` array padded at its end reads, at `r < N`, the array there. -/
theorem padEnd_apply_lt {N P : Nat} {hi : Fin 1 → Nat} (x : (⟨1, ![N]⟩ : Shape).Idx → α) {u : Shape} (v : u.Idx → α)
    (h : (⟨1, ![N]⟩ : Shape).Pads (![0] : Fin 1 → Nat) hi ![0] ⟨1, ![P]⟩) (hu : 0 < u.numel)
    (r : Fin P) (hr : r.val < N) :
    pad ⟨1, ![P]⟩ ![0] hi ![0] x v h hu (ix1 r) = x (ix1 ⟨r.val, hr⟩) :=
  pad_apply_of_inside _ _ _ x v h hu _ _ (fun a => by
    match a with
    | ⟨0, _⟩ => show r.val = 0 + r.val * (0 + 1); omega)

/-- … and at `r ≥ N` the padding value. -/
theorem padEnd_apply_ge {N P : Nat} {hi : Fin 1 → Nat} (x : (⟨1, ![N]⟩ : Shape).Idx → α) {u : Shape} (v : u.Idx → α)
    (h : (⟨1, ![N]⟩ : Shape).Pads (![0] : Fin 1 → Nat) hi ![0] ⟨1, ![P]⟩) (hu : 0 < u.numel)
    (r : Fin P) (hr : N ≤ r.val) :
    pad ⟨1, ![P]⟩ ![0] hi ![0] x v h hu (ix1 r) = v (Shape.Idx.first hu) :=
  pad_apply_of_not_inside _ _ _ x v h hu _ (0 : Fin 1) (by
    show ¬(0 ≤ r.val ∧ (r.val - 0) % (0 + 1) = 0 ∧ (r.val - 0) / (0 + 1) < N)
    omega)

end Reading

end General

/-! ## The seven stretches of host operations before the first kernel region, each read over ANY contents `V` it starts from -/

section Stretches

variable (V : Valuation τ sig (Elt Ideal))

/-! ### Stretch 1: the two rows of `edge_index`, each sliced off and flattened -/

/-- `src[k] = edge_index[0, k]`. -/
theorem src_read (k : Fin 3200000) :
    (StableHlo.after hostOps0 V (Proc.devRef .tc main_v1) : S3200000.Idx → BitVec 32) (ix1 k)
      = (V (Proc.devRef .tc main_arg1) : S2x3200000.Idx → BitVec 32) (ix2 0 k) := by
  have h : (StableHlo.after hostOps0 V (Proc.devRef .tc main_v1) : S3200000.Idx → BitVec 32)
      = shapeCast S3200000 (extractStridedSlice S1x3200000 ![0, 0]
          (V (Proc.devRef .tc main_arg1) : S2x3200000.Idx → BitVec 32) slices_S2x3200000_S1x3200000_0_0)
          shapeCasts_S1x3200000_S3200000 := by
    after_results; rfl
  rw [h, shapeCast_1a_a_apply]
  exact extractStridedSlice_apply _ _ _ _ _ (fun a => by
    match a with
    | ⟨0, _⟩ => rfl
    | ⟨1, _⟩ => show k.val = 0 + k.val; omega)

/-- `dst[k] = edge_index[1, k]`. -/
theorem dst_read (k : Fin 3200000) :
    (StableHlo.after hostOps0 V (Proc.devRef .tc main_v3) : S3200000.Idx → BitVec 32) (ix1 k)
      = (V (Proc.devRef .tc main_arg1) : S2x3200000.Idx → BitVec 32) (ix2 1 k) := by
  have h : (StableHlo.after hostOps0 V (Proc.devRef .tc main_v3) : S3200000.Idx → BitVec 32)
      = shapeCast S3200000 (extractStridedSlice S1x3200000 ![1, 0]
          (V (Proc.devRef .tc main_arg1) : S2x3200000.Idx → BitVec 32) slices_S2x3200000_S1x3200000_1_0)
          shapeCasts_S1x3200000_S3200000 := by
    after_results; rfl
  rw [h, shapeCast_1a_a_apply]
  exact extractStridedSlice_apply _ _ _ _ _ (fun a => by
    match a with
    | ⟨0, _⟩ => rfl
    | ⟨1, _⟩ => show k.val = 0 + k.val; omega)

/-! ### Stretch 2: the argsort of `dst` -/

/-- `order` is the second component of the stable sort of the pairs `(dst[k], k)` by their first components. -/
theorem order_eq :
    (StableHlo.after hostOps0_1 V (Proc.devRef .tc main_v4) : S3200000.Idx → BitVec 32)
      = (Host.sort2 S3200000 0 comparator_i32_i32_d0 (V (Proc.devRef .tc main_v3) : S3200000.Idx → BitVec 32)
          (iotaInDim S3200000 32 0)).2 := by
  after_results
  simp only [StableHlo.TRef.of, StableHlo.TRef.ofBuf, StableHlo.TRef.toBuf, cast_eq]

/-- The permutation of the edges that sorts them by destination (stably); only THAT it is a permutation is used. -/
def edgePerm (dst : S3200000.Idx → BitVec 32) : Equiv.Perm (Fin 3200000) :=
  sortPerm (pairBefore comparator_i32_i32_d0 dst (iotaInDim S3200000 32 0))

/-- `order[e]` is the number of the edge the permutation brings to position `e`. -/
theorem order_read (e : Fin 3200000) :
    (StableHlo.after hostOps0_1 V (Proc.devRef .tc main_v4) : S3200000.Idx → BitVec 32) (ix1 e)
      = BitVec.ofNat 32 (edgePerm (V (Proc.devRef .tc main_v3)) e).val := by
  rw [order_eq]
  unfold edgePerm
  exact argsort_apply comparator_i32_i32_d0 _ e

attribute [irreducible] edgePerm

/-! ### Stretch 3: `src[order]`, `dst[order]` -/

/-- `src'[e] = src[π e]` when `order` holds the numbers `π e`. -/
theorem srcSorted_read (π : Fin 3200000 → Fin 3200000)
    (hord : ∀ e, (V (Proc.devRef .tc main_v4) : S3200000.Idx → BitVec 32) (ix1 e) = BitVec.ofNat 32 (π e).val)
    (e : Fin 3200000) :
    (StableHlo.after hostOps0_2 V (Proc.devRef .tc main_v11) : S3200000.Idx → BitVec 32) (ix1 e)
      = (V (Proc.devRef .tc main_v1) : S3200000.Idx → BitVec 32) (ix1 (π e)) := by
  have h : (StableHlo.after hostOps0_2 V (Proc.devRef .tc main_v11) : S3200000.Idx → BitVec 32)
      = Host.gather gather_S3200000_S3200000x1_S3200000_n_0_n_n_0_1_1
          (V (Proc.devRef .tc main_v1) : S3200000.Idx → BitVec 32)
          (broadcastInDim S3200000x1 ![0] bcast_S3200000_S3200000x1_0
            (select
              (cmpi .slt (V (Proc.devRef .tc main_v4) : S3200000.Idx → BitVec 32)
                (broadcastInDim S3200000 ![] bcast_S_S3200000 (constantI S_ 32 0#32)))
              (addi (V (Proc.devRef .tc main_v4) : S3200000.Idx → BitVec 32)
                (broadcastInDim S3200000 ![] bcast_S_S3200000 (constantI S_ 32 3200000#32)))
              (V (Proc.devRef .tc main_v4) : S3200000.Idx → BitVec 32))) := by
    after_results
  rw [h]
  refine take_of_positions (N := 3200000) (E := 3200000) (by decide) _ _ _ _ _ _ ?_ π hord e
  exact fun i => rfl

set_option maxHeartbeats 1000000 in  -- the stretch's eighteenth operation: its result is read back through all eighteen
/-- `dst'[e] = dst[π e]`. -/
theorem dstSorted_read (π : Fin 3200000 → Fin 3200000)
    (hord : ∀ e, (V (Proc.devRef .tc main_v4) : S3200000.Idx → BitVec 32) (ix1 e) = BitVec.ofNat 32 (π e).val)
    (e : Fin 3200000) :
    (StableHlo.after hostOps0_2 V (Proc.devRef .tc main_v18) : S3200000.Idx → BitVec 32) (ix1 e)
      = (V (Proc.devRef .tc main_v3) : S3200000.Idx → BitVec 32) (ix1 (π e)) := by
  have h : (StableHlo.after hostOps0_2 V (Proc.devRef .tc main_v18) : S3200000.Idx → BitVec 32)
      = Host.gather gather_S3200000_S3200000x1_S3200000_n_0_n_n_0_1_1
          (V (Proc.devRef .tc main_v3) : S3200000.Idx → BitVec 32)
          (broadcastInDim S3200000x1 ![0] bcast_S3200000_S3200000x1_0
            (select
              (cmpi .slt (V (Proc.devRef .tc main_v4) : S3200000.Idx → BitVec 32)
                (broadcastInDim S3200000 ![] bcast_S_S3200000 (constantI S_ 32 0#32)))
              (addi (V (Proc.devRef .tc main_v4) : S3200000.Idx → BitVec 32)
                (broadcastInDim S3200000 ![] bcast_S_S3200000 (constantI S_ 32 3200000#32)))
              (V (Proc.devRef .tc main_v4) : S3200000.Idx → BitVec 32))) := by
    after_results_simp
  rw [h]
  refine take_of_positions (N := 3200000) (E := 3200000) (by decide) _ _ _ _ _ _ ?_ π hord e
  exact fun i => rfl

/-- The padding value of `x`: the integer zero (converted to a float by the next stretch). -/
theorem padZero_eq : (StableHlo.after hostOps0_2 V (Proc.devRef .tc main_c_3) : S_.Idx → BitVec 32) = constantI S_ 32 0#32 := by
  after_results

/-! ### Stretch 4: `x` with 352 rows appended -/

theorem xpad_eq :
    (StableHlo.after hostOps0_3 V (Proc.devRef .tc main_v19) : S100352x4.Idx → EReal)
      = pad S100352x4 ![0, 0] ![352, 0] ![0, 0] (V (Proc.devRef .tc main_arg0) : S100000x4.Idx → EReal)
          (sitofp (F := Ideal) .f32 (V (Proc.devRef .tc main_c_3) : S_.Idx → BitVec 32))
          pads_S100000x4_S100352x4_03520_000 h_S_ := by
  after_results
  simp only [StableHlo.TRef.of, StableHlo.TRef.ofBuf, StableHlo.TRef.toBuf, cast_eq]

/-- A row of `x` is in place. -/
theorem xpad_read_lt (r : Fin 100352) (k : Fin 4) (hr : r.val < 100000) :
    (StableHlo.after hostOps0_3 V (Proc.devRef .tc main_v19) : S100352x4.Idx → EReal) (ix2 r k)
      = (V (Proc.devRef .tc main_arg0) : S100000x4.Idx → EReal) (ix2 ⟨r.val, hr⟩ k) := by
  rw [xpad_eq]
  exact padRows_apply_lt _ _ _ _ r k hr

/-- An appended row is the integer zero as a float: zero. -/
theorem xpad_read_ge (hz : (V (Proc.devRef .tc main_c_3) : S_.Idx → BitVec 32) = constantI S_ 32 0#32)
    (r : Fin 100352) (k : Fin 4) (hr : 100000 ≤ r.val) :
    (StableHlo.after hostOps0_3 V (Proc.devRef .tc main_v19) : S100352x4.Idx → EReal) (ix2 r k) = (0 : EReal) := by
  rw [xpad_eq, padRows_apply_ge _ _ _ _ r k hr, hz]
  show (((0#32 : BitVec 32).toInt : ℝ) : EReal) = 0
  simp

/-! ### Stretch 5: the padding value of `batch` -/

theorem padNeg_eq :
    (StableHlo.after hostOps0_4 V (Proc.devRef .tc main_c_4) : S_.Idx → BitVec 32) = constantI S_ 32 4294967295#32 := by
  after_results

/-! ### Stretch 6: `batch` with 352 entries appended -/

theorem bpad_eq :
    (StableHlo.after hostOps0_5 V (Proc.devRef .tc main_v20) : S100352.Idx → BitVec 32)
      = pad S100352 ![0] ![352] ![0] (V (Proc.devRef .tc main_arg2) : S100000.Idx → BitVec 32)
          (V (Proc.devRef .tc main_c_4) : S_.Idx → BitVec 32) pads_S100000_S100352_03520 h_S_ := by
  after_results
  simp only [StableHlo.TRef.of, StableHlo.TRef.ofBuf, StableHlo.TRef.toBuf, cast_eq, id]

theorem bpad_read (hn : (V (Proc.devRef .tc main_c_4) : S_.Idx → BitVec 32) = constantI S_ 32 4294967295#32)
    (r : Fin 100352) :
    (StableHlo.after hostOps0_5 V (Proc.devRef .tc main_v20) : S100352.Idx → BitVec 32) (ix1 r)
      = if h : r.val < 100000 then (V (Proc.devRef .tc main_arg2) : S100000.Idx → BitVec 32) (ix1 ⟨r.val, h⟩)
        else 0xFFFFFFFF#32 := by
  rw [bpad_eq]
  by_cases h : r.val < 100000
  · rw [dif_pos h]
    exact padEnd_apply_lt _ _ _ _ r h
  · rw [dif_neg h, padEnd_apply_ge _ _ _ _ r (Nat.le_of_not_lt h), hn]
    rfl

/-! ### Stretch 7: the padded `batch` and the bias `b1` as rows -/

theorem bpadRow_read (r : Fin 100352) :
    (StableHlo.after hostOps0_6 V (Proc.devRef .tc main_v21) : S1x100352.Idx → BitVec 32) (ix2 0 r)
      = (V (Proc.devRef .tc main_v20) : S100352.Idx → BitVec 32) (ix1 r) := by
  have h : (StableHlo.after hostOps0_6 V (Proc.devRef .tc main_v21) : S1x100352.Idx → BitVec 32)
      = shapeCast S1x100352 (V (Proc.devRef .tc main_v20) : S100352.Idx → BitVec 32) shapeCasts_S100352_S1x100352 := by
    after_results; rfl
  rw [h]
  exact shapeCast_a_1a_apply _ _ 0 r

theorem b1Row_read (o : Fin 64) :
    (StableHlo.after hostOps0_6 V (Proc.devRef .tc main_v32) : S1x64.Idx → EReal) (ix2 0 o)
      = (V (Proc.devRef .tc main_arg4) : S64.Idx → EReal) (ix1 o) := by
  have h : (StableHlo.after hostOps0_6 V (Proc.devRef .tc main_v32) : S1x64.Idx → EReal)
      = shapeCast S1x64 (V (Proc.devRef .tc main_arg4) : S64.Idx → EReal) shapeCasts_S64_S1x64 := by
    after_results; rfl
  rw [h]
  exact shapeCast_a_1a_apply _ _ 0 o

end Stretches

/-! ## What a stretch does not write keeps its contents -/

section Kept

variable (V : Valuation τ sig (Elt Ideal))

theorem keep0_arg0 : StableHlo.after hostOps0 V (Proc.devRef .tc main_arg0) = V (Proc.devRef .tc main_arg0) := by
  after_results_simp

theorem keep0_arg2 : StableHlo.after hostOps0 V (Proc.devRef .tc main_arg2) = V (Proc.devRef .tc main_arg2) := by
  after_results_simp

theorem keep0_arg4 : StableHlo.after hostOps0 V (Proc.devRef .tc main_arg4) = V (Proc.devRef .tc main_arg4) := by
  after_results_simp

theorem keep1_v1 : StableHlo.after hostOps0_1 V (Proc.devRef .tc main_v1) = V (Proc.devRef .tc main_v1) := by
  after_results_simp

theorem keep1_v3 : StableHlo.after hostOps0_1 V (Proc.devRef .tc main_v3) = V (Proc.devRef .tc main_v3) := by
  after_results_simp

theorem keep1_arg0 : StableHlo.after hostOps0_1 V (Proc.devRef .tc main_arg0) = V (Proc.devRef .tc main_arg0) := by
  after_results_simp

theorem keep1_arg2 : StableHlo.after hostOps0_1 V (Proc.devRef .tc main_arg2) = V (Proc.devRef .tc main_arg2) := by
  after_results_simp

theorem keep1_arg4 : StableHlo.after hostOps0_1 V (Proc.devRef .tc main_arg4) = V (Proc.devRef .tc main_arg4) := by
  after_results_simp

theorem keep2_arg0 : StableHlo.after hostOps0_2 V (Proc.devRef .tc main_arg0) = V (Proc.devRef .tc main_arg0) := by
  after_results_simp

theorem keep2_arg2 : StableHlo.after hostOps0_2 V (Proc.devRef .tc main_arg2) = V (Proc.devRef .tc main_arg2) := by
  after_results_simp

theorem keep2_arg4 : StableHlo.after hostOps0_2 V (Proc.devRef .tc main_arg4) = V (Proc.devRef .tc main_arg4) := by
  after_results_simp

theorem keep3_v11 : StableHlo.after hostOps0_3 V (Proc.devRef .tc main_v11) = V (Proc.devRef .tc main_v11) := by
  after_results_simp

theorem keep3_v18 : StableHlo.after hostOps0_3 V (Proc.devRef .tc main_v18) = V (Proc.devRef .tc main_v18) := by
  after_results_simp

theorem keep3_arg2 : StableHlo.after hostOps0_3 V (Proc.devRef .tc main_arg2) = V (Proc.devRef .tc main_arg2) := by
  after_results_simp

theorem keep3_arg4 : StableHlo.after hostOps0_3 V (Proc.devRef .tc main_arg4) = V (Proc.devRef .tc main_arg4) := by
  after_results_simp

theorem keep4_v11 : StableHlo.after hostOps0_4 V (Proc.devRef .tc main_v11) = V (Proc.devRef .tc main_v11) := by
  after_results_simp

theorem keep4_v18 : StableHlo.after hostOps0_4 V (Proc.devRef .tc main_v18) = V (Proc.devRef .tc main_v18) := by
  after_results_simp

theorem keep4_v19 : StableHlo.after hostOps0_4 V (Proc.devRef .tc main_v19) = V (Proc.devRef .tc main_v19) := by
  after_results_simp

theorem keep4_arg2 : StableHlo.after hostOps0_4 V (Proc.devRef .tc main_arg2) = V (Proc.devRef .tc main_arg2) := by
  after_results_simp

theorem keep4_arg4 : StableHlo.after hostOps0_4 V (Proc.devRef .tc main_arg4) = V (Proc.devRef .tc main_arg4) := by
  after_results_simp

theorem keep5_v11 : StableHlo.after hostOps0_5 V (Proc.devRef .tc main_v11) = V (Proc.devRef .tc main_v11) := by
  after_results_simp

theorem keep5_v18 : StableHlo.after hostOps0_5 V (Proc.devRef .tc main_v18) = V (Proc.devRef .tc main_v18) := by
  after_results_simp

theorem keep5_v19 : StableHlo.after hostOps0_5 V (Proc.devRef .tc main_v19) = V (Proc.devRef .tc main_v19) := by
  after_results_simp

theorem keep5_arg4 : StableHlo.after hostOps0_5 V (Proc.devRef .tc main_arg4) = V (Proc.devRef .tc main_arg4) := by
  after_results_simp

theorem keep6_v11 : StableHlo.after hostOps0_6 V (Proc.devRef .tc main_v11) = V (Proc.devRef .tc main_v11) := by
  after_results_simp

theorem keep6_v18 : StableHlo.after hostOps0_6 V (Proc.devRef .tc main_v18) = V (Proc.devRef .tc main_v18) := by
  after_results_simp

theorem keep6_v19 : StableHlo.after hostOps0_6 V (Proc.devRef .tc main_v19) = V (Proc.devRef .tc main_v19) := by
  after_results_simp

end Kept

/-! ## The run's contents when the first kernel region is entered -/

section Run

variable (m : (ℓ : Loc nD τ sig) → Buf (Elt Ideal) ℓ) (ρ : Dev nD → PrngReg) (c : Dev nD)

/-- `x` is as launched when its padded copy is made. -/
theorem W3_arg0 : GenP.W3 m ρ c (Proc.devRef .tc main_arg0) = m ((c : Thread nD τ).loc main_arg0) :=
  (keep2_arg0 (GenP.W2 m ρ c)).trans ((keep1_arg0 (GenP.W1 m ρ c)).trans ((keep0_arg0 (GenP.W0 m ρ c)).trans rfl))

/-- `batch` is as launched when its padded copy is made. -/
theorem W5_arg2 : GenP.W5 m ρ c (Proc.devRef .tc main_arg2) = m ((c : Thread nD τ).loc main_arg2) :=
  (keep4_arg2 (GenP.W4 m ρ c)).trans ((keep3_arg2 (GenP.W3 m ρ c)).trans ((keep2_arg2 (GenP.W2 m ρ c)).trans
    ((keep1_arg2 (GenP.W1 m ρ c)).trans ((keep0_arg2 (GenP.W0 m ρ c)).trans rfl))))

/-- `b1` is as launched when it is reshaped. -/
theorem W6_arg4 : GenP.W6 m ρ c (Proc.devRef .tc main_arg4) = m ((c : Thread nD τ).loc main_arg4) :=
  (keep5_arg4 (GenP.W5 m ρ c)).trans ((keep4_arg4 (GenP.W4 m ρ c)).trans ((keep3_arg4 (GenP.W3 m ρ c)).trans
    ((keep2_arg4 (GenP.W2 m ρ c)).trans ((keep1_arg4 (GenP.W1 m ρ c)).trans ((keep0_arg4 (GenP.W0 m ρ c)).trans rfl)))))

/-- The padded `x` is not written after it is made. -/
theorem W7_v19 : GenP.W7 m ρ c (Proc.devRef .tc main_v19) = GenP.W4 m ρ c (Proc.devRef .tc main_v19) :=
  (keep6_v19 (GenP.W6 m ρ c)).trans ((keep5_v19 (GenP.W5 m ρ c)).trans (keep4_v19 (GenP.W4 m ρ c)))

/-- The sorted sources and destinations are not written after they are made. -/
theorem W6_v11 : GenP.W6 m ρ c (Proc.devRef .tc main_v11) = GenP.W3 m ρ c (Proc.devRef .tc main_v11) :=
  (keep5_v11 (GenP.W5 m ρ c)).trans ((keep4_v11 (GenP.W4 m ρ c)).trans (keep3_v11 (GenP.W3 m ρ c)))
theorem W6_v18 : GenP.W6 m ρ c (Proc.devRef .tc main_v18) = GenP.W3 m ρ c (Proc.devRef .tc main_v18) :=
  (keep5_v18 (GenP.W5 m ρ c)).trans ((keep4_v18 (GenP.W4 m ρ c)).trans (keep3_v18 (GenP.W3 m ρ c)))
theorem W7_v11 : GenP.W7 m ρ c (Proc.devRef .tc main_v11) = GenP.W6 m ρ c (Proc.devRef .tc main_v11) :=
  keep6_v11 (GenP.W6 m ρ c)
theorem W7_v18 : GenP.W7 m ρ c (Proc.devRef .tc main_v18) = GenP.W6 m ρ c (Proc.devRef .tc main_v18) :=
  keep6_v18 (GenP.W6 m ρ c)

/-- THE SORTED EDGE LIST, where it is made: one permutation `σ` of the edges with `src'[e] = edge_index[0, σ e]` and
    `dst'[e] = edge_index[1, σ e]`. The argsort's second component holds the numbers `σ e`, each below `2³¹`, so the
    index wrap and the gather's clip leave them as they are. -/
theorem sorted_edges_at3 : ∃ σ : Equiv.Perm (Fin 3200000), ∀ e : Fin 3200000,
    (GenP.W3 m ρ c (Proc.devRef .tc main_v11) : S3200000.Idx → BitVec 32) (ix1 e)
        = (m ((c : Thread nD τ).loc main_arg1) : S2x3200000.Idx → BitVec 32) (ix2 0 (σ e))
    ∧ (GenP.W3 m ρ c (Proc.devRef .tc main_v18) : S3200000.Idx → BitVec 32) (ix1 e)
        = (m ((c : Thread nD τ).loc main_arg1) : S2x3200000.Idx → BitVec 32) (ix2 1 (σ e)) := by
  obtain ⟨σ, hord⟩ : ∃ σ : Equiv.Perm (Fin 3200000), ∀ e : Fin 3200000,
      (GenP.W2 m ρ c (Proc.devRef .tc main_v4) : S3200000.Idx → BitVec 32) (ix1 e) = BitVec.ofNat 32 (σ e).val :=
    ⟨_, fun e => order_read (GenP.W1 m ρ c) e⟩
  refine ⟨σ, fun e => ⟨?_, ?_⟩⟩
  · refine (srcSorted_read (GenP.W2 m ρ c) (fun e => σ e) hord e).trans ?_
    rw [show GenP.W2 m ρ c (Proc.devRef .tc main_v1) = GenP.W1 m ρ c (Proc.devRef .tc main_v1) from
      keep1_v1 (GenP.W1 m ρ c)]
    exact src_read (GenP.W0 m ρ c) (σ e)
  · refine (dstSorted_read (GenP.W2 m ρ c) (fun e => σ e) hord e).trans ?_
    rw [show GenP.W2 m ρ c (Proc.devRef .tc main_v3) = GenP.W1 m ρ c (Proc.devRef .tc main_v3) from
      keep1_v3 (GenP.W1 m ρ c)]
    exact dst_read (GenP.W0 m ρ c) (σ e)

/-- The same before the last stretch … -/
theorem sorted_edges_at6 : ∃ σ : Equiv.Perm (Fin 3200000), ∀ e : Fin 3200000,
    (GenP.W6 m ρ c (Proc.devRef .tc main_v11) : S3200000.Idx → BitVec 32) (ix1 e)
        = (m ((c : Thread nD τ).loc main_arg1) : S2x3200000.Idx → BitVec 32) (ix2 0 (σ e))
    ∧ (GenP.W6 m ρ c (Proc.devRef .tc main_v18) : S3200000.Idx → BitVec 32) (ix1 e)
        = (m ((c : Thread nD τ).loc main_arg1) : S2x3200000.Idx → BitVec 32) (ix2 1 (σ e)) := by
  obtain ⟨σ, h⟩ := sorted_edges_at3 m ρ c
  refine ⟨σ, fun e => ?_⟩
  rw [W6_v11, W6_v18]
  exact h e

/-- … and when the first kernel region is entered. -/
theorem sorted_edges : ∃ σ : Equiv.Perm (Fin 3200000), ∀ e : Fin 3200000,
    (GenP.W7 m ρ c (Proc.devRef .tc main_v11) : S3200000.Idx → BitVec 32) (ix1 e)
        = (m ((c : Thread nD τ).loc main_arg1) : S2x3200000.Idx → BitVec 32) (ix2 0 (σ e))
    ∧ (GenP.W7 m ρ c (Proc.devRef .tc main_v18) : S3200000.Idx → BitVec 32) (ix1 e)
        = (m ((c : Thread nD τ).loc main_arg1) : S2x3200000.Idx → BitVec 32) (ix2 1 (σ e)) := by
  obtain ⟨σ, h⟩ := sorted_edges_at6 m ρ c
  refine ⟨σ, fun e => ?_⟩
  rw [W7_v11, W7_v18]
  exact h e

/-- THE PADDED NODE FEATURES: the rows of `x`, in place. -/
theorem xpad_rows (x : Fin 100000 → Fin 4 → ℝ)
    (h : Cert.Lift.Mat (m ((c : Thread nD τ).loc main_arg0) : S100000x4.Idx → EReal) x) :
    Cert.Lift.Rows (GenP.W7 m ρ c (Proc.devRef .tc main_v19) : S100352x4.Idx → EReal) x := by
  intro i hi k
  rw [W7_v19]
  refine (xpad_read_lt (GenP.W3 m ρ c) ⟨i.val, hi⟩ k i.isLt).trans ?_
  rw [W3_arg0]
  exact h i k

/-- The 352 appended rows are zero. -/
theorem xpad_zero (r : Fin 100352) (hr : 100000 ≤ r.val) (k : Fin 4) :
    (GenP.W7 m ρ c (Proc.devRef .tc main_v19) : S100352x4.Idx → EReal) (ix2 r k) = (0 : EReal) := by
  rw [W7_v19]
  exact xpad_read_ge (GenP.W3 m ρ c) (padZero_eq (GenP.W2 m ρ c)) r k hr

/-- THE PADDED GRAPH NUMBERS, as a row: `batch` in place, then 352 entries `−1`. -/
theorem batch_pad (r : Fin 100352) :
    (GenP.W7 m ρ c (Proc.devRef .tc main_v21) : S1x100352.Idx → BitVec 32) (ix2 0 r)
      = if h : r.val < 100000 then (m ((c : Thread nD τ).loc main_arg2) : S100000.Idx → BitVec 32) (ix1 ⟨r.val, h⟩)
        else 0xFFFFFFFF#32 := by
  refine (bpadRow_read (GenP.W6 m ρ c) r).trans ?_
  refine (bpad_read (GenP.W5 m ρ c) (padNeg_eq (GenP.W4 m ρ c)) r).trans ?_
  rw [W5_arg2]

/-- THE FIRST BIAS, as a row. -/
theorem b1_row (β : Fin 64 → ℝ) (h : Cert.Lift.Vec1 (m ((c : Thread nD τ).loc main_arg4) : S64.Idx → EReal) β) :
    Cert.Lift.Row1 (GenP.W7 m ρ c (Proc.devRef .tc main_v32) : S1x64.Idx → EReal) β := by
  intro o
  refine (b1Row_read (GenP.W6 m ρ c) o).trans ?_
  rw [W6_arg4]
  exact h o

end Run

end Cert.KHost0

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.KAgg.lean ====
/-
  The kernel program's two neighbour sums are the specification's neighbour sum on the node rows.

  Each message-passing layer's neighbour sum is computed on the host, between two kernel regions, as a row lookup
  followed by an accumulating scatter: the edge list, sorted by destination, gives per edge a source word and a
  destination word; the source word, wrapped around if negative, looks a row of the node table up; the looked-up rows
  are added into an all-zero array at the rows the destination words name. Read at a node row i and a column k this is
  the sum, over the edges whose destination is i, of the table's entry (source, k): a source word in the node range is
  not wrapped and not clipped, a sum over the sorted list is the sum over the edge list (the sort is a permutation), and
  the coercion of the reals carries finite sums. The first layer looks up the input features (table of 100000 rows), the
  second the first layer's output (table of 100352 rows, of which the first 100000 are node rows); both add into
  arrays of 100352 rows.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibGS
import proofs.«403050_j67860483276910_3_alg».proof.Proof.LibSums
import Idealize.ShloMosaic.PureOps.Ideal.Laws
import Idealize.ShloMosaic.Lib.ValueIdx
import Idealize.ShloMosaic.Lib.ValueIdxRank1
import Idealize.ShloMosaic.Lib.Pipeline.Value

noncomputable section

open scoped BigOperators

namespace Cert.KAgg

open Idealize.ShloMosaic Idealize.ShloMosaic.ValueIdx

/-! ## General: the segment sum of looked-up rows, over variables -/

section General

/-- A word that reads as a non-negative integer is not below the zero word: the wrap-around select keeps it. -/
theorem wrap_of_nonneg (x W : BitVec 32) (h : 0 ≤ x.toInt) :
    Scalar.select (IntOp.cmpi .slt x 0#32) (IntOp.addi x W) x = x := by
  have hs : x.slt 0#32 = false := by
    rw [BitVec.slt_eq_decide]
    simpa using h
  unfold Scalar.select IntOp.cmpi
  simp [hs]

/-- Entry (s, k) of the row segment sum, into an all-zero operand, of the looked-up rows: the sum, over the edges
    whose destination word reads s, of the table's entry (r, k), r the edge's index word read signed and clipped. -/
theorem segsum_lookup_apply {N P E C : ℕ} (hN : 0 < N)
    (wfs : ScatterDims.WF ⟨2, ![P, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (T : (⟨2, ![N, C]⟩ : Shape).Idx → EReal) (iw dw : IVec ⟨2, ![E, 1]⟩ 32)
    (Z : (⟨2, ![P, C]⟩ : Shape).Idx → EReal) (hZ : ∀ j, Z j = 0) (s : Fin P) (k : Fin C) :
    Ideal.hostScatterAdd (LibGS.rowScatterDims P E C wfs) Z dw (Host.gather (LibGS.rowGatherDims N E C wfg) T iw) (ix2 s k)
      = ∑ e ∈ Finset.univ.filter (fun e : Fin E => (dw (ix2 e 0)).toInt = (s.val : ℤ)),
          T (ix2 ⟨min (iw (ix2 e 0)).toInt.toNat (N - 1), by omega⟩ k) := by
  rw [LibGS.scatterAdd_rows_apply, hZ, zero_add]
  refine Finset.sum_congr rfl fun e _ => ?_
  exact LibGS.gather_rows_apply hN wfg T iw e k

/-- THE NEIGHBOUR SUM, over index words. The index words are the edge list's two rows read along one permutation of
    the edges, every source word is a node's number, and the table's first Nn rows hold the reals X: then the first Nn
    rows of the segment sum of the looked-up rows hold the neighbour sums of X. Three laws join the two sides: the
    clipped row of an in-range word is the word's own row; a filtered sum read along a permutation is the filtered sum
    itself; the coercion carries a finite real sum to the sum of the coercions. -/
theorem segsum_lookup_rows {Nn N P E C : ℕ} (hNn : 0 < Nn) (hle : Nn ≤ N)
    (wfs : ScatterDims.WF ⟨2, ![P, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (T : (⟨2, ![N, C]⟩ : Shape).Idx → EReal) (X : Fin Nn → Fin C → ℝ) (hT : Lift.Rows T X)
    (ei : (⟨2, ![2, E]⟩ : Shape).Idx → BitVec 32) (hr : Lift.SrcInRange Nn ei) (σ : Equiv.Perm (Fin E))
    (iw dw : IVec ⟨2, ![E, 1]⟩ 32)
    (hiw : ∀ e : Fin E, iw (ix2 e 0) = ei (ix2 0 (σ e))) (hdw : ∀ e : Fin E, dw (ix2 e 0) = ei (ix2 1 (σ e)))
    (Z : (⟨2, ![P, C]⟩ : Shape).Idx → EReal) (hZ : ∀ j, Z j = 0) :
    Lift.Rows (Ideal.hostScatterAdd (LibGS.rowScatterDims P E C wfs) Z dw (Host.gather (LibGS.rowGatherDims N E C wfg) T iw))
      (Spec.agg (Lift.srcOf hNn ei) (Lift.dstOf ei) X) := by
  intro i hi k
  have hrow : ∀ e : Fin E, T (ix2 ⟨min (iw (ix2 e 0)).toInt.toNat (N - 1), by omega⟩ k)
      = ((X (Lift.srcOf hNn ei (σ e)) k : ℝ) : EReal) := by
    intro e
    have hv : min (iw (ix2 e 0)).toInt.toNat (N - 1) = (Lift.srcOf hNn ei (σ e)).val := by
      obtain ⟨h0, h1⟩ := hr (σ e)
      rw [hiw e]
      show _ = min (ei (ix2 0 (σ e))).toInt.toNat (Nn - 1)
      omega
    have hlt : (Lift.srcOf hNn ei (σ e)).val < N := lt_of_lt_of_le (Lift.srcOf hNn ei (σ e)).isLt hle
    rw [← hT (Lift.srcOf hNn ei (σ e)) hlt k]
    exact congrArg (fun r => T (ix2 r k)) (Fin.ext hv)
  rw [segsum_lookup_apply (by omega) wfs wfg T iw dw Z hZ ⟨i.val, hi⟩ k]
  unfold Spec.agg
  rw [LibSums.coe_sum, ← LibSums.sum_filter_perm σ (fun e => Lift.dstOf ei e = (i.val : ℤ))
    (fun e => ((X (Lift.srcOf hNn ei e) k : ℝ) : EReal))]
  refine Finset.sum_congr (Finset.filter_congr fun e _ => ?_) fun e _ => hrow e
  show (dw (ix2 e 0)).toInt = (i.val : ℤ) ↔ (ei (ix2 1 (σ e))).toInt = (i.val : ℤ)
  rw [hdw e]

/-- A list of E words laid out as a column [E, 1] reads, at (e, 0), the list's word e. -/
theorem bcast_col_apply {α : Type} {E : ℕ} (hb : (⟨1, ![E]⟩ : Shape).BroadcastsInDim ⟨2, ![E, 1]⟩ ![0])
    (x : (⟨1, ![E]⟩ : Shape).Idx → α) (e : Fin E) :
    broadcastInDim ⟨2, ![E, 1]⟩ ![0] hb x (ix2 e 0) = x (ix1 e) := by
  refine broadcastInDim_apply _ hb x _ (ix1 e) fun a => ?_
  obtain rfl : a = 0 := Subsingleton.elim _ _
  show e.val = if E = 1 then 0 else e.val
  split_ifs with h1
  · subst h1; omega
  · rfl

/-- The wrapped source column at (e, 0): a source word that is not negative is read as it is. -/
theorem wrapped_col_apply {E : ℕ} (hb : (⟨1, ![E]⟩ : Shape).BroadcastsInDim ⟨2, ![E, 1]⟩ ![0])
    (hs : (⟨0, ![]⟩ : Shape).BroadcastsInDim ⟨1, ![E]⟩ ![]) (x : IVec ⟨1, ![E]⟩ 32) (W : BitVec 32) (e : Fin E)
    (h : 0 ≤ (x (ix1 e)).toInt) :
    broadcastInDim ⟨2, ![E, 1]⟩ ![0] hb
        (select (cmpi .slt x (broadcastInDim ⟨1, ![E]⟩ ![] hs (constantI ⟨0, ![]⟩ 32 0#32)))
          (addi x (broadcastInDim ⟨1, ![E]⟩ ![] hs (constantI ⟨0, ![]⟩ 32 W))) x) (ix2 e 0)
      = x (ix1 e) := by
  rw [bcast_col_apply]
  exact wrap_of_nonneg (x (ix1 e)) W h

/-- THE NEIGHBOUR SUM, as the host computes it: the sorted source words wrapped by W and laid out as a column look
    rows of the table up, the rows are added into zeros at the sorted destination words laid out as a column. With the
    sorted words a permutation of the edge list, the sources in range and the table's first Nn rows holding X, the
    result's first Nn rows hold the neighbour sums of X. -/
theorem agg_rows_of_sorted {Nn N P E C : ℕ} (hNn : 0 < Nn) (hle : Nn ≤ N)
    (wfs : ScatterDims.WF ⟨2, ![P, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hb : (⟨1, ![E]⟩ : Shape).BroadcastsInDim ⟨2, ![E, 1]⟩ ![0])
    (hs : (⟨0, ![]⟩ : Shape).BroadcastsInDim ⟨1, ![E]⟩ ![])
    (hz : (⟨0, ![]⟩ : Shape).BroadcastsInDim ⟨2, ![P, C]⟩ ![])
    (T : (⟨2, ![N, C]⟩ : Shape).Idx → EReal) (X : Fin Nn → Fin C → ℝ) (hT : Lift.Rows T X)
    (ei : (⟨2, ![2, E]⟩ : Shape).Idx → BitVec 32) (hr : Lift.SrcInRange Nn ei) (σ : Equiv.Perm (Fin E))
    (src' dst' : IVec ⟨1, ![E]⟩ 32)
    (hσ : ∀ e : Fin E, src' (ix1 e) = ei (ix2 0 (σ e)) ∧ dst' (ix1 e) = ei (ix2 1 (σ e))) (W : BitVec 32) :
    Lift.Rows
      (Host.scatterAdd (F := Ideal) (φ := .f32) (LibGS.rowScatterDims P E C wfs)
        (broadcastInDim ⟨2, ![P, C]⟩ ![] hz (constant (F := Ideal) ⟨0, ![]⟩ .f32 0x00000000#32))
        (broadcastInDim ⟨2, ![E, 1]⟩ ![0] hb dst')
        (Host.gather (LibGS.rowGatherDims N E C wfg) T
          (broadcastInDim ⟨2, ![E, 1]⟩ ![0] hb
            (select (cmpi .slt src' (broadcastInDim ⟨1, ![E]⟩ ![] hs (constantI ⟨0, ![]⟩ 32 0#32)))
              (addi src' (broadcastInDim ⟨1, ![E]⟩ ![] hs (constantI ⟨0, ![]⟩ 32 W))) src'))))
      (Spec.agg (Lift.srcOf hNn ei) (Lift.dstOf ei) X) := by
  refine segsum_lookup_rows hNn hle wfs wfg T X hT ei hr σ _ _ (fun e => ?_) (fun e => ?_) _ (fun j => ?_)
  · rw [wrapped_col_apply hb hs src' W e (by rw [(hσ e).1]; exact (hr (σ e)).1)]
    exact (hσ e).1
  · rw [bcast_col_apply]
    exact (hσ e).2
  · exact Ideal.ofBits_zero_f32

/-- A vector of D entries reshaped to one row [1, D] reads, at (0, o), the vector's entry o. -/
theorem row_of_vec_apply {α : Type} {D : ℕ} (h : (⟨1, ![D]⟩ : Shape).ShapeCasts ⟨2, ![1, D]⟩)
    (x : (⟨1, ![D]⟩ : Shape).Idx → α) (o : Fin D) :
    shapeCast ⟨2, ![1, D]⟩ x h (ix2 0 o) = x (ix1 o) := by
  refine shapeCast_apply x h _ (ix1 o) ?_
  rw [Shape.rowMajor_val_one, Shape.rowMajor_val_two]
  show o.val = 0 * D + o.val
  omega

end General

/-! ## The program's two stretches -/

section Program

open Cert.KernelIdeal Cert.KernelIdeal.Gen Cert.KernelIdeal.GenP
open Idealize.ShloMosaic.TcCoe

/-- What the last stretch before the first region leaves in the first layer's neighbour-sum array, over any contents
    V at the stretch's entry: the segment sum, at the sorted destinations, of the argument table's rows looked up at
    the wrapped sorted sources. -/
theorem after0_6_v31 (V : Valuation τ sig (Elt Ideal)) :
    (StableHlo.after (hostOps0_6 (F := Ideal)) V (Proc.devRef .tc main_v31) : S100352x4.Idx → EReal)
      = Host.scatterAdd (F := Ideal) (φ := .f32) scatter_S100352x4_S3200000x1_S3200000x4_1_0_0_1
          (broadcastInDim S100352x4 ![] bcast_S_S100352x4 (constant (F := Ideal) S_ .f32 0x00000000#32))
          (broadcastInDim S3200000x1 ![0] bcast_S3200000_S3200000x1_0 (V (Proc.devRef .tc main_v18) : S3200000.Idx → BitVec 32))
          (Host.gather gather_S100000x4_S3200000x1_S3200000x4_1_0_n_n_0_1_14 (V (Proc.devRef .tc main_arg0) : S100000x4.Idx → EReal)
            (broadcastInDim S3200000x1 ![0] bcast_S3200000_S3200000x1_0
              (select (cmpi .slt (V (Proc.devRef .tc main_v11) : S3200000.Idx → BitVec 32)
                  (broadcastInDim S3200000 ![] bcast_S_S3200000 (constantI S_ 32 0#32)))
                (addi (V (Proc.devRef .tc main_v11) : S3200000.Idx → BitVec 32)
                  (broadcastInDim S3200000 ![] bcast_S_S3200000 (constantI S_ 32 100000#32)))
                (V (Proc.devRef .tc main_v11) : S3200000.Idx → BitVec 32)))) := by
  after_results
  all_goals rfl

/-- The same for the stretch between the third and the fourth region and the second layer's neighbour-sum array: the
    table is the third region's output, the wrap constant its row count. -/
theorem after3_v78 (V : Valuation τ sig (Elt Ideal)) :
    (StableHlo.after (hostOps3 (F := Ideal)) V (Proc.devRef .tc main_v78) : S100352x64.Idx → EReal)
      = Host.scatterAdd (F := Ideal) (φ := .f32) scatter_S100352x64_S3200000x1_S3200000x64_1_0_0_1
          (broadcastInDim S100352x64 ![] bcast_S_S100352x64 (constant (F := Ideal) S_ .f32 0x00000000#32))
          (broadcastInDim S3200000x1 ![0] bcast_S3200000_S3200000x1_0 (V (Proc.devRef .tc main_v18) : S3200000.Idx → BitVec 32))
          (Host.gather gather_S100352x64_S3200000x1_S3200000x64_1_0_n_n_0_1_164 (V (Proc.devRef .tc main_v68) : S100352x64.Idx → EReal)
            (broadcastInDim S3200000x1 ![0] bcast_S3200000_S3200000x1_0
              (select (cmpi .slt (V (Proc.devRef .tc main_v11) : S3200000.Idx → BitVec 32)
                  (broadcastInDim S3200000 ![] bcast_S_S3200000 (constantI S_ 32 0#32)))
                (addi (V (Proc.devRef .tc main_v11) : S3200000.Idx → BitVec 32)
                  (broadcastInDim S3200000 ![] bcast_S_S3200000 (constantI S_ 32 100352#32)))
                (V (Proc.devRef .tc main_v11) : S3200000.Idx → BitVec 32)))) := by
  after_results
  all_goals rfl

/-- The same stretch leaves, in the reshaped bias, the bias vector as one row. -/
theorem after3_v79 (V : Valuation τ sig (Elt Ideal)) :
    (StableHlo.after (hostOps3 (F := Ideal)) V (Proc.devRef .tc main_v79) : S1x64.Idx → EReal)
      = shapeCast S1x64 (V (Proc.devRef .tc main_arg12) : S64.Idx → EReal) shapeCasts_S64_S1x64 := by
  after_results
  all_goals rfl

variable (m : (ℓ : Loc nD τ sig) → Buf (Elt Ideal) ℓ) (ρ : Dev nD → PrngReg) (c : Dev nD)

/-- The edge list as launched: row 0 the sources, row 1 the destinations. -/
abbrev ei : S2x3200000.Idx → BitVec 32 := m ((c : Thread nD τ).loc main_arg1)

/-- No host operation before the first region writes the node-feature argument: at the entry of the last stretch it
    holds what it was launched with … -/
theorem W6_main_arg0 : W6 m ρ c (Proc.devRef .tc main_arg0) = m ((c : Thread nD τ).loc main_arg0) :=
  calc W6 m ρ c (Proc.devRef .tc main_arg0)
    _ = W5 m ρ c (Proc.devRef .tc main_arg0) := StableHlo.after_of_forall_not_mem (b := Proc.devRef .tc main_arg0) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- … and so it does at the first region's entry. -/
theorem W7_main_arg0 : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps0_6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W6_main_arg0 m ρ c

/-- LAYER 1. At the first region's entry the neighbour-sum array's node rows hold the neighbour sums of the input
    features: the sorted lists are the edge list along a permutation, the sources are node numbers, the argument
    table holds the reals x. -/
theorem agg1 (σ : Equiv.Perm (Fin 3200000))
    (hσ : ∀ e : Fin 3200000,
        (W6 m ρ c (Proc.devRef .tc main_v11) : S3200000.Idx → BitVec 32) (ix1 e) = ei m c (ix2 0 (σ e))
      ∧ (W6 m ρ c (Proc.devRef .tc main_v18) : S3200000.Idx → BitVec 32) (ix1 e) = ei m c (ix2 1 (σ e)))
    (hr : Lift.SrcInRange 100000 (ei m c))
    {x : Fin 100000 → Fin 4 → ℝ} (hx : Lift.Mat (m ((c : Thread nD τ).loc main_arg0) : S100000x4.Idx → EReal) x) :
    Lift.Rows (W7 m ρ c (Proc.devRef .tc main_v31) : S100352x4.Idx → EReal)
      (Spec.agg (Lift.srcOf (by decide) (ei m c)) (Lift.dstOf (ei m c)) x) := by
  have e : (W7 m ρ c (Proc.devRef .tc main_v31) : S100352x4.Idx → EReal) = _ := after0_6_v31 (W6 m ρ c)
  rw [e]
  have hT : Lift.Rows (W6 m ρ c (Proc.devRef .tc main_arg0) : S100000x4.Idx → EReal) x := by
    rw [W6_main_arg0]; exact hx.rows
  exact agg_rows_of_sorted (Nn := 100000) (N := 100000) (P := 100352) (E := 3200000) (C := 4) (by decide) (le_refl _)
    scatter_S100352x4_S3200000x1_S3200000x4_1_0_0_1_wf gather_S100000x4_S3200000x1_S3200000x4_1_0_n_n_0_1_14_wf
    bcast_S3200000_S3200000x1_0 bcast_S_S3200000 bcast_S_S100352x4
    (W6 m ρ c (Proc.devRef .tc main_arg0)) x hT (ei m c) hr σ
    (W6 m ρ c (Proc.devRef .tc main_v11)) (W6 m ρ c (Proc.devRef .tc main_v18)) hσ 100000#32

/-- LAYER 2. At the fourth region's entry the second neighbour-sum array's node rows hold the neighbour sums of the
    first layer's output h, which the third region left in the node rows of its output array. -/
theorem agg2 (σ : Equiv.Perm (Fin 3200000))
    (hσ : ∀ e : Fin 3200000,
        (W12 m ρ c (Proc.devRef .tc main_v11) : S3200000.Idx → BitVec 32) (ix1 e) = ei m c (ix2 0 (σ e))
      ∧ (W12 m ρ c (Proc.devRef .tc main_v18) : S3200000.Idx → BitVec 32) (ix1 e) = ei m c (ix2 1 (σ e)))
    (hr : Lift.SrcInRange 100000 (ei m c))
    {h : Fin 100000 → Fin 64 → ℝ} (hh : Lift.Rows (W12 m ρ c (Proc.devRef .tc main_v68) : S100352x64.Idx → EReal) h) :
    Lift.Rows (W13 m ρ c (Proc.devRef .tc main_v78) : S100352x64.Idx → EReal)
      (Spec.agg (Lift.srcOf (by decide) (ei m c)) (Lift.dstOf (ei m c)) h) := by
  have e : (W13 m ρ c (Proc.devRef .tc main_v78) : S100352x64.Idx → EReal) = _ := after3_v78 (W12 m ρ c)
  rw [e]
  exact agg_rows_of_sorted (Nn := 100000) (N := 100352) (P := 100352) (E := 3200000) (C := 64) (by decide) (by decide)
    scatter_S100352x64_S3200000x1_S3200000x64_1_0_0_1_wf gather_S100352x64_S3200000x1_S3200000x64_1_0_n_n_0_1_164_wf
    bcast_S3200000_S3200000x1_0 bcast_S_S3200000 bcast_S_S100352x64
    (W12 m ρ c (Proc.devRef .tc main_v68)) h hh (ei m c) hr σ
    (W12 m ρ c (Proc.devRef .tc main_v11)) (W12 m ρ c (Proc.devRef .tc main_v18)) hσ 100352#32

/-- The second layer's first bias, reshaped in the same stretch to one row, is the bias vector. -/
theorem b1_row2 {β : Fin 64 → ℝ} (hb : Lift.Vec1 (W12 m ρ c (Proc.devRef .tc main_arg12) : S64.Idx → EReal) β) :
    Lift.Row1 (W13 m ρ c (Proc.devRef .tc main_v79) : S1x64.Idx → EReal) β := by
  have e : (W13 m ρ c (Proc.devRef .tc main_v79) : S1x64.Idx → EReal) = _ := after3_v79 (W12 m ρ c)
  intro o
  rw [e, row_of_vec_apply]
  exact hb o

end Program

end Cert.KAgg

end
-- ==== Proof.KStatsHost.lean ====
/-
  The batch-normalisation coefficients the host computes between kernel regions, from per-block column sums.

  A kernel region leaves, for each of 16 blocks of 6272 rows, the column sums of `Y` and of `Y²` over the block's rows
  that are rows of the network (the rows from 100000 on count nothing). The host adds the 16 blocks (the column sums
  over all the nodes), divides by the number of nodes (the mean `μ`, the mean square `ν`), and forms
  `scale = g · (√(ν − μ² + ε))⁻¹` and `shift = b − μ · scale`. The variance `ν − μ²` is the mean squared deviation,
  hence not negative, and `ε > 0`: the reciprocal square root is taken of a positive real, so every value stays real.
  This happens twice in the program with the same operations on different buffers (once per message-passing layer);
  the operations' composed term is named once and each occurrence is an instance.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KStatsHost

open Idealize.ShloMosaic Idealize.ShloMosaic.TcCoe Idealize.ShloMosaic.ValueIdx
open Cert.KernelIdeal Cert.KernelIdeal.Gen
open Cert.Lift

/-! ## General: block sums with the rows past the end counted as nothing; the coefficients from the two sums -/

section General

/-- `T` blocks of `B` consecutive rows, the rows from `N` on counted as zero, sum to the sum over the `N` rows. -/
theorem sum_blocks_dite {T B N : ℕ} (hN : N ≤ T * B) (f : Fin N → ℝ) :
    ∑ t : Fin T, ∑ y : Fin B, (if h : B * t.val + y.val < N then ((f ⟨B * t.val + y.val, h⟩ : ℝ) : EReal) else 0)
      = ((∑ i, f i : ℝ) : EReal) := by
  let G : ℕ → EReal := fun n => if h : n < N then ((f ⟨n, h⟩ : ℝ) : EReal) else 0
  have hG : ∀ n, (if n < N then G n else 0) = G n := fun n => by
    by_cases h : n < N
    · rw [if_pos h]
    · rw [if_neg h]; simp only [G]; rw [dif_neg h]
  calc ∑ t : Fin T, ∑ y : Fin B, (if h : B * t.val + y.val < N then ((f ⟨B * t.val + y.val, h⟩ : ℝ) : EReal) else 0)
      = ∑ t : Fin T, ∑ y : Fin B, G (B * t.val + y.val) := rfl
    _ = ∑ r : Fin (T * B), G r.val := Cert.LibSums.sum_blocks T B G
    _ = ∑ r : Fin (T * B), (if r.val < N then G r.val else 0) := Finset.sum_congr rfl fun r _ => (hG r.val).symm
    _ = ∑ i : Fin N, G i.val := Cert.LibSums.sum_masked N (T * B) hN G
    _ = ∑ i : Fin N, ((f i : ℝ) : EReal) := Finset.sum_congr rfl fun i _ => dif_pos i.isLt
    _ = _ := (Cert.LibSums.coe_sum _ _).symm

/-- From the column sum `s`, the column sum of squares `q`, the count `n` and `ε`, all real: the slope
    `γ · rsqrt(q/n − (s/n)² + ε)` is `scale` and the intercept `β − (s/n) · slope` is `shift`. -/
theorem scale_shift_of {N D : ℕ} (hN : 0 < N) (Y : Fin N → Fin D → ℝ) (g be : Fin D → ℝ) (o : Fin D)
    {s q n e γ β : EReal} (hs : s = ((∑ i, Y i o : ℝ) : EReal)) (hq : q = ((∑ i, Y i o * Y i o : ℝ) : EReal))
    (hn : n = (((N : ℝ)) : EReal)) (he : e = ((Cert.LibSums.eps : ℝ) : EReal))
    (hγ : γ = ((g o : ℝ) : EReal)) (hβ : β = ((be o : ℝ) : EReal)) :
    γ * Ideal.rsqrt (Ideal.div q n - Ideal.div s n * Ideal.div s n + e)
        = ((Cert.Spec.scale Cert.LibSums.eps Y g o : ℝ) : EReal)
    ∧ β - Ideal.div s n * (γ * Ideal.rsqrt (Ideal.div q n - Ideal.div s n * Ideal.div s n + e))
        = ((Cert.Spec.shift Cert.LibSums.eps Y g be o : ℝ) : EReal) := by
  subst hs hq hn he hγ hβ
  have hN' : (N : ℝ) ≠ 0 := by exact_mod_cast hN.ne'
  have hμ : Ideal.div ((∑ i, Y i o : ℝ) : EReal) (((N : ℝ)) : EReal) = ((Cert.Spec.mean Y o : ℝ) : EReal) :=
    Cert.LibSums.div_coe_coe _ _ hN'
  have hν : Ideal.div ((∑ i, Y i o * Y i o : ℝ) : EReal) (((N : ℝ)) : EReal)
      = (((∑ i, Y i o * Y i o) / (N : ℝ) : ℝ) : EReal) := Cert.LibSums.div_coe_coe _ _ hN'
  have hpos : 0 < Cert.Spec.var' Y o + Cert.LibSums.eps := by
    rw [Cert.Spec.var'_eq_var hN]
    exact add_pos_of_nonneg_of_pos (Cert.Spec.var_nonneg Y o) Cert.LibSums.eps_pos
  have hsc : ((g o : ℝ) : EReal) * Ideal.rsqrt (Ideal.div ((∑ i, Y i o * Y i o : ℝ) : EReal) (((N : ℝ)) : EReal)
        - Ideal.div ((∑ i, Y i o : ℝ) : EReal) (((N : ℝ)) : EReal) * Ideal.div ((∑ i, Y i o : ℝ) : EReal) (((N : ℝ)) : EReal)
        + ((Cert.LibSums.eps : ℝ) : EReal))
      = ((Cert.Spec.scale Cert.LibSums.eps Y g o : ℝ) : EReal) := by
    rw [hμ, hν, ← EReal.coe_mul, ← EReal.coe_sub, ← EReal.coe_add]
    rw [show (∑ i, Y i o * Y i o) / (N : ℝ) - Cert.Spec.mean Y o * Cert.Spec.mean Y o + Cert.LibSums.eps
        = Cert.Spec.var' Y o + Cert.LibSums.eps from rfl]
    rw [Cert.LibSums.rsqrt_coe_pos hpos, ← EReal.coe_mul]
    rfl
  refine ⟨hsc, ?_⟩
  rw [hsc, hμ, ← EReal.coe_mul, ← EReal.coe_sub]
  rfl

end General

/-! ## The host's term, and its value -/

section Term

/-- The sum of the 16 blocks, divided by the node count `1e5`. -/
def meanT (S : S16x1x64.Idx → EReal) : S1x64.Idx → EReal :=
  Host.divf (F := Ideal) (φ := .f32) (Host.reduceAdd (F := Ideal) (φ := .f32) S (constant (F := Ideal) S_ .f32 0x00000000#32) reducesTo_S16x1x64_S1x64_d0 h_S_)
    (broadcastInDim S1x64 ![] bcast_S_S1x64 (constant (F := Ideal) S_ .f32 0x47C35000#32))

/-- `g · rsqrt(ν − μ² + ε)`. -/
def scaleT (S Q : S16x1x64.Idx → EReal) (G : S64.Idx → EReal) : S1x64.Idx → EReal :=
  mulf (F := Ideal) (φ := .f32) (shapeCast S1x64 G shapeCasts_S64_S1x64)
    (Host.rsqrt (F := Ideal) (φ := .f32) (addf (F := Ideal) (φ := .f32) (subf (F := Ideal) (φ := .f32) (meanT Q) (mulf (F := Ideal) (φ := .f32) (meanT S) (meanT S)))
      (broadcastInDim S1x64 ![] bcast_S_S1x64 (constant (F := Ideal) S_ .f32 0x3727C5AC#32))))

/-- `b − μ · scale`. -/
def shiftT (S Q : S16x1x64.Idx → EReal) (G B : S64.Idx → EReal) : S1x64.Idx → EReal :=
  subf (F := Ideal) (φ := .f32) (shapeCast S1x64 B shapeCasts_S64_S1x64) (mulf (F := Ideal) (φ := .f32) (meanT S) (scaleT S Q G))

/-- The 16 block sums added: the column sum over the nodes. -/
theorem total_read (S : S16x1x64.Idx → EReal) (f : Fin 100000 → ℝ) (o : Fin 64)
    (hS : ∀ t : Fin 16, S (ix3 t 0 o)
      = ∑ y : Fin 6272, (if h : 6272 * t.val + y.val < 100000 then ((f ⟨6272 * t.val + y.val, h⟩ : ℝ) : EReal) else 0)) :
    Host.reduceAdd (F := Ideal) S (constant (F := Ideal) S_ .f32 0x00000000#32) reducesTo_S16x1x64_S1x64_d0 h_S_ (ix2 0 o)
      = ((∑ i, f i : ℝ) : EReal) := by
  have hR : S16x1x64.Reduces [0] S1x64 := by decide
  have e : Host.reduceAdd (F := Ideal) S (constant (F := Ideal) S_ .f32 0x00000000#32) reducesTo_S16x1x64_S1x64_d0 h_S_ (ix2 0 o)
      = Ideal.hostReduceAdd reducesTo_S16x1x64_S1x64_d0 S (Ideal.ofBits .f32 0x00000000#32) (ix2 0 o) := rfl
  rw [e, Ideal.hostReduceAdd_single _ hR, Ideal.ofBits_zero_f32, zero_add]
  rw [← sum_blocks_dite (T := 16) (B := 6272) (by decide) f]
  show ∑ t : Fin 16, S (hR.lift (ix2 0 o) t) = _
  refine Finset.sum_congr rfl fun t _ => ?_
  rw [← hS t]
  refine congrArg S (funext fun c => ?_)
  match c with
  | ⟨0, _⟩ => exact Fin.ext rfl
  | ⟨1, _⟩ => exact Fin.ext rfl
  | ⟨2, _⟩ => exact Fin.ext rfl

/-- The two coefficients, from block sums of `Y` and of `Y²`. -/
theorem scaleT_shiftT_apply {Y : Fin 100000 → Fin 64 → ℝ} {g be : Fin 64 → ℝ} (S Q : S16x1x64.Idx → EReal) (G B : S64.Idx → EReal)
    (hs : ∀ (t : Fin 16) (o : Fin 64), S (ix3 t 0 o)
      = ∑ y : Fin 6272, (if h : 6272 * t.val + y.val < 100000 then ((Y ⟨6272 * t.val + y.val, h⟩ o : ℝ) : EReal) else 0))
    (hq : ∀ (t : Fin 16) (o : Fin 64), Q (ix3 t 0 o)
      = ∑ y : Fin 6272, (if h : 6272 * t.val + y.val < 100000 then
          ((Y ⟨6272 * t.val + y.val, h⟩ o * Y ⟨6272 * t.val + y.val, h⟩ o : ℝ) : EReal) else 0))
    (hg : Vec1 G g) (hbe : Vec1 B be) (o : Fin 64) :
    scaleT S Q G (ix2 0 o) = ((Cert.Spec.scale Cert.LibSums.eps Y g o : ℝ) : EReal)
    ∧ shiftT S Q G B (ix2 0 o) = ((Cert.Spec.shift Cert.LibSums.eps Y g be o : ℝ) : EReal) := by
  have hn : broadcastInDim S1x64 ![] bcast_S_S1x64 (constant (F := Ideal) S_ .f32 0x47C35000#32) (ix2 0 o)
      = ((((100000 : ℕ) : ℝ)) : EReal) := by
    show Ideal.ofBits .f32 0x47C35000#32 = _
    rw [Cert.LibSums.ofBits_1e5]; norm_num
  have he : broadcastInDim S1x64 ![] bcast_S_S1x64 (constant (F := Ideal) S_ .f32 0x3727C5AC#32) (ix2 0 o)
      = ((Cert.LibSums.eps : ℝ) : EReal) := Cert.LibSums.ofBits_eps
  have hγ : shapeCast S1x64 G shapeCasts_S64_S1x64 (ix2 0 o) = ((g o : ℝ) : EReal) :=
    (shapeCast_a_1a_apply G _ 0 o).trans (hg o)
  have hβ : shapeCast S1x64 B shapeCasts_S64_S1x64 (ix2 0 o) = ((be o : ℝ) : EReal) :=
    (shapeCast_a_1a_apply B _ 0 o).trans (hbe o)
  have key := scale_shift_of (N := 100000) (by decide) Y g be o
    (total_read S (fun i => Y i o) o (fun t => hs t o)) (total_read Q (fun i => Y i o * Y i o) o (fun t => hq t o)) hn he hγ hβ
  exact key

end Term

/-! ### The stretch after the first statistics region (layer 1) -/

section Stretch1

variable (V : Valuation τ sig (Elt Ideal))

theorem scale1_eq :
    (StableHlo.after hostOps1 V (Proc.devRef .tc main_v46) : S1x64.Idx → EReal)
      = scaleT (V (Proc.devRef .tc main_v33_0)) (V (Proc.devRef .tc main_v33_1)) (V (Proc.devRef .tc main_arg5)) := by
  after_results_simp
  rfl

theorem shift1_eq :
    (StableHlo.after hostOps1 V (Proc.devRef .tc main_v49) : S1x64.Idx → EReal)
      = shiftT (V (Proc.devRef .tc main_v33_0)) (V (Proc.devRef .tc main_v33_1)) (V (Proc.devRef .tc main_arg5))
          (V (Proc.devRef .tc main_arg6)) := by
  after_results_simp
  rfl

theorem biasRow1_eq :
    (StableHlo.after hostOps1 V (Proc.devRef .tc main_v50) : S1x64.Idx → EReal)
      = shapeCast S1x64 (V (Proc.devRef .tc main_arg8) : S64.Idx → EReal) shapeCasts_S64_S1x64 := by
  after_results_simp
  rfl

end Stretch1

/-! ### The stretch after the second statistics region (layer 2): the same operations on other buffers -/

section Stretch2

variable (V : Valuation τ sig (Elt Ideal))

theorem scale2_eq :
    (StableHlo.after hostOps4 V (Proc.devRef .tc main_v93) : S1x64.Idx → EReal)
      = scaleT (V (Proc.devRef .tc main_v80_0)) (V (Proc.devRef .tc main_v80_1)) (V (Proc.devRef .tc main_arg13)) := by
  after_results_simp
  rfl

theorem shift2_eq :
    (StableHlo.after hostOps4 V (Proc.devRef .tc main_v96) : S1x64.Idx → EReal)
      = shiftT (V (Proc.devRef .tc main_v80_0)) (V (Proc.devRef .tc main_v80_1)) (V (Proc.devRef .tc main_arg13))
          (V (Proc.devRef .tc main_arg14)) := by
  after_results_simp
  rfl

theorem biasRow2_eq :
    (StableHlo.after hostOps4 V (Proc.devRef .tc main_v97) : S1x64.Idx → EReal)
      = shapeCast S1x64 (V (Proc.devRef .tc main_arg16) : S64.Idx → EReal) shapeCasts_S64_S1x64 := by
  after_results_simp
  rfl

end Stretch2

/-! ## The run's contents after each of the two stretches -/

section Run

/-- LAYER 1: from the block sums the first statistics region leaves, the slope and the intercept of the inner normalisation. -/
theorem host1 (m : (ℓ : Loc nD τ sig) → Buf (Elt Ideal) ℓ) (ρ : Dev nD → PrngReg) (c : Dev nD)
    {Y : Fin 100000 → Fin 64 → ℝ} {g be : Fin 64 → ℝ}
    (hs : ∀ (t : Fin 16) (o : Fin 64),
      (GenP.W8 (F := Ideal) m ρ c (Proc.devRef .tc main_v33_0) : S16x1x64.Idx → EReal) (ix3 t 0 o)
        = ∑ y : Fin 6272, (if h : 6272 * t.val + y.val < 100000 then ((Y ⟨6272 * t.val + y.val, h⟩ o : ℝ) : EReal) else 0))
    (hq : ∀ (t : Fin 16) (o : Fin 64),
      (GenP.W8 (F := Ideal) m ρ c (Proc.devRef .tc main_v33_1) : S16x1x64.Idx → EReal) (ix3 t 0 o)
        = ∑ y : Fin 6272, (if h : 6272 * t.val + y.val < 100000 then
            ((Y ⟨6272 * t.val + y.val, h⟩ o * Y ⟨6272 * t.val + y.val, h⟩ o : ℝ) : EReal) else 0))
    (hg : Vec1 (GenP.W8 (F := Ideal) m ρ c (Proc.devRef .tc main_arg5) : S64.Idx → EReal) g)
    (hbe : Vec1 (GenP.W8 (F := Ideal) m ρ c (Proc.devRef .tc main_arg6) : S64.Idx → EReal) be) :
    Row1 (GenP.W9 (F := Ideal) m ρ c (Proc.devRef .tc main_v46) : S1x64.Idx → EReal) (Cert.Spec.scale Cert.LibSums.eps Y g)
    ∧ Row1 (GenP.W9 (F := Ideal) m ρ c (Proc.devRef .tc main_v49) : S1x64.Idx → EReal)
        (Cert.Spec.shift Cert.LibSums.eps Y g be) :=
  ⟨fun o => (congrFun (scale1_eq (GenP.W8 m ρ c)) (ix2 0 o)).trans (scaleT_shiftT_apply _ _ _ _ hs hq hg hbe o).1,
   fun o => (congrFun (shift1_eq (GenP.W8 m ρ c)) (ix2 0 o)).trans (scaleT_shiftT_apply _ _ _ _ hs hq hg hbe o).2⟩

/-- The layer's second bias, as a row. -/
theorem b2_row (m : (ℓ : Loc nD τ sig) → Buf (Elt Ideal) ℓ) (ρ : Dev nD → PrngReg) (c : Dev nD) {β2 : Fin 64 → ℝ}
    (h : Vec1 (GenP.W8 (F := Ideal) m ρ c (Proc.devRef .tc main_arg8) : S64.Idx → EReal) β2) :
    Row1 (GenP.W9 (F := Ideal) m ρ c (Proc.devRef .tc main_v50) : S1x64.Idx → EReal) β2 :=
  fun o => (congrFun (biasRow1_eq (GenP.W8 m ρ c)) (ix2 0 o)).trans
    ((shapeCast_a_1a_apply _ _ 0 o).trans (h o))

/-- LAYER 2: the same from the second statistics region's block sums. -/
theorem host2 (m : (ℓ : Loc nD τ sig) → Buf (Elt Ideal) ℓ) (ρ : Dev nD → PrngReg) (c : Dev nD)
    {Y : Fin 100000 → Fin 64 → ℝ} {g be : Fin 64 → ℝ}
    (hs : ∀ (t : Fin 16) (o : Fin 64),
      (GenP.W14 (F := Ideal) m ρ c (Proc.devRef .tc main_v80_0) : S16x1x64.Idx → EReal) (ix3 t 0 o)
        = ∑ y : Fin 6272, (if h : 6272 * t.val + y.val < 100000 then ((Y ⟨6272 * t.val + y.val, h⟩ o : ℝ) : EReal) else 0))
    (hq : ∀ (t : Fin 16) (o : Fin 64),
      (GenP.W14 (F := Ideal) m ρ c (Proc.devRef .tc main_v80_1) : S16x1x64.Idx → EReal) (ix3 t 0 o)
        = ∑ y : Fin 6272, (if h : 6272 * t.val + y.val < 100000 then
            ((Y ⟨6272 * t.val + y.val, h⟩ o * Y ⟨6272 * t.val + y.val, h⟩ o : ℝ) : EReal) else 0))
    (hg : Vec1 (GenP.W14 (F := Ideal) m ρ c (Proc.devRef .tc main_arg13) : S64.Idx → EReal) g)
    (hbe : Vec1 (GenP.W14 (F := Ideal) m ρ c (Proc.devRef .tc main_arg14) : S64.Idx → EReal) be) :
    Row1 (GenP.W15 (F := Ideal) m ρ c (Proc.devRef .tc main_v93) : S1x64.Idx → EReal) (Cert.Spec.scale Cert.LibSums.eps Y g)
    ∧ Row1 (GenP.W15 (F := Ideal) m ρ c (Proc.devRef .tc main_v96) : S1x64.Idx → EReal)
        (Cert.Spec.shift Cert.LibSums.eps Y g be) :=
  ⟨fun o => (congrFun (scale2_eq (GenP.W14 m ρ c)) (ix2 0 o)).trans (scaleT_shiftT_apply _ _ _ _ hs hq hg hbe o).1,
   fun o => (congrFun (shift2_eq (GenP.W14 m ρ c)) (ix2 0 o)).trans (scaleT_shiftT_apply _ _ _ _ hs hq hg hbe o).2⟩

/-- The layer's second bias, as a row. -/
theorem b2_row2 (m : (ℓ : Loc nD τ sig) → Buf (Elt Ideal) ℓ) (ρ : Dev nD → PrngReg) (c : Dev nD) {β2 : Fin 64 → ℝ}
    (h : Vec1 (GenP.W14 (F := Ideal) m ρ c (Proc.devRef .tc main_arg16) : S64.Idx → EReal) β2) :
    Row1 (GenP.W15 (F := Ideal) m ρ c (Proc.devRef .tc main_v97) : S1x64.Idx → EReal) β2 :=
  fun o => (congrFun (biasRow2_eq (GenP.W14 m ρ c)) (ix2 0 o)).trans
    ((shapeCast_a_1a_apply _ _ 0 o).trans (h o))

end Run

end Cert.KStatsHost

end
-- ==== Proof.KStats.lean ====
/-
  The first pipeline of the program: the batch statistics of the first linear map.

  At grid point `t` the body takes rows `6272 t … 6272 t + 6271` of the two tall arrays, forms
  `l(r, o) = ∑ k, (x(r, k) + agg(r, k)) · w(o, k) + b(o)` (the operands' change of float format is the identity on
  ideal values, the matrix product into a zero accumulator the exact sum over the contracted axis), multiplies every row
  by the mask `1` (row number below `100000`) or `0` (the padding rows), and writes the column sums of the masked rows
  and of their squares to block `t` of the two outputs. Since `x · 0 = 0` for every extended real, nothing is needed of
  the padding rows: block `t` of the first output is `∑ y, if 6272 t + y < 100000 then Y(6272 t + y, o) else 0` with
  `Y` the real linear map of `Cert.Spec`, and the second output the same with `Y · Y`. The host operations that follow
  turn these sums into the normalisation's slope and intercept.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import proofs.«403050_j67860483276910_3_alg».proof.Proof.KStatsHost
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section
namespace Cert.KStats
open Idealize.ShloMosaic Idealize.ShloMosaic.ValueIdx Idealize.ShloMosaic.TcCoe Idealize.SL.Sem Cert.KernelIdeal Cert.KernelIdeal.Gen Cert.KernelIdeal.GenP
open Idealize.ShloMosaic.Pipeline (Dat)
open scoped BigOperators

abbrev D0 := dot_S6272x4_S4x64_S6272x64_1_0_0_1_n_n

theorem lhs_D0_0 (j : S6272x64.Idx) (k : D0.contr.Idx) : (D0.lhsIdx j k 0 : ℕ) = j 0 := by
  simp [DotDims.lhsIdx, D0, dot_S6272x4_S4x64_S6272x64_1_0_0_1_n_n]; rfl
theorem lhs_D0_1 (j : S6272x64.Idx) (k : D0.contr.Idx) : (D0.lhsIdx j k 1 : ℕ) = k ⟨0, by decide⟩ := by
  simp [DotDims.lhsIdx, D0, dot_S6272x4_S4x64_S6272x64_1_0_0_1_n_n]; rfl
theorem rhs_D0_0 (j : S6272x64.Idx) (k : D0.contr.Idx) : (D0.rhsIdx j k 0 : ℕ) = k ⟨0, by decide⟩ := by
  simp [DotDims.rhsIdx, D0, dot_S6272x4_S4x64_S6272x64_1_0_0_1_n_n]; rfl
theorem rhs_D0_1 (j : S6272x64.Idx) (k : D0.contr.Idx) : (D0.rhsIdx j k 1 : ℕ) = j 1 := by
  simp [DotDims.rhsIdx, D0, dot_S6272x4_S4x64_S6272x64_1_0_0_1_n_n]; rfl

theorem mask_word (t y : ℕ) (ht : t < 16) (hy : y < 6272) :
    (BitVec.ofNat 32 t * 6272#32 + BitVec.ofNat 32 y).slt 100000#32 = decide (6272 * t + y < 100000) := by
  have h : BitVec.ofNat 32 t * 6272#32 + BitVec.ofNat 32 y = BitVec.ofNat 32 (6272 * t + y) := by
    apply BitVec.eq_of_toNat_eq
    simp only [BitVec.toNat_add, BitVec.toNat_mul, BitVec.toNat_ofNat]
    omega
  rw [h, BitVec.slt]
  have h1 : (BitVec.ofNat 32 (6272 * t + y)).toInt = ((6272 * t + y : ℕ) : ℤ) := by
    rw [BitVec.toInt_eq_toNat_cond, BitVec.toNat_ofNat]
    have : (6272 * t + y) % 2 ^ 32 = 6272 * t + y := Nat.mod_eq_of_lt (by omega)
    rw [this, if_pos (by omega)]
  have h2 : (100000#32 : BitVec 32).toInt = 100000 := by decide
  rw [h1, h2]
  congr 1
  exact propext (by omega)

/-- The row mask as a number: the widened comparison bit, read signed, is `1` on the rows below `100000` and `0` from there on. -/
theorem mask_val (t y : ℕ) (ht : t < 16) (hy : y < 6272) :
    FloatOps.sitofp (F := Ideal) .f32
        ((IntOp.cmpi .slt (IntOp.addi (Scalar.muli (BitVec.ofNat 32 t) 6272#32) (BitVec.ofNat 32 y)) 100000#32).setWidth 32)
      = (if 6272 * t + y < 100000 then (1 : EReal) else 0) := by
  show (((((BitVec.ofBool ((BitVec.ofNat 32 t * 6272#32 + BitVec.ofNat 32 y).slt 100000#32)).setWidth 32).toInt : ℤ) : ℝ) : EReal) = _
  rw [mask_word t y ht hy]
  by_cases h : 6272 * t + y < 100000
  · rw [if_pos h, decide_eq_true h]; simp
  · rw [if_neg h, decide_eq_false h]; simp

theorem lift0 (o : Fin 64) (k : Fin (S6272x64.size 0)) :
    reduces_S6272x64_S64.lift (ix1 o) k = ix2 (k : Fin 6272) o := by
  funext c; apply Fin.ext
  match c with
  | ⟨0, _⟩ => rfl
  | ⟨1, _⟩ => rfl

theorem pay1_apply (i : grid0.Coords) (v0 v2 : Vec Ideal S6272x4 .f32) (v6 : Vec Ideal S64x4 .f32) (v10 : Vec Ideal S1x64 .f32)
    (y : Fin 6272) (o : Fin 64) :
    k0_pay1 (F := Ideal) i v0 v2 v6 v10 (ix2 y o)
      = ((∑ k : Fin 4, (v0 (ix2 y k) + v2 (ix2 y k)) * v6 (ix2 o k)) + v10 (ix2 0 o))
          * (if 6272 * (i 0).val + y.val < 100000 then (1 : EReal) else 0) := by
  unfold k0_pay1
  dsimp only
  refine (mulf_apply _ _ _).trans ?_
  refine congrArg₂ (· * ·) ?_ ?_
  · refine (addf_apply _ _ _).trans ?_
    refine congrArg₂ (· + ·) ?_ ?_
    · refine (Ideal.matmul_constant_zero_apply D0 none _ _ _).trans ?_
      rw [← Equiv.sum_comp (contrEquiv1 D0 4 rfl rfl).symm]
      refine Finset.sum_congr rfl fun k _ => ?_
      have hl : D0.lhsIdx (ix2 y o) ((contrEquiv1 D0 4 rfl rfl).symm k) = ix2 y k := by
        funext a; apply Fin.ext
        match a with
        | ⟨0, _⟩ => exact lhs_D0_0 _ _
        | ⟨1, _⟩ => exact (lhs_D0_1 _ _).trans (contrEquiv1_symm_val D0 4 rfl rfl k)
      have hr : D0.rhsIdx (ix2 y o) ((contrEquiv1 D0 4 rfl rfl).symm k) = ix2 k o := by
        funext a; apply Fin.ext
        match a with
        | ⟨0, _⟩ => exact (rhs_D0_0 _ _).trans (contrEquiv1_symm_val D0 4 rfl rfl k)
        | ⟨1, _⟩ => exact rhs_D0_1 _ _
      refine congrArg₂ (· * ·) ?_ ?_
      · rw [hl, shapeCast_self, shapeCast_self]; rfl
      · rw [hr, transpose_ix2_apply]; rfl
    · refine (broadcastTo_1b_ab_apply _ _ y o).trans ?_
      rw [shapeCast_self]
  · refine (sitofp_apply _ _).trans ?_
    refine Eq.trans ?_ (mask_val (i 0).val y.val (i 0).isLt y.isLt)
    refine congrArg (fun b : BitVec 1 => FloatOps.sitofp (F := Ideal) .f32 (b.setWidth 32)) ?_
    show IntOp.cmpi .slt (IntOp.addi (Scalar.muli (BitVec.ofNat 32 (i 0).val) 6272#32) (iota Kind.tc S6272x64 32 [0] iota_S6272x64_d0_w32 (ix2 y o))) 100000#32 = _
    rw [iota_single_apply]

/-- The first output's block: the column sums of the masked rows. -/
theorem pay2_apply (i : grid0.Coords) (v0 v2 : Vec Ideal S6272x4 .f32) (v6 : Vec Ideal S64x4 .f32) (v10 : Vec Ideal S1x64 .f32)
    (u0 u1 : Fin 1) (o : Fin 64) :
    k0_pay2 (F := Ideal) i v0 v2 v6 v10 (ix3 u0 u1 o)
      = ∑ y : Fin 6272, k0_pay1 (F := Ideal) i v0 v2 v6 v10 (ix2 y o) := by
  unfold k0_pay2
  dsimp only
  refine (shapeCast_ab_1ab_apply _ _ u0 u1 o).trans ?_
  refine (shapeCast_a_1a_apply _ _ u1 o).trans ?_
  refine (Ideal.multiReduction_add_single _ _ _ _ _ _).trans ?_
  exact Finset.sum_congr rfl fun k _ => by rw [lift0]; rfl

/-- The second output's block: the column sums of the squares of the masked rows. -/
theorem pay3_apply (i : grid0.Coords) (v0 v2 : Vec Ideal S6272x4 .f32) (v6 : Vec Ideal S64x4 .f32) (v10 : Vec Ideal S1x64 .f32)
    (u0 u1 : Fin 1) (o : Fin 64) :
    k0_pay3 (F := Ideal) i v0 v2 v6 v10 (ix3 u0 u1 o)
      = ∑ y : Fin 6272, k0_pay1 (F := Ideal) i v0 v2 v6 v10 (ix2 y o) * k0_pay1 (F := Ideal) i v0 v2 v6 v10 (ix2 y o) := by
  unfold k0_pay3
  dsimp only
  refine (shapeCast_ab_1ab_apply _ _ u0 u1 o).trans ?_
  refine (shapeCast_a_1a_apply _ _ u1 o).trans ?_
  refine (Ideal.multiReduction_add_single _ _ _ _ _ _).trans ?_
  exact Finset.sum_congr rfl fun k _ => by rw [lift0]; rfl

/-! ## The region: what every grid point writes back, and the two arrays after the last point -/

section Region

variable (V : (c : Dev nD) → (b : Ref sig .tc) → Buf (Elt Ideal) ((c : Thread nD τ).loc b)) (c : Dev nD)

/-- Row `r` of the first linear map, on the four arrays as the region finds them: any extended reals. -/
def lrow (X A : S100352x4.Idx → EReal) (W : S64x4.Idx → EReal) (B : S1x64.Idx → EReal) (r : ℕ) (o : Fin 64) : EReal :=
  if h : r < 100352 then (∑ k : Fin 4, (X (ix2 ⟨r, h⟩ k) + A (ix2 ⟨r, h⟩ k)) * W (ix2 o k)) + B (ix2 0 o) else 0

/-- The row mask: `1` on the rows below `100000`, `0` from there on. -/
def rmask (r : ℕ) : EReal := if r < 100000 then 1 else 0

/-- Block `t` of the first output: the masked rows `6272 t … 6272 t + 6271` summed per column. -/
def G4 (X A : S100352x4.Idx → EReal) (W : S64x4.Idx → EReal) (B : S1x64.Idx → EReal) : S16x1x64.Idx → EReal :=
  fun j => ∑ y : Fin 6272, lrow X A W B (6272 * (j 0).val + y.val) (j 2) * rmask (6272 * (j 0).val + y.val)

/-- Block `t` of the second output: their squares summed per column. -/
def G5 (X A : S100352x4.Idx → EReal) (W : S64x4.Idx → EReal) (B : S1x64.Idx → EReal) : S16x1x64.Idx → EReal :=
  fun j => ∑ y : Fin 6272, (lrow X A W B (6272 * (j 0).val + y.val) (j 2) * rmask (6272 * (j 0).val + y.val))
      * (lrow X A W B (6272 * (j 0).val + y.val) (j 2) * rmask (6272 * (j 0).val + y.val))

theorem hz2 : (![0, 0] : Fin 2 → Nat) = fun _ => 0 := funext fun a => by fin_cases a <;> rfl
theorem hz3 : (![0, 0, 0] : Fin 3 → Nat) = fun _ => 0 := funext fun a => by fin_cases a <;> rfl

/-- The windows' block indices at point `t`, decided over the sixteen points: the two row-block windows and the two
    outputs move with `t` on their first axis, everything else stays at block `0`; the grid coordinate is `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ ((grid0.coords t) 0).val = t.val :=
  (by decide +kernel : ∀ t : Fin grid0.N, _)

/-- The body's result at one point, from its four loaded blocks, when these are the rows `6272 t + y` of the two tall arrays
    and the two small arrays whole. -/
theorem point_eq (i : grid0.Coords) (t : Fin 16) (hi : (i 0).val = t.val)
    (X A : S100352x4.Idx → EReal) (W : S64x4.Idx → EReal) (B : S1x64.Idx → EReal)
    (x0 x1 : Vec Ideal S6272x4 .f32) (x2 : Vec Ideal S64x4 .f32) (x3 : Vec Ideal S1x64 .f32)
    (h0 : ∀ (y : Fin 6272) (k : Fin 4), x0 (ix2 y k) = X (ix2 ⟨6272 * t.val + y.val, by omega⟩ k))
    (h1 : ∀ (y : Fin 6272) (k : Fin 4), x1 (ix2 y k) = A (ix2 ⟨6272 * t.val + y.val, by omega⟩ k))
    (h2 : ∀ (o : Fin 64) (k : Fin 4), x2 (ix2 o k) = W (ix2 o k))
    (h3 : ∀ o : Fin 64, x3 (ix2 0 o) = B (ix2 0 o)) (y : Fin 6272) (o : Fin 64) :
    k0_pay1 (F := Ideal) i x0 x1 x2 x3 (ix2 y o)
      = lrow X A W B (6272 * t.val + y.val) o * rmask (6272 * t.val + y.val) := by
  rw [pay1_apply, hi]
  unfold lrow rmask
  rw [dif_pos (by omega : 6272 * t.val + y.val < 100352), h3]
  refine congrArg (fun s : EReal => (s + B (ix2 0 o)) * _) ?_
  exact Finset.sum_congr rfl fun k _ => by rw [h0, h1, h2]

theorem out4_apply (i : grid0.Coords) (t : Fin 16) (hi : (i 0).val = t.val)
    (X A : S100352x4.Idx → EReal) (W : S64x4.Idx → EReal) (B : S1x64.Idx → EReal)
    (x0 x1 : Vec Ideal S6272x4 .f32) (x2 : Vec Ideal S64x4 .f32) (x3 : Vec Ideal S1x64 .f32)
    (h0 : ∀ (y : Fin 6272) (k : Fin 4), x0 (ix2 y k) = X (ix2 ⟨6272 * t.val + y.val, by omega⟩ k))
    (h1 : ∀ (y : Fin 6272) (k : Fin 4), x1 (ix2 y k) = A (ix2 ⟨6272 * t.val + y.val, by omega⟩ k))
    (h2 : ∀ (o : Fin 64) (k : Fin 4), x2 (ix2 o k) = W (ix2 o k))
    (h3 : ∀ o : Fin 64, x3 (ix2 0 o) = B (ix2 0 o)) (j : S1x1x64.Idx) :
    out0_4 (F := Ideal) i x0 x1 x2 x3 j = G4 X A W B (ix3 t 0 (j 2)) := by
  obtain ⟨u0, u1, o, rfl⟩ : ∃ (u0 u1 : Fin 1) (o : Fin 64), j = ix3 u0 u1 o := ⟨j 0, j 1, j 2, eq_ix3 j⟩
  unfold out0_4
  rw [View.canon_unit_zero hz3]
  simp only [View.ld_unit_zero (S := S6272x4) hz2, View.ld_unit_zero (S := S64x4) hz2, View.ld_unit_zero (S := S1x64) hz2]
  refine (pay2_apply i x0 x1 x2 x3 u0 u1 o).trans ?_
  exact Finset.sum_congr rfl fun y _ => point_eq i t hi X A W B x0 x1 x2 x3 h0 h1 h2 h3 y o

theorem out5_apply (i : grid0.Coords) (t : Fin 16) (hi : (i 0).val = t.val)
    (X A : S100352x4.Idx → EReal) (W : S64x4.Idx → EReal) (B : S1x64.Idx → EReal)
    (x0 x1 : Vec Ideal S6272x4 .f32) (x2 : Vec Ideal S64x4 .f32) (x3 : Vec Ideal S1x64 .f32)
    (h0 : ∀ (y : Fin 6272) (k : Fin 4), x0 (ix2 y k) = X (ix2 ⟨6272 * t.val + y.val, by omega⟩ k))
    (h1 : ∀ (y : Fin 6272) (k : Fin 4), x1 (ix2 y k) = A (ix2 ⟨6272 * t.val + y.val, by omega⟩ k))
    (h2 : ∀ (o : Fin 64) (k : Fin 4), x2 (ix2 o k) = W (ix2 o k))
    (h3 : ∀ o : Fin 64, x3 (ix2 0 o) = B (ix2 0 o)) (j : S1x1x64.Idx) :
    out0_5 (F := Ideal) i x0 x1 x2 x3 j = G5 X A W B (ix3 t 0 (j 2)) := by
  obtain ⟨u0, u1, o, rfl⟩ : ∃ (u0 u1 : Fin 1) (o : Fin 64), j = ix3 u0 u1 o := ⟨j 0, j 1, j 2, eq_ix3 j⟩
  unfold out0_5
  rw [View.canon_unit_zero hz3]
  simp only [View.ld_unit_zero (S := S6272x4) hz2, View.ld_unit_zero (S := S64x4) hz2, View.ld_unit_zero (S := S1x64) hz2]
  refine (pay3_apply i x0 x1 x2 x3 u0 u1 o).trans ?_
  exact Finset.sum_congr rfl fun y _ => by rw [point_eq i t hi X A W B x0 x1 x2 x3 h0 h1 h2 h3 y o]

/-- A grid point as a number below sixteen. -/
def pt (t : Fin cfg0.N) : Fin 16 := ⟨t.val, lt_of_lt_of_eq t.isLt N_0⟩

/-- The first tall window's block at point `t` is rows `6272 t + y` of its array. -/
theorem blk0_apply (t : Fin cfg0.N) (y : Fin 6272) (k : Fin 4) :
    (iblk0 V c 0 t : Vec Ideal S6272x4 .f32) (ix2 y k)
      = (V c main_v19 : S100352x4.Idx → EReal) (ix2 ⟨6272 * (pt t).val + y.val, by have := (pt t).isLt; omega⟩ k) := by
  obtain ⟨e00, e01, -⟩ := idx_facts t
  unfold iblk0
  rw [View.read_apply]
  show V c main_v19 _ = V c main_v19 _
  congr 1
  funext a
  apply Fin.ext
  match a with
  | ⟨0, _⟩ => show win0_0.index t 0 * 6272 + 1 * y.val = 6272 * t.val + y.val; rw [e00]; omega
  | ⟨1, _⟩ => show win0_0.index t 1 * 4 + 1 * k.val = k.val; rw [e01]; omega

/-- The second tall window's block likewise. -/
theorem blk1_apply (t : Fin cfg0.N) (y : Fin 6272) (k : Fin 4) :
    (iblk0 V c 1 t : Vec Ideal S6272x4 .f32) (ix2 y k)
      = (V c main_v31 : S100352x4.Idx → EReal) (ix2 ⟨6272 * (pt t).val + y.val, by have := (pt t).isLt; omega⟩ k) := by
  obtain ⟨-, -, e10, e11, -⟩ := idx_facts t
  unfold iblk0
  rw [View.read_apply]
  show V c main_v31 _ = V c main_v31 _
  congr 1
  funext a
  apply Fin.ext
  match a with
  | ⟨0, _⟩ => show win0_1.index t 0 * 6272 + 1 * y.val = 6272 * t.val + y.val; rw [e10]; omega
  | ⟨1, _⟩ => show win0_1.index t 1 * 4 + 1 * k.val = k.val; rw [e11]; omega

/-- The weight window's block is the whole weight array at every point. -/
theorem blk2_apply (t : Fin cfg0.N) (o : Fin 64) (k : Fin 4) :
    (iblk0 V c 2 t : Vec Ideal S64x4 .f32) (ix2 o k) = (V c main_arg3 : S64x4.Idx → EReal) (ix2 o k) := by
  obtain ⟨-, -, -, -, e20, e21, -⟩ := idx_facts t
  unfold iblk0
  rw [View.read_apply]
  show V c main_arg3 _ = V c main_arg3 _
  congr 1
  funext a
  apply Fin.ext
  match a with
  | ⟨0, _⟩ => show win0_2.index t 0 * 64 + 1 * o.val = o.val; rw [e20]; omega
  | ⟨1, _⟩ => show win0_2.index t 1 * 4 + 1 * k.val = k.val; rw [e21]; omega

/-- The bias window's block is the whole bias row at every point. -/
theorem blk3_apply (t : Fin cfg0.N) (o : Fin 64) :
    (iblk0 V c 3 t : Vec Ideal S1x64 .f32) (ix2 0 o) = (V c main_v32 : S1x64.Idx → EReal) (ix2 0 o) := by
  obtain ⟨-, -, -, -, -, -, e30, e31, -⟩ := idx_facts t
  unfold iblk0
  rw [View.read_apply]
  show V c main_v32 _ = V c main_v32 _
  congr 1
  funext a
  apply Fin.ext
  match a with
  | ⟨0, _⟩ => show win0_3.index t 0 * 1 + 1 * 0 = 0; rw [e30]
  | ⟨1, _⟩ => show win0_3.index t 1 * 64 + 1 * o.val = o.val; rw [e31]; omega

/-- What point `t` writes back to the first output is block `t` of `G4` of the four arrays as the region finds them. -/
theorem flushed4_eq (t : Fin cfg0.N) :
    (dat0 V c).flushed 4 t = ((cfg0.win 4).blk t).view.read (Elt Ideal)
      (G4 (V c main_v19) (V c main_v31) (V c main_arg3) (V c main_v32)) := by
  show (cfg0.win 4).cut (grid0.coords t) ((dat0 V c).after 4 t) = _
  rw [after0_4]
  obtain ⟨-, -, -, -, -, -, -, -, e40, e41, e42, -, -, -, eg⟩ := idx_facts t
  funext j
  refine (out4_apply (grid0.coords t) (pt t) eg (V c main_v19) (V c main_v31) (V c main_arg3) (V c main_v32)
    (iblk0 V c 0 t) (iblk0 V c 1 t) (iblk0 V c 2 t) (iblk0 V c 3 t)
    (blk0_apply V c t) (blk1_apply V c t) (blk2_apply V c t) (blk3_apply V c t) j).trans ?_
  show G4 _ _ _ _ _ = G4 _ _ _ _ (((cfg0.win 4).blk t).view.emb j)
  congr 1
  funext a
  apply Fin.ext
  match a with
  | ⟨0, _⟩ => show t.val = win0_4.index t 0 * 1 + 1 * (j 0).val; rw [e40]; have h1 : (j 0).val < 1 := (j 0).isLt; omega
  | ⟨1, _⟩ => show 0 = win0_4.index t 1 * 1 + 1 * (j 1).val; rw [e41]; have h1 : (j 1).val < 1 := (j 1).isLt; omega
  | ⟨2, _⟩ => show (j 2).val = win0_4.index t 2 * 64 + 1 * (j 2).val; rw [e42]; omega

/-- What point `t` writes back to the second output is block `t` of `G5`. -/
theorem flushed5_eq (t : Fin cfg0.N) :
    (dat0 V c).flushed 5 t = ((cfg0.win 5).blk t).view.read (Elt Ideal)
      (G5 (V c main_v19) (V c main_v31) (V c main_arg3) (V c main_v32)) := by
  show (cfg0.win 5).cut (grid0.coords t) ((dat0 V c).after 5 t) = _
  rw [after0_5]
  obtain ⟨-, -, -, -, -, -, -, -, -, -, -, e50, e51, e52, eg⟩ := idx_facts t
  funext j
  refine (out5_apply (grid0.coords t) (pt t) eg (V c main_v19) (V c main_v31) (V c main_arg3) (V c main_v32)
    (iblk0 V c 0 t) (iblk0 V c 1 t) (iblk0 V c 2 t) (iblk0 V c 3 t)
    (blk0_apply V c t) (blk1_apply V c t) (blk2_apply V c t) (blk3_apply V c t) j).trans ?_
  show G5 _ _ _ _ _ = G5 _ _ _ _ (((cfg0.win 5).blk t).view.emb j)
  congr 1
  funext a
  apply Fin.ext
  match a with
  | ⟨0, _⟩ => show t.val = win0_5.index t 0 * 1 + 1 * (j 0).val; rw [e50]; have h1 : (j 0).val < 1 := (j 0).isLt; omega
  | ⟨1, _⟩ => show 0 = win0_5.index t 1 * 1 + 1 * (j 1).val; rw [e51]; have h1 : (j 1).val < 1 := (j 1).isLt; omega
  | ⟨2, _⟩ => show (j 2).val = win0_5.index t 2 * 64 + 1 * (j 2).val; rw [e52]; omega

/-- An index of the first output's array is in point `t`'s block iff each coordinate is in the block's range. -/
theorem mem_blk4 (t : Fin cfg0.N) (i : S16x1x64.Idx) :
    i ∈ ((cfg0.win 4).blk t).view.set ↔ ∀ a : Fin 3, win0_4.index t a * S1x1x64.size a ≤ (i a).val
      ∧ (i a).val < win0_4.index t a * S1x1x64.size a + S1x1x64.size a := by
  show i ∈ ((View.whole main_v33_0).slice (win0_4.rect t)).set ↔ _
  rw [View.set_slice_whole, Rect.mem_set_unit]
  exact Iff.rfl

theorem mem_blk5 (t : Fin cfg0.N) (i : S16x1x64.Idx) :
    i ∈ ((cfg0.win 5).blk t).view.set ↔ ∀ a : Fin 3, win0_5.index t a * S1x1x64.size a ≤ (i a).val
      ∧ (i a).val < win0_5.index t a * S1x1x64.size a + S1x1x64.size a := by
  show i ∈ ((View.whole main_v33_1).slice (win0_5.rect t)).set ↔ _
  rw [View.set_slice_whole, Rect.mem_set_unit]
  exact Iff.rfl

/-- The sixteen blocks cover the first output's array: index `(t, 0, o)` lies in point `t`'s block. -/
theorem cover4 (i : S16x1x64.Idx) : ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 64 := (i 2).isLt
  have ht : ((⟨(i 0).val, lt_of_lt_of_eq h0 N_0.symm⟩ : Fin cfg0.N)).val = (i 0).val := rfl
  refine ⟨⟨(i 0).val, lt_of_lt_of_eq h0 N_0.symm⟩, flush0_4 _, ?_⟩
  rw [mem_blk4]
  obtain ⟨-, -, -, -, -, -, -, -, e40, e41, e42, -⟩ := idx_facts ⟨(i 0).val, lt_of_lt_of_eq h0 N_0.symm⟩
  intro a
  match a with
  | ⟨0, _⟩ => show win0_4.index _ 0 * 1 ≤ (i 0).val ∧ (i 0).val < win0_4.index _ 0 * 1 + 1; rw [e40, ht]; omega
  | ⟨1, _⟩ => show win0_4.index _ 1 * 1 ≤ (i 1).val ∧ (i 1).val < win0_4.index _ 1 * 1 + 1; rw [e41]; omega
  | ⟨2, _⟩ => show win0_4.index _ 2 * 64 ≤ (i 2).val ∧ (i 2).val < win0_4.index _ 2 * 64 + 64; rw [e42]; omega

theorem cover5 (i : S16x1x64.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 64 := (i 2).isLt
  have ht : ((⟨(i 0).val, lt_of_lt_of_eq h0 N_0.symm⟩ : Fin cfg0.N)).val = (i 0).val := rfl
  refine ⟨⟨(i 0).val, lt_of_lt_of_eq h0 N_0.symm⟩, flush0_5 _, ?_⟩
  rw [mem_blk5]
  obtain ⟨-, -, -, -, -, -, -, -, -, -, -, e50, e51, e52, -⟩ := idx_facts ⟨(i 0).val, lt_of_lt_of_eq h0 N_0.symm⟩
  intro a
  match a with
  | ⟨0, _⟩ => show win0_5.index _ 0 * 1 ≤ (i 0).val ∧ (i 0).val < win0_5.index _ 0 * 1 + 1; rw [e50, ht]; omega
  | ⟨1, _⟩ => show win0_5.index _ 1 * 1 ≤ (i 1).val ∧ (i 1).val < win0_5.index _ 1 * 1 + 1; rw [e51]; omega
  | ⟨2, _⟩ => show win0_5.index _ 2 * 64 ≤ (i 2).val ∧ (i 2).val < win0_5.index _ 2 * 64 + 64; rw [e52]; omega

/-- After the last point the first output's array holds `G4` of the four arrays as the region found them … -/
theorem arr4 : (dat0 V c).arrAt 4 cfg0.N = G4 (V c main_v19) (V c main_v31) (V c main_arg3) (V c main_v32) :=
  (dat0 V c).arrAt_eq_of_cover 4 _ (fun t _ => flushed4_eq V c t) cover4

/-- … and the second output's array `G5`. -/
theorem arr5 : (dat0 V c).arrAt 5 cfg0.N = G5 (V c main_v19) (V c main_v31) (V c main_arg3) (V c main_v32) :=
  (dat0 V c).arrAt_eq_of_cover 5 _ (fun t _ => flushed5_eq V c t) cover5

end Region

/-! ## The run: the two outputs after the region, when the four arrays hold reals -/

section Run

open Cert.Lift

variable (m : (ℓ : Loc nD τ sig) → Buf (Elt Ideal) ℓ) (ρ : Dev nD → PrngReg) (c : Dev nD)

/-- On arrays that hold reals, a row below `100000` of the first linear map is the real linear map's row: the
    coercion carries sums, products and the bias across. -/
theorem lrow_coe {X A : S100352x4.Idx → EReal} {W : S64x4.Idx → EReal} {B : S1x64.Idx → EReal}
    {x a : Fin 100000 → Fin 4 → ℝ} {w : Fin 64 → Fin 4 → ℝ} {β : Fin 64 → ℝ}
    (hx : Rows X x) (ha : Rows A a) (hw : Mat W w) (hβ : Row1 B β) (i : Fin 100000) (o : Fin 64) :
    lrow X A W B i.val o = ((Cert.Spec.lin (fun i k => x i k + a i k) w β i o : ℝ) : EReal) := by
  have hi : i.val < 100352 := by have := i.isLt; omega
  unfold lrow Cert.Spec.lin
  rw [dif_pos hi, EReal.coe_add, Cert.LibSums.coe_sum, hβ o]
  refine congrArg (· + ((β o : ℝ) : EReal)) ?_
  refine Finset.sum_congr rfl fun k _ => ?_
  rw [hx i hi k, ha i hi k, hw o k, EReal.coe_mul, EReal.coe_add]

/-- A masked row: the real row below `100000`, zero from there on whatever the padding row holds. -/
theorem masked_row {X A : S100352x4.Idx → EReal} {W : S64x4.Idx → EReal} {B : S1x64.Idx → EReal}
    {x a : Fin 100000 → Fin 4 → ℝ} {w : Fin 64 → Fin 4 → ℝ} {β : Fin 64 → ℝ}
    (hx : Rows X x) (ha : Rows A a) (hw : Mat W w) (hβ : Row1 B β) (r : ℕ) (o : Fin 64) :
    lrow X A W B r o * rmask r
      = if h : r < 100000 then ((Cert.Spec.lin (fun i k => x i k + a i k) w β ⟨r, h⟩ o : ℝ) : EReal) else 0 := by
  unfold rmask
  by_cases h : r < 100000
  · rw [if_pos h, dif_pos h, mul_one]; exact lrow_coe hx ha hw hβ ⟨r, h⟩ o
  · rw [if_neg h, dif_neg h, mul_zero]

/-- After the region the first output's array is `G4` of the four arrays at the region's entry … -/
theorem W8_sums : (W8 (F := Ideal) m ρ c (Proc.devRef .tc main_v33_0) : S16x1x64.Idx → EReal)
    = G4 (W7 (F := Ideal) m ρ c (Proc.devRef .tc main_v19)) (W7 (F := Ideal) m ρ c (Proc.devRef .tc main_v31))
        (W7 (F := Ideal) m ρ c (Proc.devRef .tc main_arg3)) (W7 (F := Ideal) m ρ c (Proc.devRef .tc main_v32)) :=
  (W8_arr (F := Ideal) m ρ c 4).trans (arr4 (V7 m ρ) c)

/-- … and the second output's array `G5`. -/
theorem W8_sumsqs : (W8 (F := Ideal) m ρ c (Proc.devRef .tc main_v33_1) : S16x1x64.Idx → EReal)
    = G5 (W7 (F := Ideal) m ρ c (Proc.devRef .tc main_v19)) (W7 (F := Ideal) m ρ c (Proc.devRef .tc main_v31))
        (W7 (F := Ideal) m ρ c (Proc.devRef .tc main_arg3)) (W7 (F := Ideal) m ρ c (Proc.devRef .tc main_v32)) :=
  (W8_arr (F := Ideal) m ρ c 5).trans (arr5 (V7 m ρ) c)

/-- After the region, block `t` of the first output holds the column sums of the real linear map's rows
    `6272 t … 6272 t + 6271` that lie below `100000`, and the second output those of their squares. -/
theorem region0_sums {x a : Fin 100000 → Fin 4 → ℝ} {w : Fin 64 → Fin 4 → ℝ} {β : Fin 64 → ℝ}
    (hx : Rows (W7 (F := Ideal) m ρ c (Proc.devRef .tc main_v19)) x)
    (ha : Rows (W7 (F := Ideal) m ρ c (Proc.devRef .tc main_v31)) a)
    (hw : Mat (W7 (F := Ideal) m ρ c (Proc.devRef .tc main_arg3)) w)
    (hβ : Row1 (W7 (F := Ideal) m ρ c (Proc.devRef .tc main_v32)) β) :
    (∀ (t : Fin 16) (o : Fin 64),
        (W8 (F := Ideal) m ρ c (Proc.devRef .tc main_v33_0) : S16x1x64.Idx → EReal) (ix3 t 0 o)
          = ∑ y : Fin 6272, (if h : 6272 * t.val + y.val < 100000
              then ((Cert.Spec.lin (fun i k => x i k + a i k) w β ⟨6272 * t.val + y.val, h⟩ o : ℝ) : EReal) else 0))
    ∧ (∀ (t : Fin 16) (o : Fin 64),
        (W8 (F := Ideal) m ρ c (Proc.devRef .tc main_v33_1) : S16x1x64.Idx → EReal) (ix3 t 0 o)
          = ∑ y : Fin 6272, (if h : 6272 * t.val + y.val < 100000
              then ((Cert.Spec.lin (fun i k => x i k + a i k) w β ⟨6272 * t.val + y.val, h⟩ o
                      * Cert.Spec.lin (fun i k => x i k + a i k) w β ⟨6272 * t.val + y.val, h⟩ o : ℝ) : EReal) else 0)) := by
  refine ⟨fun t o => ?_, fun t o => ?_⟩
  · rw [W8_sums]
    show ∑ y : Fin 6272, lrow _ _ _ _ (6272 * t.val + y.val) o * rmask (6272 * t.val + y.val) = _
    exact Finset.sum_congr rfl fun y _ => masked_row hx ha hw hβ _ o
  · rw [W8_sumsqs]
    show ∑ y : Fin 6272, (lrow _ _ _ _ (6272 * t.val + y.val) o * rmask (6272 * t.val + y.val))
        * (lrow _ _ _ _ (6272 * t.val + y.val) o * rmask (6272 * t.val + y.val)) = _
    refine Finset.sum_congr rfl fun y _ => ?_
    rw [masked_row hx ha hw hβ _ o]
    by_cases h : 6272 * t.val + y.val < 100000
    · rw [dif_pos h, dif_pos h, EReal.coe_mul]
    · rw [dif_neg h, dif_neg h, mul_zero]

/-- The normalisation's slope and intercept after the host operations that follow the region: the two outputs' blocks
    added up are the sums of the real linear map's `100000` rows and of their squares, from which the host forms mean,
    variance (mean of squares minus squared mean), slope and intercept. -/
theorem stats1 {x a : Fin 100000 → Fin 4 → ℝ} {w : Fin 64 → Fin 4 → ℝ} {β g be : Fin 64 → ℝ}
    (hx : Rows (W7 (F := Ideal) m ρ c (Proc.devRef .tc main_v19)) x)
    (ha : Rows (W7 (F := Ideal) m ρ c (Proc.devRef .tc main_v31)) a)
    (hw : Mat (W7 (F := Ideal) m ρ c (Proc.devRef .tc main_arg3)) w)
    (hβ : Row1 (W7 (F := Ideal) m ρ c (Proc.devRef .tc main_v32)) β)
    (hg : Vec1 (W8 (F := Ideal) m ρ c (Proc.devRef .tc main_arg5)) g)
    (hbe : Vec1 (W8 (F := Ideal) m ρ c (Proc.devRef .tc main_arg6)) be) :
    Row1 (W9 (F := Ideal) m ρ c (Proc.devRef .tc main_v46))
        (Cert.Spec.scale Cert.LibSums.eps (Cert.Spec.lin (fun i k => x i k + a i k) w β) g)
    ∧ Row1 (W9 (F := Ideal) m ρ c (Proc.devRef .tc main_v49))
        (Cert.Spec.shift Cert.LibSums.eps (Cert.Spec.lin (fun i k => x i k + a i k) w β) g be) :=
  Cert.KStatsHost.host1 m ρ c (region0_sums m ρ c hx ha hw hβ).1 (region0_sums m ρ c hx ha hw hβ).2 hg hbe

/-- The layer's second bias, reshaped to a row by the same host operations. -/
theorem b2_row {β2 : Fin 64 → ℝ} (h : Vec1 (W8 (F := Ideal) m ρ c (Proc.devRef .tc main_arg8)) β2) :
    Row1 (W9 (F := Ideal) m ρ c (Proc.devRef .tc main_v50)) β2 :=
  Cert.KStatsHost.b2_row m ρ c h

end Run

end Cert.KStats
-- ==== Proof.KStats2.lean ====
/-
  The first pipeline of the program: the batch statistics of the first linear map.

  At grid point `t` the body takes rows `6272 t … 6272 t + 6271` of the two tall arrays, forms
  `l(r, o) = ∑ k, (x(r, k) + agg(r, k)) · w(o, k) + b(o)` (the operands' change of float format is the identity on
  ideal values, the matrix product into a zero accumulator the exact sum over the contracted axis), multiplies every row
  by the mask `1` (row number below `100000`) or `0` (the padding rows), and writes the column sums of the masked rows
  and of their squares to block `t` of the two outputs. Since `x · 0 = 0` for every extended real, nothing is needed of
  the padding rows: block `t` of the first output is `∑ y, if 6272 t + y < 100000 then Y(6272 t + y, o) else 0` with
  `Y` the real linear map of `Cert.Spec`, and the second output the same with `Y · Y`. The host operations that follow
  turn these sums into the normalisation's slope and intercept.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import proofs.«403050_j67860483276910_3_alg».proof.Proof.KStatsHost
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section
namespace Cert.KStats2
open Idealize.ShloMosaic Idealize.ShloMosaic.ValueIdx Idealize.ShloMosaic.TcCoe Idealize.SL.Sem Cert.KernelIdeal Cert.KernelIdeal.Gen Cert.KernelIdeal.GenP
open Idealize.ShloMosaic.Pipeline (Dat)
open scoped BigOperators

abbrev D0 := dot_S6272x64_S64x64_S6272x64_1_0_0_1_n_n

theorem lhs_D0_0 (j : S6272x64.Idx) (k : D0.contr.Idx) : (D0.lhsIdx j k 0 : ℕ) = j 0 := by
  simp [DotDims.lhsIdx, D0, dot_S6272x64_S64x64_S6272x64_1_0_0_1_n_n]; rfl
theorem lhs_D0_1 (j : S6272x64.Idx) (k : D0.contr.Idx) : (D0.lhsIdx j k 1 : ℕ) = k ⟨0, by decide⟩ := by
  simp [DotDims.lhsIdx, D0, dot_S6272x64_S64x64_S6272x64_1_0_0_1_n_n]; rfl
theorem rhs_D0_0 (j : S6272x64.Idx) (k : D0.contr.Idx) : (D0.rhsIdx j k 0 : ℕ) = k ⟨0, by decide⟩ := by
  simp [DotDims.rhsIdx, D0, dot_S6272x64_S64x64_S6272x64_1_0_0_1_n_n]; rfl
theorem rhs_D0_1 (j : S6272x64.Idx) (k : D0.contr.Idx) : (D0.rhsIdx j k 1 : ℕ) = j 1 := by
  simp [DotDims.rhsIdx, D0, dot_S6272x64_S64x64_S6272x64_1_0_0_1_n_n]; rfl

theorem mask_word (t y : ℕ) (ht : t < 16) (hy : y < 6272) :
    (BitVec.ofNat 32 t * 6272#32 + BitVec.ofNat 32 y).slt 100000#32 = decide (6272 * t + y < 100000) := by
  have h : BitVec.ofNat 32 t * 6272#32 + BitVec.ofNat 32 y = BitVec.ofNat 32 (6272 * t + y) := by
    apply BitVec.eq_of_toNat_eq
    simp only [BitVec.toNat_add, BitVec.toNat_mul, BitVec.toNat_ofNat]
    omega
  rw [h, BitVec.slt]
  have h1 : (BitVec.ofNat 32 (6272 * t + y)).toInt = ((6272 * t + y : ℕ) : ℤ) := by
    rw [BitVec.toInt_eq_toNat_cond, BitVec.toNat_ofNat]
    have : (6272 * t + y) % 2 ^ 32 = 6272 * t + y := Nat.mod_eq_of_lt (by omega)
    rw [this, if_pos (by omega)]
  have h2 : (100000#32 : BitVec 32).toInt = 100000 := by decide
  rw [h1, h2]
  congr 1
  exact propext (by omega)

/-- The row mask as a number: the widened comparison bit, read signed, is `1` on the rows below `100000` and `0` from there on. -/
theorem mask_val (t y : ℕ) (ht : t < 16) (hy : y < 6272) :
    FloatOps.sitofp (F := Ideal) .f32
        ((IntOp.cmpi .slt (IntOp.addi (Scalar.muli (BitVec.ofNat 32 t) 6272#32) (BitVec.ofNat 32 y)) 100000#32).setWidth 32)
      = (if 6272 * t + y < 100000 then (1 : EReal) else 0) := by
  show (((((BitVec.ofBool ((BitVec.ofNat 32 t * 6272#32 + BitVec.ofNat 32 y).slt 100000#32)).setWidth 32).toInt : ℤ) : ℝ) : EReal) = _
  rw [mask_word t y ht hy]
  by_cases h : 6272 * t + y < 100000
  · rw [if_pos h, decide_eq_true h]; simp
  · rw [if_neg h, decide_eq_false h]; simp

theorem lift0 (o : Fin 64) (k : Fin (S6272x64.size 0)) :
    reduces_S6272x64_S64.lift (ix1 o) k = ix2 (k : Fin 6272) o := by
  funext c; apply Fin.ext
  match c with
  | ⟨0, _⟩ => rfl
  | ⟨1, _⟩ => rfl

theorem pay1_apply (i : grid3.Coords) (v0 v2 : Vec Ideal S6272x64 .f32) (v6 : Vec Ideal S64x64 .f32) (v10 : Vec Ideal S1x64 .f32)
    (y : Fin 6272) (o : Fin 64) :
    k3_pay1 (F := Ideal) i v0 v2 v6 v10 (ix2 y o)
      = ((∑ k : Fin 64, (v0 (ix2 y k) + v2 (ix2 y k)) * v6 (ix2 o k)) + v10 (ix2 0 o))
          * (if 6272 * (i 0).val + y.val < 100000 then (1 : EReal) else 0) := by
  unfold k3_pay1
  dsimp only
  refine (mulf_apply _ _ _).trans ?_
  refine congrArg₂ (· * ·) ?_ ?_
  · refine (addf_apply _ _ _).trans ?_
    refine congrArg₂ (· + ·) ?_ ?_
    · refine (Ideal.matmul_constant_zero_apply D0 none _ _ _).trans ?_
      rw [← Equiv.sum_comp (contrEquiv1 D0 64 rfl rfl).symm]
      refine Finset.sum_congr rfl fun k _ => ?_
      have hl : D0.lhsIdx (ix2 y o) ((contrEquiv1 D0 64 rfl rfl).symm k) = ix2 y k := by
        funext a; apply Fin.ext
        match a with
        | ⟨0, _⟩ => exact lhs_D0_0 _ _
        | ⟨1, _⟩ => exact (lhs_D0_1 _ _).trans (contrEquiv1_symm_val D0 64 rfl rfl k)
      have hr : D0.rhsIdx (ix2 y o) ((contrEquiv1 D0 64 rfl rfl).symm k) = ix2 k o := by
        funext a; apply Fin.ext
        match a with
        | ⟨0, _⟩ => exact (rhs_D0_0 _ _).trans (contrEquiv1_symm_val D0 64 rfl rfl k)
        | ⟨1, _⟩ => exact rhs_D0_1 _ _
      refine congrArg₂ (· * ·) ?_ ?_
      · rw [hl, shapeCast_self, shapeCast_self]; rfl
      · rw [hr, transpose_ix2_apply]; rfl
    · refine (broadcastTo_1b_ab_apply _ _ y o).trans ?_
      rw [shapeCast_self]
  · refine (sitofp_apply _ _).trans ?_
    refine Eq.trans ?_ (mask_val (i 0).val y.val (i 0).isLt y.isLt)
    refine congrArg (fun b : BitVec 1 => FloatOps.sitofp (F := Ideal) .f32 (b.setWidth 32)) ?_
    show IntOp.cmpi .slt (IntOp.addi (Scalar.muli (BitVec.ofNat 32 (i 0).val) 6272#32) (iota Kind.tc S6272x64 32 [0] iota_S6272x64_d0_w32 (ix2 y o))) 100000#32 = _
    rw [iota_single_apply]

/-- The first output's block: the column sums of the masked rows. -/
theorem pay2_apply (i : grid3.Coords) (v0 v2 : Vec Ideal S6272x64 .f32) (v6 : Vec Ideal S64x64 .f32) (v10 : Vec Ideal S1x64 .f32)
    (u0 u1 : Fin 1) (o : Fin 64) :
    k3_pay2 (F := Ideal) i v0 v2 v6 v10 (ix3 u0 u1 o)
      = ∑ y : Fin 6272, k3_pay1 (F := Ideal) i v0 v2 v6 v10 (ix2 y o) := by
  unfold k3_pay2
  dsimp only
  refine (shapeCast_ab_1ab_apply _ _ u0 u1 o).trans ?_
  refine (shapeCast_a_1a_apply _ _ u1 o).trans ?_
  refine (Ideal.multiReduction_add_single _ _ _ _ _ _).trans ?_
  exact Finset.sum_congr rfl fun k _ => by rw [lift0]; rfl

/-- The second output's block: the column sums of the squares of the masked rows. -/
theorem pay3_apply (i : grid3.Coords) (v0 v2 : Vec Ideal S6272x64 .f32) (v6 : Vec Ideal S64x64 .f32) (v10 : Vec Ideal S1x64 .f32)
    (u0 u1 : Fin 1) (o : Fin 64) :
    k3_pay3 (F := Ideal) i v0 v2 v6 v10 (ix3 u0 u1 o)
      = ∑ y : Fin 6272, k3_pay1 (F := Ideal) i v0 v2 v6 v10 (ix2 y o) * k3_pay1 (F := Ideal) i v0 v2 v6 v10 (ix2 y o) := by
  unfold k3_pay3
  dsimp only
  refine (shapeCast_ab_1ab_apply _ _ u0 u1 o).trans ?_
  refine (shapeCast_a_1a_apply _ _ u1 o).trans ?_
  refine (Ideal.multiReduction_add_single _ _ _ _ _ _).trans ?_
  exact Finset.sum_congr rfl fun k _ => by rw [lift0]; rfl

/-! ## The region: what every grid point writes back, and the two arrays after the last point -/

section Region

variable (V : (c : Dev nD) → (b : Ref sig .tc) → Buf (Elt Ideal) ((c : Thread nD τ).loc b)) (c : Dev nD)

/-- Row `r` of the first linear map, on the four arrays as the region finds them: any extended reals. -/
def lrow (X A : S100352x64.Idx → EReal) (W : S64x64.Idx → EReal) (B : S1x64.Idx → EReal) (r : ℕ) (o : Fin 64) : EReal :=
  if h : r < 100352 then (∑ k : Fin 64, (X (ix2 ⟨r, h⟩ k) + A (ix2 ⟨r, h⟩ k)) * W (ix2 o k)) + B (ix2 0 o) else 0

/-- The row mask: `1` on the rows below `100000`, `0` from there on. -/
def rmask (r : ℕ) : EReal := if r < 100000 then 1 else 0

/-- Block `t` of the first output: the masked rows `6272 t … 6272 t + 6271` summed per column. -/
def G4 (X A : S100352x64.Idx → EReal) (W : S64x64.Idx → EReal) (B : S1x64.Idx → EReal) : S16x1x64.Idx → EReal :=
  fun j => ∑ y : Fin 6272, lrow X A W B (6272 * (j 0).val + y.val) (j 2) * rmask (6272 * (j 0).val + y.val)

/-- Block `t` of the second output: their squares summed per column. -/
def G5 (X A : S100352x64.Idx → EReal) (W : S64x64.Idx → EReal) (B : S1x64.Idx → EReal) : S16x1x64.Idx → EReal :=
  fun j => ∑ y : Fin 6272, (lrow X A W B (6272 * (j 0).val + y.val) (j 2) * rmask (6272 * (j 0).val + y.val))
      * (lrow X A W B (6272 * (j 0).val + y.val) (j 2) * rmask (6272 * (j 0).val + y.val))

theorem hz2 : (![0, 0] : Fin 2 → Nat) = fun _ => 0 := funext fun a => by fin_cases a <;> rfl
theorem hz3 : (![0, 0, 0] : Fin 3 → Nat) = fun _ => 0 := funext fun a => by fin_cases a <;> rfl

/-- The windows' block indices at point `t`, decided over the sixteen points: the two row-block windows and the two
    outputs move with `t` on their first axis, everything else stays at block `0`; the grid coordinate is `t`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 3) = t.val ∧ win3_4.index t (1 : Fin 3) = 0 ∧ win3_4.index t (2 : Fin 3) = 0
    ∧ win3_5.index t (0 : Fin 3) = t.val ∧ win3_5.index t (1 : Fin 3) = 0 ∧ win3_5.index t (2 : Fin 3) = 0
    ∧ ((grid3.coords t) 0).val = t.val :=
  (by decide +kernel : ∀ t : Fin grid3.N, _)

/-- The body's result at one point, from its four loaded blocks, when these are the rows `6272 t + y` of the two tall arrays
    and the two small arrays whole. -/
theorem point_eq (i : grid3.Coords) (t : Fin 16) (hi : (i 0).val = t.val)
    (X A : S100352x64.Idx → EReal) (W : S64x64.Idx → EReal) (B : S1x64.Idx → EReal)
    (x0 x1 : Vec Ideal S6272x64 .f32) (x2 : Vec Ideal S64x64 .f32) (x3 : Vec Ideal S1x64 .f32)
    (h0 : ∀ (y : Fin 6272) (k : Fin 64), x0 (ix2 y k) = X (ix2 ⟨6272 * t.val + y.val, by omega⟩ k))
    (h1 : ∀ (y : Fin 6272) (k : Fin 64), x1 (ix2 y k) = A (ix2 ⟨6272 * t.val + y.val, by omega⟩ k))
    (h2 : ∀ (o : Fin 64) (k : Fin 64), x2 (ix2 o k) = W (ix2 o k))
    (h3 : ∀ o : Fin 64, x3 (ix2 0 o) = B (ix2 0 o)) (y : Fin 6272) (o : Fin 64) :
    k3_pay1 (F := Ideal) i x0 x1 x2 x3 (ix2 y o)
      = lrow X A W B (6272 * t.val + y.val) o * rmask (6272 * t.val + y.val) := by
  rw [pay1_apply, hi]
  unfold lrow rmask
  rw [dif_pos (by omega : 6272 * t.val + y.val < 100352), h3]
  refine congrArg (fun s : EReal => (s + B (ix2 0 o)) * _) ?_
  exact Finset.sum_congr rfl fun k _ => by rw [h0, h1, h2]

theorem out4_apply (i : grid3.Coords) (t : Fin 16) (hi : (i 0).val = t.val)
    (X A : S100352x64.Idx → EReal) (W : S64x64.Idx → EReal) (B : S1x64.Idx → EReal)
    (x0 x1 : Vec Ideal S6272x64 .f32) (x2 : Vec Ideal S64x64 .f32) (x3 : Vec Ideal S1x64 .f32)
    (h0 : ∀ (y : Fin 6272) (k : Fin 64), x0 (ix2 y k) = X (ix2 ⟨6272 * t.val + y.val, by omega⟩ k))
    (h1 : ∀ (y : Fin 6272) (k : Fin 64), x1 (ix2 y k) = A (ix2 ⟨6272 * t.val + y.val, by omega⟩ k))
    (h2 : ∀ (o : Fin 64) (k : Fin 64), x2 (ix2 o k) = W (ix2 o k))
    (h3 : ∀ o : Fin 64, x3 (ix2 0 o) = B (ix2 0 o)) (j : S1x1x64.Idx) :
    out3_4 (F := Ideal) i x0 x1 x2 x3 j = G4 X A W B (ix3 t 0 (j 2)) := by
  obtain ⟨u0, u1, o, rfl⟩ : ∃ (u0 u1 : Fin 1) (o : Fin 64), j = ix3 u0 u1 o := ⟨j 0, j 1, j 2, eq_ix3 j⟩
  unfold out3_4
  rw [View.canon_unit_zero hz3]
  simp only [View.ld_unit_zero (S := S6272x64) hz2, View.ld_unit_zero (S := S64x64) hz2, View.ld_unit_zero (S := S1x64) hz2]
  refine (pay2_apply i x0 x1 x2 x3 u0 u1 o).trans ?_
  exact Finset.sum_congr rfl fun y _ => point_eq i t hi X A W B x0 x1 x2 x3 h0 h1 h2 h3 y o

theorem out5_apply (i : grid3.Coords) (t : Fin 16) (hi : (i 0).val = t.val)
    (X A : S100352x64.Idx → EReal) (W : S64x64.Idx → EReal) (B : S1x64.Idx → EReal)
    (x0 x1 : Vec Ideal S6272x64 .f32) (x2 : Vec Ideal S64x64 .f32) (x3 : Vec Ideal S1x64 .f32)
    (h0 : ∀ (y : Fin 6272) (k : Fin 64), x0 (ix2 y k) = X (ix2 ⟨6272 * t.val + y.val, by omega⟩ k))
    (h1 : ∀ (y : Fin 6272) (k : Fin 64), x1 (ix2 y k) = A (ix2 ⟨6272 * t.val + y.val, by omega⟩ k))
    (h2 : ∀ (o : Fin 64) (k : Fin 64), x2 (ix2 o k) = W (ix2 o k))
    (h3 : ∀ o : Fin 64, x3 (ix2 0 o) = B (ix2 0 o)) (j : S1x1x64.Idx) :
    out3_5 (F := Ideal) i x0 x1 x2 x3 j = G5 X A W B (ix3 t 0 (j 2)) := by
  obtain ⟨u0, u1, o, rfl⟩ : ∃ (u0 u1 : Fin 1) (o : Fin 64), j = ix3 u0 u1 o := ⟨j 0, j 1, j 2, eq_ix3 j⟩
  unfold out3_5
  rw [View.canon_unit_zero hz3]
  simp only [View.ld_unit_zero (S := S6272x64) hz2, View.ld_unit_zero (S := S64x64) hz2, View.ld_unit_zero (S := S1x64) hz2]
  refine (pay3_apply i x0 x1 x2 x3 u0 u1 o).trans ?_
  exact Finset.sum_congr rfl fun y _ => by rw [point_eq i t hi X A W B x0 x1 x2 x3 h0 h1 h2 h3 y o]

/-- A grid point as a number below sixteen. -/
def pt (t : Fin cfg3.N) : Fin 16 := ⟨t.val, lt_of_lt_of_eq t.isLt N_3⟩

/-- The first tall window's block at point `t` is rows `6272 t + y` of its array. -/
theorem blk0_apply (t : Fin cfg3.N) (y : Fin 6272) (k : Fin 64) :
    (iblk3 V c 0 t : Vec Ideal S6272x64 .f32) (ix2 y k)
      = (V c main_v68 : S100352x64.Idx → EReal) (ix2 ⟨6272 * (pt t).val + y.val, by have := (pt t).isLt; omega⟩ k) := by
  obtain ⟨e00, e01, -⟩ := idx_facts t
  unfold iblk3
  rw [View.read_apply]
  show V c main_v68 _ = V c main_v68 _
  congr 1
  funext a
  apply Fin.ext
  match a with
  | ⟨0, _⟩ => show win3_0.index t 0 * 6272 + 1 * y.val = 6272 * t.val + y.val; rw [e00]; omega
  | ⟨1, _⟩ => show win3_0.index t 1 * 64 + 1 * k.val = k.val; rw [e01]; omega

/-- The second tall window's block likewise. -/
theorem blk1_apply (t : Fin cfg3.N) (y : Fin 6272) (k : Fin 64) :
    (iblk3 V c 1 t : Vec Ideal S6272x64 .f32) (ix2 y k)
      = (V c main_v78 : S100352x64.Idx → EReal) (ix2 ⟨6272 * (pt t).val + y.val, by have := (pt t).isLt; omega⟩ k) := by
  obtain ⟨-, -, e10, e11, -⟩ := idx_facts t
  unfold iblk3
  rw [View.read_apply]
  show V c main_v78 _ = V c main_v78 _
  congr 1
  funext a
  apply Fin.ext
  match a with
  | ⟨0, _⟩ => show win3_1.index t 0 * 6272 + 1 * y.val = 6272 * t.val + y.val; rw [e10]; omega
  | ⟨1, _⟩ => show win3_1.index t 1 * 64 + 1 * k.val = k.val; rw [e11]; omega

/-- The weight window's block is the whole weight array at every point. -/
theorem blk2_apply (t : Fin cfg3.N) (o : Fin 64) (k : Fin 64) :
    (iblk3 V c 2 t : Vec Ideal S64x64 .f32) (ix2 o k) = (V c main_arg11 : S64x64.Idx → EReal) (ix2 o k) := by
  obtain ⟨-, -, -, -, e20, e21, -⟩ := idx_facts t
  unfold iblk3
  rw [View.read_apply]
  show V c main_arg11 _ = V c main_arg11 _
  congr 1
  funext a
  apply Fin.ext
  match a with
  | ⟨0, _⟩ => show win3_2.index t 0 * 64 + 1 * o.val = o.val; rw [e20]; omega
  | ⟨1, _⟩ => show win3_2.index t 1 * 64 + 1 * k.val = k.val; rw [e21]; omega

/-- The bias window's block is the whole bias row at every point. -/
theorem blk3_apply (t : Fin cfg3.N) (o : Fin 64) :
    (iblk3 V c 3 t : Vec Ideal S1x64 .f32) (ix2 0 o) = (V c main_v79 : S1x64.Idx → EReal) (ix2 0 o) := by
  obtain ⟨-, -, -, -, -, -, e30, e31, -⟩ := idx_facts t
  unfold iblk3
  rw [View.read_apply]
  show V c main_v79 _ = V c main_v79 _
  congr 1
  funext a
  apply Fin.ext
  match a with
  | ⟨0, _⟩ => show win3_3.index t 0 * 1 + 1 * 0 = 0; rw [e30]
  | ⟨1, _⟩ => show win3_3.index t 1 * 64 + 1 * o.val = o.val; rw [e31]; omega

/-- What point `t` writes back to the first output is block `t` of `G4` of the four arrays as the region finds them. -/
theorem flushed4_eq (t : Fin cfg3.N) :
    (dat3 V c).flushed 4 t = ((cfg3.win 4).blk t).view.read (Elt Ideal)
      (G4 (V c main_v68) (V c main_v78) (V c main_arg11) (V c main_v79)) := by
  show (cfg3.win 4).cut (grid3.coords t) ((dat3 V c).after 4 t) = _
  rw [after3_4]
  obtain ⟨-, -, -, -, -, -, -, -, e40, e41, e42, -, -, -, eg⟩ := idx_facts t
  funext j
  refine (out4_apply (grid3.coords t) (pt t) eg (V c main_v68) (V c main_v78) (V c main_arg11) (V c main_v79)
    (iblk3 V c 0 t) (iblk3 V c 1 t) (iblk3 V c 2 t) (iblk3 V c 3 t)
    (blk0_apply V c t) (blk1_apply V c t) (blk2_apply V c t) (blk3_apply V c t) j).trans ?_
  show G4 _ _ _ _ _ = G4 _ _ _ _ (((cfg3.win 4).blk t).view.emb j)
  congr 1
  funext a
  apply Fin.ext
  match a with
  | ⟨0, _⟩ => show t.val = win3_4.index t 0 * 1 + 1 * (j 0).val; rw [e40]; have h1 : (j 0).val < 1 := (j 0).isLt; omega
  | ⟨1, _⟩ => show 0 = win3_4.index t 1 * 1 + 1 * (j 1).val; rw [e41]; have h1 : (j 1).val < 1 := (j 1).isLt; omega
  | ⟨2, _⟩ => show (j 2).val = win3_4.index t 2 * 64 + 1 * (j 2).val; rw [e42]; omega

/-- What point `t` writes back to the second output is block `t` of `G5`. -/
theorem flushed5_eq (t : Fin cfg3.N) :
    (dat3 V c).flushed 5 t = ((cfg3.win 5).blk t).view.read (Elt Ideal)
      (G5 (V c main_v68) (V c main_v78) (V c main_arg11) (V c main_v79)) := by
  show (cfg3.win 5).cut (grid3.coords t) ((dat3 V c).after 5 t) = _
  rw [after3_5]
  obtain ⟨-, -, -, -, -, -, -, -, -, -, -, e50, e51, e52, eg⟩ := idx_facts t
  funext j
  refine (out5_apply (grid3.coords t) (pt t) eg (V c main_v68) (V c main_v78) (V c main_arg11) (V c main_v79)
    (iblk3 V c 0 t) (iblk3 V c 1 t) (iblk3 V c 2 t) (iblk3 V c 3 t)
    (blk0_apply V c t) (blk1_apply V c t) (blk2_apply V c t) (blk3_apply V c t) j).trans ?_
  show G5 _ _ _ _ _ = G5 _ _ _ _ (((cfg3.win 5).blk t).view.emb j)
  congr 1
  funext a
  apply Fin.ext
  match a with
  | ⟨0, _⟩ => show t.val = win3_5.index t 0 * 1 + 1 * (j 0).val; rw [e50]; have h1 : (j 0).val < 1 := (j 0).isLt; omega
  | ⟨1, _⟩ => show 0 = win3_5.index t 1 * 1 + 1 * (j 1).val; rw [e51]; have h1 : (j 1).val < 1 := (j 1).isLt; omega
  | ⟨2, _⟩ => show (j 2).val = win3_5.index t 2 * 64 + 1 * (j 2).val; rw [e52]; omega

/-- An index of the first output's array is in point `t`'s block iff each coordinate is in the block's range. -/
theorem mem_blk4 (t : Fin cfg3.N) (i : S16x1x64.Idx) :
    i ∈ ((cfg3.win 4).blk t).view.set ↔ ∀ a : Fin 3, win3_4.index t a * S1x1x64.size a ≤ (i a).val
      ∧ (i a).val < win3_4.index t a * S1x1x64.size a + S1x1x64.size a := by
  show i ∈ ((View.whole main_v80_0).slice (win3_4.rect t)).set ↔ _
  rw [View.set_slice_whole, Rect.mem_set_unit]
  exact Iff.rfl

theorem mem_blk5 (t : Fin cfg3.N) (i : S16x1x64.Idx) :
    i ∈ ((cfg3.win 5).blk t).view.set ↔ ∀ a : Fin 3, win3_5.index t a * S1x1x64.size a ≤ (i a).val
      ∧ (i a).val < win3_5.index t a * S1x1x64.size a + S1x1x64.size a := by
  show i ∈ ((View.whole main_v80_1).slice (win3_5.rect t)).set ↔ _
  rw [View.set_slice_whole, Rect.mem_set_unit]
  exact Iff.rfl

/-- The sixteen blocks cover the first output's array: index `(t, 0, o)` lies in point `t`'s block. -/
theorem cover4 (i : S16x1x64.Idx) : ∃ t : Fin cfg3.N, (cfg3.win 4).flush t = true ∧ i ∈ ((cfg3.win 4).blk t).view.set := by
  have h0 : (i 0).val < 16 := (i 0).isLt
  have h1 : (i 1).val < 1 := (i 1).isLt
  have h2 : (i 2).val < 64 := (i 2).isLt
  have ht : ((⟨(i 0).val, lt_of_lt_of_eq h0 N_3.symm⟩ : Fin cfg3.N)).val = (i 0).val := rfl
  refine ⟨⟨(i 0).val, lt_of_lt_of_eq h0 N_3.symm⟩, flush3_4 _, ?_⟩
  rw [mem_blk4]
  obtain ⟨-, -, -, -, -, -, -, -, e40, e41, e42, -⟩ := idx_facts ⟨(i 0).val, lt_of_lt_of_eq h0 N_3.symm⟩
  intro a
  match a with
  | ⟨0, _⟩ => show win3_4.index _ 0 * 1 ≤ (i 0).val ∧ (i 0).val < win3_4.index _ 0 * 1 + 1; rw [e40, ht]; omega
  | ⟨1, _⟩ => show win3_4.index _ 1 * 1 ≤ (i 1).val ∧ (i 1).val < win3_4.index _ 1 * 1 + 1; rw [e41]; omega
  | ⟨2, _⟩ => show win3_4.index _ 2 * 64 ≤ (i 2).val ∧ (i 2).val < win3_4.index _ 2 * 64 + 64; rw [e42]; omega

theorem cover5 (i : S16x1x64.Idx) : ∃ t : Fin cfg3.N, (cfg3.win 5).flush t = true ∧ i ∈ ((cfg3.win 5).blk t).view.set := by
  have h0 : (i 0).val < 16 := (i 0).isLt
  have h1 : (i 1).val < 1 := (i 1).isLt
  have h2 : (i 2).val < 64 := (i 2).isLt
  have ht : ((⟨(i 0).val, lt_of_lt_of_eq h0 N_3.symm⟩ : Fin cfg3.N)).val = (i 0).val := rfl
  refine ⟨⟨(i 0).val, lt_of_lt_of_eq h0 N_3.symm⟩, flush3_5 _, ?_⟩
  rw [mem_blk5]
  obtain ⟨-, -, -, -, -, -, -, -, -, -, -, e50, e51, e52, -⟩ := idx_facts ⟨(i 0).val, lt_of_lt_of_eq h0 N_3.symm⟩
  intro a
  match a with
  | ⟨0, _⟩ => show win3_5.index _ 0 * 1 ≤ (i 0).val ∧ (i 0).val < win3_5.index _ 0 * 1 + 1; rw [e50, ht]; omega
  | ⟨1, _⟩ => show win3_5.index _ 1 * 1 ≤ (i 1).val ∧ (i 1).val < win3_5.index _ 1 * 1 + 1; rw [e51]; omega
  | ⟨2, _⟩ => show win3_5.index _ 2 * 64 ≤ (i 2).val ∧ (i 2).val < win3_5.index _ 2 * 64 + 64; rw [e52]; omega

/-- After the last point the first output's array holds `G4` of the four arrays as the region found them … -/
theorem arr4 : (dat3 V c).arrAt 4 cfg3.N = G4 (V c main_v68) (V c main_v78) (V c main_arg11) (V c main_v79) :=
  (dat3 V c).arrAt_eq_of_cover 4 _ (fun t _ => flushed4_eq V c t) cover4

/-- … and the second output's array `G5`. -/
theorem arr5 : (dat3 V c).arrAt 5 cfg3.N = G5 (V c main_v68) (V c main_v78) (V c main_arg11) (V c main_v79) :=
  (dat3 V c).arrAt_eq_of_cover 5 _ (fun t _ => flushed5_eq V c t) cover5

end Region

/-! ## The run: the two outputs after the region, when the four arrays hold reals -/

section Run

open Cert.Lift

variable (m : (ℓ : Loc nD τ sig) → Buf (Elt Ideal) ℓ) (ρ : Dev nD → PrngReg) (c : Dev nD)

/-- On arrays that hold reals, a row below `100000` of the first linear map is the real linear map's row: the
    coercion carries sums, products and the bias across. -/
theorem lrow_coe {X A : S100352x64.Idx → EReal} {W : S64x64.Idx → EReal} {B : S1x64.Idx → EReal}
    {x a : Fin 100000 → Fin 64 → ℝ} {w : Fin 64 → Fin 64 → ℝ} {β : Fin 64 → ℝ}
    (hx : Rows X x) (ha : Rows A a) (hw : Mat W w) (hβ : Row1 B β) (i : Fin 100000) (o : Fin 64) :
    lrow X A W B i.val o = ((Cert.Spec.lin (fun i k => x i k + a i k) w β i o : ℝ) : EReal) := by
  have hi : i.val < 100352 := by have := i.isLt; omega
  unfold lrow Cert.Spec.lin
  rw [dif_pos hi, EReal.coe_add, Cert.LibSums.coe_sum, hβ o]
  refine congrArg (· + ((β o : ℝ) : EReal)) ?_
  refine Finset.sum_congr rfl fun k _ => ?_
  rw [hx i hi k, ha i hi k, hw o k, EReal.coe_mul, EReal.coe_add]

/-- A masked row: the real row below `100000`, zero from there on whatever the padding row holds. -/
theorem masked_row {X A : S100352x64.Idx → EReal} {W : S64x64.Idx → EReal} {B : S1x64.Idx → EReal}
    {x a : Fin 100000 → Fin 64 → ℝ} {w : Fin 64 → Fin 64 → ℝ} {β : Fin 64 → ℝ}
    (hx : Rows X x) (ha : Rows A a) (hw : Mat W w) (hβ : Row1 B β) (r : ℕ) (o : Fin 64) :
    lrow X A W B r o * rmask r
      = if h : r < 100000 then ((Cert.Spec.lin (fun i k => x i k + a i k) w β ⟨r, h⟩ o : ℝ) : EReal) else 0 := by
  unfold rmask
  by_cases h : r < 100000
  · rw [if_pos h, dif_pos h, mul_one]; exact lrow_coe hx ha hw hβ ⟨r, h⟩ o
  · rw [if_neg h, dif_neg h, mul_zero]

/-- After the region the first output's array is `G4` of the four arrays at the region's entry … -/
theorem W14_sums : (W14 (F := Ideal) m ρ c (Proc.devRef .tc main_v80_0) : S16x1x64.Idx → EReal)
    = G4 (W13 (F := Ideal) m ρ c (Proc.devRef .tc main_v68)) (W13 (F := Ideal) m ρ c (Proc.devRef .tc main_v78))
        (W13 (F := Ideal) m ρ c (Proc.devRef .tc main_arg11)) (W13 (F := Ideal) m ρ c (Proc.devRef .tc main_v79)) :=
  (W14_arr (F := Ideal) m ρ c 4).trans (arr4 (V13 m ρ) c)

/-- … and the second output's array `G5`. -/
theorem W14_sumsqs : (W14 (F := Ideal) m ρ c (Proc.devRef .tc main_v80_1) : S16x1x64.Idx → EReal)
    = G5 (W13 (F := Ideal) m ρ c (Proc.devRef .tc main_v68)) (W13 (F := Ideal) m ρ c (Proc.devRef .tc main_v78))
        (W13 (F := Ideal) m ρ c (Proc.devRef .tc main_arg11)) (W13 (F := Ideal) m ρ c (Proc.devRef .tc main_v79)) :=
  (W14_arr (F := Ideal) m ρ c 5).trans (arr5 (V13 m ρ) c)

/-- After the region, block `t` of the first output holds the column sums of the real linear map's rows
    `6272 t … 6272 t + 6271` that lie below `100000`, and the second output those of their squares. -/
theorem region3_sums {x a : Fin 100000 → Fin 64 → ℝ} {w : Fin 64 → Fin 64 → ℝ} {β : Fin 64 → ℝ}
    (hx : Rows (W13 (F := Ideal) m ρ c (Proc.devRef .tc main_v68)) x)
    (ha : Rows (W13 (F := Ideal) m ρ c (Proc.devRef .tc main_v78)) a)
    (hw : Mat (W13 (F := Ideal) m ρ c (Proc.devRef .tc main_arg11)) w)
    (hβ : Row1 (W13 (F := Ideal) m ρ c (Proc.devRef .tc main_v79)) β) :
    (∀ (t : Fin 16) (o : Fin 64),
        (W14 (F := Ideal) m ρ c (Proc.devRef .tc main_v80_0) : S16x1x64.Idx → EReal) (ix3 t 0 o)
          = ∑ y : Fin 6272, (if h : 6272 * t.val + y.val < 100000
              then ((Cert.Spec.lin (fun i k => x i k + a i k) w β ⟨6272 * t.val + y.val, h⟩ o : ℝ) : EReal) else 0))
    ∧ (∀ (t : Fin 16) (o : Fin 64),
        (W14 (F := Ideal) m ρ c (Proc.devRef .tc main_v80_1) : S16x1x64.Idx → EReal) (ix3 t 0 o)
          = ∑ y : Fin 6272, (if h : 6272 * t.val + y.val < 100000
              then ((Cert.Spec.lin (fun i k => x i k + a i k) w β ⟨6272 * t.val + y.val, h⟩ o
                      * Cert.Spec.lin (fun i k => x i k + a i k) w β ⟨6272 * t.val + y.val, h⟩ o : ℝ) : EReal) else 0)) := by
  refine ⟨fun t o => ?_, fun t o => ?_⟩
  · rw [W14_sums]
    show ∑ y : Fin 6272, lrow _ _ _ _ (6272 * t.val + y.val) o * rmask (6272 * t.val + y.val) = _
    exact Finset.sum_congr rfl fun y _ => masked_row hx ha hw hβ _ o
  · rw [W14_sumsqs]
    show ∑ y : Fin 6272, (lrow _ _ _ _ (6272 * t.val + y.val) o * rmask (6272 * t.val + y.val))
        * (lrow _ _ _ _ (6272 * t.val + y.val) o * rmask (6272 * t.val + y.val)) = _
    refine Finset.sum_congr rfl fun y _ => ?_
    rw [masked_row hx ha hw hβ _ o]
    by_cases h : 6272 * t.val + y.val < 100000
    · rw [dif_pos h, dif_pos h, EReal.coe_mul]
    · rw [dif_neg h, dif_neg h, mul_zero]

/-- The normalisation's slope and intercept after the host operations that follow the region: the two outputs' blocks
    added up are the sums of the real linear map's `100000` rows and of their squares, from which the host forms mean,
    variance (mean of squares minus squared mean), slope and intercept. -/
theorem stats2 {x a : Fin 100000 → Fin 64 → ℝ} {w : Fin 64 → Fin 64 → ℝ} {β g be : Fin 64 → ℝ}
    (hx : Rows (W13 (F := Ideal) m ρ c (Proc.devRef .tc main_v68)) x)
    (ha : Rows (W13 (F := Ideal) m ρ c (Proc.devRef .tc main_v78)) a)
    (hw : Mat (W13 (F := Ideal) m ρ c (Proc.devRef .tc main_arg11)) w)
    (hβ : Row1 (W13 (F := Ideal) m ρ c (Proc.devRef .tc main_v79)) β)
    (hg : Vec1 (W14 (F := Ideal) m ρ c (Proc.devRef .tc main_arg13)) g)
    (hbe : Vec1 (W14 (F := Ideal) m ρ c (Proc.devRef .tc main_arg14)) be) :
    Row1 (W15 (F := Ideal) m ρ c (Proc.devRef .tc main_v93))
        (Cert.Spec.scale Cert.LibSums.eps (Cert.Spec.lin (fun i k => x i k + a i k) w β) g)
    ∧ Row1 (W15 (F := Ideal) m ρ c (Proc.devRef .tc main_v96))
        (Cert.Spec.shift Cert.LibSums.eps (Cert.Spec.lin (fun i k => x i k + a i k) w β) g be) :=
  Cert.KStatsHost.host2 m ρ c (region3_sums m ρ c hx ha hw hβ).1 (region3_sums m ρ c hx ha hw hβ).2 hg hbe

/-- The layer's second bias, reshaped to a row by the same host operations. -/
theorem b2_row2 {β2 : Fin 64 → ℝ} (h : Vec1 (W14 (F := Ideal) m ρ c (Proc.devRef .tc main_arg16)) β2) :
    Row1 (W15 (F := Ideal) m ρ c (Proc.devRef .tc main_v97)) β2 :=
  Cert.KStatsHost.b2_row2 m ρ c h

end Run

end Cert.KStats2
-- ==== Proof.KBodyStats.lean ====
/-
  The host operations between a statistics region and the region that applies the normalisation: from sixteen partial
  column sums of an array and of its squares (each over one block of 6272 rows, the rows from 100000 on left out) to
  the normalisation's slope and intercept per column. The sixteen partial sums add up to the column sum over the
  100000 rows (a sum over blocks is the sum over all indices; terms that vanish from an index on can be dropped);
  divided by 100000 they are the mean and the mean of squares; their difference of the form "mean of squares minus
  squared mean" is the variance; the reciprocal square root of variance plus `eps` (a positive real) times the
  weight is the slope, and the bias minus mean times slope is the intercept. All of it on reals, carried into the
  extended reals by the coercion.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import Idealize.ShloMosaic.Lib.IdealHost
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KBodyStats

open Cert.KernelIdeal Cert.KernelIdeal.Gen Cert.KernelIdeal.GenP Cert.Lift
open Idealize.ShloMosaic Idealize.ShloMosaic.TcCoe Idealize.ShloMosaic.ValueIdx
open Cert.LibSums (coe_sum div_coe_coe ofBits_1e5 ofBits_eps eps eps_pos rsqrt_coe_pos sum_blocks sum_masked)

section General

/-- A function on the first `N` naturals continued by zero. -/
def ext0 {M : Type*} [Zero M] {N : ℕ} (f : Fin N → M) (r : ℕ) : M := if h : r < N then f ⟨r, h⟩ else 0

/-- `T` blocks of `B` consecutive indices, each term present only while its index is below `N ≤ T * B`: the sum
    over the first `N` indices. -/
theorem sum_blocks_dite (T B N : ℕ) (hN : N ≤ T * B) {M : Type*} [AddCommMonoid M] (f : Fin N → M) :
    ∑ t : Fin T, ∑ y : Fin B, (if h : B * t.val + y.val < N then f ⟨B * t.val + y.val, h⟩ else 0)
      = ∑ i : Fin N, f i :=
  calc ∑ t : Fin T, ∑ y : Fin B, (if h : B * t.val + y.val < N then f ⟨B * t.val + y.val, h⟩ else 0)
      = ∑ t : Fin T, ∑ y : Fin B, ext0 f (B * t.val + y.val) := rfl
    _ = ∑ r : Fin (T * B), ext0 f r.val := sum_blocks T B (ext0 f)
    _ = ∑ r : Fin (T * B), (if r.val < N then ext0 f r.val else 0) :=
        Finset.sum_congr rfl fun r _ => by
          by_cases h : r.val < N
          · rw [if_pos h]
          · rw [if_neg h]; exact dif_neg h
    _ = ∑ i : Fin N, ext0 f i.val := sum_masked N (T * B) hN (ext0 f)
    _ = ∑ i : Fin N, f i := Finset.sum_congr rfl fun i _ => dif_pos i.isLt

end General

/-! ## The operations of the stretch as functions of the arrays it reads -/

/-- The sum of the sixteen partial sums divided by the float word of 100000, per column. -/
def meanArr (S : FVec Ideal S16x1x64 .f32) : FVec Ideal S1x64 .f32 :=
  Host.divf (Host.reduceAdd S (constant (F := Ideal) S_ .f32 0x00000000#32) reducesTo_S16x1x64_S1x64_d0 h_S_)
    (broadcastInDim S1x64 ![] bcast_S_S1x64 (constant (F := Ideal) S_ .f32 0x47C35000#32))

/-- The slope: the weight row times the reciprocal square root of "mean of squares minus squared mean, plus the float
    word of `eps`". -/
def scaleArr (S Q : FVec Ideal S16x1x64 .f32) (g : FVec Ideal S64 .f32) : FVec Ideal S1x64 .f32 :=
  mulf (shapeCast S1x64 g shapeCasts_S64_S1x64)
    (Host.rsqrt (addf (subf (meanArr Q) (mulf (meanArr S) (meanArr S)))
      (broadcastInDim S1x64 ![] bcast_S_S1x64 (constant (F := Ideal) S_ .f32 0x3727C5AC#32))))

/-- The intercept: the bias row minus mean times slope. -/
def shiftArr (S Q : FVec Ideal S16x1x64 .f32) (g b : FVec Ideal S64 .f32) : FVec Ideal S1x64 .f32 :=
  subf (shapeCast S1x64 b shapeCasts_S64_S1x64) (mulf (meanArr S) (scaleArr S Q g))

/-! ## Read at a column -/

/-- The source index over column `o` with block `t` inserted on the summed axis is `(t, 0, o)`. -/
theorem lift16 (hR : S16x1x64.Reduces [0] S1x64) (o : Fin 64) (t : Fin 16) :
    hR.lift (ix2 0 o) t = ix3 t 0 o := by
  funext a
  apply Fin.ext
  match a with
  | ⟨0, _⟩ => rfl
  | ⟨1, _⟩ => rfl
  | ⟨2, _⟩ => rfl

/-- The reciprocal square root of an array, at an index. -/
theorem hostRsqrt_apply {s : Shape} (v : FVec Ideal s .f32) (i : s.Idx) : Host.rsqrt v i = Ideal.rsqrt (v i) := rfl

/-- A vector of 64 read as one row of 64: column `o` is entry `o`. -/
theorem row_of_vec (g : FVec Ideal S64 .f32) (o : Fin 64) :
    shapeCast S1x64 g shapeCasts_S64_S1x64 (ix2 0 o) = g (ix1 o) := by
  refine shapeCast_apply g _ (ix2 0 o) (ix1 o) ?_
  rw [Shape.rowMajor_val_one, Shape.rowMajor_val_two]
  show o.val = 0 * 64 + o.val
  omega

/-- The mean array at column `o`: the sum of the sixteen partial sums over the real 100000. -/
theorem meanArr_apply (S : FVec Ideal S16x1x64 .f32) (o : Fin 64) :
    meanArr S (ix2 0 o) = Ideal.div (∑ t : Fin 16, S (ix3 t 0 o)) ((100000 : ℝ) : EReal) := by
  have hR : S16x1x64.Reduces [0] S1x64 := by decide
  unfold meanArr
  rw [hostDivf_apply, hostReduceAdd_apply, Ideal.hostReduceAdd_single reducesTo_S16x1x64_S1x64_d0 hR,
    broadcastInDim_scalar_apply, constant_apply, constant_apply, Ideal.ofBits_zero_f32, zero_add, ofBits_1e5]
  refine congrArg (fun x => Ideal.div x _) ?_
  exact Finset.sum_congr rfl fun t _ => congrArg S (lift16 hR o t)

/-- Sixteen masked partial sums of a real family add up to its sum over the 100000 rows. -/
theorem sum16 (S : FVec Ideal S16x1x64 .f32) (f : Fin 100000 → ℝ) (o : Fin 64)
    (hs : ∀ t : Fin 16, S (ix3 t 0 o) = ∑ y : Fin 6272, (if h : 6272 * t.val + y.val < 100000
        then ((f ⟨6272 * t.val + y.val, h⟩ : ℝ) : EReal) else 0)) :
    ∑ t : Fin 16, S (ix3 t 0 o) = ((∑ i : Fin 100000, f i : ℝ) : EReal) :=
  (Finset.sum_congr rfl fun t _ => hs t).trans
    ((sum_blocks_dite 16 6272 100000 (by norm_num) (fun i => ((f i : ℝ) : EReal))).trans (coe_sum _ _).symm)

/-! ## On real data -/

/-- From the masked partial sums of `Z` and of its squares and the weight and bias vectors: the slope and intercept
    of `Z`'s normalisation (`Spec.var'` is the variance in the form the operations compute; it is not negative, so
    with `eps` added its reciprocal square root is the real one). -/
theorem stats_arr (S Q : FVec Ideal S16x1x64 .f32) (g b : FVec Ideal S64 .f32)
    {Z : Fin 100000 → Fin 64 → ℝ} {go bo : Fin 64 → ℝ}
    (hs : ∀ (t : Fin 16) (o : Fin 64), S (ix3 t 0 o)
        = ∑ y : Fin 6272, (if h : 6272 * t.val + y.val < 100000
            then ((Z ⟨6272 * t.val + y.val, h⟩ o : ℝ) : EReal) else 0))
    (hq : ∀ (t : Fin 16) (o : Fin 64), Q (ix3 t 0 o)
        = ∑ y : Fin 6272, (if h : 6272 * t.val + y.val < 100000
            then ((Z ⟨6272 * t.val + y.val, h⟩ o * Z ⟨6272 * t.val + y.val, h⟩ o : ℝ) : EReal) else 0))
    (hgo : Vec1 g go) (hbo : Vec1 b bo) :
    Row1 (scaleArr S Q g) (Cert.Spec.scale eps Z go) ∧ Row1 (shiftArr S Q g b) (Cert.Spec.shift eps Z go bo) := by
  have hmS : ∀ o : Fin 64, meanArr S (ix2 0 o) = ((Cert.Spec.mean Z o : ℝ) : EReal) := by
    intro o
    rw [meanArr_apply, sum16 S (fun i => Z i o) o (fun t => hs t o), div_coe_coe _ _ (by norm_num)]
    simp only [Cert.Spec.mean, Nat.cast_ofNat]
  have hmQ : ∀ o : Fin 64, meanArr Q (ix2 0 o) = (((∑ i, Z i o * Z i o) / 100000 : ℝ) : EReal) := by
    intro o
    rw [meanArr_apply, sum16 Q (fun i => Z i o * Z i o) o (fun t => hq t o), div_coe_coe _ _ (by norm_num)]
  have hsc : ∀ o : Fin 64, scaleArr S Q g (ix2 0 o) = ((Cert.Spec.scale eps Z go o : ℝ) : EReal) := by
    intro o
    have hpos : 0 < Cert.Spec.var' Z o + eps := by
      rw [Cert.Spec.var'_eq_var (by norm_num)]
      exact add_pos_of_nonneg_of_pos (Cert.Spec.var_nonneg Z o) eps_pos
    have hv : (∑ i, Z i o * Z i o) / 100000 - Cert.Spec.mean Z o * Cert.Spec.mean Z o + eps
        = Cert.Spec.var' Z o + eps := by
      simp only [Cert.Spec.var', Nat.cast_ofNat]
    unfold scaleArr
    rw [mulf_apply, row_of_vec, hgo o, hostRsqrt_apply, addf_apply, subf_apply, mulf_apply, hmQ, hmS,
      broadcastInDim_scalar_apply, constant_apply, ofBits_eps, ← EReal.coe_mul, ← EReal.coe_sub, ← EReal.coe_add,
      hv, rsqrt_coe_pos hpos, ← EReal.coe_mul]
    rfl
  refine ⟨hsc, fun o => ?_⟩
  unfold shiftArr
  rw [subf_apply, row_of_vec, hbo o, mulf_apply, hmS, hsc o, ← EReal.coe_mul, ← EReal.coe_sub]
  rfl

variable (m : (ℓ : Loc nD τ sig) → Buf (Elt Ideal) ℓ) (ρ : Dev nD → PrngReg)

/-! ## The stretch between W10 and W11: `main_v64` and `main_v67` as those functions of `main_v51_1`, `main_v51_2`, `main_arg9`, `main_arg10` -/

set_option maxHeartbeats 1000000 in
/-- After the stretch, over any contents `V` at its entry, `main_v64` holds `scaleArr` of the two partial-sum arrays
    and the weight vector: the stretch's operations composed. -/
theorem scale1_after (V : Valuation τ sig (Elt Ideal)) :
    (StableHlo.after (hostOps2 (F := Ideal)) V (Proc.devRef .tc main_v64) : FVec Ideal S1x64 .f32)
      = scaleArr (V (Proc.devRef .tc main_v51_1)) (V (Proc.devRef .tc main_v51_2)) (V (Proc.devRef .tc main_arg9)) := by
  after_results
  all_goals rfl

set_option maxHeartbeats 1000000 in
/-- … and `main_v67` holds `shiftArr` of them and the bias vector. -/
theorem shift1_after (V : Valuation τ sig (Elt Ideal)) :
    (StableHlo.after (hostOps2 (F := Ideal)) V (Proc.devRef .tc main_v67) : FVec Ideal S1x64 .f32)
      = shiftArr (V (Proc.devRef .tc main_v51_1)) (V (Proc.devRef .tc main_v51_2)) (V (Proc.devRef .tc main_arg9))
          (V (Proc.devRef .tc main_arg10)) := by
  after_results
  all_goals rfl

/-- The stretch on real data: from the sixteen masked partial column sums of `Z` and of its squares, and the weight
    and bias vectors, the slope and the intercept of `Z`'s normalisation. -/
theorem stats1 (c : Dev nD) {Z : Fin 100000 → Fin 64 → ℝ} {go bo : Fin 64 → ℝ}
    (hs : ∀ (t : Fin 16) (o : Fin 64),
      (W10 (F := Ideal) m ρ c (Proc.devRef .tc main_v51_1) : S16x1x64.Idx → EReal) (ix3 t 0 o)
        = ∑ y : Fin 6272, (if h : 6272 * t.val + y.val < 100000
            then ((Z ⟨6272 * t.val + y.val, h⟩ o : ℝ) : EReal) else 0))
    (hq : ∀ (t : Fin 16) (o : Fin 64),
      (W10 m ρ c (Proc.devRef .tc main_v51_2) : S16x1x64.Idx → EReal) (ix3 t 0 o)
        = ∑ y : Fin 6272, (if h : 6272 * t.val + y.val < 100000
            then ((Z ⟨6272 * t.val + y.val, h⟩ o * Z ⟨6272 * t.val + y.val, h⟩ o : ℝ) : EReal) else 0))
    (hgo : Vec1 (W10 m ρ c (Proc.devRef .tc main_arg9)) go) (hbo : Vec1 (W10 m ρ c (Proc.devRef .tc main_arg10)) bo) :
    Row1 (W11 m ρ c (Proc.devRef .tc main_v64)) (Cert.Spec.scale Cert.LibSums.eps Z go)
      ∧ Row1 (W11 m ρ c (Proc.devRef .tc main_v67)) (Cert.Spec.shift Cert.LibSums.eps Z go bo) := by
  have e1 : W11 m ρ c (Proc.devRef .tc main_v64) = _ := scale1_after (W10 m ρ c)
  have e2 : W11 m ρ c (Proc.devRef .tc main_v67) = _ := shift1_after (W10 m ρ c)
  rw [e1, e2]
  exact stats_arr _ _ _ _ hs hq hgo hbo

/-! ## The stretch between W16 and W17: `main_v111` and `main_v114` as those functions of `main_v98_1`, `main_v98_2`, `main_arg17`, `main_arg18` -/

set_option maxHeartbeats 1000000 in
/-- After the stretch, over any contents `V` at its entry, `main_v111` holds `scaleArr` of the two partial-sum arrays
    and the weight vector: the stretch's operations composed. -/
theorem scale2_after (V : Valuation τ sig (Elt Ideal)) :
    (StableHlo.after (hostOps5 (F := Ideal)) V (Proc.devRef .tc main_v111) : FVec Ideal S1x64 .f32)
      = scaleArr (V (Proc.devRef .tc main_v98_1)) (V (Proc.devRef .tc main_v98_2)) (V (Proc.devRef .tc main_arg17)) := by
  after_results
  all_goals rfl

set_option maxHeartbeats 1000000 in
/-- … and `main_v114` holds `shiftArr` of them and the bias vector. -/
theorem shift2_after (V : Valuation τ sig (Elt Ideal)) :
    (StableHlo.after (hostOps5 (F := Ideal)) V (Proc.devRef .tc main_v114) : FVec Ideal S1x64 .f32)
      = shiftArr (V (Proc.devRef .tc main_v98_1)) (V (Proc.devRef .tc main_v98_2)) (V (Proc.devRef .tc main_arg17))
          (V (Proc.devRef .tc main_arg18)) := by
  after_results
  all_goals rfl

/-- The stretch on real data: from the sixteen masked partial column sums of `Z` and of its squares, and the weight
    and bias vectors, the slope and the intercept of `Z`'s normalisation. -/
theorem stats2 (c : Dev nD) {Z : Fin 100000 → Fin 64 → ℝ} {go bo : Fin 64 → ℝ}
    (hs : ∀ (t : Fin 16) (o : Fin 64),
      (W16 (F := Ideal) m ρ c (Proc.devRef .tc main_v98_1) : S16x1x64.Idx → EReal) (ix3 t 0 o)
        = ∑ y : Fin 6272, (if h : 6272 * t.val + y.val < 100000
            then ((Z ⟨6272 * t.val + y.val, h⟩ o : ℝ) : EReal) else 0))
    (hq : ∀ (t : Fin 16) (o : Fin 64),
      (W16 m ρ c (Proc.devRef .tc main_v98_2) : S16x1x64.Idx → EReal) (ix3 t 0 o)
        = ∑ y : Fin 6272, (if h : 6272 * t.val + y.val < 100000
            then ((Z ⟨6272 * t.val + y.val, h⟩ o * Z ⟨6272 * t.val + y.val, h⟩ o : ℝ) : EReal) else 0))
    (hgo : Vec1 (W16 m ρ c (Proc.devRef .tc main_arg17)) go) (hbo : Vec1 (W16 m ρ c (Proc.devRef .tc main_arg18)) bo) :
    Row1 (W17 m ρ c (Proc.devRef .tc main_v111)) (Cert.Spec.scale Cert.LibSums.eps Z go)
      ∧ Row1 (W17 m ρ c (Proc.devRef .tc main_v114)) (Cert.Spec.shift Cert.LibSums.eps Z go bo) := by
  have e1 : W17 m ρ c (Proc.devRef .tc main_v111) = _ := scale2_after (W16 m ρ c)
  have e2 : W17 m ρ c (Proc.devRef .tc main_v114) = _ := shift2_after (W16 m ρ c)
  rw [e1, e2]
  exact stats_arr _ _ _ _ hs hq hgo hbo

end Cert.KBodyStats

end
-- ==== Proof.KBody.lean ====
/-
  Region 1 of the kernel (one message-passing layer's dense part) and the host stretch after it, over the extended reals:
  at a row of real inputs the body stores that row of `lin₂ (relu (bn (lin₁ (x + agg))))`, the normalisation taken as one
  multiply-add per entry; the per-block column sums of the stored rows and of their squares skip the padding rows (a
  factor zero annihilates whatever a padding row holds); summed over the blocks and divided by the node count they are
  the mean and the mean of squares, from which the host computes the next normalisation's slope and intercept.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import proofs.«403050_j67860483276910_3_alg».proof.Proof.KBodyStats
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Data.EReal.Basic
import Mathlib.Data.EReal.Operations
import Mathlib.Tactic.FinCases
import Mathlib.Tactic.NormNum

noncomputable section

open scoped BigOperators

namespace Cert.KBody

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP Cert.Lift
open Cert.LibSums (eps)

section General

/-- A rows-by-columns product into the zero accumulator, read at an entry: the sum over the contracted coordinate of the
    products of the two operands' entries. -/
theorem matmul_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A matrix read with its two coordinates exchanged. -/
def swap2 {a b : ℕ} {α : Type} (x : (⟨2, ![a, b]⟩ : Shape).Idx → α) : (⟨2, ![b, a]⟩ : Shape).Idx → α :=
  fun i => x (ix2 (i 1) (i 0))

theorem swap2_apply {a b : ℕ} {α : Type} (x : (⟨2, ![a, b]⟩ : Shape).Idx → α) (j : Fin b) (i : Fin a) :
    swap2 x (ix2 j i) = x (ix2 i j) := rfl

/-- The word that compares row `6272 t + y` with 100000, widened and read as a real: one below row 100000, zero from
    there on (nothing wraps: the row number is below 2³¹). -/
theorem mask_word (t y : ℕ) (ht : t < 16) (hy : y < 6272) :
    (((IntOp.cmpi .slt (IntOp.addi (Scalar.muli (BitVec.ofNat 32 t) 6272#32) (BitVec.ofNat 32 y)) 100000#32).setWidth 32).toInt : ℝ)
      = if 6272 * t + y < 100000 then 1 else 0 := by
  have ha : (IntOp.addi (Scalar.muli (BitVec.ofNat 32 t) 6272#32) (BitVec.ofNat 32 y)).toNat = 6272 * t + y := by
    simp only [Scalar.muli, IntOp.muli, IntOp.addi, BitVec.toNat_add, BitVec.toNat_mul, BitVec.toNat_ofNat,
      Nat.reducePow, Nat.reduceMod]
    omega
  have hb : (100000#32 : BitVec 32).toNat = 100000 := by decide
  by_cases h : 6272 * t + y < 100000
  · rw [if_pos h, (StableHlo.Predicate.slt_iff_toNat (by rw [ha]; omega) (by rw [hb]; norm_num)).mpr (by rw [ha, hb]; exact h),
      show ((1#1 : BitVec 1).setWidth 32).toInt = 1 from by decide]
    norm_num
  · have hc : IntOp.cmpi .slt (IntOp.addi (Scalar.muli (BitVec.ofNat 32 t) 6272#32) (BitVec.ofNat 32 y)) 100000#32 = 0#1 :=
      eq_zero_of_ne_one (fun h1 => h (by
        have := (StableHlo.Predicate.slt_iff_toNat (by rw [ha]; omega) (by rw [hb]; norm_num)).mp h1
        rwa [ha, hb] at this))
    rw [if_neg h, hc, show ((0#1 : BitVec 1).setWidth 32).toInt = 0 from by decide]
    norm_num

end General

/-! ## The body's stored values, read at an entry -/

/-- The first product of the body (input columns against the first weight matrix), read at an entry. -/
theorem matmulA_apply (A : FVec Ideal S6272x4 .bf16) (B : FVec Ideal S4x64 .bf16) (a : Fin 6272) (b : Fin 64) :
    matmul dot_S6272x4_S4x64_S6272x64_1_0_0_1_n_n none A B (constant S6272x64 .f32 0x00000000#32) (ix2 a b)
      = ∑ c : Fin 4, A (ix2 a c) * B (ix2 c b) :=
  matmul_rowcol_apply dot_S6272x4_S4x64_S6272x64_1_0_0_1_n_n_wf none A B a b

/-- The second product of the body (hidden columns against the second weight matrix), read at an entry. -/
theorem matmulB_apply (A : FVec Ideal S6272x64 .bf16) (B : FVec Ideal S64x64 .bf16) (a : Fin 6272) (b : Fin 64) :
    matmul dot_S6272x64_S64x64_S6272x64_1_0_0_1_n_n none A B (constant S6272x64 .f32 0x00000000#32) (ix2 a b)
      = ∑ c : Fin 64, A (ix2 a c) * B (ix2 c b) :=
  matmul_rowcol_apply dot_S6272x64_S64x64_S6272x64_1_0_0_1_n_n_wf none A B a b

/-- The first weight matrix as the product takes it: its two coordinates exchanged. -/
theorem transposeA_eq (x : FVec Ideal S64x4 .bf16) :
    transpose S4x64 [1, 0] x transposes_S64x4_p1_0_S4x64 = swap2 x :=
  funext fun i => (congrArg _ (eq_ix2 i)).trans (transpose_ix2_apply x transposes_S64x4_p1_0_S4x64 (i 0) (i 1))

/-- The second weight matrix as the product takes it: its two coordinates exchanged. -/
theorem transposeB_eq (x : FVec Ideal S64x64 .bf16) :
    transpose S64x64 [1, 0] x transposes_S64x64_p1_0_S64x64 = swap2 x :=
  funext fun i => (congrArg _ (eq_ix2 i)).trans (transpose_ix2_apply x transposes_S64x64_p1_0_S64x64 (i 0) (i 1))

/-- One row of a message-passing layer over the reals: the first linear map of the row's summed inputs, the
    normalisation as a multiply-add with slope `sc` and intercept `sh`, the rectifier, the second linear map. -/
def rowZ (xr ar : Fin 4 → ℝ) (w1 : Fin 64 → Fin 4 → ℝ) (β1 sc sh : Fin 64 → ℝ) (w2 : Fin 64 → Fin 64 → ℝ)
    (β2 : Fin 64 → ℝ) (o : Fin 64) : ℝ :=
  ∑ j, max ((∑ k, (xr k + ar k) * w1 j k + β1 j) * sc j + sh j) 0 * w2 o j + β2 o

/-- What the body stores at row `y` of its first output, when row `y` of the two input blocks and the weights are
    real: that row of the layer. Nothing is asked of the other rows. -/
theorem pay4_row (x0 x1 : Vec Ideal S6272x4 .f32) (x2 : Vec Ideal S64x4 .f32) (x3 x4 x5 : Vec Ideal S1x64 .f32)
    (x6 : Vec Ideal S64x64 .f32) (x7 : Vec Ideal S1x64 .f32) (y : Fin 6272)
    (xr ar : Fin 4 → ℝ) (w1 : Fin 64 → Fin 4 → ℝ) (β1 sc sh : Fin 64 → ℝ) (w2 : Fin 64 → Fin 64 → ℝ) (β2 : Fin 64 → ℝ)
    (h0 : ∀ k, x0 (ix2 y k) = ((xr k : ℝ) : EReal)) (h1 : ∀ k, x1 (ix2 y k) = ((ar k : ℝ) : EReal))
    (h2 : ∀ j k, x2 (ix2 j k) = ((w1 j k : ℝ) : EReal)) (h3 : ∀ j, x3 (ix2 0 j) = ((β1 j : ℝ) : EReal))
    (h4 : ∀ j, x4 (ix2 0 j) = ((sc j : ℝ) : EReal)) (h5 : ∀ j, x5 (ix2 0 j) = ((sh j : ℝ) : EReal))
    (h6 : ∀ o j, x6 (ix2 o j) = ((w2 o j : ℝ) : EReal)) (h7 : ∀ o, x7 (ix2 0 o) = ((β2 o : ℝ) : EReal)) (o : Fin 64) :
    k1_pay4 x0 x1 x2 x3 x4 x5 x6 x7 (ix2 y o) = ((rowZ xr ar w1 β1 sc sh w2 β2 o : ℝ) : EReal) := by
  unfold k1_pay4 rowZ
  dsimp only
  rw [transposeA_eq, transposeB_eq]
  simp only [shapeCast_self, addf_apply, mulf_apply, maximumf_apply, truncf_apply, matmulA_apply, matmulB_apply,
    swap2_apply, broadcastTo_1b_ab_apply, broadcast_apply, h0, h1, h2, h3, h4, h5, h6, h7,
    Scalar.ofBits, Ideal.ofBits_zero_f32, EReal.coe_add, EReal.coe_mul, Cert.LibSums.coe_sum, ← Cert.LibSums.max_coe,
    EReal.coe_zero]

/-- The masked copy of the stored rows that the statistics sum: row `y` of block `i` times one below row 100000, times
    zero on the padding rows. -/
theorem pay1_apply (v32 : FVec Ideal S6272x64 .f32) (i : grid1.Coords) (y : Fin 6272) (o : Fin 64) :
    k1_pay1 v32 (Scalar.muli (BitVec.ofNat 32 (i 0).val) 6272#32) (iota .tc S6272x64 32 [0] iota_S6272x64_d0_w32) (ix2 y o)
      = v32 (ix2 y o) * (if 6272 * (i 0).val + y.val < 100000 then (1 : EReal) else 0) := by
  have ht : (i 0).val < 16 := (i 0).isLt
  unfold k1_pay1
  dsimp only
  rw [mulf_apply]
  congr 1
  show ((((IntOp.cmpi .slt (IntOp.addi (Scalar.muli (BitVec.ofNat 32 (i 0).val) 6272#32)
      (iota .tc S6272x64 32 [0] iota_S6272x64_d0_w32 (ix2 y o))) 100000#32).setWidth 32).toInt : ℝ) : EReal) = _
  rw [iota_single_apply]
  show ((((IntOp.cmpi .slt (IntOp.addi (Scalar.muli (BitVec.ofNat 32 (i 0).val) 6272#32)
      (BitVec.ofNat 32 y.val)) 100000#32).setWidth 32).toInt : ℝ) : EReal) = _
  rw [mask_word _ _ ht y.isLt]
  split_ifs <;> simp

/-- The sum down the rows of a block, read at a column. -/
theorem colsum_apply (src : FVec Ideal S6272x64 .f32) (o : Fin 64) :
    multiReduction .add [0] S64 src 0x00000000#32 reduces_S6272x64_S64 (.inl rfl) rfl (ix1 o) = ∑ y : Fin 6272, src (ix2 y o) :=
  (Ideal.multiReduction_add_single src 0x00000000#32 reduces_S6272x64_S64 (.inl rfl) rfl (ix1 o)).trans
    (Finset.sum_congr rfl fun y _ => congrArg src (funext fun a => Fin.ext (by
      match a with
      | ⟨0, _⟩ => rfl
      | ⟨1, _⟩ => rfl)))

/-- The second output of the body at block `i`: the column sums of the masked rows. -/
theorem pay2_apply (v32 : FVec Ideal S6272x64 .f32) (i : grid1.Coords) (u0 u1 : Fin 1) (o : Fin 64) :
    k1_pay2 v32 (Scalar.muli (BitVec.ofNat 32 (i 0).val) 6272#32) (iota .tc S6272x64 32 [0] iota_S6272x64_d0_w32) (ix3 u0 u1 o)
      = ∑ y : Fin 6272, v32 (ix2 y o) * (if 6272 * (i 0).val + y.val < 100000 then (1 : EReal) else 0) := by
  unfold k1_pay2
  dsimp only
  rw [shapeCast_ab_1ab_apply, shapeCast_a_1a_apply, colsum_apply]
  exact Finset.sum_congr rfl fun y _ => pay1_apply v32 i y o

/-- The third output of the body at block `i`: the column sums of the squares of the masked rows. -/
theorem pay3_apply (v32 : FVec Ideal S6272x64 .f32) (i : grid1.Coords) (u0 u1 : Fin 1) (o : Fin 64) :
    k1_pay3 v32 (Scalar.muli (BitVec.ofNat 32 (i 0).val) 6272#32) (iota .tc S6272x64 32 [0] iota_S6272x64_d0_w32) (ix3 u0 u1 o)
      = ∑ y : Fin 6272, (v32 (ix2 y o) * (if 6272 * (i 0).val + y.val < 100000 then (1 : EReal) else 0))
          * (v32 (ix2 y o) * (if 6272 * (i 0).val + y.val < 100000 then (1 : EReal) else 0)) := by
  unfold k1_pay3
  dsimp only
  rw [shapeCast_ab_1ab_apply, shapeCast_a_1a_apply, colsum_apply]
  refine Finset.sum_congr rfl fun y _ => ?_
  rw [mulf_apply, pay1_apply v32 i y o]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's three results in their staging buffers are the three stored values of the loaded blocks. -/
theorem out8_eq (x0 x1 : Vec Ideal S6272x4 .f32) (x2 : Vec Ideal S64x4 .f32) (x3 x4 x5 : Vec Ideal S1x64 .f32)
    (x6 : Vec Ideal S64x64 .f32) (x7 : Vec Ideal S1x64 .f32) :
    out1_8 x0 x1 x2 x3 x4 x5 x6 x7 = k1_pay4 x0 x1 x2 x3 x4 x5 x6 x7 := by
  unfold out1_8
  rw [View.canon_unit_zero hz2]
  simp only [View.ld_unit_zero (S := S6272x4) hz2, View.ld_unit_zero (S := S64x4) hz2, View.ld_unit_zero (S := S1x64) hz2,
    View.ld_unit_zero (S := S64x64) hz2]

theorem out9_eq (i : grid1.Coords) (x0 x1 : Vec Ideal S6272x4 .f32) (x2 : Vec Ideal S64x4 .f32) (x3 x4 x5 : Vec Ideal S1x64 .f32)
    (x6 : Vec Ideal S64x64 .f32) (x7 : Vec Ideal S1x64 .f32) :
    out1_9 i x0 x1 x2 x3 x4 x5 x6 x7 = k1_pay2 (k1_pay4 x0 x1 x2 x3 x4 x5 x6 x7)
      (Scalar.muli (BitVec.ofNat 32 (i 0).val) 6272#32) (iota .tc S6272x64 32 [0] iota_S6272x64_d0_w32) := by
  unfold out1_9
  rw [View.canon_unit_zero hz3]
  simp only [View.ld_unit_zero (S := S6272x4) hz2, View.ld_unit_zero (S := S64x4) hz2, View.ld_unit_zero (S := S1x64) hz2,
    View.ld_unit_zero (S := S64x64) hz2]

theorem out10_eq (i : grid1.Coords) (x0 x1 : Vec Ideal S6272x4 .f32) (x2 : Vec Ideal S64x4 .f32) (x3 x4 x5 : Vec Ideal S1x64 .f32)
    (x6 : Vec Ideal S64x64 .f32) (x7 : Vec Ideal S1x64 .f32) :
    out1_10 i x0 x1 x2 x3 x4 x5 x6 x7 = k1_pay3 (k1_pay4 x0 x1 x2 x3 x4 x5 x6 x7)
      (Scalar.muli (BitVec.ofNat 32 (i 0).val) 6272#32) (iota .tc S6272x64 32 [0] iota_S6272x64_d0_w32) := by
  unfold out1_10
  rw [View.canon_unit_zero hz3]
  simp only [View.ld_unit_zero (S := S6272x4) hz2, View.ld_unit_zero (S := S64x4) hz2, View.ld_unit_zero (S := S1x64) hz2,
    View.ld_unit_zero (S := S64x64) hz2]

/-! ## The region's blocks and arrays -/

variable (m : (ℓ : Loc nD τ sig) → Buf (Elt Ideal) ℓ) (ρ : Dev nD → PrngReg)
variable (V : (c : Dev nD) → (b : Ref sig .tc) → Buf (Elt Ideal) ((c : Thread nD τ).loc b))

/-- The printed index maps of the row-blocked windows, decided over the grid: block `t` of each is at row-block `t`. -/
theorem idx1_io : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_9.index t (0 : Fin 3) = t.val ∧ win1_9.index t (1 : Fin 3) = 0 ∧ win1_9.index t (2 : Fin 3) = 0
    ∧ win1_10.index t (0 : Fin 3) = t.val ∧ win1_10.index t (1 : Fin 3) = 0 ∧ win1_10.index t (2 : Fin 3) = 0
    ∧ ((grid1.coords t) 0).val = t.val :=
  (by decide +kernel : ∀ t : Fin grid1.N, _)

/-- The windows of the weights are their whole arrays at every point. -/
theorem idx1_par : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `y` of the first input's block at point `t` is row `6272 t + y` of its array. -/
theorem blk0_apply (c : Dev nD) (t : Fin cfg1.N) (y : Fin 6272) (k : Fin 4) (r : Fin 100352)
    (hr : r.val = 6272 * t.val + y.val) :
    (iblk1 V c 0 t : Vec Ideal S6272x4 .f32) (ix2 y k) = (V c main_v19 : S100352x4.Idx → EReal) (ix2 r k) := by
  obtain ⟨e0, e1, -⟩ := idx1_io t
  unfold iblk1
  rw [View.read_apply]
  show V c main_v19 _ = V c main_v19 _
  congr 1
  funext a; apply Fin.ext
  match a with
  | ⟨0, _⟩ => show win1_0.index t 0 * S6272x4.size 0 + 1 * y.val = r.val; rw [e0, hr]; show t.val * 6272 + 1 * y.val = _; omega
  | ⟨1, _⟩ => show win1_0.index t 1 * S6272x4.size 1 + 1 * k.val = k.val; rw [e1]; omega

/-- Row `y` of the second input's block at point `t` is row `6272 t + y` of its array. -/
theorem blk1_apply (c : Dev nD) (t : Fin cfg1.N) (y : Fin 6272) (k : Fin 4) (r : Fin 100352)
    (hr : r.val = 6272 * t.val + y.val) :
    (iblk1 V c 1 t : Vec Ideal S6272x4 .f32) (ix2 y k) = (V c main_v31 : S100352x4.Idx → EReal) (ix2 r k) := by
  obtain ⟨-, -, e0, e1, -⟩ := idx1_io t
  unfold iblk1
  rw [View.read_apply]
  show V c main_v31 _ = V c main_v31 _
  congr 1
  funext a; apply Fin.ext
  match a with
  | ⟨0, _⟩ => show win1_1.index t 0 * S6272x4.size 0 + 1 * y.val = r.val; rw [e0, hr]; show t.val * 6272 + 1 * y.val = _; omega
  | ⟨1, _⟩ => show win1_1.index t 1 * S6272x4.size 1 + 1 * k.val = k.val; rw [e1]; omega

/-- The weights' blocks are their arrays. -/
theorem blk2_apply (c : Dev nD) (t : Fin cfg1.N) (j : Fin 64) (k : Fin 4) :
    (iblk1 V c 2 t : Vec Ideal S64x4 .f32) (ix2 j k) = (V c main_arg3 : S64x4.Idx → EReal) (ix2 j k) := by
  obtain ⟨e0, e1, -⟩ := idx1_par t
  unfold iblk1
  rw [View.read_apply]
  show V c main_arg3 _ = V c main_arg3 _
  congr 1
  funext a; apply Fin.ext
  match a with
  | ⟨0, _⟩ => show win1_2.index t 0 * S64x4.size 0 + 1 * j.val = j.val; rw [e0]; omega
  | ⟨1, _⟩ => show win1_2.index t 1 * S64x4.size 1 + 1 * k.val = k.val; rw [e1]; omega

theorem blk3_apply (c : Dev nD) (t : Fin cfg1.N) (u : Fin 1) (j : Fin 64) :
    (iblk1 V c 3 t : Vec Ideal S1x64 .f32) (ix2 u j) = (V c main_v32 : S1x64.Idx → EReal) (ix2 u j) := by
  obtain ⟨-, -, e0, e1, -⟩ := idx1_par t
  unfold iblk1
  rw [View.read_apply]
  show V c main_v32 _ = V c main_v32 _
  congr 1
  funext a; apply Fin.ext
  match a with
  | ⟨0, _⟩ => show win1_3.index t 0 * S1x64.size 0 + 1 * u.val = u.val; rw [e0]; omega
  | ⟨1, _⟩ => show win1_3.index t 1 * S1x64.size 1 + 1 * j.val = j.val; rw [e1]; omega

theorem blk4_apply (c : Dev nD) (t : Fin cfg1.N) (u : Fin 1) (j : Fin 64) :
    (iblk1 V c 4 t : Vec Ideal S1x64 .f32) (ix2 u j) = (V c main_v46 : S1x64.Idx → EReal) (ix2 u j) := by
  obtain ⟨-, -, -, -, e0, e1, -⟩ := idx1_par t
  unfold iblk1
  rw [View.read_apply]
  show V c main_v46 _ = V c main_v46 _
  congr 1
  funext a; apply Fin.ext
  match a with
  | ⟨0, _⟩ => show win1_4.index t 0 * S1x64.size 0 + 1 * u.val = u.val; rw [e0]; omega
  | ⟨1, _⟩ => show win1_4.index t 1 * S1x64.size 1 + 1 * j.val = j.val; rw [e1]; omega

theorem blk5_apply (c : Dev nD) (t : Fin cfg1.N) (u : Fin 1) (j : Fin 64) :
    (iblk1 V c 5 t : Vec Ideal S1x64 .f32) (ix2 u j) = (V c main_v49 : S1x64.Idx → EReal) (ix2 u j) := by
  obtain ⟨-, -, -, -, -, -, e0, e1, -⟩ := idx1_par t
  unfold iblk1
  rw [View.read_apply]
  show V c main_v49 _ = V c main_v49 _
  congr 1
  funext a; apply Fin.ext
  match a with
  | ⟨0, _⟩ => show win1_5.index t 0 * S1x64.size 0 + 1 * u.val = u.val; rw [e0]; omega
  | ⟨1, _⟩ => show win1_5.index t 1 * S1x64.size 1 + 1 * j.val = j.val; rw [e1]; omega

theorem blk6_apply (c : Dev nD) (t : Fin cfg1.N) (j : Fin 64) (k : Fin 64) :
    (iblk1 V c 6 t : Vec Ideal S64x64 .f32) (ix2 j k) = (V c main_arg7 : S64x64.Idx → EReal) (ix2 j k) := by
  obtain ⟨-, -, -, -, -, -, -, -, e0, e1, -⟩ := idx1_par t
  unfold iblk1
  rw [View.read_apply]
  show V c main_arg7 _ = V c main_arg7 _
  congr 1
  funext a; apply Fin.ext
  match a with
  | ⟨0, _⟩ => show win1_6.index t 0 * S64x64.size 0 + 1 * j.val = j.val; rw [e0]; omega
  | ⟨1, _⟩ => show win1_6.index t 1 * S64x64.size 1 + 1 * k.val = k.val; rw [e1]; omega

theorem blk7_apply (c : Dev nD) (t : Fin cfg1.N) (u : Fin 1) (j : Fin 64) :
    (iblk1 V c 7 t : Vec Ideal S1x64 .f32) (ix2 u j) = (V c main_v50 : S1x64.Idx → EReal) (ix2 u j) := by
  obtain ⟨-, -, -, -, -, -, -, -, -, -, e0, e1⟩ := idx1_par t
  unfold iblk1
  rw [View.read_apply]
  show V c main_v50 _ = V c main_v50 _
  congr 1
  funext a; apply Fin.ext
  match a with
  | ⟨0, _⟩ => show win1_7.index t 0 * S1x64.size 0 + 1 * u.val = u.val; rw [e0]; omega
  | ⟨1, _⟩ => show win1_7.index t 1 * S1x64.size 1 + 1 * j.val = j.val; rw [e1]; omega

/-- What point `t` writes back of each output: the body's stored values of the point's blocks. -/
theorem flushed8_eq (c : Dev nD) (t : Fin cfg1.N) :
    (dat1 V c).flushed 8 t = k1_pay4 (iblk1 V c 0 t) (iblk1 V c 1 t) (iblk1 V c 2 t) (iblk1 V c 3 t) (iblk1 V c 4 t)
      (iblk1 V c 5 t) (iblk1 V c 6 t) (iblk1 V c 7 t) := by
  show (cfg1.win 8).cut (grid1.coords t) ((dat1 V c).after 8 t) = _
  rw [after1_8, out8_eq]
  rfl

theorem flushed9_eq (c : Dev nD) (t : Fin cfg1.N) :
    (dat1 V c).flushed 9 t = k1_pay2 (k1_pay4 (iblk1 V c 0 t) (iblk1 V c 1 t) (iblk1 V c 2 t) (iblk1 V c 3 t) (iblk1 V c 4 t)
      (iblk1 V c 5 t) (iblk1 V c 6 t) (iblk1 V c 7 t))
      (Scalar.muli (BitVec.ofNat 32 ((grid1.coords t) 0).val) 6272#32) (iota .tc S6272x64 32 [0] iota_S6272x64_d0_w32) := by
  show (cfg1.win 9).cut (grid1.coords t) ((dat1 V c).after 9 t) = _
  rw [after1_9, out9_eq]
  rfl

theorem flushed10_eq (c : Dev nD) (t : Fin cfg1.N) :
    (dat1 V c).flushed 10 t = k1_pay3 (k1_pay4 (iblk1 V c 0 t) (iblk1 V c 1 t) (iblk1 V c 2 t) (iblk1 V c 3 t) (iblk1 V c 4 t)
      (iblk1 V c 5 t) (iblk1 V c 6 t) (iblk1 V c 7 t))
      (Scalar.muli (BitVec.ofNat 32 ((grid1.coords t) 0).val) 6272#32) (iota .tc S6272x64 32 [0] iota_S6272x64_d0_w32) := by
  show (cfg1.win 10).cut (grid1.coords t) ((dat1 V c).after 10 t) = _
  rw [after1_10, out10_eq]
  rfl

/-! ## The layer over the reals, row by row -/

/-- The first linear map of the layer, on the inputs and their neighbour sums added. -/
abbrev Y1 (x a : Fin 100000 → Fin 4 → ℝ) (w1 : Fin 64 → Fin 4 → ℝ) (β1 : Fin 64 → ℝ) : Fin 100000 → Fin 64 → ℝ :=
  Cert.Spec.lin (fun i k => x i k + a i k) w1 β1

/-- The layer: the second linear map of the rectified normalised first one. -/
abbrev Z1 (x a : Fin 100000 → Fin 4 → ℝ) (w1 : Fin 64 → Fin 4 → ℝ) (β1 g1 be1 : Fin 64 → ℝ)
    (w2 : Fin 64 → Fin 64 → ℝ) (β2 : Fin 64 → ℝ) : Fin 100000 → Fin 64 → ℝ :=
  Cert.Spec.lin (Cert.Spec.relu (Cert.Spec.bn eps (Y1 x a w1 β1) g1 be1)) w2 β2

/-- Row `i` of the layer is `rowZ` of row `i` of the inputs, with the normalisation's slope and intercept: the
    normalisation is one multiply-add per entry. -/
theorem Z_eq_rowZ (x a : Fin 100000 → Fin 4 → ℝ) (w1 : Fin 64 → Fin 4 → ℝ) (β1 g1 be1 : Fin 64 → ℝ)
    (w2 : Fin 64 → Fin 64 → ℝ) (β2 : Fin 64 → ℝ) (i : Fin 100000) (o : Fin 64) :
    Z1 x a w1 β1 g1 be1 w2 β2 i o
      = rowZ (x i) (a i) w1 β1 (Cert.Spec.scale eps (Y1 x a w1 β1) g1) (Cert.Spec.shift eps (Y1 x a w1 β1) g1 be1) w2 β2 o := by
  unfold rowZ
  show ∑ k, Cert.Spec.relu (Cert.Spec.bn eps (Y1 x a w1 β1) g1 be1) i k * w2 o k + β2 o = _
  congr 1
  refine Finset.sum_congr rfl fun j _ => ?_
  unfold Cert.Spec.relu
  rw [← Cert.Spec.mul_scale_add_shift (by norm_num) eps (Y1 x a w1 β1) g1 be1 i j]
  rfl

section Run

variable {x a : Fin 100000 → Fin 4 → ℝ} {w1 : Fin 64 → Fin 4 → ℝ} {β1 g1 be1 : Fin 64 → ℝ}
  {w2 : Fin 64 → Fin 64 → ℝ} {β2 : Fin 64 → ℝ}

/-- What the body stores at row `y` of point `t`'s block, when that row is row `i` of the nodes: row `i` of the layer. -/
theorem stored_row (c : Dev nD)
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2)
    (t : Fin cfg1.N) (y : Fin 6272) (i : Fin 100000) (hi : i.val = 6272 * t.val + y.val) (o : Fin 64) :
    k1_pay4 (iblk1 (V9 m ρ) c 0 t) (iblk1 (V9 m ρ) c 1 t) (iblk1 (V9 m ρ) c 2 t) (iblk1 (V9 m ρ) c 3 t)
        (iblk1 (V9 m ρ) c 4 t) (iblk1 (V9 m ρ) c 5 t) (iblk1 (V9 m ρ) c 6 t) (iblk1 (V9 m ρ) c 7 t) (ix2 y o)
      = ((Z1 x a w1 β1 g1 be1 w2 β2 i o : ℝ) : EReal) := by
  have hlt : i.val < 100352 := by have := i.isLt; omega
  rw [Z_eq_rowZ]
  exact pay4_row (iblk1 (V9 m ρ) c 0 t) (iblk1 (V9 m ρ) c 1 t) (iblk1 (V9 m ρ) c 2 t) (iblk1 (V9 m ρ) c 3 t)
    (iblk1 (V9 m ρ) c 4 t) (iblk1 (V9 m ρ) c 5 t) (iblk1 (V9 m ρ) c 6 t) (iblk1 (V9 m ρ) c 7 t) y
    (x i) (a i) w1 β1 (Cert.Spec.scale eps (Y1 x a w1 β1) g1) (Cert.Spec.shift eps (Y1 x a w1 β1) g1 be1) w2 β2
    (fun k => (blk0_apply (V9 m ρ) c t y k ⟨i.val, hlt⟩ hi).trans (hx i hlt k))
    (fun k => (blk1_apply (V9 m ρ) c t y k ⟨i.val, hlt⟩ hi).trans (ha i hlt k))
    (fun j k => (blk2_apply (V9 m ρ) c t j k).trans (hw1 j k))
    (fun j => (blk3_apply (V9 m ρ) c t 0 j).trans (hb1 j))
    (fun j => (blk4_apply (V9 m ρ) c t 0 j).trans (hsc j))
    (fun j => (blk5_apply (V9 m ρ) c t 0 j).trans (hsh j))
    (fun o j => (blk6_apply (V9 m ρ) c t o j).trans (hw2 o j))
    (fun o => (blk7_apply (V9 m ρ) c t 0 o).trans (hb2 o)) o

/-- The column sum, over the rows of block `t`, of the layer's rows below row 100000: what the region leaves at block `t`
    of its second output. -/
def blockSum (Z : Fin 100000 → Fin 64 → ℝ) (t : ℕ) (o : Fin 64) : EReal :=
  ∑ y : Fin 6272, if h : 6272 * t + y.val < 100000 then ((Z ⟨6272 * t + y.val, h⟩ o : ℝ) : EReal) else 0

/-- The same of the squares: block `t` of the third output. -/
def blockSumSq (Z : Fin 100000 → Fin 64 → ℝ) (t : ℕ) (o : Fin 64) : EReal :=
  ∑ y : Fin 6272, if h : 6272 * t + y.val < 100000 then
    ((Z ⟨6272 * t + y.val, h⟩ o * Z ⟨6272 * t + y.val, h⟩ o : ℝ) : EReal) else 0

/-- A stored row times its mask: the layer's row below row 100000, zero on a padding row whatever it holds. -/
theorem masked_row (c : Dev nD)
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2)
    (t : Fin cfg1.N) (y : Fin 6272) (o : Fin 64) :
    k1_pay4 (iblk1 (V9 m ρ) c 0 t) (iblk1 (V9 m ρ) c 1 t) (iblk1 (V9 m ρ) c 2 t) (iblk1 (V9 m ρ) c 3 t)
        (iblk1 (V9 m ρ) c 4 t) (iblk1 (V9 m ρ) c 5 t) (iblk1 (V9 m ρ) c 6 t) (iblk1 (V9 m ρ) c 7 t) (ix2 y o)
        * (if 6272 * ((grid1.coords t) 0).val + y.val < 100000 then (1 : EReal) else 0)
      = if h : 6272 * t.val + y.val < 100000 then
          ((Z1 x a w1 β1 g1 be1 w2 β2 ⟨6272 * t.val + y.val, h⟩ o : ℝ) : EReal) else 0 := by
  obtain ⟨-, -, -, -, -, -, -, -, -, -, -, -, ec⟩ := idx1_io t
  rw [ec]
  by_cases h : 6272 * t.val + y.val < 100000
  · rw [if_pos h, dif_pos h, mul_one]
    exact stored_row m ρ c hx ha hw1 hb1 hsc hsh hw2 hb2 t y ⟨6272 * t.val + y.val, h⟩ rfl o
  · rw [if_neg h, dif_neg h, mul_zero]

/-- An index of the first output's array is in point `t`'s block iff each coordinate is in the block's range. -/
theorem mem_blk8 (t : Fin cfg1.N) (j : S100352x64.Idx) :
    j ∈ ((cfg1.win 8).blk t).view.set ↔ ∀ a : Fin 2, win1_8.index t a * S6272x64.size a ≤ (j a).val
      ∧ (j a).val < win1_8.index t a * S6272x64.size a + S6272x64.size a := by
  show j ∈ ((View.whole main_v51_0).slice (win1_8.rect t)).set ↔ _
  rw [View.set_slice_whole, Rect.mem_set_unit]
  exact Iff.rfl

/-- The sixteen row blocks fill the first output's array: row `r` is in block `r / 6272`. -/
theorem cover8 (j : S100352x64.Idx) :
    ∃ t : Fin cfg1.N, (cfg1.win 8).flush t = true ∧ j ∈ ((cfg1.win 8).blk t).view.set := by
  have h0 : (j 0).val < 100352 := idx2_lt0 j
  have h1 : (j 1).val < 64 := idx2_lt1 j
  obtain ⟨t, ht⟩ : ∃ t : Fin cfg1.N, t.val = (j 0).val / 6272 :=
    ⟨⟨(j 0).val / 6272, by show _ < 16; omega⟩, rfl⟩
  obtain ⟨-, -, -, -, e0, e1, -⟩ := idx1_io t
  refine ⟨t, flush1_8 t, ?_⟩
  rw [mem_blk8]
  intro a
  match a with
  | ⟨0, _⟩ =>
    show win1_8.index t 0 * 6272 ≤ (j 0).val ∧ (j 0).val < win1_8.index t 0 * 6272 + 6272
    rw [e0, ht]; omega
  | ⟨1, _⟩ =>
    show win1_8.index t 1 * 64 ≤ (j 1).val ∧ (j 1).val < win1_8.index t 1 * 64 + 64
    rw [e1]; omega

/-- THE ROWS of the region's first output: the layer, at every node's row. -/
theorem body1_rows (c : Dev nD)
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2) :
    Rows (W10 m ρ c (Proc.devRef .tc main_v51_0)) (Z1 x a w1 β1 g1 be1 w2 β2) := by
  intro i hi k
  have hW : (W10 m ρ c (Proc.devRef .tc main_v51_0) : S100352x64.Idx → EReal) = (dat1 (V9 m ρ) c).arrAt 8 cfg1.N :=
    W10_arr m ρ c 8
  rw [hW]
  have key := (dat1 (V9 m ρ) c).arrAt_forall_of_cover 8
    (fun (j : S100352x64.Idx) (v : EReal) => ∀ (i' : Fin 100000) (o : Fin 64), i'.val = (j 0).val → o.val = (j 1).val →
      v = ((Z1 x a w1 β1 g1 be1 w2 β2 i' o : ℝ) : EReal))
    (fun t _ y i' o hi' ho => by
      obtain ⟨-, -, -, -, e0, e1, -⟩ := idx1_io t
      have hi2 : i'.val = 6272 * t.val + (y 0).val := by
        rw [hi']; show win1_8.index t 0 * 6272 + 1 * (y 0).val = _; rw [e0]; omega
      obtain rfl : o = y 1 := Fin.ext (by
        rw [ho]; show win1_8.index t 1 * 64 + 1 * (y 1).val = _; rw [e1]; omega)
      have hs := stored_row m ρ c hx ha hw1 hb1 hsc hsh hw2 hb2 t (y 0) i' hi2 (y 1)
      rw [cast_eq, flushed8_eq]
      exact (congrArg _ (eq_ix2 (n0 := 6272) (n1 := 64) y)).trans hs)
    cover8 (ix2 ⟨i.val, hi⟩ k)
  exact key i k rfl rfl

/-- An index of the second output's array is in point `t`'s block iff each coordinate is in the block's range. -/
theorem mem_blk9 (t : Fin cfg1.N) (j : S16x1x64.Idx) :
    j ∈ ((cfg1.win 9).blk t).view.set ↔ ∀ a : Fin 3, win1_9.index t a * S1x1x64.size a ≤ (j a).val
      ∧ (j a).val < win1_9.index t a * S1x1x64.size a + S1x1x64.size a := by
  show j ∈ ((View.whole main_v51_1).slice (win1_9.rect t)).set ↔ _
  rw [View.set_slice_whole, Rect.mem_set_unit]
  exact Iff.rfl

/-- Likewise of the third output's. -/
theorem mem_blk10 (t : Fin cfg1.N) (j : S16x1x64.Idx) :
    j ∈ ((cfg1.win 10).blk t).view.set ↔ ∀ a : Fin 3, win1_10.index t a * S1x1x64.size a ≤ (j a).val
      ∧ (j a).val < win1_10.index t a * S1x1x64.size a + S1x1x64.size a := by
  show j ∈ ((View.whole main_v51_2).slice (win1_10.rect t)).set ↔ _
  rw [View.set_slice_whole, Rect.mem_set_unit]
  exact Iff.rfl

/-- Block `t` of the per-block sums is point `t`'s: the sixteen blocks fill the array. -/
theorem cover9 (j : S16x1x64.Idx) :
    ∃ t : Fin cfg1.N, (cfg1.win 9).flush t = true ∧ j ∈ ((cfg1.win 9).blk t).view.set := by
  have h0 : (j 0).val < 16 := (j 0).isLt
  have h1 : (j 1).val < 1 := (j 1).isLt
  have h2 : (j 2).val < 64 := (j 2).isLt
  obtain ⟨t, ht⟩ : ∃ t : Fin cfg1.N, t.val = (j 0).val := ⟨⟨(j 0).val, h0⟩, rfl⟩
  obtain ⟨-, -, -, -, -, -, e0, e1, e2, -⟩ := idx1_io t
  refine ⟨t, flush1_9 t, ?_⟩
  rw [mem_blk9]
  intro a
  match a with
  | ⟨0, _⟩ =>
    show win1_9.index t 0 * 1 ≤ (j 0).val ∧ (j 0).val < win1_9.index t 0 * 1 + 1
    rw [e0, ht]; omega
  | ⟨1, _⟩ =>
    show win1_9.index t 1 * 1 ≤ (j 1).val ∧ (j 1).val < win1_9.index t 1 * 1 + 1
    rw [e1]; omega
  | ⟨2, _⟩ =>
    show win1_9.index t 2 * 64 ≤ (j 2).val ∧ (j 2).val < win1_9.index t 2 * 64 + 64
    rw [e2]; omega

theorem cover10 (j : S16x1x64.Idx) :
    ∃ t : Fin cfg1.N, (cfg1.win 10).flush t = true ∧ j ∈ ((cfg1.win 10).blk t).view.set := by
  have h0 : (j 0).val < 16 := (j 0).isLt
  have h1 : (j 1).val < 1 := (j 1).isLt
  have h2 : (j 2).val < 64 := (j 2).isLt
  obtain ⟨t, ht⟩ : ∃ t : Fin cfg1.N, t.val = (j 0).val := ⟨⟨(j 0).val, h0⟩, rfl⟩
  obtain ⟨-, -, -, -, -, -, -, -, -, e0, e1, e2, -⟩ := idx1_io t
  refine ⟨t, flush1_10 t, ?_⟩
  rw [mem_blk10]
  intro a
  match a with
  | ⟨0, _⟩ =>
    show win1_10.index t 0 * 1 ≤ (j 0).val ∧ (j 0).val < win1_10.index t 0 * 1 + 1
    rw [e0, ht]; omega
  | ⟨1, _⟩ =>
    show win1_10.index t 1 * 1 ≤ (j 1).val ∧ (j 1).val < win1_10.index t 1 * 1 + 1
    rw [e1]; omega
  | ⟨2, _⟩ =>
    show win1_10.index t 2 * 64 ≤ (j 2).val ∧ (j 2).val < win1_10.index t 2 * 64 + 64
    rw [e2]; omega

/-- THE PER-BLOCK SUMS of the region's second output. -/
theorem body1_sum (c : Dev nD)
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2)
    (t : Fin 16) (o : Fin 64) :
    (W10 m ρ c (Proc.devRef .tc main_v51_1) : S16x1x64.Idx → EReal) (ix3 t 0 o)
      = blockSum (Z1 x a w1 β1 g1 be1 w2 β2) t.val o := by
  have hW : (W10 m ρ c (Proc.devRef .tc main_v51_1) : S16x1x64.Idx → EReal) = (dat1 (V9 m ρ) c).arrAt 9 cfg1.N :=
    W10_arr m ρ c 9
  rw [hW]
  have key := (dat1 (V9 m ρ) c).arrAt_forall_of_cover 9
    (fun (j : S16x1x64.Idx) (v : EReal) => ∀ (o' : Fin 64), o'.val = (j 2).val →
      v = blockSum (Z1 x a w1 β1 g1 be1 w2 β2) (j 0).val o')
    (fun t' _ y o' ho => by
      obtain ⟨-, -, -, -, -, -, e0, e1, e2, -⟩ := idx1_io t'
      have hy0 : (y 0).val < 1 := (y 0).isLt
      have ht' : ((((cfg1.win 9).blk t').view.emb y) 0).val = t'.val := by
        show win1_9.index t' 0 * 1 + 1 * (y 0).val = _; rw [e0]; omega
      obtain rfl : o' = y 2 := Fin.ext (by
        rw [ho]; show win1_9.index t' 2 * 64 + 1 * (y 2).val = _; rw [e2]; omega)
      have hp := pay2_apply (k1_pay4 (iblk1 (V9 m ρ) c 0 t') (iblk1 (V9 m ρ) c 1 t') (iblk1 (V9 m ρ) c 2 t')
        (iblk1 (V9 m ρ) c 3 t') (iblk1 (V9 m ρ) c 4 t') (iblk1 (V9 m ρ) c 5 t') (iblk1 (V9 m ρ) c 6 t')
        (iblk1 (V9 m ρ) c 7 t')) (grid1.coords t') (y 0) (y 1) (y 2)
      rw [cast_eq, flushed9_eq, ht']
      refine ((congrArg _ (eq_ix3 (n0 := 1) (n1 := 1) (n2 := 64) y)).trans hp).trans ?_
      unfold blockSum
      exact Finset.sum_congr rfl fun y' _ => masked_row m ρ c hx ha hw1 hb1 hsc hsh hw2 hb2 t' y' (y 2))
    cover9 (ix3 t 0 o)
  exact key o rfl

/-- THE PER-BLOCK SUMS OF SQUARES of the region's third output. -/
theorem body1_sumsq (c : Dev nD)
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2)
    (t : Fin 16) (o : Fin 64) :
    (W10 m ρ c (Proc.devRef .tc main_v51_2) : S16x1x64.Idx → EReal) (ix3 t 0 o)
      = blockSumSq (Z1 x a w1 β1 g1 be1 w2 β2) t.val o := by
  have hW : (W10 m ρ c (Proc.devRef .tc main_v51_2) : S16x1x64.Idx → EReal) = (dat1 (V9 m ρ) c).arrAt 10 cfg1.N :=
    W10_arr m ρ c 10
  rw [hW]
  have key := (dat1 (V9 m ρ) c).arrAt_forall_of_cover 10
    (fun (j : S16x1x64.Idx) (v : EReal) => ∀ (o' : Fin 64), o'.val = (j 2).val →
      v = blockSumSq (Z1 x a w1 β1 g1 be1 w2 β2) (j 0).val o')
    (fun t' _ y o' ho => by
      obtain ⟨-, -, -, -, -, -, -, -, -, e0, e1, e2, -⟩ := idx1_io t'
      have hy0 : (y 0).val < 1 := (y 0).isLt
      have ht' : ((((cfg1.win 10).blk t').view.emb y) 0).val = t'.val := by
        show win1_10.index t' 0 * 1 + 1 * (y 0).val = _; rw [e0]; omega
      obtain rfl : o' = y 2 := Fin.ext (by
        rw [ho]; show win1_10.index t' 2 * 64 + 1 * (y 2).val = _; rw [e2]; omega)
      have hp := pay3_apply (k1_pay4 (iblk1 (V9 m ρ) c 0 t') (iblk1 (V9 m ρ) c 1 t') (iblk1 (V9 m ρ) c 2 t')
        (iblk1 (V9 m ρ) c 3 t') (iblk1 (V9 m ρ) c 4 t') (iblk1 (V9 m ρ) c 5 t') (iblk1 (V9 m ρ) c 6 t')
        (iblk1 (V9 m ρ) c 7 t')) (grid1.coords t') (y 0) (y 1) (y 2)
      rw [cast_eq, flushed10_eq, ht']
      refine ((congrArg _ (eq_ix3 (n0 := 1) (n1 := 1) (n2 := 64) y)).trans hp).trans ?_
      unfold blockSumSq
      refine Finset.sum_congr rfl fun y' _ => ?_
      rw [masked_row m ρ c hx ha hw1 hb1 hsc hsh hw2 hb2 t' y' (y 2)]
      by_cases h : 6272 * t'.val + y'.val < 100000
      · rw [dif_pos h, dif_pos h, EReal.coe_mul]
      · rw [dif_neg h, dif_neg h, mul_zero])
    cover10 (ix3 t 0 o)
  exact key o rfl

/-- REGION 1 AND THE HOST STRETCH AFTER IT, on real data: the first output holds the layer at every node's row, and the
    host's two results are the slope and the intercept of the layer's normalisation (the per-block sums, added over the
    sixteen blocks, are the column sums over the nodes: the blocks' rows are the rows below 100352, the padding rows
    contribute zero). -/
theorem body1 (c : Dev nD) {go bo : Fin 64 → ℝ}
    (hx : Rows (W9 (F := Ideal) m ρ c (Proc.devRef .tc main_v19)) x) (ha : Rows (W9 m ρ c (Proc.devRef .tc main_v31)) a)
    (hw1 : Mat (W9 m ρ c (Proc.devRef .tc main_arg3)) w1) (hb1 : Row1 (W9 m ρ c (Proc.devRef .tc main_v32)) β1)
    (hsc : Row1 (W9 m ρ c (Proc.devRef .tc main_v46)) (Cert.Spec.scale eps (Y1 x a w1 β1) g1))
    (hsh : Row1 (W9 m ρ c (Proc.devRef .tc main_v49)) (Cert.Spec.shift eps (Y1 x a w1 β1) g1 be1))
    (hw2 : Mat (W9 m ρ c (Proc.devRef .tc main_arg7)) w2) (hb2 : Row1 (W9 m ρ c (Proc.devRef .tc main_v50)) β2)
    (hgo : Vec1 (W10 m ρ c (Proc.devRef .tc main_arg9)) go) (hbo : Vec1 (W10 m ρ c (Proc.devRef .tc main_arg10)) bo) :
    Rows (W10 m ρ c (Proc.devRef .tc main_v51_0)) (Z1 x a w1 β1 g1 be1 w2 β2)
      ∧ Row1 (W11 m ρ c (Proc.devRef .tc main_v64)) (Cert.Spec.scale eps (Z1 x a w1 β1 g1 be1 w2 β2) go)
      ∧ Row1 (W11 m ρ c (Proc.devRef .tc main_v67)) (Cert.Spec.shift eps (Z1 x a w1 β1 g1 be1 w2 β2) go bo) :=
  ⟨body1_rows m ρ c hx ha hw1 hb1 hsc hsh hw2 hb2,
    Cert.KBodyStats.stats1 m ρ c
      (fun t o => body1_sum m ρ c hx ha hw1 hb1 hsc hsh hw2 hb2 t o)
      (fun t o => body1_sumsq m ρ c hx ha hw1 hb1 hsc hsh hw2 hb2 t o) hgo hbo⟩

end Run

end Cert.KBody
end
-- ==== Proof.KBody2.lean ====
/-
  Region 4 of the kernel (one message-passing layer's dense part) and the host stretch after it, over the extended reals:
  at a row of real inputs the body stores that row of `lin₂ (relu (bn (lin₁ (x + agg))))`, the normalisation taken as one
  multiply-add per entry; the per-block column sums of the stored rows and of their squares skip the padding rows (a
  factor zero annihilates whatever a padding row holds); summed over the blocks and divided by the node count they are
  the mean and the mean of squares, from which the host computes the next normalisation's slope and intercept.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import proofs.«403050_j67860483276910_3_alg».proof.Proof.KBodyStats
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Mathlib.Data.EReal.Basic
import Mathlib.Data.EReal.Operations
import Mathlib.Tactic.FinCases
import Mathlib.Tactic.NormNum

noncomputable section

open scoped BigOperators

namespace Cert.KBody2

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.GenP Cert.Lift
open Cert.LibSums (eps)

section General

/-- A rows-by-columns product into the zero accumulator, read at an entry: the sum over the contracted coordinate of the
    products of the two operands' entries. -/
theorem matmul_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A matrix read with its two coordinates exchanged. -/
def swap2 {a b : ℕ} {α : Type} (x : (⟨2, ![a, b]⟩ : Shape).Idx → α) : (⟨2, ![b, a]⟩ : Shape).Idx → α :=
  fun i => x (ix2 (i 1) (i 0))

theorem swap2_apply {a b : ℕ} {α : Type} (x : (⟨2, ![a, b]⟩ : Shape).Idx → α) (j : Fin b) (i : Fin a) :
    swap2 x (ix2 j i) = x (ix2 i j) := rfl

/-- The word that compares row `6272 t + y` with 100000, widened and read as a real: one below row 100000, zero from
    there on (nothing wraps: the row number is below 2³¹). -/
theorem mask_word (t y : ℕ) (ht : t < 16) (hy : y < 6272) :
    (((IntOp.cmpi .slt (IntOp.addi (Scalar.muli (BitVec.ofNat 32 t) 6272#32) (BitVec.ofNat 32 y)) 100000#32).setWidth 32).toInt : ℝ)
      = if 6272 * t + y < 100000 then 1 else 0 := by
  have ha : (IntOp.addi (Scalar.muli (BitVec.ofNat 32 t) 6272#32) (BitVec.ofNat 32 y)).toNat = 6272 * t + y := by
    simp only [Scalar.muli, IntOp.muli, IntOp.addi, BitVec.toNat_add, BitVec.toNat_mul, BitVec.toNat_ofNat,
      Nat.reducePow, Nat.reduceMod]
    omega
  have hb : (100000#32 : BitVec 32).toNat = 100000 := by decide
  by_cases h : 6272 * t + y < 100000
  · rw [if_pos h, (StableHlo.Predicate.slt_iff_toNat (by rw [ha]; omega) (by rw [hb]; norm_num)).mpr (by rw [ha, hb]; exact h),
      show ((1#1 : BitVec 1).setWidth 32).toInt = 1 from by decide]
    norm_num
  · have hc : IntOp.cmpi .slt (IntOp.addi (Scalar.muli (BitVec.ofNat 32 t) 6272#32) (BitVec.ofNat 32 y)) 100000#32 = 0#1 :=
      eq_zero_of_ne_one (fun h1 => h (by
        have := (StableHlo.Predicate.slt_iff_toNat (by rw [ha]; omega) (by rw [hb]; norm_num)).mp h1
        rwa [ha, hb] at this))
    rw [if_neg h, hc, show ((0#1 : BitVec 1).setWidth 32).toInt = 0 from by decide]
    norm_num

end General

/-! ## The body's stored values, read at an entry -/

/-- The first product of the body (input columns against the first weight matrix), read at an entry. -/
theorem matmulA_apply (A : FVec Ideal S6272x64 .bf16) (B : FVec Ideal S64x64 .bf16) (a : Fin 6272) (b : Fin 64) :
    matmul dot_S6272x64_S64x64_S6272x64_1_0_0_1_n_n none A B (constant S6272x64 .f32 0x00000000#32) (ix2 a b)
      = ∑ c : Fin 64, A (ix2 a c) * B (ix2 c b) :=
  matmul_rowcol_apply dot_S6272x64_S64x64_S6272x64_1_0_0_1_n_n_wf none A B a b

/-- The second product of the body (hidden columns against the second weight matrix), read at an entry. -/
theorem matmulB_apply (A : FVec Ideal S6272x64 .bf16) (B : FVec Ideal S64x64 .bf16) (a : Fin 6272) (b : Fin 64) :
    matmul dot_S6272x64_S64x64_S6272x64_1_0_0_1_n_n none A B (constant S6272x64 .f32 0x00000000#32) (ix2 a b)
      = ∑ c : Fin 64, A (ix2 a c) * B (ix2 c b) :=
  matmul_rowcol_apply dot_S6272x64_S64x64_S6272x64_1_0_0_1_n_n_wf none A B a b

/-- The first weight matrix as the product takes it: its two coordinates exchanged. -/
theorem transposeA_eq (x : FVec Ideal S64x64 .bf16) :
    transpose S64x64 [1, 0] x transposes_S64x64_p1_0_S64x64 = swap2 x :=
  funext fun i => (congrArg _ (eq_ix2 i)).trans (transpose_ix2_apply x transposes_S64x64_p1_0_S64x64 (i 0) (i 1))

/-- The second weight matrix as the product takes it: its two coordinates exchanged. -/
theorem transposeB_eq (x : FVec Ideal S64x64 .bf16) :
    transpose S64x64 [1, 0] x transposes_S64x64_p1_0_S64x64 = swap2 x :=
  funext fun i => (congrArg _ (eq_ix2 i)).trans (transpose_ix2_apply x transposes_S64x64_p1_0_S64x64 (i 0) (i 1))

/-- One row of a message-passing layer over the reals: the first linear map of the row's summed inputs, the
    normalisation as a multiply-add with slope `sc` and intercept `sh`, the rectifier, the second linear map. -/
def rowZ (xr ar : Fin 64 → ℝ) (w1 : Fin 64 → Fin 64 → ℝ) (β1 sc sh : Fin 64 → ℝ) (w2 : Fin 64 → Fin 64 → ℝ)
    (β2 : Fin 64 → ℝ) (o : Fin 64) : ℝ :=
  ∑ j, max ((∑ k, (xr k + ar k) * w1 j k + β1 j) * sc j + sh j) 0 * w2 o j + β2 o

/-- What the body stores at row `y` of its first output, when row `y` of the two input blocks and the weights are
    real: that row of the layer. Nothing is asked of the other rows. -/
theorem pay4_row (x0 x1 : Vec Ideal S6272x64 .f32) (x2 : Vec Ideal S64x64 .f32) (x3 x4 x5 : Vec Ideal S1x64 .f32)
    (x6 : Vec Ideal S64x64 .f32) (x7 : Vec Ideal S1x64 .f32) (y : Fin 6272)
    (xr ar : Fin 64 → ℝ) (w1 : Fin 64 → Fin 64 → ℝ) (β1 sc sh : Fin 64 → ℝ) (w2 : Fin 64 → Fin 64 → ℝ) (β2 : Fin 64 → ℝ)
    (h0 : ∀ k, x0 (ix2 y k) = ((xr k : ℝ) : EReal)) (h1 : ∀ k, x1 (ix2 y k) = ((ar k : ℝ) : EReal))
    (h2 : ∀ j k, x2 (ix2 j k) = ((w1 j k : ℝ) : EReal)) (h3 : ∀ j, x3 (ix2 0 j) = ((β1 j : ℝ) : EReal))
    (h4 : ∀ j, x4 (ix2 0 j) = ((sc j : ℝ) : EReal)) (h5 : ∀ j, x5 (ix2 0 j) = ((sh j : ℝ) : EReal))
    (h6 : ∀ o j, x6 (ix2 o j) = ((w2 o j : ℝ) : EReal)) (h7 : ∀ o, x7 (ix2 0 o) = ((β2 o : ℝ) : EReal)) (o : Fin 64) :
    k4_pay4 x0 x1 x2 x3 x4 x5 x6 x7 (ix2 y o) = ((rowZ xr ar w1 β1 sc sh w2 β2 o : ℝ) : EReal) := by
  unfold k4_pay4 rowZ
  dsimp only
  rw [transposeA_eq, transposeB_eq]
  simp only [shapeCast_self, addf_apply, mulf_apply, maximumf_apply, truncf_apply, matmulA_apply, matmulB_apply,
    swap2_apply, broadcastTo_1b_ab_apply, broadcast_apply, h0, h1, h2, h3, h4, h5, h6, h7,
    Scalar.ofBits, Ideal.ofBits_zero_f32, EReal.coe_add, EReal.coe_mul, Cert.LibSums.coe_sum, ← Cert.LibSums.max_coe,
    EReal.coe_zero]

/-- The masked copy of the stored rows that the statistics sum: row `y` of block `i` times one below row 100000, times
    zero on the padding rows. -/
theorem pay1_apply (v32 : FVec Ideal S6272x64 .f32) (i : grid4.Coords) (y : Fin 6272) (o : Fin 64) :
    k4_pay1 v32 (Scalar.muli (BitVec.ofNat 32 (i 0).val) 6272#32) (iota .tc S6272x64 32 [0] iota_S6272x64_d0_w32) (ix2 y o)
      = v32 (ix2 y o) * (if 6272 * (i 0).val + y.val < 100000 then (1 : EReal) else 0) := by
  have ht : (i 0).val < 16 := (i 0).isLt
  unfold k4_pay1
  dsimp only
  rw [mulf_apply]
  congr 1
  show ((((IntOp.cmpi .slt (IntOp.addi (Scalar.muli (BitVec.ofNat 32 (i 0).val) 6272#32)
      (iota .tc S6272x64 32 [0] iota_S6272x64_d0_w32 (ix2 y o))) 100000#32).setWidth 32).toInt : ℝ) : EReal) = _
  rw [iota_single_apply]
  show ((((IntOp.cmpi .slt (IntOp.addi (Scalar.muli (BitVec.ofNat 32 (i 0).val) 6272#32)
      (BitVec.ofNat 32 y.val)) 100000#32).setWidth 32).toInt : ℝ) : EReal) = _
  rw [mask_word _ _ ht y.isLt]
  split_ifs <;> simp

/-- The sum down the rows of a block, read at a column. -/
theorem colsum_apply (src : FVec Ideal S6272x64 .f32) (o : Fin 64) :
    multiReduction .add [0] S64 src 0x00000000#32 reduces_S6272x64_S64 (.inl rfl) rfl (ix1 o) = ∑ y : Fin 6272, src (ix2 y o) :=
  (Ideal.multiReduction_add_single src 0x00000000#32 reduces_S6272x64_S64 (.inl rfl) rfl (ix1 o)).trans
    (Finset.sum_congr rfl fun y _ => congrArg src (funext fun a => Fin.ext (by
      match a with
      | ⟨0, _⟩ => rfl
      | ⟨1, _⟩ => rfl)))

/-- The second output of the body at block `i`: the column sums of the masked rows. -/
theorem pay2_apply (v32 : FVec Ideal S6272x64 .f32) (i : grid4.Coords) (u0 u1 : Fin 1) (o : Fin 64) :
    k4_pay2 v32 (Scalar.muli (BitVec.ofNat 32 (i 0).val) 6272#32) (iota .tc S6272x64 32 [0] iota_S6272x64_d0_w32) (ix3 u0 u1 o)
      = ∑ y : Fin 6272, v32 (ix2 y o) * (if 6272 * (i 0).val + y.val < 100000 then (1 : EReal) else 0) := by
  unfold k4_pay2
  dsimp only
  rw [shapeCast_ab_1ab_apply, shapeCast_a_1a_apply, colsum_apply]
  exact Finset.sum_congr rfl fun y _ => pay1_apply v32 i y o

/-- The third output of the body at block `i`: the column sums of the squares of the masked rows. -/
theorem pay3_apply (v32 : FVec Ideal S6272x64 .f32) (i : grid4.Coords) (u0 u1 : Fin 1) (o : Fin 64) :
    k4_pay3 v32 (Scalar.muli (BitVec.ofNat 32 (i 0).val) 6272#32) (iota .tc S6272x64 32 [0] iota_S6272x64_d0_w32) (ix3 u0 u1 o)
      = ∑ y : Fin 6272, (v32 (ix2 y o) * (if 6272 * (i 0).val + y.val < 100000 then (1 : EReal) else 0))
          * (v32 (ix2 y o) * (if 6272 * (i 0).val + y.val < 100000 then (1 : EReal) else 0)) := by
  unfold k4_pay3
  dsimp only
  rw [shapeCast_ab_1ab_apply, shapeCast_a_1a_apply, colsum_apply]
  refine Finset.sum_congr rfl fun y _ => ?_
  rw [mulf_apply, pay1_apply v32 i y o]

theorem hz2 : (![0, 0] : Fin 2 → Nat) = fun _ => 0 := funext fun a => by fin_cases a <;> rfl
theorem hz3 : (![0, 0, 0] : Fin 3 → Nat) = fun _ => 0 := funext fun a => by fin_cases a <;> rfl

/-- The body's three results in their staging buffers are the three stored values of the loaded blocks. -/
theorem out8_eq (x0 x1 : Vec Ideal S6272x64 .f32) (x2 : Vec Ideal S64x64 .f32) (x3 x4 x5 : Vec Ideal S1x64 .f32)
    (x6 : Vec Ideal S64x64 .f32) (x7 : Vec Ideal S1x64 .f32) :
    out4_8 x0 x1 x2 x3 x4 x5 x6 x7 = k4_pay4 x0 x1 x2 x3 x4 x5 x6 x7 := by
  unfold out4_8
  rw [View.canon_unit_zero hz2]
  simp only [View.ld_unit_zero (S := S6272x64) hz2, View.ld_unit_zero (S := S64x64) hz2, View.ld_unit_zero (S := S1x64) hz2,
    View.ld_unit_zero (S := S64x64) hz2]

theorem out9_eq (i : grid4.Coords) (x0 x1 : Vec Ideal S6272x64 .f32) (x2 : Vec Ideal S64x64 .f32) (x3 x4 x5 : Vec Ideal S1x64 .f32)
    (x6 : Vec Ideal S64x64 .f32) (x7 : Vec Ideal S1x64 .f32) :
    out4_9 i x0 x1 x2 x3 x4 x5 x6 x7 = k4_pay2 (k4_pay4 x0 x1 x2 x3 x4 x5 x6 x7)
      (Scalar.muli (BitVec.ofNat 32 (i 0).val) 6272#32) (iota .tc S6272x64 32 [0] iota_S6272x64_d0_w32) := by
  unfold out4_9
  rw [View.canon_unit_zero hz3]
  simp only [View.ld_unit_zero (S := S6272x64) hz2, View.ld_unit_zero (S := S64x64) hz2, View.ld_unit_zero (S := S1x64) hz2,
    View.ld_unit_zero (S := S64x64) hz2]

theorem out10_eq (i : grid4.Coords) (x0 x1 : Vec Ideal S6272x64 .f32) (x2 : Vec Ideal S64x64 .f32) (x3 x4 x5 : Vec Ideal S1x64 .f32)
    (x6 : Vec Ideal S64x64 .f32) (x7 : Vec Ideal S1x64 .f32) :
    out4_10 i x0 x1 x2 x3 x4 x5 x6 x7 = k4_pay3 (k4_pay4 x0 x1 x2 x3 x4 x5 x6 x7)
      (Scalar.muli (BitVec.ofNat 32 (i 0).val) 6272#32) (iota .tc S6272x64 32 [0] iota_S6272x64_d0_w32) := by
  unfold out4_10
  rw [View.canon_unit_zero hz3]
  simp only [View.ld_unit_zero (S := S6272x64) hz2, View.ld_unit_zero (S := S64x64) hz2, View.ld_unit_zero (S := S1x64) hz2,
    View.ld_unit_zero (S := S64x64) hz2]

/-! ## The region's blocks and arrays -/

variable (m : (ℓ : Loc nD τ sig) → Buf (Elt Ideal) ℓ) (ρ : Dev nD → PrngReg)
variable (V : (c : Dev nD) → (b : Ref sig .tc) → Buf (Elt Ideal) ((c : Thread nD τ).loc b))

/-- The printed index maps of the row-blocked windows, decided over the grid: block `t` of each is at row-block `t`. -/
theorem idx1_io : ∀ t : Fin cfg4.N,
    win4_0.index t (0 : Fin 2) = t.val ∧ win4_0.index t (1 : Fin 2) = 0
    ∧ win4_1.index t (0 : Fin 2) = t.val ∧ win4_1.index t (1 : Fin 2) = 0
    ∧ win4_8.index t (0 : Fin 2) = t.val ∧ win4_8.index t (1 : Fin 2) = 0
    ∧ win4_9.index t (0 : Fin 3) = t.val ∧ win4_9.index t (1 : Fin 3) = 0 ∧ win4_9.index t (2 : Fin 3) = 0
    ∧ win4_10.index t (0 : Fin 3) = t.val ∧ win4_10.index t (1 : Fin 3) = 0 ∧ win4_10.index t (2 : Fin 3) = 0
    ∧ ((grid4.coords t) 0).val = t.val :=
  (by decide +kernel : ∀ t : Fin grid4.N, _)

/-- The windows of the weights are their whole arrays at every point. -/
theorem idx1_par : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row `y` of the first input's block at point `t` is row `6272 t + y` of its array. -/
theorem blk0_apply (c : Dev nD) (t : Fin cfg4.N) (y : Fin 6272) (k : Fin 64) (r : Fin 100352)
    (hr : r.val = 6272 * t.val + y.val) :
    (iblk4 V c 0 t : Vec Ideal S6272x64 .f32) (ix2 y k) = (V c main_v68 : S100352x64.Idx → EReal) (ix2 r k) := by
  obtain ⟨e0, e1, -⟩ := idx1_io t
  unfold iblk4
  rw [View.read_apply]
  show V c main_v68 _ = V c main_v68 _
  congr 1
  funext a; apply Fin.ext
  match a with
  | ⟨0, _⟩ => show win4_0.index t 0 * S6272x64.size 0 + 1 * y.val = r.val; rw [e0, hr]; show t.val * 6272 + 1 * y.val = _; omega
  | ⟨1, _⟩ => show win4_0.index t 1 * S6272x64.size 1 + 1 * k.val = k.val; rw [e1]; omega

/-- Row `y` of the second input's block at point `t` is row `6272 t + y` of its array. -/
theorem blk1_apply (c : Dev nD) (t : Fin cfg4.N) (y : Fin 6272) (k : Fin 64) (r : Fin 100352)
    (hr : r.val = 6272 * t.val + y.val) :
    (iblk4 V c 1 t : Vec Ideal S6272x64 .f32) (ix2 y k) = (V c main_v78 : S100352x64.Idx → EReal) (ix2 r k) := by
  obtain ⟨-, -, e0, e1, -⟩ := idx1_io t
  unfold iblk4
  rw [View.read_apply]
  show V c main_v78 _ = V c main_v78 _
  congr 1
  funext a; apply Fin.ext
  match a with
  | ⟨0, _⟩ => show win4_1.index t 0 * S6272x64.size 0 + 1 * y.val = r.val; rw [e0, hr]; show t.val * 6272 + 1 * y.val = _; omega
  | ⟨1, _⟩ => show win4_1.index t 1 * S6272x64.size 1 + 1 * k.val = k.val; rw [e1]; omega

/-- The weights' blocks are their arrays. -/
theorem blk2_apply (c : Dev nD) (t : Fin cfg4.N) (j : Fin 64) (k : Fin 64) :
    (iblk4 V c 2 t : Vec Ideal S64x64 .f32) (ix2 j k) = (V c main_arg11 : S64x64.Idx → EReal) (ix2 j k) := by
  obtain ⟨e0, e1, -⟩ := idx1_par t
  unfold iblk4
  rw [View.read_apply]
  show V c main_arg11 _ = V c main_arg11 _
  congr 1
  funext a; apply Fin.ext
  match a with
  | ⟨0, _⟩ => show win4_2.index t 0 * S64x64.size 0 + 1 * j.val = j.val; rw [e0]; omega
  | ⟨1, _⟩ => show win4_2.index t 1 * S64x64.size 1 + 1 * k.val = k.val; rw [e1]; omega

theorem blk3_apply (c : Dev nD) (t : Fin cfg4.N) (u : Fin 1) (j : Fin 64) :
    (iblk4 V c 3 t : Vec Ideal S1x64 .f32) (ix2 u j) = (V c main_v79 : S1x64.Idx → EReal) (ix2 u j) := by
  obtain ⟨-, -, e0, e1, -⟩ := idx1_par t
  unfold iblk4
  rw [View.read_apply]
  show V c main_v79 _ = V c main_v79 _
  congr 1
  funext a; apply Fin.ext
  match a with
  | ⟨0, _⟩ => show win4_3.index t 0 * S1x64.size 0 + 1 * u.val = u.val; rw [e0]; omega
  | ⟨1, _⟩ => show win4_3.index t 1 * S1x64.size 1 + 1 * j.val = j.val; rw [e1]; omega

theorem blk4_apply (c : Dev nD) (t : Fin cfg4.N) (u : Fin 1) (j : Fin 64) :
    (iblk4 V c 4 t : Vec Ideal S1x64 .f32) (ix2 u j) = (V c main_v93 : S1x64.Idx → EReal) (ix2 u j) := by
  obtain ⟨-, -, -, -, e0, e1, -⟩ := idx1_par t
  unfold iblk4
  rw [View.read_apply]
  show V c main_v93 _ = V c main_v93 _
  congr 1
  funext a; apply Fin.ext
  match a with
  | ⟨0, _⟩ => show win4_4.index t 0 * S1x64.size 0 + 1 * u.val = u.val; rw [e0]; omega
  | ⟨1, _⟩ => show win4_4.index t 1 * S1x64.size 1 + 1 * j.val = j.val; rw [e1]; omega

theorem blk5_apply (c : Dev nD) (t : Fin cfg4.N) (u : Fin 1) (j : Fin 64) :
    (iblk4 V c 5 t : Vec Ideal S1x64 .f32) (ix2 u j) = (V c main_v96 : S1x64.Idx → EReal) (ix2 u j) := by
  obtain ⟨-, -, -, -, -, -, e0, e1, -⟩ := idx1_par t
  unfold iblk4
  rw [View.read_apply]
  show V c main_v96 _ = V c main_v96 _
  congr 1
  funext a; apply Fin.ext
  match a with
  | ⟨0, _⟩ => show win4_5.index t 0 * S1x64.size 0 + 1 * u.val = u.val; rw [e0]; omega
  | ⟨1, _⟩ => show win4_5.index t 1 * S1x64.size 1 + 1 * j.val = j.val; rw [e1]; omega

theorem blk6_apply (c : Dev nD) (t : Fin cfg4.N) (j : Fin 64) (k : Fin 64) :
    (iblk4 V c 6 t : Vec Ideal S64x64 .f32) (ix2 j k) = (V c main_arg15 : S64x64.Idx → EReal) (ix2 j k) := by
  obtain ⟨-, -, -, -, -, -, -, -, e0, e1, -⟩ := idx1_par t
  unfold iblk4
  rw [View.read_apply]
  show V c main_arg15 _ = V c main_arg15 _
  congr 1
  funext a; apply Fin.ext
  match a with
  | ⟨0, _⟩ => show win4_6.index t 0 * S64x64.size 0 + 1 * j.val = j.val; rw [e0]; omega
  | ⟨1, _⟩ => show win4_6.index t 1 * S64x64.size 1 + 1 * k.val = k.val; rw [e1]; omega

theorem blk7_apply (c : Dev nD) (t : Fin cfg4.N) (u : Fin 1) (j : Fin 64) :
    (iblk4 V c 7 t : Vec Ideal S1x64 .f32) (ix2 u j) = (V c main_v97 : S1x64.Idx → EReal) (ix2 u j) := by
  obtain ⟨-, -, -, -, -, -, -, -, -, -, e0, e1⟩ := idx1_par t
  unfold iblk4
  rw [View.read_apply]
  show V c main_v97 _ = V c main_v97 _
  congr 1
  funext a; apply Fin.ext
  match a with
  | ⟨0, _⟩ => show win4_7.index t 0 * S1x64.size 0 + 1 * u.val = u.val; rw [e0]; omega
  | ⟨1, _⟩ => show win4_7.index t 1 * S1x64.size 1 + 1 * j.val = j.val; rw [e1]; omega

/-- What point `t` writes back of each output: the body's stored values of the point's blocks. -/
theorem flushed8_eq (c : Dev nD) (t : Fin cfg4.N) :
    (dat4 V c).flushed 8 t = k4_pay4 (iblk4 V c 0 t) (iblk4 V c 1 t) (iblk4 V c 2 t) (iblk4 V c 3 t) (iblk4 V c 4 t)
      (iblk4 V c 5 t) (iblk4 V c 6 t) (iblk4 V c 7 t) := by
  show (cfg4.win 8).cut (grid4.coords t) ((dat4 V c).after 8 t) = _
  rw [after4_8, out8_eq]
  rfl

theorem flushed9_eq (c : Dev nD) (t : Fin cfg4.N) :
    (dat4 V c).flushed 9 t = k4_pay2 (k4_pay4 (iblk4 V c 0 t) (iblk4 V c 1 t) (iblk4 V c 2 t) (iblk4 V c 3 t) (iblk4 V c 4 t)
      (iblk4 V c 5 t) (iblk4 V c 6 t) (iblk4 V c 7 t))
      (Scalar.muli (BitVec.ofNat 32 ((grid4.coords t) 0).val) 6272#32) (iota .tc S6272x64 32 [0] iota_S6272x64_d0_w32) := by
  show (cfg4.win 9).cut (grid4.coords t) ((dat4 V c).after 9 t) = _
  rw [after4_9, out9_eq]
  rfl

theorem flushed10_eq (c : Dev nD) (t : Fin cfg4.N) :
    (dat4 V c).flushed 10 t = k4_pay3 (k4_pay4 (iblk4 V c 0 t) (iblk4 V c 1 t) (iblk4 V c 2 t) (iblk4 V c 3 t) (iblk4 V c 4 t)
      (iblk4 V c 5 t) (iblk4 V c 6 t) (iblk4 V c 7 t))
      (Scalar.muli (BitVec.ofNat 32 ((grid4.coords t) 0).val) 6272#32) (iota .tc S6272x64 32 [0] iota_S6272x64_d0_w32) := by
  show (cfg4.win 10).cut (grid4.coords t) ((dat4 V c).after 10 t) = _
  rw [after4_10, out10_eq]
  rfl

/-! ## The layer over the reals, row by row -/

/-- The first linear map of the layer, on the inputs and their neighbour sums added. -/
abbrev Y1 (x a : Fin 100000 → Fin 64 → ℝ) (w1 : Fin 64 → Fin 64 → ℝ) (β1 : Fin 64 → ℝ) : Fin 100000 → Fin 64 → ℝ :=
  Cert.Spec.lin (fun i k => x i k + a i k) w1 β1

/-- The layer: the second linear map of the rectified normalised first one. -/
abbrev Z1 (x a : Fin 100000 → Fin 64 → ℝ) (w1 : Fin 64 → Fin 64 → ℝ) (β1 g1 be1 : Fin 64 → ℝ)
    (w2 : Fin 64 → Fin 64 → ℝ) (β2 : Fin 64 → ℝ) : Fin 100000 → Fin 64 → ℝ :=
  Cert.Spec.lin (Cert.Spec.relu (Cert.Spec.bn eps (Y1 x a w1 β1) g1 be1)) w2 β2

/-- Row `i` of the layer is `rowZ` of row `i` of the inputs, with the normalisation's slope and intercept: the
    normalisation is one multiply-add per entry. -/
theorem Z_eq_rowZ (x a : Fin 100000 → Fin 64 → ℝ) (w1 : Fin 64 → Fin 64 → ℝ) (β1 g1 be1 : Fin 64 → ℝ)
    (w2 : Fin 64 → Fin 64 → ℝ) (β2 : Fin 64 → ℝ) (i : Fin 100000) (o : Fin 64) :
    Z1 x a w1 β1 g1 be1 w2 β2 i o
      = rowZ (x i) (a i) w1 β1 (Cert.Spec.scale eps (Y1 x a w1 β1) g1) (Cert.Spec.shift eps (Y1 x a w1 β1) g1 be1) w2 β2 o := by
  unfold rowZ
  show ∑ k, Cert.Spec.relu (Cert.Spec.bn eps (Y1 x a w1 β1) g1 be1) i k * w2 o k + β2 o = _
  congr 1
  refine Finset.sum_congr rfl fun j _ => ?_
  unfold Cert.Spec.relu
  rw [← Cert.Spec.mul_scale_add_shift (by norm_num) eps (Y1 x a w1 β1) g1 be1 i j]
  rfl

section Run

variable {x a : Fin 100000 → Fin 64 → ℝ} {w1 : Fin 64 → Fin 64 → ℝ} {β1 g1 be1 : Fin 64 → ℝ}
  {w2 : Fin 64 → Fin 64 → ℝ} {β2 : Fin 64 → ℝ}

/-- What the body stores at row `y` of point `t`'s block, when that row is row `i` of the nodes: row `i` of the layer. -/
theorem stored_row (c : Dev nD)
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2)
    (t : Fin cfg4.N) (y : Fin 6272) (i : Fin 100000) (hi : i.val = 6272 * t.val + y.val) (o : Fin 64) :
    k4_pay4 (iblk4 (V15 m ρ) c 0 t) (iblk4 (V15 m ρ) c 1 t) (iblk4 (V15 m ρ) c 2 t) (iblk4 (V15 m ρ) c 3 t)
        (iblk4 (V15 m ρ) c 4 t) (iblk4 (V15 m ρ) c 5 t) (iblk4 (V15 m ρ) c 6 t) (iblk4 (V15 m ρ) c 7 t) (ix2 y o)
      = ((Z1 x a w1 β1 g1 be1 w2 β2 i o : ℝ) : EReal) := by
  have hlt : i.val < 100352 := by have := i.isLt; omega
  rw [Z_eq_rowZ]
  exact pay4_row (iblk4 (V15 m ρ) c 0 t) (iblk4 (V15 m ρ) c 1 t) (iblk4 (V15 m ρ) c 2 t) (iblk4 (V15 m ρ) c 3 t)
    (iblk4 (V15 m ρ) c 4 t) (iblk4 (V15 m ρ) c 5 t) (iblk4 (V15 m ρ) c 6 t) (iblk4 (V15 m ρ) c 7 t) y
    (x i) (a i) w1 β1 (Cert.Spec.scale eps (Y1 x a w1 β1) g1) (Cert.Spec.shift eps (Y1 x a w1 β1) g1 be1) w2 β2
    (fun k => (blk0_apply (V15 m ρ) c t y k ⟨i.val, hlt⟩ hi).trans (hx i hlt k))
    (fun k => (blk1_apply (V15 m ρ) c t y k ⟨i.val, hlt⟩ hi).trans (ha i hlt k))
    (fun j k => (blk2_apply (V15 m ρ) c t j k).trans (hw1 j k))
    (fun j => (blk3_apply (V15 m ρ) c t 0 j).trans (hb1 j))
    (fun j => (blk4_apply (V15 m ρ) c t 0 j).trans (hsc j))
    (fun j => (blk5_apply (V15 m ρ) c t 0 j).trans (hsh j))
    (fun o j => (blk6_apply (V15 m ρ) c t o j).trans (hw2 o j))
    (fun o => (blk7_apply (V15 m ρ) c t 0 o).trans (hb2 o)) o

/-- The column sum, over the rows of block `t`, of the layer's rows below row 100000: what the region leaves at block `t`
    of its second output. -/
def blockSum (Z : Fin 100000 → Fin 64 → ℝ) (t : ℕ) (o : Fin 64) : EReal :=
  ∑ y : Fin 6272, if h : 6272 * t + y.val < 100000 then ((Z ⟨6272 * t + y.val, h⟩ o : ℝ) : EReal) else 0

/-- The same of the squares: block `t` of the third output. -/
def blockSumSq (Z : Fin 100000 → Fin 64 → ℝ) (t : ℕ) (o : Fin 64) : EReal :=
  ∑ y : Fin 6272, if h : 6272 * t + y.val < 100000 then
    ((Z ⟨6272 * t + y.val, h⟩ o * Z ⟨6272 * t + y.val, h⟩ o : ℝ) : EReal) else 0

/-- A stored row times its mask: the layer's row below row 100000, zero on a padding row whatever it holds. -/
theorem masked_row (c : Dev nD)
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2)
    (t : Fin cfg4.N) (y : Fin 6272) (o : Fin 64) :
    k4_pay4 (iblk4 (V15 m ρ) c 0 t) (iblk4 (V15 m ρ) c 1 t) (iblk4 (V15 m ρ) c 2 t) (iblk4 (V15 m ρ) c 3 t)
        (iblk4 (V15 m ρ) c 4 t) (iblk4 (V15 m ρ) c 5 t) (iblk4 (V15 m ρ) c 6 t) (iblk4 (V15 m ρ) c 7 t) (ix2 y o)
        * (if 6272 * ((grid4.coords t) 0).val + y.val < 100000 then (1 : EReal) else 0)
      = if h : 6272 * t.val + y.val < 100000 then
          ((Z1 x a w1 β1 g1 be1 w2 β2 ⟨6272 * t.val + y.val, h⟩ o : ℝ) : EReal) else 0 := by
  obtain ⟨-, -, -, -, -, -, -, -, -, -, -, -, ec⟩ := idx1_io t
  rw [ec]
  by_cases h : 6272 * t.val + y.val < 100000
  · rw [if_pos h, dif_pos h, mul_one]
    exact stored_row m ρ c hx ha hw1 hb1 hsc hsh hw2 hb2 t y ⟨6272 * t.val + y.val, h⟩ rfl o
  · rw [if_neg h, dif_neg h, mul_zero]

/-- An index of the first output's array is in point `t`'s block iff each coordinate is in the block's range. -/
theorem mem_blk8 (t : Fin cfg4.N) (j : S100352x64.Idx) :
    j ∈ ((cfg4.win 8).blk t).view.set ↔ ∀ a : Fin 2, win4_8.index t a * S6272x64.size a ≤ (j a).val
      ∧ (j a).val < win4_8.index t a * S6272x64.size a + S6272x64.size a := by
  show j ∈ ((View.whole main_v98_0).slice (win4_8.rect t)).set ↔ _
  rw [View.set_slice_whole, Rect.mem_set_unit]
  exact Iff.rfl

/-- The sixteen row blocks fill the first output's array: row `r` is in block `r / 6272`. -/
theorem cover8 (j : S100352x64.Idx) :
    ∃ t : Fin cfg4.N, (cfg4.win 8).flush t = true ∧ j ∈ ((cfg4.win 8).blk t).view.set := by
  have h0 : (j 0).val < 100352 := idx2_lt0 j
  have h1 : (j 1).val < 64 := idx2_lt1 j
  obtain ⟨t, ht⟩ : ∃ t : Fin cfg4.N, t.val = (j 0).val / 6272 :=
    ⟨⟨(j 0).val / 6272, by show _ < 16; omega⟩, rfl⟩
  obtain ⟨-, -, -, -, e0, e1, -⟩ := idx1_io t
  refine ⟨t, flush4_8 t, ?_⟩
  rw [mem_blk8]
  intro a
  match a with
  | ⟨0, _⟩ =>
    show win4_8.index t 0 * 6272 ≤ (j 0).val ∧ (j 0).val < win4_8.index t 0 * 6272 + 6272
    rw [e0, ht]; omega
  | ⟨1, _⟩ =>
    show win4_8.index t 1 * 64 ≤ (j 1).val ∧ (j 1).val < win4_8.index t 1 * 64 + 64
    rw [e1]; omega

/-- THE ROWS of the region's first output: the layer, at every node's row. -/
theorem body2_rows (c : Dev nD)
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2) :
    Rows (W16 m ρ c (Proc.devRef .tc main_v98_0)) (Z1 x a w1 β1 g1 be1 w2 β2) := by
  intro i hi k
  have hW : (W16 m ρ c (Proc.devRef .tc main_v98_0) : S100352x64.Idx → EReal) = (dat4 (V15 m ρ) c).arrAt 8 cfg4.N :=
    W16_arr m ρ c 8
  rw [hW]
  have key := (dat4 (V15 m ρ) c).arrAt_forall_of_cover 8
    (fun (j : S100352x64.Idx) (v : EReal) => ∀ (i' : Fin 100000) (o : Fin 64), i'.val = (j 0).val → o.val = (j 1).val →
      v = ((Z1 x a w1 β1 g1 be1 w2 β2 i' o : ℝ) : EReal))
    (fun t _ y i' o hi' ho => by
      obtain ⟨-, -, -, -, e0, e1, -⟩ := idx1_io t
      have hi2 : i'.val = 6272 * t.val + (y 0).val := by
        rw [hi']; show win4_8.index t 0 * 6272 + 1 * (y 0).val = _; rw [e0]; omega
      obtain rfl : o = y 1 := Fin.ext (by
        rw [ho]; show win4_8.index t 1 * 64 + 1 * (y 1).val = _; rw [e1]; omega)
      have hs := stored_row m ρ c hx ha hw1 hb1 hsc hsh hw2 hb2 t (y 0) i' hi2 (y 1)
      rw [cast_eq, flushed8_eq]
      exact (congrArg _ (eq_ix2 (n0 := 6272) (n1 := 64) y)).trans hs)
    cover8 (ix2 ⟨i.val, hi⟩ k)
  exact key i k rfl rfl

/-- An index of the second output's array is in point `t`'s block iff each coordinate is in the block's range. -/
theorem mem_blk9 (t : Fin cfg4.N) (j : S16x1x64.Idx) :
    j ∈ ((cfg4.win 9).blk t).view.set ↔ ∀ a : Fin 3, win4_9.index t a * S1x1x64.size a ≤ (j a).val
      ∧ (j a).val < win4_9.index t a * S1x1x64.size a + S1x1x64.size a := by
  show j ∈ ((View.whole main_v98_1).slice (win4_9.rect t)).set ↔ _
  rw [View.set_slice_whole, Rect.mem_set_unit]
  exact Iff.rfl

/-- Likewise of the third output's. -/
theorem mem_blk10 (t : Fin cfg4.N) (j : S16x1x64.Idx) :
    j ∈ ((cfg4.win 10).blk t).view.set ↔ ∀ a : Fin 3, win4_10.index t a * S1x1x64.size a ≤ (j a).val
      ∧ (j a).val < win4_10.index t a * S1x1x64.size a + S1x1x64.size a := by
  show j ∈ ((View.whole main_v98_2).slice (win4_10.rect t)).set ↔ _
  rw [View.set_slice_whole, Rect.mem_set_unit]
  exact Iff.rfl

/-- Block `t` of the per-block sums is point `t`'s: the sixteen blocks fill the array. -/
theorem cover9 (j : S16x1x64.Idx) :
    ∃ t : Fin cfg4.N, (cfg4.win 9).flush t = true ∧ j ∈ ((cfg4.win 9).blk t).view.set := by
  have h0 : (j 0).val < 16 := (j 0).isLt
  have h1 : (j 1).val < 1 := (j 1).isLt
  have h2 : (j 2).val < 64 := (j 2).isLt
  obtain ⟨t, ht⟩ : ∃ t : Fin cfg4.N, t.val = (j 0).val := ⟨⟨(j 0).val, h0⟩, rfl⟩
  obtain ⟨-, -, -, -, -, -, e0, e1, e2, -⟩ := idx1_io t
  refine ⟨t, flush4_9 t, ?_⟩
  rw [mem_blk9]
  intro a
  match a with
  | ⟨0, _⟩ =>
    show win4_9.index t 0 * 1 ≤ (j 0).val ∧ (j 0).val < win4_9.index t 0 * 1 + 1
    rw [e0, ht]; omega
  | ⟨1, _⟩ =>
    show win4_9.index t 1 * 1 ≤ (j 1).val ∧ (j 1).val < win4_9.index t 1 * 1 + 1
    rw [e1]; omega
  | ⟨2, _⟩ =>
    show win4_9.index t 2 * 64 ≤ (j 2).val ∧ (j 2).val < win4_9.index t 2 * 64 + 64
    rw [e2]; omega

theorem cover10 (j : S16x1x64.Idx) :
    ∃ t : Fin cfg4.N, (cfg4.win 10).flush t = true ∧ j ∈ ((cfg4.win 10).blk t).view.set := by
  have h0 : (j 0).val < 16 := (j 0).isLt
  have h1 : (j 1).val < 1 := (j 1).isLt
  have h2 : (j 2).val < 64 := (j 2).isLt
  obtain ⟨t, ht⟩ : ∃ t : Fin cfg4.N, t.val = (j 0).val := ⟨⟨(j 0).val, h0⟩, rfl⟩
  obtain ⟨-, -, -, -, -, -, -, -, -, e0, e1, e2, -⟩ := idx1_io t
  refine ⟨t, flush4_10 t, ?_⟩
  rw [mem_blk10]
  intro a
  match a with
  | ⟨0, _⟩ =>
    show win4_10.index t 0 * 1 ≤ (j 0).val ∧ (j 0).val < win4_10.index t 0 * 1 + 1
    rw [e0, ht]; omega
  | ⟨1, _⟩ =>
    show win4_10.index t 1 * 1 ≤ (j 1).val ∧ (j 1).val < win4_10.index t 1 * 1 + 1
    rw [e1]; omega
  | ⟨2, _⟩ =>
    show win4_10.index t 2 * 64 ≤ (j 2).val ∧ (j 2).val < win4_10.index t 2 * 64 + 64
    rw [e2]; omega

/-- THE PER-BLOCK SUMS of the region's second output. -/
theorem body2_sum (c : Dev nD)
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2)
    (t : Fin 16) (o : Fin 64) :
    (W16 m ρ c (Proc.devRef .tc main_v98_1) : S16x1x64.Idx → EReal) (ix3 t 0 o)
      = blockSum (Z1 x a w1 β1 g1 be1 w2 β2) t.val o := by
  have hW : (W16 m ρ c (Proc.devRef .tc main_v98_1) : S16x1x64.Idx → EReal) = (dat4 (V15 m ρ) c).arrAt 9 cfg4.N :=
    W16_arr m ρ c 9
  rw [hW]
  have key := (dat4 (V15 m ρ) c).arrAt_forall_of_cover 9
    (fun (j : S16x1x64.Idx) (v : EReal) => ∀ (o' : Fin 64), o'.val = (j 2).val →
      v = blockSum (Z1 x a w1 β1 g1 be1 w2 β2) (j 0).val o')
    (fun t' _ y o' ho => by
      obtain ⟨-, -, -, -, -, -, e0, e1, e2, -⟩ := idx1_io t'
      have hy0 : (y 0).val < 1 := (y 0).isLt
      have ht' : ((((cfg4.win 9).blk t').view.emb y) 0).val = t'.val := by
        show win4_9.index t' 0 * 1 + 1 * (y 0).val = _; rw [e0]; omega
      obtain rfl : o' = y 2 := Fin.ext (by
        rw [ho]; show win4_9.index t' 2 * 64 + 1 * (y 2).val = _; rw [e2]; omega)
      have hp := pay2_apply (k4_pay4 (iblk4 (V15 m ρ) c 0 t') (iblk4 (V15 m ρ) c 1 t') (iblk4 (V15 m ρ) c 2 t')
        (iblk4 (V15 m ρ) c 3 t') (iblk4 (V15 m ρ) c 4 t') (iblk4 (V15 m ρ) c 5 t') (iblk4 (V15 m ρ) c 6 t')
        (iblk4 (V15 m ρ) c 7 t')) (grid4.coords t') (y 0) (y 1) (y 2)
      rw [cast_eq, flushed9_eq, ht']
      refine ((congrArg _ (eq_ix3 (n0 := 1) (n1 := 1) (n2 := 64) y)).trans hp).trans ?_
      unfold blockSum
      exact Finset.sum_congr rfl fun y' _ => masked_row m ρ c hx ha hw1 hb1 hsc hsh hw2 hb2 t' y' (y 2))
    cover9 (ix3 t 0 o)
  exact key o rfl

/-- THE PER-BLOCK SUMS OF SQUARES of the region's third output. -/
theorem body2_sumsq (c : Dev nD)
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2)
    (t : Fin 16) (o : Fin 64) :
    (W16 m ρ c (Proc.devRef .tc main_v98_2) : S16x1x64.Idx → EReal) (ix3 t 0 o)
      = blockSumSq (Z1 x a w1 β1 g1 be1 w2 β2) t.val o := by
  have hW : (W16 m ρ c (Proc.devRef .tc main_v98_2) : S16x1x64.Idx → EReal) = (dat4 (V15 m ρ) c).arrAt 10 cfg4.N :=
    W16_arr m ρ c 10
  rw [hW]
  have key := (dat4 (V15 m ρ) c).arrAt_forall_of_cover 10
    (fun (j : S16x1x64.Idx) (v : EReal) => ∀ (o' : Fin 64), o'.val = (j 2).val →
      v = blockSumSq (Z1 x a w1 β1 g1 be1 w2 β2) (j 0).val o')
    (fun t' _ y o' ho => by
      obtain ⟨-, -, -, -, -, -, -, -, -, e0, e1, e2, -⟩ := idx1_io t'
      have hy0 : (y 0).val < 1 := (y 0).isLt
      have ht' : ((((cfg4.win 10).blk t').view.emb y) 0).val = t'.val := by
        show win4_10.index t' 0 * 1 + 1 * (y 0).val = _; rw [e0]; omega
      obtain rfl : o' = y 2 := Fin.ext (by
        rw [ho]; show win4_10.index t' 2 * 64 + 1 * (y 2).val = _; rw [e2]; omega)
      have hp := pay3_apply (k4_pay4 (iblk4 (V15 m ρ) c 0 t') (iblk4 (V15 m ρ) c 1 t') (iblk4 (V15 m ρ) c 2 t')
        (iblk4 (V15 m ρ) c 3 t') (iblk4 (V15 m ρ) c 4 t') (iblk4 (V15 m ρ) c 5 t') (iblk4 (V15 m ρ) c 6 t')
        (iblk4 (V15 m ρ) c 7 t')) (grid4.coords t') (y 0) (y 1) (y 2)
      rw [cast_eq, flushed10_eq, ht']
      refine ((congrArg _ (eq_ix3 (n0 := 1) (n1 := 1) (n2 := 64) y)).trans hp).trans ?_
      unfold blockSumSq
      refine Finset.sum_congr rfl fun y' _ => ?_
      rw [masked_row m ρ c hx ha hw1 hb1 hsc hsh hw2 hb2 t' y' (y 2)]
      by_cases h : 6272 * t'.val + y'.val < 100000
      · rw [dif_pos h, dif_pos h, EReal.coe_mul]
      · rw [dif_neg h, dif_neg h, mul_zero])
    cover10 (ix3 t 0 o)
  exact key o rfl

/-- REGION 4 AND THE HOST STRETCH AFTER IT, on real data: the first output holds the layer at every node's row, and the
    host's two results are the slope and the intercept of the layer's normalisation (the per-block sums, added over the
    sixteen blocks, are the column sums over the nodes: the blocks' rows are the rows below 100352, the padding rows
    contribute zero). -/
theorem body2 (c : Dev nD) {go bo : Fin 64 → ℝ}
    (hx : Rows (W15 (F := Ideal) m ρ c (Proc.devRef .tc main_v68)) x) (ha : Rows (W15 m ρ c (Proc.devRef .tc main_v78)) a)
    (hw1 : Mat (W15 m ρ c (Proc.devRef .tc main_arg11)) w1) (hb1 : Row1 (W15 m ρ c (Proc.devRef .tc main_v79)) β1)
    (hsc : Row1 (W15 m ρ c (Proc.devRef .tc main_v93)) (Cert.Spec.scale eps (Y1 x a w1 β1) g1))
    (hsh : Row1 (W15 m ρ c (Proc.devRef .tc main_v96)) (Cert.Spec.shift eps (Y1 x a w1 β1) g1 be1))
    (hw2 : Mat (W15 m ρ c (Proc.devRef .tc main_arg15)) w2) (hb2 : Row1 (W15 m ρ c (Proc.devRef .tc main_v97)) β2)
    (hgo : Vec1 (W16 m ρ c (Proc.devRef .tc main_arg17)) go) (hbo : Vec1 (W16 m ρ c (Proc.devRef .tc main_arg18)) bo) :
    Rows (W16 m ρ c (Proc.devRef .tc main_v98_0)) (Z1 x a w1 β1 g1 be1 w2 β2)
      ∧ Row1 (W17 m ρ c (Proc.devRef .tc main_v111)) (Cert.Spec.scale eps (Z1 x a w1 β1 g1 be1 w2 β2) go)
      ∧ Row1 (W17 m ρ c (Proc.devRef .tc main_v114)) (Cert.Spec.shift eps (Z1 x a w1 β1 g1 be1 w2 β2) go bo) :=
  ⟨body2_rows m ρ c hx ha hw1 hb1 hsc hsh hw2 hb2,
    Cert.KBodyStats.stats2 m ρ c
      (fun t o => body2_sum m ρ c hx ha hw1 hb1 hsc hsh hw2 hb2 t o)
      (fun t o => body2_sumsq m ρ c hx ha hw1 hb1 hsc hsh hw2 hb2 t o) hgo hbo⟩

end Run

end Cert.KBody2
end
-- ==== Proof.KAffine.lean ====
/-
  Regions 2 and 5 of the kernel program: the normalisation of a node-feature array applied as one multiply-add per
  entry and rectified. Each region walks the 100352 rows of its input in sixteen blocks of 6272; at every point it
  stores `max (x * scale + shift) 0`, `scale` and `shift` one row of 64 each, broadcast down the block. The blocks
  tile the array, so after the region the output array is that function of the three arrays at the region's entry,
  index by index. When the input rows hold the reals `Z` and the two one-row arrays hold the slope and intercept of
  `Z`'s normalisation, the first 100000 output rows hold `relu (bn Z)`: the coercion of the reals into the extended
  reals carries products, sums and `max`, and the float word zero denotes `0`.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import Idealize.ShloMosaic.Lib.ValueIdx
import Idealize.ShloMosaic.Lib.Pipeline.Value
import Idealize.ShloMosaic.PureOps.Ideal.Laws

set_option maxRecDepth 16384

noncomputable section

namespace Cert.KAffine

open Cert.KernelIdeal Cert.KernelIdeal.Gen Cert.KernelIdeal.GenP Cert.Lift
open Idealize.ShloMosaic Idealize.ShloMosaic.TcCoe Idealize.ShloMosaic.ValueIdx
open Idealize.ShloMosaic.Pipeline (Dat Cfg Window)

section General

/-- A multiply-add of reals, rectified against the float word zero, computed in the extended reals, is the real
    `max (z * s + h) 0`. -/
theorem relu_affine_coe (z s h : ℝ) :
    max ((z : EReal) * (s : EReal) + (h : EReal)) 0 = ((max (z * s + h) 0 : ℝ) : EReal) := by
  have e : (z : EReal) * (s : EReal) + (h : EReal) = ((z * s + h : ℝ) : EReal) := by
    rw [EReal.coe_add, EReal.coe_mul]
  rw [e, ← EReal.coe_zero, Cert.LibSums.max_coe]

end General

/-! ## The body's arithmetic at an index -/

theorem hz : (![0, 0] : Fin 2 → Nat) = fun _ => 0 := funext fun a => by
  match a with
  | ⟨0, _⟩ => rfl
  | ⟨1, _⟩ => rfl

/-- A one-row array broadcast down 6272 rows reads, at row `y` and column `o`, its entry at column `o`. -/
theorem bcast_row (x : Vec Ideal S1x64 .f32) (y : Fin 6272) (o : Fin 64) :
    broadcastTo S6272x64 (shapeCast S1x64 x shapeCasts_S1x64_S1x64) broadcasts_S1x64_S6272x64 (ix2 y o)
      = x (ix2 0 o) := by
  rw [shapeCast_self]
  refine broadcastTo_apply x _ (ix2 y o) (ix2 0 o) ?_
  intro a
  match a with
  | ⟨0, _⟩ => rfl
  | ⟨1, _⟩ => rfl

/-- Region 2's stored value at row `y`, column `o` of the block: the input entry times the scale of its column plus
    the shift of its column, rectified (the float word zero is `0`). -/
theorem pay2_apply (x0 : Vec Ideal S6272x64 .f32) (x1 x2 : Vec Ideal S1x64 .f32) (y : Fin 6272) (o : Fin 64) :
    k2_pay1 x0 x1 x2 (ix2 y o) = max (x0 (ix2 y o) * x1 (ix2 0 o) + x2 (ix2 0 o)) 0 := by
  unfold k2_pay1
  refine (maximumf_apply _ _ (ix2 y o)).trans ?_
  refine congrArg₂ max ?_ ?_
  · refine (addf_apply _ _ (ix2 y o)).trans ?_
    refine congrArg₂ (· + ·) ?_ (bcast_row x2 y o)
    refine (mulf_apply _ _ (ix2 y o)).trans ?_
    refine congrArg₂ (· * ·) ?_ (bcast_row x1 y o)
    rw [shapeCast_self]
  · exact Ideal.ofBits_zero_f32

/-- Region 5's stored value is region 2's: the two bodies are the same operations. -/
theorem pay5_apply (x0 : Vec Ideal S6272x64 .f32) (x1 x2 : Vec Ideal S1x64 .f32) (y : Fin 6272) (o : Fin 64) :
    k5_pay1 x0 x1 x2 (ix2 y o) = max (x0 (ix2 y o) * x1 (ix2 0 o) + x2 (ix2 0 o)) 0 :=
  pay2_apply x0 x1 x2 y o

/-! ## The output array as one function of the three input arrays -/

/-- Entry `(r, o)` of the result: `max (a0 (r, o) * a1 (0, o) + a2 (0, o)) 0`. -/
def reluAffine (a0 : S100352x64.Idx → EReal) (a1 a2 : S1x64.Idx → EReal) : S100352x64.Idx → EReal :=
  fun i => max (a0 i * a1 (ix2 0 ⟨(i 1).val, idx2_lt1 i⟩) + a2 (ix2 0 ⟨(i 1).val, idx2_lt1 i⟩)) 0

theorem reluAffine_ix2 (a0 : S100352x64.Idx → EReal) (a1 a2 : S1x64.Idx → EReal) (r : Fin 100352) (o : Fin 64) :
    reluAffine a0 a1 a2 (ix2 r o) = max (a0 (ix2 r o) * a1 (ix2 0 o) + a2 (ix2 0 o)) 0 := rfl

/-- On real data the function is the rectified normalisation: rows below 100000 of `a0` the reals `Z`, `a1` and
    `a2` the slope and intercept of `Z`'s normalisation. -/
theorem reluAffine_rows (a0 : S100352x64.Idx → EReal) (a1 a2 : S1x64.Idx → EReal)
    (Z : Fin 100000 → Fin 64 → ℝ) (go bo : Fin 64 → ℝ)
    (hin : Rows a0 Z) (hsc : Row1 a1 (Cert.Spec.scale Cert.LibSums.eps Z go))
    (hsh : Row1 a2 (Cert.Spec.shift Cert.LibSums.eps Z go bo)) :
    Rows (reluAffine a0 a1 a2) (Cert.Spec.relu (Cert.Spec.bn Cert.LibSums.eps Z go bo)) := by
  intro i h k
  rw [reluAffine_ix2, hin i h k, hsc k, hsh k, relu_affine_coe,
    Cert.Spec.mul_scale_add_shift (by norm_num) Cert.LibSums.eps Z go bo i k]
  rfl

variable (m : (ℓ : Loc nD τ sig) → Buf (Elt Ideal) ℓ) (ρ : Dev nD → PrngReg)

/-! ## Region 2: the rows of `main_v51_0` scaled by `main_v64`, shifted by `main_v67`, rectified, into `main_v68` -/

section Region2

variable (V : (c : Dev nD) → (b : Ref sig .tc) → Buf (Elt Ideal) ((c : Thread nD τ).loc b))

/-- The three arrays region 2 reads, as it finds them, at their literal types. -/
abbrev ain2 (c : Dev nD) : S100352x64.Idx → EReal := V c main_v51_0
abbrev asc2 (c : Dev nD) : S1x64.Idx → EReal := V c main_v64
abbrev ash2 (c : Dev nD) : S1x64.Idx → EReal := V c main_v67

/-- The printed index maps of region 2, decided over its sixteen points: the row windows sit at block `(t, 0)`, the
    two one-row windows at block `(0, 0)`. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `reluAffine` of the three arrays as the region finds them: the input
    block and the output block are the same rows, and the one-row blocks are the whole one-row arrays. -/
theorem flushed2 (c : Dev nD) (t : Fin cfg2.N) :
    (dat2 V c).flushed 3 t
      = ((cfg2.win 3).blk t).view.read (Elt Ideal) (reluAffine (ain2 V c) (asc2 V c) (ash2 V c)) := by
  show (cfg2.win 3).cut (grid2.coords t) ((dat2 V c).after 3 t) = _
  rw [after2_3]
  unfold out2_3
  rw [View.canon_unit_zero hz]
  simp only [View.ld_unit_zero (S := S6272x64) hz, View.ld_unit_zero (S := S1x64) hz]
  obtain ⟨e00, e01, e10, e11, e20, e21, e30, e31⟩ := idx2 t
  funext j
  obtain ⟨y, o, rfl⟩ : ∃ (y : Fin 6272) (o : Fin 64), j = ix2 y o := ⟨j 0, j 1, eq_ix2 j⟩
  refine (pay2_apply (iblk2 V c 0 t) (iblk2 V c 1 t) (iblk2 V c 2 t) y o).trans ?_
  show max (ain2 V c (((cfg2.win 0).blk t).view.emb (ix2 y o))
        * asc2 V c (((cfg2.win 1).blk t).view.emb (ix2 0 o))
        + ash2 V c (((cfg2.win 2).blk t).view.emb (ix2 0 o))) 0
      = reluAffine (ain2 V c) (asc2 V c) (ash2 V c) (((cfg2.win 3).blk t).view.emb (ix2 y o))
  have h0 : ((cfg2.win 0).blk t).view.emb (ix2 y o) = ((cfg2.win 3).blk t).view.emb (ix2 y o) := by
    funext a; apply Fin.ext
    match a with
    | ⟨0, _⟩ => show win2_0.index t (0 : Fin 2) * 6272 + 1 * y.val = win2_3.index t (0 : Fin 2) * 6272 + 1 * y.val; omega
    | ⟨1, _⟩ => show win2_0.index t (1 : Fin 2) * 64 + 1 * o.val = win2_3.index t (1 : Fin 2) * 64 + 1 * o.val; omega
  have ht : t.val < 16 := lt_of_lt_of_eq t.isLt (show cfg2.N = 16 from N_2)
  have hy : y.val < 6272 := y.isLt
  have h3 : ((cfg2.win 3).blk t).view.emb (ix2 y o) = ix2 ⟨6272 * t.val + y.val, by omega⟩ o := by
    funext a; apply Fin.ext
    match a with
    | ⟨0, _⟩ => show win2_3.index t (0 : Fin 2) * 6272 + 1 * y.val = 6272 * t.val + y.val; omega
    | ⟨1, _⟩ => show win2_3.index t (1 : Fin 2) * 64 + 1 * o.val = o.val; omega
  have h1 : ((cfg2.win 1).blk t).view.emb (ix2 0 o) = ix2 0 o := by
    funext a; apply Fin.ext
    match a with
    | ⟨0, _⟩ => show win2_1.index t (0 : Fin 2) * 1 + 1 * 0 = 0; omega
    | ⟨1, _⟩ => show win2_1.index t (1 : Fin 2) * 64 + 1 * o.val = o.val; omega
  have h2 : ((cfg2.win 2).blk t).view.emb (ix2 0 o) = ix2 0 o := by
    funext a; apply Fin.ext
    match a with
    | ⟨0, _⟩ => show win2_2.index t (0 : Fin 2) * 1 + 1 * 0 = 0; omega
    | ⟨1, _⟩ => show win2_2.index t (1 : Fin 2) * 64 + 1 * o.val = o.val; omega
  rw [h0, h1, h2, h3]
  rfl

/-- An index of the output array is in point `t`'s block iff each coordinate is in the block's range on its axis. -/
theorem mem_blk2 (t : Fin cfg2.N) (i : S100352x64.Idx) :
    i ∈ ((cfg2.win 3).blk t).view.set ↔ ∀ a : Fin 2, win2_3.index t a * S6272x64.size a ≤ (i a).val
      ∧ (i a).val < win2_3.index t a * S6272x64.size a + S6272x64.size a := by
  show i ∈ ((View.whole main_v68).slice (win2_3.rect t)).set ↔ _
  rw [View.set_slice_whole, Rect.mem_set_unit]
  exact Iff.rfl

/-- Sixteen blocks of 6272 rows fill the 100352 rows: row `r` is in the block of point `r / 6272`. -/
theorem cover2 (i : S100352x64.Idx) :
    ∃ t : Fin cfg2.N, (cfg2.win 3).flush t = true ∧ i ∈ ((cfg2.win 3).blk t).view.set := by
  have hi0 : (i 0).val < 100352 := idx2_lt0 i
  have hi1 : (i 1).val < 64 := idx2_lt1 i
  obtain ⟨t, ht⟩ : ∃ t : Fin cfg2.N, t.val = (i 0).val / 6272 :=
    ⟨⟨(i 0).val / 6272, by rw [show cfg2.N = 16 from N_2]; omega⟩, rfl⟩
  obtain ⟨-, -, -, -, -, -, e30, e31⟩ := idx2 t
  refine ⟨t, flush2_3 t, ?_⟩
  rw [mem_blk2]
  intro a
  match a with
  | ⟨0, _⟩ =>
    show win2_3.index t (0 : Fin 2) * 6272 ≤ (i 0).val ∧ (i 0).val < win2_3.index t (0 : Fin 2) * 6272 + 6272
    omega
  | ⟨1, _⟩ =>
    show win2_3.index t (1 : Fin 2) * 64 ≤ (i 1).val ∧ (i 1).val < win2_3.index t (1 : Fin 2) * 64 + 64
    omega

end Region2

/-- The output array of region 2 after the region, whole: `reluAffine` of the three arrays at its entry. -/
theorem arr2 (c : Dev nD) :
    W12 m ρ c (Proc.devRef .tc main_v68)
      = reluAffine (W11 m ρ c (Proc.devRef .tc main_v51_0)) (W11 m ρ c (Proc.devRef .tc main_v64))
          (W11 m ρ c (Proc.devRef .tc main_v67)) :=
  (W12_arr m ρ c 3).trans
    ((dat2 (V11 m ρ) c).arrAt_eq_of_cover 3 _ (fun t _ => flushed2 (V11 m ρ) c t) cover2)

/-! ## Region 5: the rows of `main_v98_0` scaled by `main_v111`, shifted by `main_v114`, rectified, into `main_v115` -/

section Region5

variable (V : (c : Dev nD) → (b : Ref sig .tc) → Buf (Elt Ideal) ((c : Thread nD τ).loc b))

/-- The three arrays region 5 reads, as it finds them, at their literal types. -/
abbrev ain5 (c : Dev nD) : S100352x64.Idx → EReal := V c main_v98_0
abbrev asc5 (c : Dev nD) : S1x64.Idx → EReal := V c main_v111
abbrev ash5 (c : Dev nD) : S1x64.Idx → EReal := V c main_v114

/-- The printed index maps of region 5, decided over its sixteen points: the row windows sit at block `(t, 0)`, the
    two one-row windows at block `(0, 0)`. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of `reluAffine` of the three arrays as the region finds them: the input
    block and the output block are the same rows, and the one-row blocks are the whole one-row arrays. -/
theorem flushed5 (c : Dev nD) (t : Fin cfg5.N) :
    (dat5 V c).flushed 3 t
      = ((cfg5.win 3).blk t).view.read (Elt Ideal) (reluAffine (ain5 V c) (asc5 V c) (ash5 V c)) := by
  show (cfg5.win 3).cut (grid5.coords t) ((dat5 V c).after 3 t) = _
  rw [after5_3]
  unfold out5_3
  rw [View.canon_unit_zero hz]
  simp only [View.ld_unit_zero (S := S6272x64) hz, View.ld_unit_zero (S := S1x64) hz]
  obtain ⟨e00, e01, e10, e11, e20, e21, e30, e31⟩ := idx5 t
  funext j
  obtain ⟨y, o, rfl⟩ : ∃ (y : Fin 6272) (o : Fin 64), j = ix2 y o := ⟨j 0, j 1, eq_ix2 j⟩
  refine (pay5_apply (iblk5 V c 0 t) (iblk5 V c 1 t) (iblk5 V c 2 t) y o).trans ?_
  show max (ain5 V c (((cfg5.win 0).blk t).view.emb (ix2 y o))
        * asc5 V c (((cfg5.win 1).blk t).view.emb (ix2 0 o))
        + ash5 V c (((cfg5.win 2).blk t).view.emb (ix2 0 o))) 0
      = reluAffine (ain5 V c) (asc5 V c) (ash5 V c) (((cfg5.win 3).blk t).view.emb (ix2 y o))
  have h0 : ((cfg5.win 0).blk t).view.emb (ix2 y o) = ((cfg5.win 3).blk t).view.emb (ix2 y o) := by
    funext a; apply Fin.ext
    match a with
    | ⟨0, _⟩ => show win5_0.index t (0 : Fin 2) * 6272 + 1 * y.val = win5_3.index t (0 : Fin 2) * 6272 + 1 * y.val; omega
    | ⟨1, _⟩ => show win5_0.index t (1 : Fin 2) * 64 + 1 * o.val = win5_3.index t (1 : Fin 2) * 64 + 1 * o.val; omega
  have ht : t.val < 16 := lt_of_lt_of_eq t.isLt (show cfg5.N = 16 from N_5)
  have hy : y.val < 6272 := y.isLt
  have h3 : ((cfg5.win 3).blk t).view.emb (ix2 y o) = ix2 ⟨6272 * t.val + y.val, by omega⟩ o := by
    funext a; apply Fin.ext
    match a with
    | ⟨0, _⟩ => show win5_3.index t (0 : Fin 2) * 6272 + 1 * y.val = 6272 * t.val + y.val; omega
    | ⟨1, _⟩ => show win5_3.index t (1 : Fin 2) * 64 + 1 * o.val = o.val; omega
  have h1 : ((cfg5.win 1).blk t).view.emb (ix2 0 o) = ix2 0 o := by
    funext a; apply Fin.ext
    match a with
    | ⟨0, _⟩ => show win5_1.index t (0 : Fin 2) * 1 + 1 * 0 = 0; omega
    | ⟨1, _⟩ => show win5_1.index t (1 : Fin 2) * 64 + 1 * o.val = o.val; omega
  have h2 : ((cfg5.win 2).blk t).view.emb (ix2 0 o) = ix2 0 o := by
    funext a; apply Fin.ext
    match a with
    | ⟨0, _⟩ => show win5_2.index t (0 : Fin 2) * 1 + 1 * 0 = 0; omega
    | ⟨1, _⟩ => show win5_2.index t (1 : Fin 2) * 64 + 1 * o.val = o.val; omega
  rw [h0, h1, h2, h3]
  rfl

/-- An index of the output array is in point `t`'s block iff each coordinate is in the block's range on its axis. -/
theorem mem_blk5 (t : Fin cfg5.N) (i : S100352x64.Idx) :
    i ∈ ((cfg5.win 3).blk t).view.set ↔ ∀ a : Fin 2, win5_3.index t a * S6272x64.size a ≤ (i a).val
      ∧ (i a).val < win5_3.index t a * S6272x64.size a + S6272x64.size a := by
  show i ∈ ((View.whole main_v115).slice (win5_3.rect t)).set ↔ _
  rw [View.set_slice_whole, Rect.mem_set_unit]
  exact Iff.rfl

/-- Sixteen blocks of 6272 rows fill the 100352 rows: row `r` is in the block of point `r / 6272`. -/
theorem cover5 (i : S100352x64.Idx) :
    ∃ t : Fin cfg5.N, (cfg5.win 3).flush t = true ∧ i ∈ ((cfg5.win 3).blk t).view.set := by
  have hi0 : (i 0).val < 100352 := idx2_lt0 i
  have hi1 : (i 1).val < 64 := idx2_lt1 i
  obtain ⟨t, ht⟩ : ∃ t : Fin cfg5.N, t.val = (i 0).val / 6272 :=
    ⟨⟨(i 0).val / 6272, by rw [show cfg5.N = 16 from N_5]; omega⟩, rfl⟩
  obtain ⟨-, -, -, -, -, -, e30, e31⟩ := idx5 t
  refine ⟨t, flush5_3 t, ?_⟩
  rw [mem_blk5]
  intro a
  match a with
  | ⟨0, _⟩ =>
    show win5_3.index t (0 : Fin 2) * 6272 ≤ (i 0).val ∧ (i 0).val < win5_3.index t (0 : Fin 2) * 6272 + 6272
    omega
  | ⟨1, _⟩ =>
    show win5_3.index t (1 : Fin 2) * 64 ≤ (i 1).val ∧ (i 1).val < win5_3.index t (1 : Fin 2) * 64 + 64
    omega

end Region5

/-- The output array of region 5 after the region, whole: `reluAffine` of the three arrays at its entry. -/
theorem arr5 (c : Dev nD) :
    W18 m ρ c (Proc.devRef .tc main_v115)
      = reluAffine (W17 m ρ c (Proc.devRef .tc main_v98_0)) (W17 m ρ c (Proc.devRef .tc main_v111))
          (W17 m ρ c (Proc.devRef .tc main_v114)) :=
  (W18_arr m ρ c 3).trans
    ((dat5 (V17 m ρ) c).arrAt_eq_of_cover 3 _ (fun t _ => flushed5 (V17 m ρ) c t) cover5)

/-- Region 2 on real data: if at its entry the rows of `main_v51_0` are `Z` and the two one-row arrays are the
    normalisation's slope and intercept for `Z`, then after it the rows of `main_v68` are the rectified normalisation
    of `Z` (`Spec.mul_scale_add_shift`: the multiply-add is the normalisation). -/
theorem affine1 (c : Dev nD) (Z : Fin 100000 → Fin 64 → ℝ) (go bo : Fin 64 → ℝ)
    (hin : Rows (W11 m ρ c (Proc.devRef .tc main_v51_0)) Z)
    (hsc : Row1 (W11 m ρ c (Proc.devRef .tc main_v64)) (Cert.Spec.scale Cert.LibSums.eps Z go))
    (hsh : Row1 (W11 m ρ c (Proc.devRef .tc main_v67)) (Cert.Spec.shift Cert.LibSums.eps Z go bo)) :
    Rows (W12 m ρ c (Proc.devRef .tc main_v68)) (Cert.Spec.relu (Cert.Spec.bn Cert.LibSums.eps Z go bo)) := by
  intro i h k
  rw [arr2]
  exact reluAffine_rows _ _ _ Z go bo hin hsc hsh i h k

/-- Region 5 on real data: if at its entry the rows of `main_v98_0` are `Z` and the two one-row arrays are the
    normalisation's slope and intercept for `Z`, then after it the rows of `main_v115` are the rectified normalisation
    of `Z` (`Spec.mul_scale_add_shift`: the multiply-add is the normalisation). -/
theorem affine2 (c : Dev nD) (Z : Fin 100000 → Fin 64 → ℝ) (go bo : Fin 64 → ℝ)
    (hin : Rows (W17 m ρ c (Proc.devRef .tc main_v98_0)) Z)
    (hsc : Row1 (W17 m ρ c (Proc.devRef .tc main_v111)) (Cert.Spec.scale Cert.LibSums.eps Z go))
    (hsh : Row1 (W17 m ρ c (Proc.devRef .tc main_v114)) (Cert.Spec.shift Cert.LibSums.eps Z go bo)) :
    Rows (W18 m ρ c (Proc.devRef .tc main_v115)) (Cert.Spec.relu (Cert.Spec.bn Cert.LibSums.eps Z go bo)) := by
  intro i h k
  rw [arr5]
  exact reluAffine_rows _ _ _ Z go bo hin hsc hsh i h k

end Cert.KAffine

end
-- ==== Proof.KPoolLaw.lean ====
/-
  Per-graph sums of node rows, as the three pooling launches compute them: the padded node range is cut into 49 blocks of
  2048 rows; for a block, entry (g, k) of its partial sum adds the rows of the block whose batch word is the word of the
  graph number g (a one-hot row times the feature block); the 49 partial sums are then added. Here is the mathematics
  shared by the three launches: the law that turns the one-hot weighted sum over the padded rows into the real sum over
  the nodes of graph g (a padding row carries the all-ones word, which is no graph number, so its weight is 0, and
  0 * x = 0 for every extended real, so nothing is asked of the padding rows' contents), the regrouping of the padded
  rows into blocks, and the one-hot operand read at an index.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import Idealize.ShloMosaic.PureOps.Ideal.Laws
import Idealize.ShloMosaic.Lib.ValueIdx
import Idealize.ShloMosaic.Lib.Pipeline.Value

set_option maxRecDepth 16384

noncomputable section

open scoped BigOperators

namespace Cert.KPool

open Cert.KernelIdeal Cert.KernelIdeal.Gen Cert.KernelIdeal.GenP Cert.Lift
open Idealize.ShloMosaic Idealize.ShloMosaic.TcCoe Idealize.ShloMosaic.ValueIdx

section General

/-- A number below 2³¹, written as a 32-bit word, equals a word exactly when that word read signed is the number. -/
theorem ofNat_eq_iff_toInt (g : ℕ) (hg : g < 2 ^ 31) (b : BitVec 32) :
    BitVec.ofNat 32 g = b ↔ b.toInt = (g : ℤ) := by
  constructor
  · intro h
    subst h
    rw [BitVec.toInt_eq_toNat_cond, BitVec.toNat_ofNat]
    have : g % 2 ^ 32 = g := Nat.mod_eq_of_lt (by omega)
    rw [this]
    split <;> omega
  · intro h
    apply BitVec.eq_of_toNat_eq
    rw [BitVec.toNat_ofNat]
    have e := BitVec.toInt_eq_toNat_cond b
    have hb := b.isLt
    have : g % 2 ^ 32 = g := Nat.mod_eq_of_lt (by omega)
    rw [this]
    split at e <;> omega

/-- The all-ones word is no number below 2³¹. -/
theorem ofNat_ne_allOnes (g : ℕ) (hg : g < 2 ^ 31) : BitVec.ofNat 32 g ≠ 0xFFFFFFFF#32 := by
  intro h
  have := congrArg BitVec.toNat h
  rw [BitVec.toNat_ofNat, Nat.mod_eq_of_lt (by omega)] at this
  simp at this
  omega

/-- THE POOLING LAW. A one-hot weighted sum over the padded rows, the padding rows carrying the all-ones word, is the
    real sum over the nodes of graph g: a padding row's weight is zero, and zero times any extended real is zero. -/
theorem onehot_pool (N P : ℕ) (hNP : N ≤ P) (b : Fin N → BitVec 32) (bw : Fin P → BitVec 32) (feat : Fin P → EReal)
    (X : Fin N → ℝ) (hb : ∀ r : Fin P, bw r = if h : r.val < N then b ⟨r.val, h⟩ else 0xFFFFFFFF#32)
    (hx : ∀ (i : Fin N), feat ⟨i.val, by omega⟩ = ((X i : ℝ) : EReal)) (g : ℕ) (hg : g < 2 ^ 31) :
    ∑ r : Fin P, (if BitVec.ofNat 32 g = bw r then (1 : EReal) else 0) * feat r
      = ((∑ i ∈ Finset.univ.filter (fun i : Fin N => (b i).toInt = (g : ℤ)), X i : ℝ) : EReal) := by
  let F : ℕ → EReal := fun n =>
    if h : n < N then (if (b ⟨n, h⟩).toInt = (g : ℤ) then (1 : EReal) else 0) * ((X ⟨n, h⟩ : ℝ) : EReal) else 0
  have h1 : ∀ r : Fin P, (if BitVec.ofNat 32 g = bw r then (1 : EReal) else 0) * feat r
      = if r.val < N then F r.val else 0 := by
    intro r
    by_cases hr : r.val < N
    · rw [if_pos hr]
      show _ = if h : r.val < N then _ else _
      rw [dif_pos hr, hb r, dif_pos hr]
      have : feat r = ((X ⟨r.val, hr⟩ : ℝ) : EReal) := hx ⟨r.val, hr⟩
      rw [this]
      congr 1
      exact if_congr (ofNat_eq_iff_toInt g hg _) rfl rfl
    · rw [if_neg hr, hb r, dif_neg hr, if_neg (ofNat_ne_allOnes g hg), zero_mul]
  rw [Finset.sum_congr rfl (fun r _ => h1 r), Cert.LibSums.sum_masked N P hNP F]
  have h2 : ∀ i : Fin N, F i.val = (if (b i).toInt = (g : ℤ) then (1 : EReal) else 0) * ((X i : ℝ) : EReal) := by
    intro i
    show (if h : i.val < N then _ else _) = _
    rw [dif_pos i.isLt]
  rw [Finset.sum_congr rfl (fun i _ => h2 i),
    Cert.LibSums.sum_onehot (fun i : Fin N => (b i).toInt) (g : ℤ) (fun i => ((X i : ℝ) : EReal)), Cert.LibSums.coe_sum]

/-- A select on the bit of a word comparison is the choice by the words' equality. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := by simpa using h
    rw [if_neg h, hb]; rfl

end General

/-- The padded batch row: the batch words on the first 100000 columns, the all-ones word on the padding. -/
def PadBatch (A : S1x100352.Idx → BitVec 32) (B : S100000.Idx → BitVec 32) : Prop :=
  ∀ r : Fin 100352, A (ix2 0 r) = if h : r.val < 100000 then B (ix1 ⟨r.val, h⟩) else 0xFFFFFFFF#32

/-- What one block of 2048 padded rows adds to entry (g, k) of the pooled sums: the rows of the block whose batch word is
    the word of g, each weighted 1, the others weighted 0. -/
def blockTerm {D : ℕ} (bw : S1x100352.Idx → BitVec 32) (feat : (⟨2, ![100352, D]⟩ : Shape).Idx → EReal)
    (t : Fin 49) (g : Fin 512) (k : Fin D) : EReal :=
  ∑ y : Fin 2048, (if BitVec.ofNat 32 g.val = bw (ix2 0 ⟨2048 * t.val + y.val, by omega⟩) then (1 : EReal) else 0)
      * feat (ix2 ⟨2048 * t.val + y.val, by omega⟩ k)

/-- The array of the 49 blocks' partial sums. -/
def blockArr {D : ℕ} (bw : S1x100352.Idx → BitVec 32) (feat : (⟨2, ![100352, D]⟩ : Shape).Idx → EReal) :
    (⟨3, ![49, 512, D]⟩ : Shape).Idx → EReal := fun i => blockTerm bw feat (i 0) (i 1) (i 2)

/-- The 49 blocks' partial sums add up to the pooled sum of graph g: the blocks regroup the padded rows (49 · 2048 =
    100352), and the pooling law does the rest. -/
theorem sum_blockTerm {D : ℕ} (bw : S1x100352.Idx → BitVec 32) (feat : (⟨2, ![100352, D]⟩ : Shape).Idx → EReal)
    (B : S100000.Idx → BitVec 32) (X : Fin 100000 → Fin D → ℝ) (hb : PadBatch bw B) (hx : Rows feat X)
    (g : Fin 512) (k : Fin D) :
    ∑ t : Fin 49, blockTerm bw feat t g k = ((Cert.Spec.pool (G := 512) (batOf B) X g k : ℝ) : EReal) := by
  let Gf : ℕ → EReal := fun n => if h : n < 100352 then
    (if BitVec.ofNat 32 g.val = bw (ix2 0 ⟨n, h⟩) then (1 : EReal) else 0) * feat (ix2 ⟨n, h⟩ k) else 0
  have h1 : ∀ t : Fin 49, blockTerm bw feat t g k = ∑ y : Fin 2048, Gf (2048 * t.val + y.val) := by
    intro t
    unfold blockTerm
    refine Finset.sum_congr rfl fun y _ => ?_
    show _ = if h : 2048 * t.val + y.val < 100352 then _ else _
    rw [dif_pos (by omega)]
  rw [Finset.sum_congr rfl (fun t _ => h1 t), Cert.LibSums.sum_blocks 49 2048 Gf]
  have h2 : ∀ r : Fin (49 * 2048), Gf r.val
      = (if BitVec.ofNat 32 g.val = bw (ix2 0 (r : Fin 100352)) then (1 : EReal) else 0)
          * feat (ix2 (r : Fin 100352) k) := by
    intro r
    show (if h : r.val < 100352 then _ else _) = _
    rw [dif_pos r.isLt]
  rw [Finset.sum_congr rfl (fun r _ => h2 r)]
  exact onehot_pool 100000 100352 (by omega) (fun i => B (ix1 i)) (fun r => bw (ix2 0 r)) (fun r => feat (ix2 r k))
    (fun i => X i k) hb (fun i => hx i (by omega) k) g.val (by omega)

/-- The one-hot operand of the three launches at an index whose row is g and whose column is y: the float 1 when the
    word of g is the batch word of column y, else the float 0. -/
theorem onehot_apply (x0 : Vec Ideal S1x2048 .i32) (i : S512x2048.Idx) (g : Fin 512) (y : Fin 2048)
    (h0 : (i 0).val = g.val) (h1 : (i 1).val = y.val) :
    select (cmpi CmpIPredicate.eq (iota Kind.tc S512x2048 32 [0] iota_S512x2048_d0_w32)
        (broadcastTo S512x2048 (shapeCast S1x2048 x0 shapeCasts_S1x2048_S1x2048) broadcasts_S1x2048_S512x2048))
      (broadcast S512x2048 (FloatOps.ofBits (F := Ideal) FTy.f32 0x3F800000#32))
      (broadcast S512x2048 (FloatOps.ofBits (F := Ideal) FTy.f32 0x00000000#32)) i
      = if BitVec.ofNat 32 g.val = x0 (ix2 0 y) then (1 : EReal) else 0 := by
  show Scalar.select (IntOp.cmpi .eq (iota Kind.tc S512x2048 32 [0] iota_S512x2048_d0_w32 i)
      (broadcastTo S512x2048 (shapeCast S1x2048 x0 shapeCasts_S1x2048_S1x2048) broadcasts_S1x2048_S512x2048 i))
      (Ideal.ofBits .f32 0x3F800000#32) (Ideal.ofBits .f32 0x00000000#32) = _
  rw [select_cmpi_eq, Cert.LibSums.ofBits_one, EReal.coe_one, Ideal.ofBits_zero_f32, iota_single_apply,
    broadcastTo_apply _ broadcasts_S1x2048_S512x2048 i (ix2 0 y) (by
      intro a
      match a with
      | ⟨0, _⟩ => rfl
      | ⟨1, _⟩ => exact h1.symm),
    shapeCast_self]
  have e : BitVec.ofNat 32 (i 0).val = BitVec.ofNat 32 g.val := congrArg (BitVec.ofNat 32) h0
  rw [e]

theorem hz2 : (![0, 0] : Fin 2 → Nat) = fun _ => 0 := funext fun a => by fin_cases a <;> rfl
theorem hz3 : (![0, 0, 0] : Fin 3 → Nat) = fun _ => 0 := funext fun a => by fin_cases a <;> rfl

end Cert.KPool

end
-- ==== Proof.KPool6.lean ====
/-
  Region 6 of the kernel program (the pooling of the padded input rows, 4 columns) and the host sum that follows it: the
  array the launch leaves holds the 49 blocks' partial sums, block t from batch columns and feature rows 2048 t … 2048 t + 2047;
  the host adds the 49 slabs; by the pooling law the result is the per-graph sum of the node rows.
-/
import proofs.«403050_j67860483276910_3_alg».proof.Proof.KPoolLaw

set_option maxRecDepth 16384

noncomputable section

open scoped BigOperators

namespace Cert.KPool.R6

open Cert.KernelIdeal Cert.KernelIdeal.Gen Cert.KernelIdeal.GenP Cert.Lift Cert.KPool
open Idealize.ShloMosaic Idealize.ShloMosaic.TcCoe Idealize.ShloMosaic.ValueIdx
open Idealize.ShloMosaic.Pipeline (Dat Cfg Window)

/-! ## The product's dimension numbers, axis by axis: row g of the one-hot operand against column k of the feature block -/

theorem lhsD_0 (j : S512x4.Idx) (q : dot_S512x2048_S2048x4_S512x4_1_0_0_1_n_n.contr.Idx) :
    (dot_S512x2048_S2048x4_S512x4_1_0_0_1_n_n.lhsIdx j q 0 : ℕ) = j 0 := by
  simp [DotDims.lhsIdx, dot_S512x2048_S2048x4_S512x4_1_0_0_1_n_n]; rfl
theorem lhsD_1 (j : S512x4.Idx) (q : dot_S512x2048_S2048x4_S512x4_1_0_0_1_n_n.contr.Idx) :
    (dot_S512x2048_S2048x4_S512x4_1_0_0_1_n_n.lhsIdx j q 1 : ℕ) = q ⟨0, Nat.one_pos⟩ := by
  simp [DotDims.lhsIdx, dot_S512x2048_S2048x4_S512x4_1_0_0_1_n_n]; rfl
theorem rhsD_0 (j : S512x4.Idx) (q : dot_S512x2048_S2048x4_S512x4_1_0_0_1_n_n.contr.Idx) :
    (dot_S512x2048_S2048x4_S512x4_1_0_0_1_n_n.rhsIdx j q 0 : ℕ) = q ⟨0, Nat.one_pos⟩ := by
  simp [DotDims.rhsIdx, dot_S512x2048_S2048x4_S512x4_1_0_0_1_n_n]; rfl
theorem rhsD_1 (j : S512x4.Idx) (q : dot_S512x2048_S2048x4_S512x4_1_0_0_1_n_n.contr.Idx) :
    (dot_S512x2048_S2048x4_S512x4_1_0_0_1_n_n.rhsIdx j q 1 : ℕ) = j 1 := by
  simp [DotDims.rhsIdx, dot_S512x2048_S2048x4_S512x4_1_0_0_1_n_n]; rfl

/-- The stored block at (0, g, k): the one-hot row of graph g against column k of the feature block, summed exactly over
    the block's 2048 rows (a product into a zero accumulator). -/
theorem pay6_apply (x0 : Vec Ideal S1x2048 .i32) (x1 : Vec Ideal S2048x4 .f32) (g : Fin 512) (k : Fin 4) :
    (k6_pay1 (F := Ideal) x0 x1) (ix3 0 g k)
      = ∑ y : Fin 2048, (if BitVec.ofNat 32 g.val = x0 (ix2 0 y) then (1 : EReal) else 0) * x1 (ix2 y k) := by
  unfold k6_pay1
  dsimp only
  refine (shapeCast_apply _ shapeCasts_S512x4_S1x512x4 (ix3 0 g k) (ix2 g k) (by
    rw [Shape.rowMajor_val_two, Shape.rowMajor_val_three]
    show g.val * 4 + k.val = ((0 : ℕ) * 512 + g.val) * 4 + k.val
    omega)).trans ?_
  refine (Ideal.matmul_constant_zero_apply dot_S512x2048_S2048x4_S512x4_1_0_0_1_n_n (some ContractPrecision.fp32) _ _ (ix2 g k)).trans ?_
  rw [← Equiv.sum_comp (contrEquiv1 dot_S512x2048_S2048x4_S512x4_1_0_0_1_n_n 2048 rfl rfl).symm]
  refine Finset.sum_congr rfl fun y _ => ?_
  have c := contrEquiv1_symm_val dot_S512x2048_S2048x4_S512x4_1_0_0_1_n_n 2048 rfl rfl y
  refine congrArg₂ (· * ·) ?_ ?_
  · exact onehot_apply x0 _ g y (lhsD_0 _ _) ((lhsD_1 _ _).trans c)
  · rw [shapeCast_self]
    exact congrArg x1 (Shape.idx_ext₂ ((rhsD_0 _ _).trans c) (rhsD_1 _ _))

section Region

variable (V : (c : Dev nD) → (b : Ref sig .tc) → Buf (Elt Ideal) ((c : Thread nD τ).loc b))

/-- Where the three windows' blocks sit at grid point t: batch columns from 2048 t, feature rows from 2048 t, output slab t. -/
theorem idx_facts6 : ∀ t : Fin cfg6.N,
    win6_0.index t (0 : Fin 2) = 0 ∧ win6_0.index t (1 : Fin 2) = t.val
    ∧ win6_1.index t (0 : Fin 2) = t.val ∧ win6_1.index t (1 : Fin 2) = 0
    ∧ win6_2.index t (0 : Fin 3) = t.val ∧ win6_2.index t (1 : Fin 3) = 0 ∧ win6_2.index t (2 : Fin 3) = 0 :=
  (by decide +kernel : ∀ t : Fin grid6.N, _)

/-- The batch block at point t, column y, is the padded batch row at column 2048 t + y. -/
theorem blk6_0 (c : Dev nD) (t : Fin cfg6.N) (y : Fin 2048) (h : 2048 * t.val + y.val < 100352) :
    (iblk6 V c 0 t : S1x2048.Idx → BitVec 32) (ix2 0 y)
      = (V c main_v21 : S1x100352.Idx → BitVec 32) (ix2 0 ⟨2048 * t.val + y.val, h⟩) := by
  obtain ⟨e0, e1, -⟩ := idx_facts6 t
  show (V c main_v21 : S1x100352.Idx → BitVec 32) (((cfg6.win 0).blk t).view.emb (ix2 0 y)) = _
  refine congrArg _ (funext fun a => Fin.ext ?_)
  match a with
  | ⟨0, _⟩ => show win6_0.index t (0 : Fin 2) * 1 + 1 * ((0 : Fin 1) : ℕ) = 0; rw [e0]; rfl
  | ⟨1, _⟩ => show win6_0.index t (1 : Fin 2) * 2048 + 1 * y.val = 2048 * t.val + y.val; omega

/-- The feature block at point t, row y, is the padded feature array at row 2048 t + y. -/
theorem blk6_1 (c : Dev nD) (t : Fin cfg6.N) (y : Fin 2048) (k : Fin 4) (h : 2048 * t.val + y.val < 100352) :
    (iblk6 V c 1 t : S2048x4.Idx → EReal) (ix2 y k)
      = (V c main_v19 : S100352x4.Idx → EReal) (ix2 ⟨2048 * t.val + y.val, h⟩ k) := by
  obtain ⟨-, -, e2, e3, -⟩ := idx_facts6 t
  show (V c main_v19 : S100352x4.Idx → EReal) (((cfg6.win 1).blk t).view.emb (ix2 y k)) = _
  refine congrArg _ (funext fun a => Fin.ext ?_)
  match a with
  | ⟨0, _⟩ => show win6_1.index t (0 : Fin 2) * 2048 + 1 * y.val = 2048 * t.val + y.val; omega
  | ⟨1, _⟩ => show win6_1.index t (1 : Fin 2) * 4 + 1 * k.val = k.val; omega

/-- What grid point t writes back is slab t of the partial sums. -/
theorem flushed6_eq (c : Dev nD) (t : Fin cfg6.N) :
    (dat6 V c).flushed 2 t
      = ((cfg6.win 2).blk t).view.read (Elt Ideal) (blockArr (D := 4) (V c main_v21) (V c main_v19)) := by
  have hN : t.val < 49 := lt_of_lt_of_eq t.isLt N_6
  obtain ⟨-, -, -, -, e4, e5, e6⟩ := idx_facts6 t
  show (cfg6.win 2).cut (grid6.coords t) ((dat6 V c).after 2 t) = _
  rw [after6_2]
  unfold out6_2
  rw [View.canon_unit_zero hz3]
  simp only [View.ld_unit_zero (S := S1x2048) hz2, View.ld_unit_zero (S := S2048x4) hz2]
  funext j
  obtain ⟨a, g, k, rfl⟩ : ∃ (a : Fin 1) (g : Fin 512) (k : Fin 4), j = ix3 a g k := ⟨j 0, j 1, j 2, eq_ix3 j⟩
  obtain rfl : a = 0 := Subsingleton.elim _ _
  refine (pay6_apply (iblk6 V c 0 t) (iblk6 V c 1 t) g k).trans ?_
  have hE : ((cfg6.win 2).blk t).view.emb (ix3 0 g k) = (ix3 ⟨t.val, hN⟩ g k : S49x512x4.Idx) := by
    funext a; apply Fin.ext
    match a with
    | ⟨0, _⟩ => show win6_2.index t (0 : Fin 3) * 1 + 1 * ((0 : Fin 1) : ℕ) = t.val; rw [e4]; show t.val * 1 + 1 * 0 = t.val; omega
    | ⟨1, _⟩ => show win6_2.index t (1 : Fin 3) * 512 + 1 * g.val = g.val; omega
    | ⟨2, _⟩ => show win6_2.index t (2 : Fin 3) * 4 + 1 * k.val = k.val; omega
  show _ = blockArr (D := 4) (V c main_v21) (V c main_v19) (((cfg6.win 2).blk t).view.emb (ix3 0 g k))
  rw [hE]
  show _ = blockTerm (D := 4) (V c main_v21) (V c main_v19) ⟨t.val, hN⟩ g k
  unfold blockTerm
  refine Finset.sum_congr rfl fun y _ => ?_
  rw [blk6_0 V c t y (by omega), blk6_1 V c t y k (by omega)]

theorem mem_blk6 (t : Fin cfg6.N) (i : S49x512x4.Idx) :
    i ∈ ((cfg6.win 2).blk t).view.set ↔ ∀ a : Fin 3, win6_2.index t a * S1x512x4.size a ≤ (i a).val
      ∧ (i a).val < win6_2.index t a * S1x512x4.size a + S1x512x4.size a := by
  show i ∈ ((View.whole main_v116).slice (win6_2.rect t)).set ↔ _
  rw [View.set_slice_whole, Rect.mem_set_unit]
  exact Iff.rfl

/-- Every entry of the partial-sum array lies in the slab of the grid point numbered by its first coordinate. -/
theorem cover6 (i : S49x512x4.Idx) :
    ∃ t : Fin cfg6.N, (cfg6.win 2).flush t = true ∧ i ∈ ((cfg6.win 2).blk t).view.set := by
  have h0 : (i 0).val < 49 := (i 0).isLt
  have h1 : (i 1).val < 512 := (i 1).isLt
  have h2 : (i 2).val < 4 := (i 2).isLt
  obtain ⟨t, ht⟩ : ∃ t : Fin cfg6.N, t.val = (i 0).val := ⟨⟨(i 0).val, by rw [show cfg6.N = 49 from N_6]; exact h0⟩, rfl⟩
  obtain ⟨-, -, -, -, e4, e5, e6⟩ := idx_facts6 t
  refine ⟨t, flush6_2 t, ?_⟩
  rw [mem_blk6]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 512 ≤ (i 1).val ∧ (i 1).val < win6_2.index t (1 : Fin 3) * 512 + 512; omega
  | ⟨2, _⟩ => show win6_2.index t (2 : Fin 3) * 4 ≤ (i 2).val ∧ (i 2).val < win6_2.index t (2 : Fin 3) * 4 + 4; omega

/-- After the region its output array holds the 49 blocks' partial sums of the arrays it was entered with. -/
theorem arr6 (c : Dev nD) : (dat6 V c).arrAt 2 cfg6.N = blockArr (D := 4) (V c main_v21) (V c main_v19) :=
  (dat6 V c).arrAt_eq_of_cover 2 _ (fun t _ => flushed6_eq V c t) cover6

end Region

section Run

variable (m : (ℓ : Loc nD τ sig) → Buf (Elt Ideal) ℓ) (ρ : Dev nD → PrngReg)

/-- The host sum over the 49 slabs, from a zero initial value, at (g, k): the sum of the blocks' terms. -/
theorem host6 (c : Dev nD) (g : Fin 512) (k : Fin 4) :
    (W20 (F := Ideal) m ρ c (Proc.devRef .tc main_v117) : S512x4.Idx → EReal) (ix2 g k)
      = ∑ t : Fin 49, blockTerm (D := 4) (W18 (F := Ideal) m ρ c (Proc.devRef .tc main_v21))
          (W18 (F := Ideal) m ρ c (Proc.devRef .tc main_v19)) t g k := by
  have hR : Shape.Reduces S49x512x4 [0] S512x4 := by decide
  have e : (W20 (F := Ideal) m ρ c (Proc.devRef .tc main_v117) : S512x4.Idx → EReal)
      = Host.reduceAdd (F := Ideal) (W19 (F := Ideal) m ρ c (Proc.devRef .tc main_v116) : S49x512x4.Idx → EReal)
          (constant (F := Ideal) S_ .f32 0x00000000#32) reducesTo_S49x512x4_S512x4_d0 h_S_ := by
    show StableHlo.after hostOps7 _ (Proc.devRef .tc main_v117) = _
    after_results
  have e2 : (W19 (F := Ideal) m ρ c (Proc.devRef .tc main_v116) : S49x512x4.Idx → EReal)
      = blockArr (D := 4) (W18 (F := Ideal) m ρ c (Proc.devRef .tc main_v21))
          (W18 (F := Ideal) m ρ c (Proc.devRef .tc main_v19)) :=
    (W19_arr m ρ c 2).trans (arr6 (V18 m ρ) c)
  rw [e, e2]
  show Ideal.hostReduceAdd reducesTo_S49x512x4_S512x4_d0 _ (Ideal.ofBits .f32 0x00000000#32) (ix2 g k) = _
  rw [Ideal.hostReduceAdd_single reducesTo_S49x512x4_S512x4_d0 hR, Ideal.ofBits_zero_f32, zero_add]
  show ∑ t : Fin 49, blockArr (D := 4) _ _ (hR.lift (ix2 g k) t) = _
  refine Finset.sum_congr rfl fun t _ => ?_
  have hl : hR.lift (ix2 g k) t = (ix3 t g k : S49x512x4.Idx) := funext fun a => Fin.ext (by
    match a with
    | ⟨0, _⟩ => rfl
    | ⟨1, _⟩ => rfl
    | ⟨2, _⟩ => rfl)
  rw [hl]
  rfl

/-- The pooled input rows: after the host sum that follows region 6 the buffer holds the per-graph sums of the node rows. -/
theorem pool_x (c : Dev nD) (B : S100000.Idx → BitVec 32) (x : Fin 100000 → Fin 4 → ℝ)
    (hb : PadBatch (W18 (F := Ideal) m ρ c (Proc.devRef .tc main_v21)) B)
    (hx : Rows (W18 (F := Ideal) m ρ c (Proc.devRef .tc main_v19) : S100352x4.Idx → EReal) x) :
    Mat (W20 (F := Ideal) m ρ c (Proc.devRef .tc main_v117) : S512x4.Idx → EReal)
      (Cert.Spec.pool (G := 512) (batOf B) x) := by
  intro g k
  rw [host6 m ρ c g k]
  exact sum_blockTerm _ _ B x hb hx g k

end Run

end Cert.KPool.R6

end
-- ==== Proof.KPool7.lean ====
/-
  Region 7 of the kernel program (the pooling of the padded input rows, 64 columns) and the host sum that follows it: the
  array the launch leaves holds the 49 blocks' partial sums, block t from batch columns and feature rows 2048 t … 2048 t + 2047;
  the host adds the 49 slabs; by the pooling law the result is the per-graph sum of the node rows.
-/
import proofs.«403050_j67860483276910_3_alg».proof.Proof.KPoolLaw

set_option maxRecDepth 16384

noncomputable section

open scoped BigOperators

namespace Cert.KPool.R7

open Cert.KernelIdeal Cert.KernelIdeal.Gen Cert.KernelIdeal.GenP Cert.Lift Cert.KPool
open Idealize.ShloMosaic Idealize.ShloMosaic.TcCoe Idealize.ShloMosaic.ValueIdx
open Idealize.ShloMosaic.Pipeline (Dat Cfg Window)

/-! ## The product's dimension numbers, axis by axis: row g of the one-hot operand against column k of the feature block -/

theorem lhsD_0 (j : S512x64.Idx) (q : dot_S512x2048_S2048x64_S512x64_1_0_0_1_n_n.contr.Idx) :
    (dot_S512x2048_S2048x64_S512x64_1_0_0_1_n_n.lhsIdx j q 0 : ℕ) = j 0 := by
  simp [DotDims.lhsIdx, dot_S512x2048_S2048x64_S512x64_1_0_0_1_n_n]; rfl
theorem lhsD_1 (j : S512x64.Idx) (q : dot_S512x2048_S2048x64_S512x64_1_0_0_1_n_n.contr.Idx) :
    (dot_S512x2048_S2048x64_S512x64_1_0_0_1_n_n.lhsIdx j q 1 : ℕ) = q ⟨0, Nat.one_pos⟩ := by
  simp [DotDims.lhsIdx, dot_S512x2048_S2048x64_S512x64_1_0_0_1_n_n]; rfl
theorem rhsD_0 (j : S512x64.Idx) (q : dot_S512x2048_S2048x64_S512x64_1_0_0_1_n_n.contr.Idx) :
    (dot_S512x2048_S2048x64_S512x64_1_0_0_1_n_n.rhsIdx j q 0 : ℕ) = q ⟨0, Nat.one_pos⟩ := by
  simp [DotDims.rhsIdx, dot_S512x2048_S2048x64_S512x64_1_0_0_1_n_n]; rfl
theorem rhsD_1 (j : S512x64.Idx) (q : dot_S512x2048_S2048x64_S512x64_1_0_0_1_n_n.contr.Idx) :
    (dot_S512x2048_S2048x64_S512x64_1_0_0_1_n_n.rhsIdx j q 1 : ℕ) = j 1 := by
  simp [DotDims.rhsIdx, dot_S512x2048_S2048x64_S512x64_1_0_0_1_n_n]; rfl

/-- The stored block at (0, g, k): the one-hot row of graph g against column k of the feature block, summed exactly over
    the block's 2048 rows (a product into a zero accumulator). -/
theorem pay7_apply (x0 : Vec Ideal S1x2048 .i32) (x1 : Vec Ideal S2048x64 .f32) (g : Fin 512) (k : Fin 64) :
    (k7_pay1 (F := Ideal) x0 x1) (ix3 0 g k)
      = ∑ y : Fin 2048, (if BitVec.ofNat 32 g.val = x0 (ix2 0 y) then (1 : EReal) else 0) * x1 (ix2 y k) := by
  unfold k7_pay1
  dsimp only
  refine (shapeCast_apply _ shapeCasts_S512x64_S1x512x64 (ix3 0 g k) (ix2 g k) (by
    rw [Shape.rowMajor_val_two, Shape.rowMajor_val_three]
    show g.val * 64 + k.val = ((0 : ℕ) * 512 + g.val) * 64 + k.val
    omega)).trans ?_
  refine (Ideal.matmul_constant_zero_apply dot_S512x2048_S2048x64_S512x64_1_0_0_1_n_n (some ContractPrecision.fp32) _ _ (ix2 g k)).trans ?_
  rw [← Equiv.sum_comp (contrEquiv1 dot_S512x2048_S2048x64_S512x64_1_0_0_1_n_n 2048 rfl rfl).symm]
  refine Finset.sum_congr rfl fun y _ => ?_
  have c := contrEquiv1_symm_val dot_S512x2048_S2048x64_S512x64_1_0_0_1_n_n 2048 rfl rfl y
  refine congrArg₂ (· * ·) ?_ ?_
  · exact onehot_apply x0 _ g y (lhsD_0 _ _) ((lhsD_1 _ _).trans c)
  · rw [shapeCast_self]
    exact congrArg x1 (Shape.idx_ext₂ ((rhsD_0 _ _).trans c) (rhsD_1 _ _))

section Region

variable (V : (c : Dev nD) → (b : Ref sig .tc) → Buf (Elt Ideal) ((c : Thread nD τ).loc b))

/-- Where the three windows' blocks sit at grid point t: batch columns from 2048 t, feature rows from 2048 t, output slab t. -/
theorem idx_facts7 : ∀ t : Fin cfg7.N,
    win7_0.index t (0 : Fin 2) = 0 ∧ win7_0.index t (1 : Fin 2) = t.val
    ∧ win7_1.index t (0 : Fin 2) = t.val ∧ win7_1.index t (1 : Fin 2) = 0
    ∧ win7_2.index t (0 : Fin 3) = t.val ∧ win7_2.index t (1 : Fin 3) = 0 ∧ win7_2.index t (2 : Fin 3) = 0 :=
  (by decide +kernel : ∀ t : Fin grid7.N, _)

/-- The batch block at point t, column y, is the padded batch row at column 2048 t + y. -/
theorem blk7_0 (c : Dev nD) (t : Fin cfg7.N) (y : Fin 2048) (h : 2048 * t.val + y.val < 100352) :
    (iblk7 V c 0 t : S1x2048.Idx → BitVec 32) (ix2 0 y)
      = (V c main_v21 : S1x100352.Idx → BitVec 32) (ix2 0 ⟨2048 * t.val + y.val, h⟩) := by
  obtain ⟨e0, e1, -⟩ := idx_facts7 t
  show (V c main_v21 : S1x100352.Idx → BitVec 32) (((cfg7.win 0).blk t).view.emb (ix2 0 y)) = _
  refine congrArg _ (funext fun a => Fin.ext ?_)
  match a with
  | ⟨0, _⟩ => show win7_0.index t (0 : Fin 2) * 1 + 1 * ((0 : Fin 1) : ℕ) = 0; rw [e0]; rfl
  | ⟨1, _⟩ => show win7_0.index t (1 : Fin 2) * 2048 + 1 * y.val = 2048 * t.val + y.val; omega

/-- The feature block at point t, row y, is the padded feature array at row 2048 t + y. -/
theorem blk7_1 (c : Dev nD) (t : Fin cfg7.N) (y : Fin 2048) (k : Fin 64) (h : 2048 * t.val + y.val < 100352) :
    (iblk7 V c 1 t : S2048x64.Idx → EReal) (ix2 y k)
      = (V c main_v68 : S100352x64.Idx → EReal) (ix2 ⟨2048 * t.val + y.val, h⟩ k) := by
  obtain ⟨-, -, e2, e3, -⟩ := idx_facts7 t
  show (V c main_v68 : S100352x64.Idx → EReal) (((cfg7.win 1).blk t).view.emb (ix2 y k)) = _
  refine congrArg _ (funext fun a => Fin.ext ?_)
  match a with
  | ⟨0, _⟩ => show win7_1.index t (0 : Fin 2) * 2048 + 1 * y.val = 2048 * t.val + y.val; omega
  | ⟨1, _⟩ => show win7_1.index t (1 : Fin 2) * 64 + 1 * k.val = k.val; omega

/-- What grid point t writes back is slab t of the partial sums. -/
theorem flushed7_eq (c : Dev nD) (t : Fin cfg7.N) :
    (dat7 V c).flushed 2 t
      = ((cfg7.win 2).blk t).view.read (Elt Ideal) (blockArr (D := 64) (V c main_v21) (V c main_v68)) := by
  have hN : t.val < 49 := lt_of_lt_of_eq t.isLt N_7
  obtain ⟨-, -, -, -, e4, e5, e7⟩ := idx_facts7 t
  show (cfg7.win 2).cut (grid7.coords t) ((dat7 V c).after 2 t) = _
  rw [after7_2]
  unfold out7_2
  rw [View.canon_unit_zero hz3]
  simp only [View.ld_unit_zero (S := S1x2048) hz2, View.ld_unit_zero (S := S2048x64) hz2]
  funext j
  obtain ⟨a, g, k, rfl⟩ : ∃ (a : Fin 1) (g : Fin 512) (k : Fin 64), j = ix3 a g k := ⟨j 0, j 1, j 2, eq_ix3 j⟩
  obtain rfl : a = 0 := Subsingleton.elim _ _
  refine (pay7_apply (iblk7 V c 0 t) (iblk7 V c 1 t) g k).trans ?_
  have hE : ((cfg7.win 2).blk t).view.emb (ix3 0 g k) = (ix3 ⟨t.val, hN⟩ g k : S49x512x64.Idx) := by
    funext a; apply Fin.ext
    match a with
    | ⟨0, _⟩ => show win7_2.index t (0 : Fin 3) * 1 + 1 * ((0 : Fin 1) : ℕ) = t.val; rw [e4]; show t.val * 1 + 1 * 0 = t.val; omega
    | ⟨1, _⟩ => show win7_2.index t (1 : Fin 3) * 512 + 1 * g.val = g.val; omega
    | ⟨2, _⟩ => show win7_2.index t (2 : Fin 3) * 64 + 1 * k.val = k.val; omega
  show _ = blockArr (D := 64) (V c main_v21) (V c main_v68) (((cfg7.win 2).blk t).view.emb (ix3 0 g k))
  rw [hE]
  show _ = blockTerm (D := 64) (V c main_v21) (V c main_v68) ⟨t.val, hN⟩ g k
  unfold blockTerm
  refine Finset.sum_congr rfl fun y _ => ?_
  rw [blk7_0 V c t y (by omega), blk7_1 V c t y k (by omega)]

theorem mem_blk7 (t : Fin cfg7.N) (i : S49x512x64.Idx) :
    i ∈ ((cfg7.win 2).blk t).view.set ↔ ∀ a : Fin 3, win7_2.index t a * S1x512x64.size a ≤ (i a).val
      ∧ (i a).val < win7_2.index t a * S1x512x64.size a + S1x512x64.size a := by
  show i ∈ ((View.whole main_v118).slice (win7_2.rect t)).set ↔ _
  rw [View.set_slice_whole, Rect.mem_set_unit]
  exact Iff.rfl

/-- Every entry of the partial-sum array lies in the slab of the grid point numbered by its first coordinate. -/
theorem cover7 (i : S49x512x64.Idx) :
    ∃ t : Fin cfg7.N, (cfg7.win 2).flush t = true ∧ i ∈ ((cfg7.win 2).blk t).view.set := by
  have h0 : (i 0).val < 49 := (i 0).isLt
  have h1 : (i 1).val < 512 := (i 1).isLt
  have h2 : (i 2).val < 64 := (i 2).isLt
  obtain ⟨t, ht⟩ : ∃ t : Fin cfg7.N, t.val = (i 0).val := ⟨⟨(i 0).val, by rw [show cfg7.N = 49 from N_7]; exact h0⟩, rfl⟩
  obtain ⟨-, -, -, -, e4, e5, e7⟩ := idx_facts7 t
  refine ⟨t, flush7_2 t, ?_⟩
  rw [mem_blk7]
  intro a
  match a with
  | ⟨0, _⟩ => show win7_2.index t (0 : Fin 3) * 1 ≤ (i 0).val ∧ (i 0).val < win7_2.index t (0 : Fin 3) * 1 + 1; omega
  | ⟨1, _⟩ => show win7_2.index t (1 : Fin 3) * 512 ≤ (i 1).val ∧ (i 1).val < win7_2.index t (1 : Fin 3) * 512 + 512; omega
  | ⟨2, _⟩ => show win7_2.index t (2 : Fin 3) * 64 ≤ (i 2).val ∧ (i 2).val < win7_2.index t (2 : Fin 3) * 64 + 64; omega

/-- After the region its output array holds the 49 blocks' partial sums of the arrays it was entered with. -/
theorem arr7 (c : Dev nD) : (dat7 V c).arrAt 2 cfg7.N = blockArr (D := 64) (V c main_v21) (V c main_v68) :=
  (dat7 V c).arrAt_eq_of_cover 2 _ (fun t _ => flushed7_eq V c t) cover7

end Region

section Run

variable (m : (ℓ : Loc nD τ sig) → Buf (Elt Ideal) ℓ) (ρ : Dev nD → PrngReg)

/-- The host sum over the 49 slabs, from a zero initial value, at (g, k): the sum of the blocks' terms. -/
theorem host7 (c : Dev nD) (g : Fin 512) (k : Fin 64) :
    (W22 (F := Ideal) m ρ c (Proc.devRef .tc main_v119) : S512x64.Idx → EReal) (ix2 g k)
      = ∑ t : Fin 49, blockTerm (D := 64) (W20 (F := Ideal) m ρ c (Proc.devRef .tc main_v21))
          (W20 (F := Ideal) m ρ c (Proc.devRef .tc main_v68)) t g k := by
  have hR : Shape.Reduces S49x512x64 [0] S512x64 := by decide
  have e : (W22 (F := Ideal) m ρ c (Proc.devRef .tc main_v119) : S512x64.Idx → EReal)
      = Host.reduceAdd (F := Ideal) (W21 (F := Ideal) m ρ c (Proc.devRef .tc main_v118) : S49x512x64.Idx → EReal)
          (constant (F := Ideal) S_ .f32 0x00000000#32) reducesTo_S49x512x64_S512x64_d0 h_S_ := by
    show StableHlo.after hostOps8 _ (Proc.devRef .tc main_v119) = _
    after_results
  have e2 : (W21 (F := Ideal) m ρ c (Proc.devRef .tc main_v118) : S49x512x64.Idx → EReal)
      = blockArr (D := 64) (W20 (F := Ideal) m ρ c (Proc.devRef .tc main_v21))
          (W20 (F := Ideal) m ρ c (Proc.devRef .tc main_v68)) :=
    (W21_arr m ρ c 2).trans (arr7 (V20 m ρ) c)
  rw [e, e2]
  show Ideal.hostReduceAdd reducesTo_S49x512x64_S512x64_d0 _ (Ideal.ofBits .f32 0x00000000#32) (ix2 g k) = _
  rw [Ideal.hostReduceAdd_single reducesTo_S49x512x64_S512x64_d0 hR, Ideal.ofBits_zero_f32, zero_add]
  show ∑ t : Fin 49, blockArr (D := 64) _ _ (hR.lift (ix2 g k) t) = _
  refine Finset.sum_congr rfl fun t _ => ?_
  have hl : hR.lift (ix2 g k) t = (ix3 t g k : S49x512x64.Idx) := funext fun a => Fin.ext (by
    match a with
    | ⟨0, _⟩ => rfl
    | ⟨1, _⟩ => rfl
    | ⟨2, _⟩ => rfl)
  rw [hl]
  rfl

/-- The pooled input rows: after the host sum that follows region 7 the buffer holds the per-graph sums of the node rows. -/
theorem pool_h1 (c : Dev nD) (B : S100000.Idx → BitVec 32) (x : Fin 100000 → Fin 64 → ℝ)
    (hb : PadBatch (W20 (F := Ideal) m ρ c (Proc.devRef .tc main_v21)) B)
    (hx : Rows (W20 (F := Ideal) m ρ c (Proc.devRef .tc main_v68) : S100352x64.Idx → EReal) x) :
    Mat (W22 (F := Ideal) m ρ c (Proc.devRef .tc main_v119) : S512x64.Idx → EReal)
      (Cert.Spec.pool (G := 512) (batOf B) x) := by
  intro g k
  rw [host7 m ρ c g k]
  exact sum_blockTerm _ _ B x hb hx g k

end Run

end Cert.KPool.R7

end
-- ==== Proof.KPool8.lean ====
/-
  Region 8 of the kernel program (the pooling of the padded input rows, 64 columns) and the host sum that follows it: the
  array the launch leaves holds the 49 blocks' partial sums, block t from batch columns and feature rows 2048 t … 2048 t + 2047;
  the host adds the 49 slabs; by the pooling law the result is the per-graph sum of the node rows.
-/
import proofs.«403050_j67860483276910_3_alg».proof.Proof.KPoolLaw

set_option maxRecDepth 16384

noncomputable section

open scoped BigOperators

namespace Cert.KPool.R8

open Cert.KernelIdeal Cert.KernelIdeal.Gen Cert.KernelIdeal.GenP Cert.Lift Cert.KPool
open Idealize.ShloMosaic Idealize.ShloMosaic.TcCoe Idealize.ShloMosaic.ValueIdx
open Idealize.ShloMosaic.Pipeline (Dat Cfg Window)

/-! ## The product's dimension numbers, axis by axis: row g of the one-hot operand against column k of the feature block -/

theorem lhsD_0 (j : S512x64.Idx) (q : dot_S512x2048_S2048x64_S512x64_1_0_0_1_n_n.contr.Idx) :
    (dot_S512x2048_S2048x64_S512x64_1_0_0_1_n_n.lhsIdx j q 0 : ℕ) = j 0 := by
  simp [DotDims.lhsIdx, dot_S512x2048_S2048x64_S512x64_1_0_0_1_n_n]; rfl
theorem lhsD_1 (j : S512x64.Idx) (q : dot_S512x2048_S2048x64_S512x64_1_0_0_1_n_n.contr.Idx) :
    (dot_S512x2048_S2048x64_S512x64_1_0_0_1_n_n.lhsIdx j q 1 : ℕ) = q ⟨0, Nat.one_pos⟩ := by
  simp [DotDims.lhsIdx, dot_S512x2048_S2048x64_S512x64_1_0_0_1_n_n]; rfl
theorem rhsD_0 (j : S512x64.Idx) (q : dot_S512x2048_S2048x64_S512x64_1_0_0_1_n_n.contr.Idx) :
    (dot_S512x2048_S2048x64_S512x64_1_0_0_1_n_n.rhsIdx j q 0 : ℕ) = q ⟨0, Nat.one_pos⟩ := by
  simp [DotDims.rhsIdx, dot_S512x2048_S2048x64_S512x64_1_0_0_1_n_n]; rfl
theorem rhsD_1 (j : S512x64.Idx) (q : dot_S512x2048_S2048x64_S512x64_1_0_0_1_n_n.contr.Idx) :
    (dot_S512x2048_S2048x64_S512x64_1_0_0_1_n_n.rhsIdx j q 1 : ℕ) = j 1 := by
  simp [DotDims.rhsIdx, dot_S512x2048_S2048x64_S512x64_1_0_0_1_n_n]; rfl

/-- The stored block at (0, g, k): the one-hot row of graph g against column k of the feature block, summed exactly over
    the block's 2048 rows (a product into a zero accumulator). -/
theorem pay8_apply (x0 : Vec Ideal S1x2048 .i32) (x1 : Vec Ideal S2048x64 .f32) (g : Fin 512) (k : Fin 64) :
    (k8_pay1 (F := Ideal) x0 x1) (ix3 0 g k)
      = ∑ y : Fin 2048, (if BitVec.ofNat 32 g.val = x0 (ix2 0 y) then (1 : EReal) else 0) * x1 (ix2 y k) := by
  unfold k8_pay1
  dsimp only
  refine (shapeCast_apply _ shapeCasts_S512x64_S1x512x64 (ix3 0 g k) (ix2 g k) (by
    rw [Shape.rowMajor_val_two, Shape.rowMajor_val_three]
    show g.val * 64 + k.val = ((0 : ℕ) * 512 + g.val) * 64 + k.val
    omega)).trans ?_
  refine (Ideal.matmul_constant_zero_apply dot_S512x2048_S2048x64_S512x64_1_0_0_1_n_n (some ContractPrecision.fp32) _ _ (ix2 g k)).trans ?_
  rw [← Equiv.sum_comp (contrEquiv1 dot_S512x2048_S2048x64_S512x64_1_0_0_1_n_n 2048 rfl rfl).symm]
  refine Finset.sum_congr rfl fun y _ => ?_
  have c := contrEquiv1_symm_val dot_S512x2048_S2048x64_S512x64_1_0_0_1_n_n 2048 rfl rfl y
  refine congrArg₂ (· * ·) ?_ ?_
  · exact onehot_apply x0 _ g y (lhsD_0 _ _) ((lhsD_1 _ _).trans c)
  · rw [shapeCast_self]
    exact congrArg x1 (Shape.idx_ext₂ ((rhsD_0 _ _).trans c) (rhsD_1 _ _))

section Region

variable (V : (c : Dev nD) → (b : Ref sig .tc) → Buf (Elt Ideal) ((c : Thread nD τ).loc b))

/-- Where the three windows' blocks sit at grid point t: batch columns from 2048 t, feature rows from 2048 t, output slab t. -/
theorem idx_facts8 : ∀ t : Fin cfg8.N,
    win8_0.index t (0 : Fin 2) = 0 ∧ win8_0.index t (1 : Fin 2) = t.val
    ∧ win8_1.index t (0 : Fin 2) = t.val ∧ win8_1.index t (1 : Fin 2) = 0
    ∧ win8_2.index t (0 : Fin 3) = t.val ∧ win8_2.index t (1 : Fin 3) = 0 ∧ win8_2.index t (2 : Fin 3) = 0 :=
  (by decide +kernel : ∀ t : Fin grid8.N, _)

/-- The batch block at point t, column y, is the padded batch row at column 2048 t + y. -/
theorem blk8_0 (c : Dev nD) (t : Fin cfg8.N) (y : Fin 2048) (h : 2048 * t.val + y.val < 100352) :
    (iblk8 V c 0 t : S1x2048.Idx → BitVec 32) (ix2 0 y)
      = (V c main_v21 : S1x100352.Idx → BitVec 32) (ix2 0 ⟨2048 * t.val + y.val, h⟩) := by
  obtain ⟨e0, e1, -⟩ := idx_facts8 t
  show (V c main_v21 : S1x100352.Idx → BitVec 32) (((cfg8.win 0).blk t).view.emb (ix2 0 y)) = _
  refine congrArg _ (funext fun a => Fin.ext ?_)
  match a with
  | ⟨0, _⟩ => show win8_0.index t (0 : Fin 2) * 1 + 1 * ((0 : Fin 1) : ℕ) = 0; rw [e0]; rfl
  | ⟨1, _⟩ => show win8_0.index t (1 : Fin 2) * 2048 + 1 * y.val = 2048 * t.val + y.val; omega

/-- The feature block at point t, row y, is the padded feature array at row 2048 t + y. -/
theorem blk8_1 (c : Dev nD) (t : Fin cfg8.N) (y : Fin 2048) (k : Fin 64) (h : 2048 * t.val + y.val < 100352) :
    (iblk8 V c 1 t : S2048x64.Idx → EReal) (ix2 y k)
      = (V c main_v115 : S100352x64.Idx → EReal) (ix2 ⟨2048 * t.val + y.val, h⟩ k) := by
  obtain ⟨-, -, e2, e3, -⟩ := idx_facts8 t
  show (V c main_v115 : S100352x64.Idx → EReal) (((cfg8.win 1).blk t).view.emb (ix2 y k)) = _
  refine congrArg _ (funext fun a => Fin.ext ?_)
  match a with
  | ⟨0, _⟩ => show win8_1.index t (0 : Fin 2) * 2048 + 1 * y.val = 2048 * t.val + y.val; omega
  | ⟨1, _⟩ => show win8_1.index t (1 : Fin 2) * 64 + 1 * k.val = k.val; omega

/-- What grid point t writes back is slab t of the partial sums. -/
theorem flushed8_eq (c : Dev nD) (t : Fin cfg8.N) :
    (dat8 V c).flushed 2 t
      = ((cfg8.win 2).blk t).view.read (Elt Ideal) (blockArr (D := 64) (V c main_v21) (V c main_v115)) := by
  have hN : t.val < 49 := lt_of_lt_of_eq t.isLt N_8
  obtain ⟨-, -, -, -, e4, e5, e8⟩ := idx_facts8 t
  show (cfg8.win 2).cut (grid8.coords t) ((dat8 V c).after 2 t) = _
  rw [after8_2]
  unfold out8_2
  rw [View.canon_unit_zero hz3]
  simp only [View.ld_unit_zero (S := S1x2048) hz2, View.ld_unit_zero (S := S2048x64) hz2]
  funext j
  obtain ⟨a, g, k, rfl⟩ : ∃ (a : Fin 1) (g : Fin 512) (k : Fin 64), j = ix3 a g k := ⟨j 0, j 1, j 2, eq_ix3 j⟩
  obtain rfl : a = 0 := Subsingleton.elim _ _
  refine (pay8_apply (iblk8 V c 0 t) (iblk8 V c 1 t) g k).trans ?_
  have hE : ((cfg8.win 2).blk t).view.emb (ix3 0 g k) = (ix3 ⟨t.val, hN⟩ g k : S49x512x64.Idx) := by
    funext a; apply Fin.ext
    match a with
    | ⟨0, _⟩ => show win8_2.index t (0 : Fin 3) * 1 + 1 * ((0 : Fin 1) : ℕ) = t.val; rw [e4]; show t.val * 1 + 1 * 0 = t.val; omega
    | ⟨1, _⟩ => show win8_2.index t (1 : Fin 3) * 512 + 1 * g.val = g.val; omega
    | ⟨2, _⟩ => show win8_2.index t (2 : Fin 3) * 64 + 1 * k.val = k.val; omega
  show _ = blockArr (D := 64) (V c main_v21) (V c main_v115) (((cfg8.win 2).blk t).view.emb (ix3 0 g k))
  rw [hE]
  show _ = blockTerm (D := 64) (V c main_v21) (V c main_v115) ⟨t.val, hN⟩ g k
  unfold blockTerm
  refine Finset.sum_congr rfl fun y _ => ?_
  rw [blk8_0 V c t y (by omega), blk8_1 V c t y k (by omega)]

theorem mem_blk8 (t : Fin cfg8.N) (i : S49x512x64.Idx) :
    i ∈ ((cfg8.win 2).blk t).view.set ↔ ∀ a : Fin 3, win8_2.index t a * S1x512x64.size a ≤ (i a).val
      ∧ (i a).val < win8_2.index t a * S1x512x64.size a + S1x512x64.size a := by
  show i ∈ ((View.whole main_v120).slice (win8_2.rect t)).set ↔ _
  rw [View.set_slice_whole, Rect.mem_set_unit]
  exact Iff.rfl

/-- Every entry of the partial-sum array lies in the slab of the grid point numbered by its first coordinate. -/
theorem cover8 (i : S49x512x64.Idx) :
    ∃ t : Fin cfg8.N, (cfg8.win 2).flush t = true ∧ i ∈ ((cfg8.win 2).blk t).view.set := by
  have h0 : (i 0).val < 49 := (i 0).isLt
  have h1 : (i 1).val < 512 := (i 1).isLt
  have h2 : (i 2).val < 64 := (i 2).isLt
  obtain ⟨t, ht⟩ : ∃ t : Fin cfg8.N, t.val = (i 0).val := ⟨⟨(i 0).val, by rw [show cfg8.N = 49 from N_8]; exact h0⟩, rfl⟩
  obtain ⟨-, -, -, -, e4, e5, e8⟩ := idx_facts8 t
  refine ⟨t, flush8_2 t, ?_⟩
  rw [mem_blk8]
  intro a
  match a with
  | ⟨0, _⟩ => show win8_2.index t (0 : Fin 3) * 1 ≤ (i 0).val ∧ (i 0).val < win8_2.index t (0 : Fin 3) * 1 + 1; omega
  | ⟨1, _⟩ => show win8_2.index t (1 : Fin 3) * 512 ≤ (i 1).val ∧ (i 1).val < win8_2.index t (1 : Fin 3) * 512 + 512; omega
  | ⟨2, _⟩ => show win8_2.index t (2 : Fin 3) * 64 ≤ (i 2).val ∧ (i 2).val < win8_2.index t (2 : Fin 3) * 64 + 64; omega

/-- After the region its output array holds the 49 blocks' partial sums of the arrays it was entered with. -/
theorem arr8 (c : Dev nD) : (dat8 V c).arrAt 2 cfg8.N = blockArr (D := 64) (V c main_v21) (V c main_v115) :=
  (dat8 V c).arrAt_eq_of_cover 2 _ (fun t _ => flushed8_eq V c t) cover8

end Region

section Run

variable (m : (ℓ : Loc nD τ sig) → Buf (Elt Ideal) ℓ) (ρ : Dev nD → PrngReg)

/-- The host sum over the 49 slabs, from a zero initial value, at (g, k): the sum of the blocks' terms. -/
theorem host8 (c : Dev nD) (g : Fin 512) (k : Fin 64) :
    (W24 (F := Ideal) m ρ c (Proc.devRef .tc main_v121) : S512x64.Idx → EReal) (ix2 g k)
      = ∑ t : Fin 49, blockTerm (D := 64) (W22 (F := Ideal) m ρ c (Proc.devRef .tc main_v21))
          (W22 (F := Ideal) m ρ c (Proc.devRef .tc main_v115)) t g k := by
  have hR : Shape.Reduces S49x512x64 [0] S512x64 := by decide
  have e : (W24 (F := Ideal) m ρ c (Proc.devRef .tc main_v121) : S512x64.Idx → EReal)
      = Host.reduceAdd (F := Ideal) (W23 (F := Ideal) m ρ c (Proc.devRef .tc main_v120) : S49x512x64.Idx → EReal)
          (constant (F := Ideal) S_ .f32 0x00000000#32) reducesTo_S49x512x64_S512x64_d0 h_S_ := by
    show StableHlo.after hostOps9 _ (Proc.devRef .tc main_v121) = _
    after_results
  have e2 : (W23 (F := Ideal) m ρ c (Proc.devRef .tc main_v120) : S49x512x64.Idx → EReal)
      = blockArr (D := 64) (W22 (F := Ideal) m ρ c (Proc.devRef .tc main_v21))
          (W22 (F := Ideal) m ρ c (Proc.devRef .tc main_v115)) :=
    (W23_arr m ρ c 2).trans (arr8 (V22 m ρ) c)
  rw [e, e2]
  show Ideal.hostReduceAdd reducesTo_S49x512x64_S512x64_d0 _ (Ideal.ofBits .f32 0x00000000#32) (ix2 g k) = _
  rw [Ideal.hostReduceAdd_single reducesTo_S49x512x64_S512x64_d0 hR, Ideal.ofBits_zero_f32, zero_add]
  show ∑ t : Fin 49, blockArr (D := 64) _ _ (hR.lift (ix2 g k) t) = _
  refine Finset.sum_congr rfl fun t _ => ?_
  have hl : hR.lift (ix2 g k) t = (ix3 t g k : S49x512x64.Idx) := funext fun a => Fin.ext (by
    match a with
    | ⟨0, _⟩ => rfl
    | ⟨1, _⟩ => rfl
    | ⟨2, _⟩ => rfl)
  rw [hl]
  rfl

/-- The pooled input rows: after the host sum that follows region 8 the buffer holds the per-graph sums of the node rows. -/
theorem pool_h2 (c : Dev nD) (B : S100000.Idx → BitVec 32) (x : Fin 100000 → Fin 64 → ℝ)
    (hb : PadBatch (W22 (F := Ideal) m ρ c (Proc.devRef .tc main_v21)) B)
    (hx : Rows (W22 (F := Ideal) m ρ c (Proc.devRef .tc main_v115) : S100352x64.Idx → EReal) x) :
    Mat (W24 (F := Ideal) m ρ c (Proc.devRef .tc main_v121) : S512x64.Idx → EReal)
      (Cert.Spec.pool (G := 512) (batOf B) x) := by
  intro g k
  rw [host8 m ρ c g k]
  exact sum_blockTerm _ _ B x hb hx g k

end Run

end Cert.KPool.R8

end
-- ==== Proof.KPool.lean ====
/-
  The three pooling launches together: the per-graph sums of the input rows and of the two layers' rows, as the three host
  sums leave them; and the padded batch row, which the launches read and nothing writes, carried unchanged from the first
  launch's entry to the later ones'.
-/
import proofs.«403050_j67860483276910_3_alg».proof.Proof.KPool6
import proofs.«403050_j67860483276910_3_alg».proof.Proof.KPool7
import proofs.«403050_j67860483276910_3_alg».proof.Proof.KPool8

set_option maxRecDepth 16384

noncomputable section

open scoped BigOperators

namespace Cert.KPool

open Cert.KernelIdeal Cert.KernelIdeal.Gen Cert.KernelIdeal.GenP Cert.Lift
open Idealize.ShloMosaic Idealize.ShloMosaic.TcCoe Idealize.ShloMosaic.ValueIdx
open Idealize.ShloMosaic.Pipeline (Dat Cfg Window)

variable (m : (ℓ : Loc nD τ sig) → Buf (Elt Ideal) ℓ) (ρ : Dev nD → PrngReg)

/-- The padded batch row is read, never written, by region 6 and by the host sum after it: at region 7's entry it is what it
    was at region 6's. -/
theorem batch_W20 (c : Dev nD) :
    W20 (F := Ideal) m ρ c (Proc.devRef .tc main_v21) = W18 (F := Ideal) m ρ c (Proc.devRef .tc main_v21) :=
  calc W20 (F := Ideal) m ρ c (Proc.devRef .tc main_v21)
    _ = W19 (F := Ideal) m ρ c (Proc.devRef .tc main_v21) :=
        StableHlo.after_of_forall_not_mem (b := Proc.devRef .tc main_v21) _ _ (List.forall_iff_forall_mem.mp (by
          simp only [hostOps7, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W18 (F := Ideal) m ρ c (Proc.devRef .tc main_v21) :=
        (W19_arr m ρ c 0).trans (((dat6 (V18 m ρ) c).arrAt_in 0 rfl _).trans (A_eq6 (V18 m ρ) c 0))

/-- The same through region 7 and the host sum after it. -/
theorem batch_W22 (c : Dev nD) :
    W22 (F := Ideal) m ρ c (Proc.devRef .tc main_v21) = W20 (F := Ideal) m ρ c (Proc.devRef .tc main_v21) :=
  calc W22 (F := Ideal) m ρ c (Proc.devRef .tc main_v21)
    _ = W21 (F := Ideal) m ρ c (Proc.devRef .tc main_v21) :=
        StableHlo.after_of_forall_not_mem (b := Proc.devRef .tc main_v21) _ _ (List.forall_iff_forall_mem.mp (by
          simp only [hostOps8, List.flatten_cons, List.flatten_nil, List.append_nil, List.cons_append,
            List.nil_append, List.Forall, StableHlo.nullary_writes, StableHlo.unary_writes, StableHlo.binary_writes, Finset.mem_singleton]
          repeat' apply And.intro
          all_goals exact StableHlo.devRef_ne_of_ne (by decide)))
    _ = W20 (F := Ideal) m ρ c (Proc.devRef .tc main_v21) :=
        (W21_arr m ρ c 0).trans (((dat7 (V20 m ρ) c).arrAt_in 0 rfl _).trans (A_eq7 (V20 m ρ) c 0))

/-- The padded batch row at region 7's entry is the padded batch row of region 6's entry. -/
theorem padBatch_W20 (c : Dev nD) (B : S100000.Idx → BitVec 32)
    (hb : PadBatch (W18 (F := Ideal) m ρ c (Proc.devRef .tc main_v21)) B) :
    PadBatch (W20 (F := Ideal) m ρ c (Proc.devRef .tc main_v21)) B := by
  rw [batch_W20 m ρ c]; exact hb

/-- … and at region 8's entry. -/
theorem padBatch_W22 (c : Dev nD) (B : S100000.Idx → BitVec 32)
    (hb : PadBatch (W18 (F := Ideal) m ρ c (Proc.devRef .tc main_v21)) B) :
    PadBatch (W22 (F := Ideal) m ρ c (Proc.devRef .tc main_v21)) B := by
  rw [batch_W22 m ρ c, batch_W20 m ρ c]; exact hb

/-- The pooled input rows: after the host sum that follows region 6. -/
theorem pool_x (c : Dev nD) (B : S100000.Idx → BitVec 32) (x : Fin 100000 → Fin 4 → ℝ)
    (hb : PadBatch (W18 (F := Ideal) m ρ c (Proc.devRef .tc main_v21)) B)
    (hx : Rows (W18 (F := Ideal) m ρ c (Proc.devRef .tc main_v19) : S100352x4.Idx → EReal) x) :
    Mat (W20 (F := Ideal) m ρ c (Proc.devRef .tc main_v117) : S512x4.Idx → EReal)
      (Cert.Spec.pool (G := 512) (batOf B) x) :=
  R6.pool_x m ρ c B x hb hx

/-- The pooled rows of the first layer: after the host sum that follows region 7. -/
theorem pool_h1 (c : Dev nD) (B : S100000.Idx → BitVec 32) (h1 : Fin 100000 → Fin 64 → ℝ)
    (hb : PadBatch (W20 (F := Ideal) m ρ c (Proc.devRef .tc main_v21)) B)
    (hx : Rows (W20 (F := Ideal) m ρ c (Proc.devRef .tc main_v68) : S100352x64.Idx → EReal) h1) :
    Mat (W22 (F := Ideal) m ρ c (Proc.devRef .tc main_v119) : S512x64.Idx → EReal)
      (Cert.Spec.pool (G := 512) (batOf B) h1) :=
  R7.pool_h1 m ρ c B h1 hb hx

/-- The pooled rows of the second layer: after the host sum that follows region 8. -/
theorem pool_h2 (c : Dev nD) (B : S100000.Idx → BitVec 32) (h2 : Fin 100000 → Fin 64 → ℝ)
    (hb : PadBatch (W22 (F := Ideal) m ρ c (Proc.devRef .tc main_v21)) B)
    (hx : Rows (W22 (F := Ideal) m ρ c (Proc.devRef .tc main_v115) : S100352x64.Idx → EReal) h2) :
    Mat (W24 (F := Ideal) m ρ c (Proc.devRef .tc main_v121) : S512x64.Idx → EReal)
      (Cert.Spec.pool (G := 512) (batOf B) h2) :=
  R8.pool_h2 m ρ c B h2 hb hx

end Cert.KPool

end
-- ==== Proof.KHeads.lean ====
/-
  The end of the kernel program, after its last pooled sum: three linear maps of the three pooled arrays added up, and two
  rectified linear heads of that sum.

  With `px`, `p1`, `p2` the pooled sums (per graph `g`), the program forms
  `T g o = (∑ k, px g k · f0w o k + f0b o) + (∑ k, p1 g k · f1w o k + f1b o) + (∑ k, p2 g k · f2w o k + f2b o)`
  (the six summands added left to right; over the reals the grouping does not matter) and returns
  `max (∑ k, T g k · w o k + b o) 0` for the two pairs `(w, b)` of head weights. Each matrix product is a contraction over
  one axis against a transposed weight matrix; each bias is a row repeated down the 512 graphs; the rectification is the
  maximum with a zero array. All inputs being real numbers, every step stays among the reals, where the coercion into the
  extended reals carries sums, products and maxima.
-/
import proofs.«403050_j67860483276910_3_alg».proof.Proof.KernelIdealFrame
import proofs.«403050_j67860483276910_3_alg».proof.Proof.Spec
import proofs.«403050_j67860483276910_3_alg».proof.Proof.Lift
import proofs.«403050_j67860483276910_3_alg».proof.Proof.LibSums
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Data.EReal.Operations
import Mathlib.Tactic.Ring

set_option maxRecDepth 16384

noncomputable section

namespace Cert.KHeads

open Idealize.ShloMosaic Idealize.ShloMosaic.ValueIdx Idealize.ShloMosaic.TcCoe
open Cert.KernelIdeal Cert.KernelIdeal.Gen Cert.KernelIdeal.GenP
open Cert.Lift
open scoped BigOperators

section General

/-- A sum of products of real numbers, taken in the extended reals, is the real sum of the real products. -/
theorem sum_mul_coe {K : ℕ} (x w : Fin K → ℝ) :
    ∑ k, ((x k : ℝ) : EReal) * ((w k : ℝ) : EReal) = ((∑ k, x k * w k : ℝ) : EReal) := by
  rw [Cert.LibSums.coe_sum]; exact Finset.sum_congr rfl fun k _ => (EReal.coe_mul _ _).symm

end General

/-! ## The two contractions of this program at an index -/

abbrev D4 := dot_S512x4_S4x64_S512x64_1_0_0_1_n_n
abbrev D64 := dot_S512x64_S64x64_S512x64_1_0_0_1_n_n

theorem D4_rank : D4.contr.rank = 1 := rfl
theorem D4_size : D4.contr.size ⟨0, by rw [D4_rank]; exact Nat.one_pos⟩ = 4 := rfl
theorem D64_rank : D64.contr.rank = 1 := rfl
theorem D64_size : D64.contr.size ⟨0, by rw [D64_rank]; exact Nat.one_pos⟩ = 64 := rfl

theorem D4_lhs_0 (j : S512x64.Idx) (k : D4.contr.Idx) : (D4.lhsIdx j k 0).val = (j 0).val := rfl
theorem D4_lhs_1 (j : S512x64.Idx) (k : D4.contr.Idx) : (D4.lhsIdx j k 1).val = (k ⟨0, by decide⟩).val := rfl
theorem D4_rhs_0 (j : S512x64.Idx) (k : D4.contr.Idx) : (D4.rhsIdx j k 0).val = (k ⟨0, by decide⟩).val := rfl
theorem D4_rhs_1 (j : S512x64.Idx) (k : D4.contr.Idx) : (D4.rhsIdx j k 1).val = (j 1).val := rfl
theorem D64_lhs_0 (j : S512x64.Idx) (k : D64.contr.Idx) : (D64.lhsIdx j k 0).val = (j 0).val := rfl
theorem D64_lhs_1 (j : S512x64.Idx) (k : D64.contr.Idx) : (D64.lhsIdx j k 1).val = (k ⟨0, by decide⟩).val := rfl
theorem D64_rhs_0 (j : S512x64.Idx) (k : D64.contr.Idx) : (D64.rhsIdx j k 0).val = (k ⟨0, by decide⟩).val := rfl
theorem D64_rhs_1 (j : S512x64.Idx) (k : D64.contr.Idx) : (D64.rhsIdx j k 1).val = (j 1).val := rfl

theorem dot4_apply (l : FVec Ideal S512x4 .f32) (r : FVec Ideal S4x64 .f32) (g : Fin 512) (o : Fin 64) :
    Host.dotGeneral (F := Ideal) D4 none l r (ix2 g o) = ∑ k : Fin 4, l (ix2 g k) * r (ix2 k o) := by
  refine (Ideal.dotGeneral_apply D4 none .single l r (ix2 g o)).trans ?_
  rw [← Equiv.sum_comp (contrEquiv1 D4 4 D4_rank D4_size).symm]
  refine Finset.sum_congr rfl fun k _ => ?_
  have hk := contrEquiv1_symm_val D4 4 D4_rank D4_size k
  congr 1
  · refine congrArg l (funext fun a => Fin.ext ?_)
    match a with
    | ⟨0, _⟩ => exact D4_lhs_0 _ _
    | ⟨1, _⟩ => exact (D4_lhs_1 _ _).trans hk
  · refine congrArg r (funext fun a => Fin.ext ?_)
    match a with
    | ⟨0, _⟩ => exact (D4_rhs_0 _ _).trans hk
    | ⟨1, _⟩ => exact D4_rhs_1 _ _

theorem dot64_apply (l : FVec Ideal S512x64 .f32) (r : FVec Ideal S64x64 .f32) (g : Fin 512) (o : Fin 64) :
    Host.dotGeneral (F := Ideal) D64 none l r (ix2 g o) = ∑ k : Fin 64, l (ix2 g k) * r (ix2 k o) := by
  refine (Ideal.dotGeneral_apply D64 none .single l r (ix2 g o)).trans ?_
  rw [← Equiv.sum_comp (contrEquiv1 D64 64 D64_rank D64_size).symm]
  refine Finset.sum_congr rfl fun k _ => ?_
  have hk := contrEquiv1_symm_val D64 64 D64_rank D64_size k
  congr 1
  · refine congrArg l (funext fun a => Fin.ext ?_)
    match a with
    | ⟨0, _⟩ => exact D64_lhs_0 _ _
    | ⟨1, _⟩ => exact (D64_lhs_1 _ _).trans hk
  · refine congrArg r (funext fun a => Fin.ext ?_)
    match a with
    | ⟨0, _⟩ => exact (D64_rhs_0 _ _).trans hk
    | ⟨1, _⟩ => exact D64_rhs_1 _ _

theorem bias_apply (b : FVec Ideal S64 .f32) (g : Fin 512) (o : Fin 64) :
    broadcastInDim S512x64 ![0, 1] bcast_S1x64_S512x64_0_1 (broadcastInDim S1x64 ![1] bcast_S64_S1x64_1 b) (ix2 g o) = b (ix1 o) := by
  rw [broadcastInDim_apply ![0, 1] bcast_S1x64_S512x64_0_1 _ (ix2 g o) (ix2 (0 : Fin 1) o)
        (fun a => match a with | ⟨0, _⟩ => rfl | ⟨1, _⟩ => rfl),
      broadcastInDim_apply ![1] bcast_S64_S1x64_1 b (ix2 (0 : Fin 1) o) (ix1 o)
        (fun a => match a with | ⟨0, _⟩ => rfl)]

theorem tr4_apply (w : FVec Ideal S64x4 .f32) (k : Fin 4) (o : Fin 64) :
    transpose S4x64 [1, 0] w transposes_S64x4_S4x64_1_0 (ix2 k o) = w (ix2 o k) :=
  transpose_ix2_apply w transposes_S64x4_S4x64_1_0 k o

theorem tr64_apply (w : FVec Ideal S64x64 .f32) (k : Fin 64) (o : Fin 64) :
    transpose S64x64 [1, 0] w transposes_S64x64_S64x64_1_0 (ix2 k o) = w (ix2 o k) :=
  transpose_ix2_apply w transposes_S64x64_S64x64_1_0 k o

theorem zero_apply (j : S512x64.Idx) :
    broadcastInDim S512x64 ![] bcast_S_S512x64 (constant (F := Ideal) S_ .f32 0x00000000#32) j = 0 := by
  rw [broadcastInDim_scalar_apply, constant_apply, Ideal.ofBits_zero_f32]

/-! ## The terms the program computes, and what they are over the reals -/

/-- A bias row repeated down the 512 graphs. -/
abbrev biasK (b : FVec Ideal S64 .f32) : FVec Ideal S512x64 .f32 :=
  broadcastInDim S512x64 ![0, 1] bcast_S1x64_S512x64_0_1 (broadcastInDim S1x64 ![1] bcast_S64_S1x64_1 b)

/-- The product of a `[512, 64]` array with a transposed `[64, 64]` weight matrix. -/
abbrev dotK (t : FVec Ideal S512x64 .f32) (w : FVec Ideal S64x64 .f32) : FVec Ideal S512x64 .f32 :=
  Host.dotGeneral (F := Ideal) D64 none t (transpose S64x64 [1, 0] w transposes_S64x64_S64x64_1_0)

/-- The product of the `[512, 4]` array with the transposed `[64, 4]` weight matrix. -/
abbrev dot4K (x : FVec Ideal S512x4 .f32) (w : FVec Ideal S64x4 .f32) : FVec Ideal S512x64 .f32 :=
  Host.dotGeneral (F := Ideal) D4 none x (transpose S4x64 [1, 0] w transposes_S64x4_S4x64_1_0)

/-- The sum of the three linear maps, as the program adds it: left to right. -/
def trunkK (x : FVec Ideal S512x4 .f32) (y z : FVec Ideal S512x64 .f32)
    (w0 : FVec Ideal S64x4 .f32) (b0 : FVec Ideal S64 .f32) (w1 : FVec Ideal S64x64 .f32) (b1 : FVec Ideal S64 .f32)
    (w2 : FVec Ideal S64x64 .f32) (b2 : FVec Ideal S64 .f32) : FVec Ideal S512x64 .f32 :=
  addf (addf (addf (addf (addf (dot4K x w0) (biasK b0)) (dotK y w1)) (biasK b1)) (dotK z w2)) (biasK b2)

/-- A head before its rectification. -/
def preK (t : FVec Ideal S512x64 .f32) (w : FVec Ideal S64x64 .f32) (b : FVec Ideal S64 .f32) : FVec Ideal S512x64 .f32 :=
  addf (dotK t w) (biasK b)

/-- The zero array the rectification compares with. -/
abbrev zeroK : FVec Ideal S512x64 .f32 :=
  broadcastInDim S512x64 ![] bcast_S_S512x64 (constant (F := Ideal) S_ .f32 0x00000000#32)

theorem biasK_apply (b : FVec Ideal S64 .f32) (g : Fin 512) (o : Fin 64) : biasK b (ix2 g o) = b (ix1 o) := bias_apply b g o

theorem zeroK_apply (j : S512x64.Idx) : zeroK j = 0 := zero_apply j

/-- The sum of the three linear maps over the reals. -/
def trunkOf (px : Fin 512 → Fin 4 → ℝ) (p1 p2 : Fin 512 → Fin 64 → ℝ) (f0w : Fin 64 → Fin 4 → ℝ) (f0b : Fin 64 → ℝ)
    (f1w : Fin 64 → Fin 64 → ℝ) (f1b : Fin 64 → ℝ) (f2w : Fin 64 → Fin 64 → ℝ) (f2b : Fin 64 → ℝ) : Fin 512 → Fin 64 → ℝ :=
  fun g o => Cert.Spec.linG px f0w f0b g o + Cert.Spec.linG p1 f1w f1b g o + Cert.Spec.linG p2 f2w f2b g o

/-- A product against a transposed weight matrix, of real arrays, is the real contraction. -/
theorem dotK_mat {t : FVec Ideal S512x64 .f32} {w : FVec Ideal S64x64 .f32} {T : Fin 512 → Fin 64 → ℝ} {W : Fin 64 → Fin 64 → ℝ}
    (ht : Mat t T) (hw : Mat w W) (g : Fin 512) (o : Fin 64) :
    dotK t w (ix2 g o) = ((∑ k, T g k * W o k : ℝ) : EReal) := by
  refine (dot64_apply _ _ g o).trans ?_
  rw [← sum_mul_coe]
  exact Finset.sum_congr rfl fun k _ => by rw [tr64_apply, ht g k, hw o k]

theorem dot4K_mat {x : FVec Ideal S512x4 .f32} {w : FVec Ideal S64x4 .f32} {X : Fin 512 → Fin 4 → ℝ} {W : Fin 64 → Fin 4 → ℝ}
    (hx : Mat x X) (hw : Mat w W) (g : Fin 512) (o : Fin 64) :
    dot4K x w (ix2 g o) = ((∑ k, X g k * W o k : ℝ) : EReal) := by
  refine (dot4_apply _ _ g o).trans ?_
  rw [← sum_mul_coe]
  exact Finset.sum_congr rfl fun k _ => by rw [tr4_apply, hx g k, hw o k]

/-- The sum of the three linear maps of real arrays is the real sum: only the grouping of the six summands differs. -/
theorem trunkK_mat {x : FVec Ideal S512x4 .f32} {y z : FVec Ideal S512x64 .f32}
    {w0 : FVec Ideal S64x4 .f32} {b0 : FVec Ideal S64 .f32} {w1 : FVec Ideal S64x64 .f32} {b1 : FVec Ideal S64 .f32}
    {w2 : FVec Ideal S64x64 .f32} {b2 : FVec Ideal S64 .f32}
    {px : Fin 512 → Fin 4 → ℝ} {p1 p2 : Fin 512 → Fin 64 → ℝ} {f0w : Fin 64 → Fin 4 → ℝ} {f0b : Fin 64 → ℝ}
    {f1w : Fin 64 → Fin 64 → ℝ} {f1b : Fin 64 → ℝ} {f2w : Fin 64 → Fin 64 → ℝ} {f2b : Fin 64 → ℝ}
    (hx : Mat x px) (hy : Mat y p1) (hz : Mat z p2) (hw0 : Mat w0 f0w) (hb0 : Vec1 b0 f0b)
    (hw1 : Mat w1 f1w) (hb1 : Vec1 b1 f1b) (hw2 : Mat w2 f2w) (hb2 : Vec1 b2 f2b) :
    Mat (trunkK x y z w0 b0 w1 b1 w2 b2) (trunkOf px p1 p2 f0w f0b f1w f1b f2w f2b) := by
  intro g o
  unfold trunkK
  rw [addf_apply, addf_apply, addf_apply, addf_apply, addf_apply, biasK_apply, biasK_apply, biasK_apply,
    dot4K_mat hx hw0, dotK_mat hy hw1, dotK_mat hz hw2, hb0 o, hb1 o, hb2 o,
    ← EReal.coe_add, ← EReal.coe_add, ← EReal.coe_add, ← EReal.coe_add, ← EReal.coe_add]
  refine congrArg _ ?_
  unfold trunkOf Cert.Spec.linG
  ring

/-- A head of a real array, before its rectification, is the real linear map. -/
theorem preK_mat {t : FVec Ideal S512x64 .f32} {w : FVec Ideal S64x64 .f32} {b : FVec Ideal S64 .f32}
    {T : Fin 512 → Fin 64 → ℝ} {W : Fin 64 → Fin 64 → ℝ} {B : Fin 64 → ℝ}
    (ht : Mat t T) (hw : Mat w W) (hb : Vec1 b B) : Mat (preK t w b) (Cert.Spec.linG T W B) := by
  intro g o
  unfold preK
  rw [addf_apply, biasK_apply, dotK_mat ht hw, hb o, ← EReal.coe_add]
  rfl

/-- A head of a real array is the real head. -/
theorem headK_mat {t : FVec Ideal S512x64 .f32} {w : FVec Ideal S64x64 .f32} {b : FVec Ideal S64 .f32}
    {T : Fin 512 → Fin 64 → ℝ} {W : Fin 64 → Fin 64 → ℝ} {B : Fin 64 → ℝ}
    (ht : Mat t T) (hw : Mat w W) (hb : Vec1 b B) : Mat (maximumf (preK t w b) zeroK) (Cert.Spec.head T W B) := by
  intro g o
  rw [maximumf_apply, zeroK_apply, preK_mat ht hw hb g o, ← EReal.coe_zero, Cert.LibSums.max_coe]
  rfl

/-! ## The last stretches of host operations, from any buffer contents `V` -/

section Stretches

variable (V : Valuation τ sig (Elt Ideal))

/-- The references the four stretches write. -/
def wr9 : List (Ref sig .tc) :=
  [main_cst_32, main_v121, main_v122, main_v123, main_v124, main_v125, main_v126, main_v127, main_v128, main_v129, main_v130,
   main_v131, main_v132, main_v133, main_v134, main_v135, main_v136, main_v137, main_v138, main_v139, main_v140, main_v141,
   main_v142, main_v143]
def wr9_1 : List (Ref sig .tc) := [main_call3_cst, main_call3_v0, main_v144]
def wr9_2 : List (Ref sig .tc) := [main_v145, main_v146, main_v147, main_v148, main_v149]
def wr9_3 : List (Ref sig .tc) := [main_call4_cst, main_call4_v0, main_v150]

/-- A buffer none of a stretch's operations writes keeps its contents. -/
theorem keep9 {r : Ref sig .tc} (hr : ∀ y ∈ wr9, r ≠ y) :
    StableHlo.after hostOps9 V (Proc.devRef .tc r) = V (Proc.devRef .tc r) := by
  refine StableHlo.after_of_forall_not_mem _ _ (List.forall_iff_forall_mem.mp ?_)
  simp only [hostOps9, List.Forall, StableHlo.nullary_writes, StableHlo.unary_writes, StableHlo.binary_writes, Finset.mem_singleton]
  repeat' apply And.intro
  all_goals exact StableHlo.devRef_ne_of_ne (hr _ (by decide))

theorem keep9_1 {r : Ref sig .tc} (hr : ∀ y ∈ wr9_1, r ≠ y) :
    StableHlo.after hostOps9_1 V (Proc.devRef .tc r) = V (Proc.devRef .tc r) := by
  refine StableHlo.after_of_forall_not_mem _ _ (List.forall_iff_forall_mem.mp ?_)
  simp only [hostOps9_1, List.Forall, StableHlo.nullary_writes, StableHlo.unary_writes, StableHlo.binary_writes, Finset.mem_singleton]
  repeat' apply And.intro
  all_goals exact StableHlo.devRef_ne_of_ne (hr _ (by decide))

theorem keep9_2 {r : Ref sig .tc} (hr : ∀ y ∈ wr9_2, r ≠ y) :
    StableHlo.after hostOps9_2 V (Proc.devRef .tc r) = V (Proc.devRef .tc r) := by
  refine StableHlo.after_of_forall_not_mem _ _ (List.forall_iff_forall_mem.mp ?_)
  simp only [hostOps9_2, List.Forall, StableHlo.nullary_writes, StableHlo.unary_writes, StableHlo.binary_writes, Finset.mem_singleton]
  repeat' apply And.intro
  all_goals exact StableHlo.devRef_ne_of_ne (hr _ (by decide))

theorem keep9_3 {r : Ref sig .tc} (hr : ∀ y ∈ wr9_3, r ≠ y) :
    StableHlo.after hostOps9_3 V (Proc.devRef .tc r) = V (Proc.devRef .tc r) := by
  refine StableHlo.after_of_forall_not_mem _ _ (List.forall_iff_forall_mem.mp ?_)
  simp only [hostOps9_3, List.Forall, StableHlo.nullary_writes, StableHlo.unary_writes, StableHlo.binary_writes, Finset.mem_singleton]
  repeat' apply And.intro
  all_goals exact StableHlo.devRef_ne_of_ne (hr _ (by decide))

/-- The third pooled sum is the first stretch's reduction of the last region's output array. -/
theorem ops9_v121 :
    (StableHlo.after hostOps9 V (Proc.devRef .tc main_v121) : FVec Ideal S512x64 .f32)
      = Host.reduceAdd (F := Ideal) (V (Proc.devRef .tc main_v120) : FVec Ideal S49x512x64 .f32)
          (constant (F := Ideal) S_ .f32 0x00000000#32) reducesTo_S49x512x64_S512x64_d0 h_S_ := by
  dsimp only [hostOps9]
  after_results

set_option maxHeartbeats 1000000 in
/-- The sum of the three linear maps, of the buffers the first stretch reads and of its own third pooled sum. -/
theorem ops9_v138 :
    (StableHlo.after hostOps9 V (Proc.devRef .tc main_v138) : FVec Ideal S512x64 .f32)
      = trunkK (V (Proc.devRef .tc main_v117)) (V (Proc.devRef .tc main_v119))
          (StableHlo.after hostOps9 V (Proc.devRef .tc main_v121))
          (V (Proc.devRef .tc main_arg19)) (V (Proc.devRef .tc main_arg20))
          (V (Proc.devRef .tc main_arg21)) (V (Proc.devRef .tc main_arg22))
          (V (Proc.devRef .tc main_arg23)) (V (Proc.devRef .tc main_arg24)) := by
  rw [ops9_v121]
  dsimp only [hostOps9]
  after_results_simp
  rfl

set_option maxHeartbeats 1000000 in
/-- The first head before its rectification: the linear map of the sum above. -/
theorem ops9_v143 :
    (StableHlo.after hostOps9 V (Proc.devRef .tc main_v143) : FVec Ideal S512x64 .f32)
      = preK (StableHlo.after hostOps9 V (Proc.devRef .tc main_v138))
          (V (Proc.devRef .tc main_arg25)) (V (Proc.devRef .tc main_arg26)) := by
  dsimp only [hostOps9]
  after_results_simp
  rfl

/-- The first head: the maximum with the zero array. -/
theorem ops9_1_v144 :
    (StableHlo.after hostOps9_1 V (Proc.devRef .tc main_v144) : FVec Ideal S512x64 .f32)
      = maximumf (V (Proc.devRef .tc main_v143) : FVec Ideal S512x64 .f32) zeroK := by
  dsimp only [hostOps9_1]
  after_results
  first | done | rfl

/-- The second head before its rectification. -/
theorem ops9_2_v149 :
    (StableHlo.after hostOps9_2 V (Proc.devRef .tc main_v149) : FVec Ideal S512x64 .f32)
      = preK (V (Proc.devRef .tc main_v138)) (V (Proc.devRef .tc main_arg27)) (V (Proc.devRef .tc main_arg28)) := by
  dsimp only [hostOps9_2]
  after_results
  first | done | rfl

/-- The second head. -/
theorem ops9_3_v150 :
    (StableHlo.after hostOps9_3 V (Proc.devRef .tc main_v150) : FVec Ideal S512x64 .f32)
      = maximumf (V (Proc.devRef .tc main_v149) : FVec Ideal S512x64 .f32) zeroK := by
  dsimp only [hostOps9_3]
  after_results
  first | done | rfl

/-- The four stretches run from contents `V` that hold real pooled sums and real weights: the two results are the two
    heads of the real sum of the three linear maps. -/
theorem heads_of {px : Fin 512 → Fin 4 → ℝ} {p1 p2 : Fin 512 → Fin 64 → ℝ} {f0w : Fin 64 → Fin 4 → ℝ} {f0b : Fin 64 → ℝ}
    {f1w : Fin 64 → Fin 64 → ℝ} {f1b : Fin 64 → ℝ} {f2w : Fin 64 → Fin 64 → ℝ} {f2b : Fin 64 → ℝ}
    {piw : Fin 64 → Fin 64 → ℝ} {pib : Fin 64 → ℝ} {vfw : Fin 64 → Fin 64 → ℝ} {vfb : Fin 64 → ℝ}
    (hx : Mat (V (Proc.devRef .tc main_v117) : FVec Ideal S512x4 .f32) px)
    (h1 : Mat (V (Proc.devRef .tc main_v119) : FVec Ideal S512x64 .f32) p1)
    (h2 : Mat (StableHlo.after hostOps9 V (Proc.devRef .tc main_v121) : FVec Ideal S512x64 .f32) p2)
    (hf0w : Mat (V (Proc.devRef .tc main_arg19) : FVec Ideal S64x4 .f32) f0w)
    (hf0b : Vec1 (V (Proc.devRef .tc main_arg20) : FVec Ideal S64 .f32) f0b)
    (hf1w : Mat (V (Proc.devRef .tc main_arg21) : FVec Ideal S64x64 .f32) f1w)
    (hf1b : Vec1 (V (Proc.devRef .tc main_arg22) : FVec Ideal S64 .f32) f1b)
    (hf2w : Mat (V (Proc.devRef .tc main_arg23) : FVec Ideal S64x64 .f32) f2w)
    (hf2b : Vec1 (V (Proc.devRef .tc main_arg24) : FVec Ideal S64 .f32) f2b)
    (hpiw : Mat (V (Proc.devRef .tc main_arg25) : FVec Ideal S64x64 .f32) piw)
    (hpib : Vec1 (V (Proc.devRef .tc main_arg26) : FVec Ideal S64 .f32) pib)
    (hvfw : Mat (V (Proc.devRef .tc main_arg27) : FVec Ideal S64x64 .f32) vfw)
    (hvfb : Vec1 (V (Proc.devRef .tc main_arg28) : FVec Ideal S64 .f32) vfb) :
    Mat (StableHlo.after hostOps9_3 (StableHlo.after hostOps9_2 (StableHlo.after hostOps9_1 (StableHlo.after hostOps9 V)))
          (Proc.devRef .tc main_v144) : FVec Ideal S512x64 .f32)
        (Cert.Spec.head (trunkOf px p1 p2 f0w f0b f1w f1b f2w f2b) piw pib)
    ∧ Mat (StableHlo.after hostOps9_3 (StableHlo.after hostOps9_2 (StableHlo.after hostOps9_1 (StableHlo.after hostOps9 V)))
          (Proc.devRef .tc main_v150) : FVec Ideal S512x64 .f32)
        (Cert.Spec.head (trunkOf px p1 p2 f0w f0b f1w f1b f2w f2b) vfw vfb) := by
  have hT : Mat (StableHlo.after hostOps9 V (Proc.devRef .tc main_v138) : FVec Ideal S512x64 .f32)
      (trunkOf px p1 p2 f0w f0b f1w f1b f2w f2b) := by
    rw [ops9_v138]; exact trunkK_mat hx h1 h2 hf0w hf0b hf1w hf1b hf2w hf2b
  constructor
  · rw [keep9_3 _ (r := main_v144) (by decide), keep9_2 _ (r := main_v144) (by decide), ops9_1_v144, ops9_v143]
    exact headK_mat hT hpiw hpib
  · rw [ops9_3_v150, ops9_2_v149, keep9_1 _ (r := main_v138) (by decide),
      keep9_1 _ (r := main_arg27) (by decide), keep9 _ (r := main_arg27) (by decide),
      keep9_1 _ (r := main_arg28) (by decide), keep9 _ (r := main_arg28) (by decide)]
    exact headK_mat hT hvfw hvfb

end Stretches

/-! ## The run: the two result buffers at the last boundary -/

section Run

variable (m : (ℓ : Loc nD τ sig) → Buf (Elt Ideal) ℓ) (ρ : Dev nD → PrngReg)

/-- The first two pooled sums were written before the first of these stretches, which leaves them. -/
theorem W24_main_v117 (c : Dev nD) :
    W24 m ρ c (Proc.devRef .tc main_v117) = W23 m ρ c (Proc.devRef .tc main_v117) :=
  keep9 (W23 m ρ c) (r := main_v117) (by decide)

theorem W24_main_v119 (c : Dev nD) :
    W24 m ρ c (Proc.devRef .tc main_v119) = W23 m ρ c (Proc.devRef .tc main_v119) :=
  keep9 (W23 m ρ c) (r := main_v119) (by decide)

/-- The third pooled sum is the reduction of the last region's output array. -/
theorem W24_main_v121 (c : Dev nD) :
    (W24 m ρ c (Proc.devRef .tc main_v121) : FVec Ideal S512x64 .f32)
      = Host.reduceAdd (F := Ideal) (W23 m ρ c (Proc.devRef .tc main_v120) : FVec Ideal S49x512x64 .f32)
          (constant (F := Ideal) S_ .f32 0x00000000#32) reducesTo_S49x512x64_S512x64_d0 h_S_ :=
  ops9_v121 (W23 m ρ c)

/-- A buffer none of the four stretches writes holds at their entry what it holds at the end. -/
theorem W27_eq_W23 (c : Dev nD) {r : Ref sig .tc} (h0 : ∀ y ∈ wr9, r ≠ y) (h1 : ∀ y ∈ wr9_1, r ≠ y)
    (h2 : ∀ y ∈ wr9_2, r ≠ y) (h3 : ∀ y ∈ wr9_3, r ≠ y) :
    W27 m ρ c (Proc.devRef .tc r) = W23 m ρ c (Proc.devRef .tc r) :=
  (keep9_3 (W26 m ρ c) h3).trans ((keep9_2 (W25 m ρ c) h2).trans ((keep9_1 (W24 m ρ c) h1).trans (keep9 (W23 m ρ c) h0)))

/-- The heads of the kernel program: with the three pooled sums and the ten weight arguments real, the two result buffers
    hold the two heads of the sum of the three linear maps. -/
theorem heads (c : Dev nD) {px : Fin 512 → Fin 4 → ℝ} {p1 p2 : Fin 512 → Fin 64 → ℝ} {f0w : Fin 64 → Fin 4 → ℝ} {f0b : Fin 64 → ℝ}
    {f1w : Fin 64 → Fin 64 → ℝ} {f1b : Fin 64 → ℝ} {f2w : Fin 64 → Fin 64 → ℝ} {f2b : Fin 64 → ℝ}
    {piw : Fin 64 → Fin 64 → ℝ} {pib : Fin 64 → ℝ} {vfw : Fin 64 → Fin 64 → ℝ} {vfb : Fin 64 → ℝ}
    (hx : Mat (W24 m ρ c (Proc.devRef .tc main_v117) : FVec Ideal S512x4 .f32) px)
    (h1 : Mat (W24 m ρ c (Proc.devRef .tc main_v119) : FVec Ideal S512x64 .f32) p1)
    (h2 : Mat (W24 m ρ c (Proc.devRef .tc main_v121) : FVec Ideal S512x64 .f32) p2)
    (hf0w : Mat (m ((c : Thread nD τ).loc main_arg19) : FVec Ideal S64x4 .f32) f0w)
    (hf0b : Vec1 (m ((c : Thread nD τ).loc main_arg20) : FVec Ideal S64 .f32) f0b)
    (hf1w : Mat (m ((c : Thread nD τ).loc main_arg21) : FVec Ideal S64x64 .f32) f1w)
    (hf1b : Vec1 (m ((c : Thread nD τ).loc main_arg22) : FVec Ideal S64 .f32) f1b)
    (hf2w : Mat (m ((c : Thread nD τ).loc main_arg23) : FVec Ideal S64x64 .f32) f2w)
    (hf2b : Vec1 (m ((c : Thread nD τ).loc main_arg24) : FVec Ideal S64 .f32) f2b)
    (hpiw : Mat (m ((c : Thread nD τ).loc main_arg25) : FVec Ideal S64x64 .f32) piw)
    (hpib : Vec1 (m ((c : Thread nD τ).loc main_arg26) : FVec Ideal S64 .f32) pib)
    (hvfw : Mat (m ((c : Thread nD τ).loc main_arg27) : FVec Ideal S64x64 .f32) vfw)
    (hvfb : Vec1 (m ((c : Thread nD τ).loc main_arg28) : FVec Ideal S64 .f32) vfb) :
    Mat (W27 m ρ c (Proc.devRef .tc main_v144) : FVec Ideal S512x64 .f32)
        (Cert.Spec.head (trunkOf px p1 p2 f0w f0b f1w f1b f2w f2b) piw pib)
    ∧ Mat (W27 m ρ c (Proc.devRef .tc main_v150) : FVec Ideal S512x64 .f32)
        (Cert.Spec.head (trunkOf px p1 p2 f0w f0b f1w f1b f2w f2b) vfw vfb) := by
  have a19 := (W27_eq_W23 m ρ c (r := main_arg19) (by decide) (by decide) (by decide) (by decide)).symm.trans (W27_main_arg19 m ρ c)
  have a20 := (W27_eq_W23 m ρ c (r := main_arg20) (by decide) (by decide) (by decide) (by decide)).symm.trans (W27_main_arg20 m ρ c)
  have a21 := (W27_eq_W23 m ρ c (r := main_arg21) (by decide) (by decide) (by decide) (by decide)).symm.trans (W27_main_arg21 m ρ c)
  have a22 := (W27_eq_W23 m ρ c (r := main_arg22) (by decide) (by decide) (by decide) (by decide)).symm.trans (W27_main_arg22 m ρ c)
  have a23 := (W27_eq_W23 m ρ c (r := main_arg23) (by decide) (by decide) (by decide) (by decide)).symm.trans (W27_main_arg23 m ρ c)
  have a24 := (W27_eq_W23 m ρ c (r := main_arg24) (by decide) (by decide) (by decide) (by decide)).symm.trans (W27_main_arg24 m ρ c)
  have a25 := (W27_eq_W23 m ρ c (r := main_arg25) (by decide) (by decide) (by decide) (by decide)).symm.trans (W27_main_arg25 m ρ c)
  have a26 := (W27_eq_W23 m ρ c (r := main_arg26) (by decide) (by decide) (by decide) (by decide)).symm.trans (W27_main_arg26 m ρ c)
  have a27 := (W27_eq_W23 m ρ c (r := main_arg27) (by decide) (by decide) (by decide) (by decide)).symm.trans (W27_main_arg27 m ρ c)
  have a28 := (W27_eq_W23 m ρ c (r := main_arg28) (by decide) (by decide) (by decide) (by decide)).symm.trans (W27_main_arg28 m ρ c)
  refine heads_of (W23 m ρ c) ?_ ?_ h2 ?_ ?_ ?_ ?_ ?_ ?_ ?_ ?_ ?_ ?_
  · rw [← W24_main_v117]; exact hx
  · rw [← W24_main_v119]; exact h1
  · rw [a19]; exact hf0w
  · rw [a20]; exact hf0b
  · rw [a21]; exact hf1w
  · rw [a22]; exact hf1b
  · rw [a23]; exact hf2w
  · rw [a24]; exact hf2b
  · rw [a25]; exact hpiw
  · rw [a26]; exact hpib
  · rw [a27]; exact hvfw
  · rw [a28]; exact hvfb

end Run

end Cert.KHeads

end
-- ==== Proof.KCarry.lean ====
import proofs.«403050_j67860483276910_3_alg».proof.Proof.KernelIdealFrame

set_option maxRecDepth 16384

/-! # Buffers written once and read several boundaries later

The run's buffer contents at a boundary are a fold from the launch memory: a stretch of host operations changes only
the buffers its operations write, and a region changes only its output windows' arrays (an input window's array is
handed back as it was entered, every other buffer is not touched). So a buffer holds at a later boundary what it held
at an earlier one as soon as no stretch between them writes it and no region between them has it as an output window.

Each entry `step_<buffer>_<J>` is one boundary's step (contents at boundary `J` = contents at boundary `J - 1`), by one of
three laws: a host stretch none of whose operations writes the buffer; a region of which the buffer is no window's
array; a region of which the buffer is an INPUT window's array (the pipeline's array of an input window after all
grid points is its array at entry). The entries `carry_<buffer>_<J>_<J'>` join the steps from `J` to `J'`; the entries
`arg<K>_at_W<J>` join them down to the launch memory, where an argument's buffer is the launched array. All are
generic in the float model. -/

noncomputable section

namespace Cert.KCarry

open Cert.KernelIdeal Cert.KernelIdeal.Gen
open Idealize.ShloMosaic Idealize.ShloMosaic.TcCoe
open Idealize.ShloMosaic.Pipeline (Dat Cfg Window)

variable {F : FTy → Type} [FloatOps F]

/-- A buffer that none of a stretch's operations writes holds after the stretch what it held before: the
    stretch's list is opened, each operation's written reference is read off, and the buffer differs from each. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt F) ℓ) (ρ : Dev nD → PrngReg)

/-! ## The padded node features, the two normalising rows and the padded batch vector -/

theorem step_main_v19_8 (c : Dev nD) : GenP.W8 m ρ c (Proc.devRef .tc main_v19) = GenP.W7 m ρ c (Proc.devRef .tc main_v19) :=
  (GenP.W8_arr m ρ c 0).trans (((GenP.dat0 (GenP.V7 m ρ) c).arrAt_in 0 rfl _).trans (GenP.A_eq0 (GenP.V7 m ρ) c 0))
theorem step_main_v19_9 (c : Dev nD) : GenP.W9 m ρ c (Proc.devRef .tc main_v19) = GenP.W8 m ρ c (Proc.devRef .tc main_v19) :=
  host_keep hostOps1
theorem carry_main_v19_7_9 (c : Dev nD) : GenP.W9 m ρ c (Proc.devRef .tc main_v19) = GenP.W7 m ρ c (Proc.devRef .tc main_v19) :=
  (step_main_v19_9 m ρ c).trans ((step_main_v19_8 m ρ c))
theorem step_main_v19_10 (c : Dev nD) : GenP.W10 m ρ c (Proc.devRef .tc main_v19) = GenP.W9 m ρ c (Proc.devRef .tc main_v19) :=
  (GenP.W10_arr m ρ c 0).trans (((GenP.dat1 (GenP.V9 m ρ) c).arrAt_in 0 rfl _).trans (GenP.A_eq1 (GenP.V9 m ρ) c 0))
theorem step_main_v19_11 (c : Dev nD) : GenP.W11 m ρ c (Proc.devRef .tc main_v19) = GenP.W10 m ρ c (Proc.devRef .tc main_v19) :=
  host_keep hostOps2
theorem step_main_v19_12 (c : Dev nD) : GenP.W12 m ρ c (Proc.devRef .tc main_v19) = GenP.W11 m ρ c (Proc.devRef .tc main_v19) :=
  GenP.W12_of_ne m ρ c main_v19 (by decide)
theorem step_main_v19_13 (c : Dev nD) : GenP.W13 m ρ c (Proc.devRef .tc main_v19) = GenP.W12 m ρ c (Proc.devRef .tc main_v19) :=
  host_keep hostOps3
theorem step_main_v19_14 (c : Dev nD) : GenP.W14 m ρ c (Proc.devRef .tc main_v19) = GenP.W13 m ρ c (Proc.devRef .tc main_v19) :=
  GenP.W14_of_ne m ρ c main_v19 (by decide)
theorem step_main_v19_15 (c : Dev nD) : GenP.W15 m ρ c (Proc.devRef .tc main_v19) = GenP.W14 m ρ c (Proc.devRef .tc main_v19) :=
  host_keep hostOps4
theorem step_main_v19_16 (c : Dev nD) : GenP.W16 m ρ c (Proc.devRef .tc main_v19) = GenP.W15 m ρ c (Proc.devRef .tc main_v19) :=
  GenP.W16_of_ne m ρ c main_v19 (by decide)
theorem step_main_v19_17 (c : Dev nD) : GenP.W17 m ρ c (Proc.devRef .tc main_v19) = GenP.W16 m ρ c (Proc.devRef .tc main_v19) :=
  host_keep hostOps5
theorem step_main_v19_18 (c : Dev nD) : GenP.W18 m ρ c (Proc.devRef .tc main_v19) = GenP.W17 m ρ c (Proc.devRef .tc main_v19) :=
  GenP.W18_of_ne m ρ c main_v19 (by decide)
theorem carry_main_v19_7_18 (c : Dev nD) : GenP.W18 m ρ c (Proc.devRef .tc main_v19) = GenP.W7 m ρ c (Proc.devRef .tc main_v19) :=
  (step_main_v19_18 m ρ c).trans ((step_main_v19_17 m ρ c).trans ((step_main_v19_16 m ρ c).trans ((step_main_v19_15 m ρ c).trans ((step_main_v19_14 m ρ c).trans ((step_main_v19_13 m ρ c).trans ((step_main_v19_12 m ρ c).trans ((step_main_v19_11 m ρ c).trans ((step_main_v19_10 m ρ c).trans ((step_main_v19_9 m ρ c).trans ((step_main_v19_8 m ρ c)))))))))))
theorem step_main_v31_8 (c : Dev nD) : GenP.W8 m ρ c (Proc.devRef .tc main_v31) = GenP.W7 m ρ c (Proc.devRef .tc main_v31) :=
  (GenP.W8_arr m ρ c 1).trans (((GenP.dat0 (GenP.V7 m ρ) c).arrAt_in 1 rfl _).trans (GenP.A_eq0 (GenP.V7 m ρ) c 1))
theorem step_main_v31_9 (c : Dev nD) : GenP.W9 m ρ c (Proc.devRef .tc main_v31) = GenP.W8 m ρ c (Proc.devRef .tc main_v31) :=
  host_keep hostOps1
theorem carry_main_v31_7_9 (c : Dev nD) : GenP.W9 m ρ c (Proc.devRef .tc main_v31) = GenP.W7 m ρ c (Proc.devRef .tc main_v31) :=
  (step_main_v31_9 m ρ c).trans ((step_main_v31_8 m ρ c))
theorem step_main_v32_8 (c : Dev nD) : GenP.W8 m ρ c (Proc.devRef .tc main_v32) = GenP.W7 m ρ c (Proc.devRef .tc main_v32) :=
  (GenP.W8_arr m ρ c 3).trans (((GenP.dat0 (GenP.V7 m ρ) c).arrAt_in 3 rfl _).trans (GenP.A_eq0 (GenP.V7 m ρ) c 3))
theorem step_main_v32_9 (c : Dev nD) : GenP.W9 m ρ c (Proc.devRef .tc main_v32) = GenP.W8 m ρ c (Proc.devRef .tc main_v32) :=
  host_keep hostOps1
theorem carry_main_v32_7_9 (c : Dev nD) : GenP.W9 m ρ c (Proc.devRef .tc main_v32) = GenP.W7 m ρ c (Proc.devRef .tc main_v32) :=
  (step_main_v32_9 m ρ c).trans ((step_main_v32_8 m ρ c))
theorem step_main_v21_8 (c : Dev nD) : GenP.W8 m ρ c (Proc.devRef .tc main_v21) = GenP.W7 m ρ c (Proc.devRef .tc main_v21) :=
  GenP.W8_of_ne m ρ c main_v21 (by decide)
theorem step_main_v21_9 (c : Dev nD) : GenP.W9 m ρ c (Proc.devRef .tc main_v21) = GenP.W8 m ρ c (Proc.devRef .tc main_v21) :=
  host_keep hostOps1
theorem step_main_v21_10 (c : Dev nD) : GenP.W10 m ρ c (Proc.devRef .tc main_v21) = GenP.W9 m ρ c (Proc.devRef .tc main_v21) :=
  GenP.W10_of_ne m ρ c main_v21 (by decide)
theorem step_main_v21_11 (c : Dev nD) : GenP.W11 m ρ c (Proc.devRef .tc main_v21) = GenP.W10 m ρ c (Proc.devRef .tc main_v21) :=
  host_keep hostOps2
theorem step_main_v21_12 (c : Dev nD) : GenP.W12 m ρ c (Proc.devRef .tc main_v21) = GenP.W11 m ρ c (Proc.devRef .tc main_v21) :=
  GenP.W12_of_ne m ρ c main_v21 (by decide)
theorem step_main_v21_13 (c : Dev nD) : GenP.W13 m ρ c (Proc.devRef .tc main_v21) = GenP.W12 m ρ c (Proc.devRef .tc main_v21) :=
  host_keep hostOps3
theorem step_main_v21_14 (c : Dev nD) : GenP.W14 m ρ c (Proc.devRef .tc main_v21) = GenP.W13 m ρ c (Proc.devRef .tc main_v21) :=
  GenP.W14_of_ne m ρ c main_v21 (by decide)
theorem step_main_v21_15 (c : Dev nD) : GenP.W15 m ρ c (Proc.devRef .tc main_v21) = GenP.W14 m ρ c (Proc.devRef .tc main_v21) :=
  host_keep hostOps4
theorem step_main_v21_16 (c : Dev nD) : GenP.W16 m ρ c (Proc.devRef .tc main_v21) = GenP.W15 m ρ c (Proc.devRef .tc main_v21) :=
  GenP.W16_of_ne m ρ c main_v21 (by decide)
theorem step_main_v21_17 (c : Dev nD) : GenP.W17 m ρ c (Proc.devRef .tc main_v21) = GenP.W16 m ρ c (Proc.devRef .tc main_v21) :=
  host_keep hostOps5
theorem step_main_v21_18 (c : Dev nD) : GenP.W18 m ρ c (Proc.devRef .tc main_v21) = GenP.W17 m ρ c (Proc.devRef .tc main_v21) :=
  GenP.W18_of_ne m ρ c main_v21 (by decide)
theorem carry_main_v21_7_18 (c : Dev nD) : GenP.W18 m ρ c (Proc.devRef .tc main_v21) = GenP.W7 m ρ c (Proc.devRef .tc main_v21) :=
  (step_main_v21_18 m ρ c).trans ((step_main_v21_17 m ρ c).trans ((step_main_v21_16 m ρ c).trans ((step_main_v21_15 m ρ c).trans ((step_main_v21_14 m ρ c).trans ((step_main_v21_13 m ρ c).trans ((step_main_v21_12 m ρ c).trans ((step_main_v21_11 m ρ c).trans ((step_main_v21_10 m ρ c).trans ((step_main_v21_9 m ρ c).trans ((step_main_v21_8 m ρ c)))))))))))
theorem step_main_v21_19 (c : Dev nD) : GenP.W19 m ρ c (Proc.devRef .tc main_v21) = GenP.W18 m ρ c (Proc.devRef .tc main_v21) :=
  (GenP.W19_arr m ρ c 0).trans (((GenP.dat6 (GenP.V18 m ρ) c).arrAt_in 0 rfl _).trans (GenP.A_eq6 (GenP.V18 m ρ) c 0))
theorem step_main_v21_20 (c : Dev nD) : GenP.W20 m ρ c (Proc.devRef .tc main_v21) = GenP.W19 m ρ c (Proc.devRef .tc main_v21) :=
  host_keep hostOps7
theorem carry_main_v21_7_20 (c : Dev nD) : GenP.W20 m ρ c (Proc.devRef .tc main_v21) = GenP.W7 m ρ c (Proc.devRef .tc main_v21) :=
  (step_main_v21_20 m ρ c).trans ((step_main_v21_19 m ρ c).trans ((step_main_v21_18 m ρ c).trans ((step_main_v21_17 m ρ c).trans ((step_main_v21_16 m ρ c).trans ((step_main_v21_15 m ρ c).trans ((step_main_v21_14 m ρ c).trans ((step_main_v21_13 m ρ c).trans ((step_main_v21_12 m ρ c).trans ((step_main_v21_11 m ρ c).trans ((step_main_v21_10 m ρ c).trans ((step_main_v21_9 m ρ c).trans ((step_main_v21_8 m ρ c)))))))))))))
theorem step_main_v21_21 (c : Dev nD) : GenP.W21 m ρ c (Proc.devRef .tc main_v21) = GenP.W20 m ρ c (Proc.devRef .tc main_v21) :=
  (GenP.W21_arr m ρ c 0).trans (((GenP.dat7 (GenP.V20 m ρ) c).arrAt_in 0 rfl _).trans (GenP.A_eq7 (GenP.V20 m ρ) c 0))
theorem step_main_v21_22 (c : Dev nD) : GenP.W22 m ρ c (Proc.devRef .tc main_v21) = GenP.W21 m ρ c (Proc.devRef .tc main_v21) :=
  host_keep hostOps8
theorem carry_main_v21_7_22 (c : Dev nD) : GenP.W22 m ρ c (Proc.devRef .tc main_v21) = GenP.W7 m ρ c (Proc.devRef .tc main_v21) :=
  (step_main_v21_22 m ρ c).trans ((step_main_v21_21 m ρ c).trans ((step_main_v21_20 m ρ c).trans ((step_main_v21_19 m ρ c).trans ((step_main_v21_18 m ρ c).trans ((step_main_v21_17 m ρ c).trans ((step_main_v21_16 m ρ c).trans ((step_main_v21_15 m ρ c).trans ((step_main_v21_14 m ρ c).trans ((step_main_v21_13 m ρ c).trans ((step_main_v21_12 m ρ c).trans ((step_main_v21_11 m ρ c).trans ((step_main_v21_10 m ρ c).trans ((step_main_v21_9 m ρ c).trans ((step_main_v21_8 m ρ c)))))))))))))))

/-! ## The sorted edge list -/

theorem step_main_v11_7 (c : Dev nD) : GenP.W7 m ρ c (Proc.devRef .tc main_v11) = GenP.W6 m ρ c (Proc.devRef .tc main_v11) :=
  host_keep hostOps0_6
theorem carry_main_v11_6_7 (c : Dev nD) : GenP.W7 m ρ c (Proc.devRef .tc main_v11) = GenP.W6 m ρ c (Proc.devRef .tc main_v11) :=
  step_main_v11_7 m ρ c
theorem step_main_v18_7 (c : Dev nD) : GenP.W7 m ρ c (Proc.devRef .tc main_v18) = GenP.W6 m ρ c (Proc.devRef .tc main_v18) :=
  host_keep hostOps0_6
theorem carry_main_v18_6_7 (c : Dev nD) : GenP.W7 m ρ c (Proc.devRef .tc main_v18) = GenP.W6 m ρ c (Proc.devRef .tc main_v18) :=
  step_main_v18_7 m ρ c
theorem step_main_v11_8 (c : Dev nD) : GenP.W8 m ρ c (Proc.devRef .tc main_v11) = GenP.W7 m ρ c (Proc.devRef .tc main_v11) :=
  GenP.W8_of_ne m ρ c main_v11 (by decide)
theorem step_main_v11_9 (c : Dev nD) : GenP.W9 m ρ c (Proc.devRef .tc main_v11) = GenP.W8 m ρ c (Proc.devRef .tc main_v11) :=
  host_keep hostOps1
theorem step_main_v11_10 (c : Dev nD) : GenP.W10 m ρ c (Proc.devRef .tc main_v11) = GenP.W9 m ρ c (Proc.devRef .tc main_v11) :=
  GenP.W10_of_ne m ρ c main_v11 (by decide)
theorem step_main_v11_11 (c : Dev nD) : GenP.W11 m ρ c (Proc.devRef .tc main_v11) = GenP.W10 m ρ c (Proc.devRef .tc main_v11) :=
  host_keep hostOps2
theorem step_main_v11_12 (c : Dev nD) : GenP.W12 m ρ c (Proc.devRef .tc main_v11) = GenP.W11 m ρ c (Proc.devRef .tc main_v11) :=
  GenP.W12_of_ne m ρ c main_v11 (by decide)
theorem carry_main_v11_7_12 (c : Dev nD) : GenP.W12 m ρ c (Proc.devRef .tc main_v11) = GenP.W7 m ρ c (Proc.devRef .tc main_v11) :=
  (step_main_v11_12 m ρ c).trans ((step_main_v11_11 m ρ c).trans ((step_main_v11_10 m ρ c).trans ((step_main_v11_9 m ρ c).trans ((step_main_v11_8 m ρ c)))))
theorem step_main_v18_8 (c : Dev nD) : GenP.W8 m ρ c (Proc.devRef .tc main_v18) = GenP.W7 m ρ c (Proc.devRef .tc main_v18) :=
  GenP.W8_of_ne m ρ c main_v18 (by decide)
theorem step_main_v18_9 (c : Dev nD) : GenP.W9 m ρ c (Proc.devRef .tc main_v18) = GenP.W8 m ρ c (Proc.devRef .tc main_v18) :=
  host_keep hostOps1
theorem step_main_v18_10 (c : Dev nD) : GenP.W10 m ρ c (Proc.devRef .tc main_v18) = GenP.W9 m ρ c (Proc.devRef .tc main_v18) :=
  GenP.W10_of_ne m ρ c main_v18 (by decide)
theorem step_main_v18_11 (c : Dev nD) : GenP.W11 m ρ c (Proc.devRef .tc main_v18) = GenP.W10 m ρ c (Proc.devRef .tc main_v18) :=
  host_keep hostOps2
theorem step_main_v18_12 (c : Dev nD) : GenP.W12 m ρ c (Proc.devRef .tc main_v18) = GenP.W11 m ρ c (Proc.devRef .tc main_v18) :=
  GenP.W12_of_ne m ρ c main_v18 (by decide)
theorem carry_main_v18_7_12 (c : Dev nD) : GenP.W12 m ρ c (Proc.devRef .tc main_v18) = GenP.W7 m ρ c (Proc.devRef .tc main_v18) :=
  (step_main_v18_12 m ρ c).trans ((step_main_v18_11 m ρ c).trans ((step_main_v18_10 m ρ c).trans ((step_main_v18_9 m ρ c).trans ((step_main_v18_8 m ρ c)))))

/-! ## The layers' intermediate arrays -/

theorem step_main_v51_0_11 (c : Dev nD) : GenP.W11 m ρ c (Proc.devRef .tc main_v51_0) = GenP.W10 m ρ c (Proc.devRef .tc main_v51_0) :=
  host_keep hostOps2
theorem carry_main_v51_0_10_11 (c : Dev nD) : GenP.W11 m ρ c (Proc.devRef .tc main_v51_0) = GenP.W10 m ρ c (Proc.devRef .tc main_v51_0) :=
  step_main_v51_0_11 m ρ c
theorem step_main_v68_13 (c : Dev nD) : GenP.W13 m ρ c (Proc.devRef .tc main_v68) = GenP.W12 m ρ c (Proc.devRef .tc main_v68) :=
  host_keep hostOps3
theorem carry_main_v68_12_13 (c : Dev nD) : GenP.W13 m ρ c (Proc.devRef .tc main_v68) = GenP.W12 m ρ c (Proc.devRef .tc main_v68) :=
  step_main_v68_13 m ρ c
theorem step_main_v68_14 (c : Dev nD) : GenP.W14 m ρ c (Proc.devRef .tc main_v68) = GenP.W13 m ρ c (Proc.devRef .tc main_v68) :=
  (GenP.W14_arr m ρ c 0).trans (((GenP.dat3 (GenP.V13 m ρ) c).arrAt_in 0 rfl _).trans (GenP.A_eq3 (GenP.V13 m ρ) c 0))
theorem step_main_v68_15 (c : Dev nD) : GenP.W15 m ρ c (Proc.devRef .tc main_v68) = GenP.W14 m ρ c (Proc.devRef .tc main_v68) :=
  host_keep hostOps4
theorem carry_main_v68_12_15 (c : Dev nD) : GenP.W15 m ρ c (Proc.devRef .tc main_v68) = GenP.W12 m ρ c (Proc.devRef .tc main_v68) :=
  (step_main_v68_15 m ρ c).trans ((step_main_v68_14 m ρ c).trans ((step_main_v68_13 m ρ c)))
theorem step_main_v68_16 (c : Dev nD) : GenP.W16 m ρ c (Proc.devRef .tc main_v68) = GenP.W15 m ρ c (Proc.devRef .tc main_v68) :=
  (GenP.W16_arr m ρ c 0).trans (((GenP.dat4 (GenP.V15 m ρ) c).arrAt_in 0 rfl _).trans (GenP.A_eq4 (GenP.V15 m ρ) c 0))
theorem step_main_v68_17 (c : Dev nD) : GenP.W17 m ρ c (Proc.devRef .tc main_v68) = GenP.W16 m ρ c (Proc.devRef .tc main_v68) :=
  host_keep hostOps5
theorem step_main_v68_18 (c : Dev nD) : GenP.W18 m ρ c (Proc.devRef .tc main_v68) = GenP.W17 m ρ c (Proc.devRef .tc main_v68) :=
  GenP.W18_of_ne m ρ c main_v68 (by decide)
theorem step_main_v68_19 (c : Dev nD) : GenP.W19 m ρ c (Proc.devRef .tc main_v68) = GenP.W18 m ρ c (Proc.devRef .tc main_v68) :=
  GenP.W19_of_ne m ρ c main_v68 (by decide)
theorem step_main_v68_20 (c : Dev nD) : GenP.W20 m ρ c (Proc.devRef .tc main_v68) = GenP.W19 m ρ c (Proc.devRef .tc main_v68) :=
  host_keep hostOps7
theorem carry_main_v68_12_20 (c : Dev nD) : GenP.W20 m ρ c (Proc.devRef .tc main_v68) = GenP.W12 m ρ c (Proc.devRef .tc main_v68) :=
  (step_main_v68_20 m ρ c).trans ((step_main_v68_19 m ρ c).trans ((step_main_v68_18 m ρ c).trans ((step_main_v68_17 m ρ c).trans ((step_main_v68_16 m ρ c).trans ((step_main_v68_15 m ρ c).trans ((step_main_v68_14 m ρ c).trans ((step_main_v68_13 m ρ c))))))))
theorem step_main_v78_14 (c : Dev nD) : GenP.W14 m ρ c (Proc.devRef .tc main_v78) = GenP.W13 m ρ c (Proc.devRef .tc main_v78) :=
  (GenP.W14_arr m ρ c 1).trans (((GenP.dat3 (GenP.V13 m ρ) c).arrAt_in 1 rfl _).trans (GenP.A_eq3 (GenP.V13 m ρ) c 1))
theorem step_main_v78_15 (c : Dev nD) : GenP.W15 m ρ c (Proc.devRef .tc main_v78) = GenP.W14 m ρ c (Proc.devRef .tc main_v78) :=
  host_keep hostOps4
theorem carry_main_v78_13_15 (c : Dev nD) : GenP.W15 m ρ c (Proc.devRef .tc main_v78) = GenP.W13 m ρ c (Proc.devRef .tc main_v78) :=
  (step_main_v78_15 m ρ c).trans ((step_main_v78_14 m ρ c))
theorem step_main_v79_14 (c : Dev nD) : GenP.W14 m ρ c (Proc.devRef .tc main_v79) = GenP.W13 m ρ c (Proc.devRef .tc main_v79) :=
  (GenP.W14_arr m ρ c 3).trans (((GenP.dat3 (GenP.V13 m ρ) c).arrAt_in 3 rfl _).trans (GenP.A_eq3 (GenP.V13 m ρ) c 3))
theorem step_main_v79_15 (c : Dev nD) : GenP.W15 m ρ c (Proc.devRef .tc main_v79) = GenP.W14 m ρ c (Proc.devRef .tc main_v79) :=
  host_keep hostOps4
theorem carry_main_v79_13_15 (c : Dev nD) : GenP.W15 m ρ c (Proc.devRef .tc main_v79) = GenP.W13 m ρ c (Proc.devRef .tc main_v79) :=
  (step_main_v79_15 m ρ c).trans ((step_main_v79_14 m ρ c))
theorem step_main_v98_0_17 (c : Dev nD) : GenP.W17 m ρ c (Proc.devRef .tc main_v98_0) = GenP.W16 m ρ c (Proc.devRef .tc main_v98_0) :=
  host_keep hostOps5
theorem carry_main_v98_0_16_17 (c : Dev nD) : GenP.W17 m ρ c (Proc.devRef .tc main_v98_0) = GenP.W16 m ρ c (Proc.devRef .tc main_v98_0) :=
  step_main_v98_0_17 m ρ c
theorem step_main_v115_19 (c : Dev nD) : GenP.W19 m ρ c (Proc.devRef .tc main_v115) = GenP.W18 m ρ c (Proc.devRef .tc main_v115) :=
  GenP.W19_of_ne m ρ c main_v115 (by decide)
theorem step_main_v115_20 (c : Dev nD) : GenP.W20 m ρ c (Proc.devRef .tc main_v115) = GenP.W19 m ρ c (Proc.devRef .tc main_v115) :=
  host_keep hostOps7
theorem step_main_v115_21 (c : Dev nD) : GenP.W21 m ρ c (Proc.devRef .tc main_v115) = GenP.W20 m ρ c (Proc.devRef .tc main_v115) :=
  GenP.W21_of_ne m ρ c main_v115 (by decide)
theorem step_main_v115_22 (c : Dev nD) : GenP.W22 m ρ c (Proc.devRef .tc main_v115) = GenP.W21 m ρ c (Proc.devRef .tc main_v115) :=
  host_keep hostOps8
theorem carry_main_v115_18_22 (c : Dev nD) : GenP.W22 m ρ c (Proc.devRef .tc main_v115) = GenP.W18 m ρ c (Proc.devRef .tc main_v115) :=
  (step_main_v115_22 m ρ c).trans ((step_main_v115_21 m ρ c).trans ((step_main_v115_20 m ρ c).trans ((step_main_v115_19 m ρ c))))

/-! ## The pooled sums -/

theorem step_main_v117_21 (c : Dev nD) : GenP.W21 m ρ c (Proc.devRef .tc main_v117) = GenP.W20 m ρ c (Proc.devRef .tc main_v117) :=
  GenP.W21_of_ne m ρ c main_v117 (by decide)
theorem step_main_v117_22 (c : Dev nD) : GenP.W22 m ρ c (Proc.devRef .tc main_v117) = GenP.W21 m ρ c (Proc.devRef .tc main_v117) :=
  host_keep hostOps8
theorem step_main_v117_23 (c : Dev nD) : GenP.W23 m ρ c (Proc.devRef .tc main_v117) = GenP.W22 m ρ c (Proc.devRef .tc main_v117) :=
  GenP.W23_of_ne m ρ c main_v117 (by decide)
theorem carry_main_v117_20_23 (c : Dev nD) : GenP.W23 m ρ c (Proc.devRef .tc main_v117) = GenP.W20 m ρ c (Proc.devRef .tc main_v117) :=
  (step_main_v117_23 m ρ c).trans ((step_main_v117_22 m ρ c).trans ((step_main_v117_21 m ρ c)))
theorem step_main_v119_23 (c : Dev nD) : GenP.W23 m ρ c (Proc.devRef .tc main_v119) = GenP.W22 m ρ c (Proc.devRef .tc main_v119) :=
  GenP.W23_of_ne m ρ c main_v119 (by decide)
theorem carry_main_v119_22_23 (c : Dev nD) : GenP.W23 m ρ c (Proc.devRef .tc main_v119) = GenP.W22 m ρ c (Proc.devRef .tc main_v119) :=
  step_main_v119_23 m ρ c
theorem step_main_v117_24 (c : Dev nD) : GenP.W24 m ρ c (Proc.devRef .tc main_v117) = GenP.W23 m ρ c (Proc.devRef .tc main_v117) :=
  host_keep hostOps9
theorem carry_main_v117_20_24 (c : Dev nD) : GenP.W24 m ρ c (Proc.devRef .tc main_v117) = GenP.W20 m ρ c (Proc.devRef .tc main_v117) :=
  (step_main_v117_24 m ρ c).trans ((step_main_v117_23 m ρ c).trans ((step_main_v117_22 m ρ c).trans ((step_main_v117_21 m ρ c))))
theorem step_main_v119_24 (c : Dev nD) : GenP.W24 m ρ c (Proc.devRef .tc main_v119) = GenP.W23 m ρ c (Proc.devRef .tc main_v119) :=
  host_keep hostOps9
theorem carry_main_v119_22_24 (c : Dev nD) : GenP.W24 m ρ c (Proc.devRef .tc main_v119) = GenP.W22 m ρ c (Proc.devRef .tc main_v119) :=
  (step_main_v119_24 m ρ c).trans ((step_main_v119_23 m ρ c))

/-! ## The arguments at the boundaries where they are read: the fold walked back to the launch memory -/

theorem step_main_arg0_1 (c : Dev nD) : GenP.W1 m ρ c (Proc.devRef .tc main_arg0) = GenP.W0 m ρ c (Proc.devRef .tc main_arg0) :=
  host_keep hostOps0
theorem step_main_arg0_2 (c : Dev nD) : GenP.W2 m ρ c (Proc.devRef .tc main_arg0) = GenP.W1 m ρ c (Proc.devRef .tc main_arg0) :=
  host_keep hostOps0_1
theorem step_main_arg0_3 (c : Dev nD) : GenP.W3 m ρ c (Proc.devRef .tc main_arg0) = GenP.W2 m ρ c (Proc.devRef .tc main_arg0) :=
  host_keep hostOps0_2
theorem step_main_arg0_4 (c : Dev nD) : GenP.W4 m ρ c (Proc.devRef .tc main_arg0) = GenP.W3 m ρ c (Proc.devRef .tc main_arg0) :=
  host_keep hostOps0_3
theorem step_main_arg0_5 (c : Dev nD) : GenP.W5 m ρ c (Proc.devRef .tc main_arg0) = GenP.W4 m ρ c (Proc.devRef .tc main_arg0) :=
  host_keep hostOps0_4
theorem step_main_arg0_6 (c : Dev nD) : GenP.W6 m ρ c (Proc.devRef .tc main_arg0) = GenP.W5 m ρ c (Proc.devRef .tc main_arg0) :=
  host_keep hostOps0_5
theorem step_main_arg0_7 (c : Dev nD) : GenP.W7 m ρ c (Proc.devRef .tc main_arg0) = GenP.W6 m ρ c (Proc.devRef .tc main_arg0) :=
  host_keep hostOps0_6
theorem arg0_at_W7 (c : Dev nD) : GenP.W7 m ρ c (Proc.devRef .tc main_arg0) = m ((c : Thread nD τ).loc main_arg0) :=
  (step_main_arg0_7 m ρ c).trans ((step_main_arg0_6 m ρ c).trans ((step_main_arg0_5 m ρ c).trans ((step_main_arg0_4 m ρ c).trans ((step_main_arg0_3 m ρ c).trans ((step_main_arg0_2 m ρ c).trans ((step_main_arg0_1 m ρ c).trans (rfl)))))))
theorem step_main_arg1_1 (c : Dev nD) : GenP.W1 m ρ c (Proc.devRef .tc main_arg1) = GenP.W0 m ρ c (Proc.devRef .tc main_arg1) :=
  host_keep hostOps0
theorem step_main_arg1_2 (c : Dev nD) : GenP.W2 m ρ c (Proc.devRef .tc main_arg1) = GenP.W1 m ρ c (Proc.devRef .tc main_arg1) :=
  host_keep hostOps0_1
theorem step_main_arg1_3 (c : Dev nD) : GenP.W3 m ρ c (Proc.devRef .tc main_arg1) = GenP.W2 m ρ c (Proc.devRef .tc main_arg1) :=
  host_keep hostOps0_2
theorem step_main_arg1_4 (c : Dev nD) : GenP.W4 m ρ c (Proc.devRef .tc main_arg1) = GenP.W3 m ρ c (Proc.devRef .tc main_arg1) :=
  host_keep hostOps0_3
theorem step_main_arg1_5 (c : Dev nD) : GenP.W5 m ρ c (Proc.devRef .tc main_arg1) = GenP.W4 m ρ c (Proc.devRef .tc main_arg1) :=
  host_keep hostOps0_4
theorem step_main_arg1_6 (c : Dev nD) : GenP.W6 m ρ c (Proc.devRef .tc main_arg1) = GenP.W5 m ρ c (Proc.devRef .tc main_arg1) :=
  host_keep hostOps0_5
theorem step_main_arg1_7 (c : Dev nD) : GenP.W7 m ρ c (Proc.devRef .tc main_arg1) = GenP.W6 m ρ c (Proc.devRef .tc main_arg1) :=
  host_keep hostOps0_6
theorem arg1_at_W7 (c : Dev nD) : GenP.W7 m ρ c (Proc.devRef .tc main_arg1) = m ((c : Thread nD τ).loc main_arg1) :=
  (step_main_arg1_7 m ρ c).trans ((step_main_arg1_6 m ρ c).trans ((step_main_arg1_5 m ρ c).trans ((step_main_arg1_4 m ρ c).trans ((step_main_arg1_3 m ρ c).trans ((step_main_arg1_2 m ρ c).trans ((step_main_arg1_1 m ρ c).trans (rfl)))))))
theorem step_main_arg2_1 (c : Dev nD) : GenP.W1 m ρ c (Proc.devRef .tc main_arg2) = GenP.W0 m ρ c (Proc.devRef .tc main_arg2) :=
  host_keep hostOps0
theorem step_main_arg2_2 (c : Dev nD) : GenP.W2 m ρ c (Proc.devRef .tc main_arg2) = GenP.W1 m ρ c (Proc.devRef .tc main_arg2) :=
  host_keep hostOps0_1
theorem step_main_arg2_3 (c : Dev nD) : GenP.W3 m ρ c (Proc.devRef .tc main_arg2) = GenP.W2 m ρ c (Proc.devRef .tc main_arg2) :=
  host_keep hostOps0_2
theorem step_main_arg2_4 (c : Dev nD) : GenP.W4 m ρ c (Proc.devRef .tc main_arg2) = GenP.W3 m ρ c (Proc.devRef .tc main_arg2) :=
  host_keep hostOps0_3
theorem step_main_arg2_5 (c : Dev nD) : GenP.W5 m ρ c (Proc.devRef .tc main_arg2) = GenP.W4 m ρ c (Proc.devRef .tc main_arg2) :=
  host_keep hostOps0_4
theorem step_main_arg2_6 (c : Dev nD) : GenP.W6 m ρ c (Proc.devRef .tc main_arg2) = GenP.W5 m ρ c (Proc.devRef .tc main_arg2) :=
  host_keep hostOps0_5
theorem step_main_arg2_7 (c : Dev nD) : GenP.W7 m ρ c (Proc.devRef .tc main_arg2) = GenP.W6 m ρ c (Proc.devRef .tc main_arg2) :=
  host_keep hostOps0_6
theorem arg2_at_W7 (c : Dev nD) : GenP.W7 m ρ c (Proc.devRef .tc main_arg2) = m ((c : Thread nD τ).loc main_arg2) :=
  (step_main_arg2_7 m ρ c).trans ((step_main_arg2_6 m ρ c).trans ((step_main_arg2_5 m ρ c).trans ((step_main_arg2_4 m ρ c).trans ((step_main_arg2_3 m ρ c).trans ((step_main_arg2_2 m ρ c).trans ((step_main_arg2_1 m ρ c).trans (rfl)))))))
theorem step_main_arg3_1 (c : Dev nD) : GenP.W1 m ρ c (Proc.devRef .tc main_arg3) = GenP.W0 m ρ c (Proc.devRef .tc main_arg3) :=
  host_keep hostOps0
theorem step_main_arg3_2 (c : Dev nD) : GenP.W2 m ρ c (Proc.devRef .tc main_arg3) = GenP.W1 m ρ c (Proc.devRef .tc main_arg3) :=
  host_keep hostOps0_1
theorem step_main_arg3_3 (c : Dev nD) : GenP.W3 m ρ c (Proc.devRef .tc main_arg3) = GenP.W2 m ρ c (Proc.devRef .tc main_arg3) :=
  host_keep hostOps0_2
theorem step_main_arg3_4 (c : Dev nD) : GenP.W4 m ρ c (Proc.devRef .tc main_arg3) = GenP.W3 m ρ c (Proc.devRef .tc main_arg3) :=
  host_keep hostOps0_3
theorem step_main_arg3_5 (c : Dev nD) : GenP.W5 m ρ c (Proc.devRef .tc main_arg3) = GenP.W4 m ρ c (Proc.devRef .tc main_arg3) :=
  host_keep hostOps0_4
theorem step_main_arg3_6 (c : Dev nD) : GenP.W6 m ρ c (Proc.devRef .tc main_arg3) = GenP.W5 m ρ c (Proc.devRef .tc main_arg3) :=
  host_keep hostOps0_5
theorem step_main_arg3_7 (c : Dev nD) : GenP.W7 m ρ c (Proc.devRef .tc main_arg3) = GenP.W6 m ρ c (Proc.devRef .tc main_arg3) :=
  host_keep hostOps0_6
theorem step_main_arg3_8 (c : Dev nD) : GenP.W8 m ρ c (Proc.devRef .tc main_arg3) = GenP.W7 m ρ c (Proc.devRef .tc main_arg3) :=
  (GenP.W8_arr m ρ c 2).trans (((GenP.dat0 (GenP.V7 m ρ) c).arrAt_in 2 rfl _).trans (GenP.A_eq0 (GenP.V7 m ρ) c 2))
theorem step_main_arg3_9 (c : Dev nD) : GenP.W9 m ρ c (Proc.devRef .tc main_arg3) = GenP.W8 m ρ c (Proc.devRef .tc main_arg3) :=
  host_keep hostOps1
theorem arg3_at_W7 (c : Dev nD) : GenP.W7 m ρ c (Proc.devRef .tc main_arg3) = m ((c : Thread nD τ).loc main_arg3) :=
  (step_main_arg3_7 m ρ c).trans ((step_main_arg3_6 m ρ c).trans ((step_main_arg3_5 m ρ c).trans ((step_main_arg3_4 m ρ c).trans ((step_main_arg3_3 m ρ c).trans ((step_main_arg3_2 m ρ c).trans ((step_main_arg3_1 m ρ c).trans (rfl)))))))
theorem arg3_at_W9 (c : Dev nD) : GenP.W9 m ρ c (Proc.devRef .tc main_arg3) = m ((c : Thread nD τ).loc main_arg3) :=
  (step_main_arg3_9 m ρ c).trans ((step_main_arg3_8 m ρ c).trans ((arg3_at_W7 m ρ c)))
theorem step_main_arg4_1 (c : Dev nD) : GenP.W1 m ρ c (Proc.devRef .tc main_arg4) = GenP.W0 m ρ c (Proc.devRef .tc main_arg4) :=
  host_keep hostOps0
theorem step_main_arg4_2 (c : Dev nD) : GenP.W2 m ρ c (Proc.devRef .tc main_arg4) = GenP.W1 m ρ c (Proc.devRef .tc main_arg4) :=
  host_keep hostOps0_1
theorem step_main_arg4_3 (c : Dev nD) : GenP.W3 m ρ c (Proc.devRef .tc main_arg4) = GenP.W2 m ρ c (Proc.devRef .tc main_arg4) :=
  host_keep hostOps0_2
theorem step_main_arg4_4 (c : Dev nD) : GenP.W4 m ρ c (Proc.devRef .tc main_arg4) = GenP.W3 m ρ c (Proc.devRef .tc main_arg4) :=
  host_keep hostOps0_3
theorem step_main_arg4_5 (c : Dev nD) : GenP.W5 m ρ c (Proc.devRef .tc main_arg4) = GenP.W4 m ρ c (Proc.devRef .tc main_arg4) :=
  host_keep hostOps0_4
theorem step_main_arg4_6 (c : Dev nD) : GenP.W6 m ρ c (Proc.devRef .tc main_arg4) = GenP.W5 m ρ c (Proc.devRef .tc main_arg4) :=
  host_keep hostOps0_5
theorem step_main_arg4_7 (c : Dev nD) : GenP.W7 m ρ c (Proc.devRef .tc main_arg4) = GenP.W6 m ρ c (Proc.devRef .tc main_arg4) :=
  host_keep hostOps0_6
theorem arg4_at_W7 (c : Dev nD) : GenP.W7 m ρ c (Proc.devRef .tc main_arg4) = m ((c : Thread nD τ).loc main_arg4) :=
  (step_main_arg4_7 m ρ c).trans ((step_main_arg4_6 m ρ c).trans ((step_main_arg4_5 m ρ c).trans ((step_main_arg4_4 m ρ c).trans ((step_main_arg4_3 m ρ c).trans ((step_main_arg4_2 m ρ c).trans ((step_main_arg4_1 m ρ c).trans (rfl)))))))
theorem step_main_arg5_1 (c : Dev nD) : GenP.W1 m ρ c (Proc.devRef .tc main_arg5) = GenP.W0 m ρ c (Proc.devRef .tc main_arg5) :=
  host_keep hostOps0
theorem step_main_arg5_2 (c : Dev nD) : GenP.W2 m ρ c (Proc.devRef .tc main_arg5) = GenP.W1 m ρ c (Proc.devRef .tc main_arg5) :=
  host_keep hostOps0_1
theorem step_main_arg5_3 (c : Dev nD) : GenP.W3 m ρ c (Proc.devRef .tc main_arg5) = GenP.W2 m ρ c (Proc.devRef .tc main_arg5) :=
  host_keep hostOps0_2
theorem step_main_arg5_4 (c : Dev nD) : GenP.W4 m ρ c (Proc.devRef .tc main_arg5) = GenP.W3 m ρ c (Proc.devRef .tc main_arg5) :=
  host_keep hostOps0_3
theorem step_main_arg5_5 (c : Dev nD) : GenP.W5 m ρ c (Proc.devRef .tc main_arg5) = GenP.W4 m ρ c (Proc.devRef .tc main_arg5) :=
  host_keep hostOps0_4
theorem step_main_arg5_6 (c : Dev nD) : GenP.W6 m ρ c (Proc.devRef .tc main_arg5) = GenP.W5 m ρ c (Proc.devRef .tc main_arg5) :=
  host_keep hostOps0_5
theorem step_main_arg5_7 (c : Dev nD) : GenP.W7 m ρ c (Proc.devRef .tc main_arg5) = GenP.W6 m ρ c (Proc.devRef .tc main_arg5) :=
  host_keep hostOps0_6
theorem step_main_arg5_8 (c : Dev nD) : GenP.W8 m ρ c (Proc.devRef .tc main_arg5) = GenP.W7 m ρ c (Proc.devRef .tc main_arg5) :=
  GenP.W8_of_ne m ρ c main_arg5 (by decide)
theorem arg5_at_W8 (c : Dev nD) : GenP.W8 m ρ c (Proc.devRef .tc main_arg5) = m ((c : Thread nD τ).loc main_arg5) :=
  (step_main_arg5_8 m ρ c).trans ((step_main_arg5_7 m ρ c).trans ((step_main_arg5_6 m ρ c).trans ((step_main_arg5_5 m ρ c).trans ((step_main_arg5_4 m ρ c).trans ((step_main_arg5_3 m ρ c).trans ((step_main_arg5_2 m ρ c).trans ((step_main_arg5_1 m ρ c).trans (rfl))))))))
theorem step_main_arg6_1 (c : Dev nD) : GenP.W1 m ρ c (Proc.devRef .tc main_arg6) = GenP.W0 m ρ c (Proc.devRef .tc main_arg6) :=
  host_keep hostOps0
theorem step_main_arg6_2 (c : Dev nD) : GenP.W2 m ρ c (Proc.devRef .tc main_arg6) = GenP.W1 m ρ c (Proc.devRef .tc main_arg6) :=
  host_keep hostOps0_1
theorem step_main_arg6_3 (c : Dev nD) : GenP.W3 m ρ c (Proc.devRef .tc main_arg6) = GenP.W2 m ρ c (Proc.devRef .tc main_arg6) :=
  host_keep hostOps0_2
theorem step_main_arg6_4 (c : Dev nD) : GenP.W4 m ρ c (Proc.devRef .tc main_arg6) = GenP.W3 m ρ c (Proc.devRef .tc main_arg6) :=
  host_keep hostOps0_3
theorem step_main_arg6_5 (c : Dev nD) : GenP.W5 m ρ c (Proc.devRef .tc main_arg6) = GenP.W4 m ρ c (Proc.devRef .tc main_arg6) :=
  host_keep hostOps0_4
theorem step_main_arg6_6 (c : Dev nD) : GenP.W6 m ρ c (Proc.devRef .tc main_arg6) = GenP.W5 m ρ c (Proc.devRef .tc main_arg6) :=
  host_keep hostOps0_5
theorem step_main_arg6_7 (c : Dev nD) : GenP.W7 m ρ c (Proc.devRef .tc main_arg6) = GenP.W6 m ρ c (Proc.devRef .tc main_arg6) :=
  host_keep hostOps0_6
theorem step_main_arg6_8 (c : Dev nD) : GenP.W8 m ρ c (Proc.devRef .tc main_arg6) = GenP.W7 m ρ c (Proc.devRef .tc main_arg6) :=
  GenP.W8_of_ne m ρ c main_arg6 (by decide)
theorem arg6_at_W8 (c : Dev nD) : GenP.W8 m ρ c (Proc.devRef .tc main_arg6) = m ((c : Thread nD τ).loc main_arg6) :=
  (step_main_arg6_8 m ρ c).trans ((step_main_arg6_7 m ρ c).trans ((step_main_arg6_6 m ρ c).trans ((step_main_arg6_5 m ρ c).trans ((step_main_arg6_4 m ρ c).trans ((step_main_arg6_3 m ρ c).trans ((step_main_arg6_2 m ρ c).trans ((step_main_arg6_1 m ρ c).trans (rfl))))))))
theorem step_main_arg7_1 (c : Dev nD) : GenP.W1 m ρ c (Proc.devRef .tc main_arg7) = GenP.W0 m ρ c (Proc.devRef .tc main_arg7) :=
  host_keep hostOps0
theorem step_main_arg7_2 (c : Dev nD) : GenP.W2 m ρ c (Proc.devRef .tc main_arg7) = GenP.W1 m ρ c (Proc.devRef .tc main_arg7) :=
  host_keep hostOps0_1
theorem step_main_arg7_3 (c : Dev nD) : GenP.W3 m ρ c (Proc.devRef .tc main_arg7) = GenP.W2 m ρ c (Proc.devRef .tc main_arg7) :=
  host_keep hostOps0_2
theorem step_main_arg7_4 (c : Dev nD) : GenP.W4 m ρ c (Proc.devRef .tc main_arg7) = GenP.W3 m ρ c (Proc.devRef .tc main_arg7) :=
  host_keep hostOps0_3
theorem step_main_arg7_5 (c : Dev nD) : GenP.W5 m ρ c (Proc.devRef .tc main_arg7) = GenP.W4 m ρ c (Proc.devRef .tc main_arg7) :=
  host_keep hostOps0_4
theorem step_main_arg7_6 (c : Dev nD) : GenP.W6 m ρ c (Proc.devRef .tc main_arg7) = GenP.W5 m ρ c (Proc.devRef .tc main_arg7) :=
  host_keep hostOps0_5
theorem step_main_arg7_7 (c : Dev nD) : GenP.W7 m ρ c (Proc.devRef .tc main_arg7) = GenP.W6 m ρ c (Proc.devRef .tc main_arg7) :=
  host_keep hostOps0_6
theorem step_main_arg7_8 (c : Dev nD) : GenP.W8 m ρ c (Proc.devRef .tc main_arg7) = GenP.W7 m ρ c (Proc.devRef .tc main_arg7) :=
  GenP.W8_of_ne m ρ c main_arg7 (by decide)
theorem step_main_arg7_9 (c : Dev nD) : GenP.W9 m ρ c (Proc.devRef .tc main_arg7) = GenP.W8 m ρ c (Proc.devRef .tc main_arg7) :=
  host_keep hostOps1
theorem arg7_at_W9 (c : Dev nD) : GenP.W9 m ρ c (Proc.devRef .tc main_arg7) = m ((c : Thread nD τ).loc main_arg7) :=
  (step_main_arg7_9 m ρ c).trans ((step_main_arg7_8 m ρ c).trans ((step_main_arg7_7 m ρ c).trans ((step_main_arg7_6 m ρ c).trans ((step_main_arg7_5 m ρ c).trans ((step_main_arg7_4 m ρ c).trans ((step_main_arg7_3 m ρ c).trans ((step_main_arg7_2 m ρ c).trans ((step_main_arg7_1 m ρ c).trans (rfl)))))))))
theorem step_main_arg8_1 (c : Dev nD) : GenP.W1 m ρ c (Proc.devRef .tc main_arg8) = GenP.W0 m ρ c (Proc.devRef .tc main_arg8) :=
  host_keep hostOps0
theorem step_main_arg8_2 (c : Dev nD) : GenP.W2 m ρ c (Proc.devRef .tc main_arg8) = GenP.W1 m ρ c (Proc.devRef .tc main_arg8) :=
  host_keep hostOps0_1
theorem step_main_arg8_3 (c : Dev nD) : GenP.W3 m ρ c (Proc.devRef .tc main_arg8) = GenP.W2 m ρ c (Proc.devRef .tc main_arg8) :=
  host_keep hostOps0_2
theorem step_main_arg8_4 (c : Dev nD) : GenP.W4 m ρ c (Proc.devRef .tc main_arg8) = GenP.W3 m ρ c (Proc.devRef .tc main_arg8) :=
  host_keep hostOps0_3
theorem step_main_arg8_5 (c : Dev nD) : GenP.W5 m ρ c (Proc.devRef .tc main_arg8) = GenP.W4 m ρ c (Proc.devRef .tc main_arg8) :=
  host_keep hostOps0_4
theorem step_main_arg8_6 (c : Dev nD) : GenP.W6 m ρ c (Proc.devRef .tc main_arg8) = GenP.W5 m ρ c (Proc.devRef .tc main_arg8) :=
  host_keep hostOps0_5
theorem step_main_arg8_7 (c : Dev nD) : GenP.W7 m ρ c (Proc.devRef .tc main_arg8) = GenP.W6 m ρ c (Proc.devRef .tc main_arg8) :=
  host_keep hostOps0_6
theorem step_main_arg8_8 (c : Dev nD) : GenP.W8 m ρ c (Proc.devRef .tc main_arg8) = GenP.W7 m ρ c (Proc.devRef .tc main_arg8) :=
  GenP.W8_of_ne m ρ c main_arg8 (by decide)
theorem arg8_at_W8 (c : Dev nD) : GenP.W8 m ρ c (Proc.devRef .tc main_arg8) = m ((c : Thread nD τ).loc main_arg8) :=
  (step_main_arg8_8 m ρ c).trans ((step_main_arg8_7 m ρ c).trans ((step_main_arg8_6 m ρ c).trans ((step_main_arg8_5 m ρ c).trans ((step_main_arg8_4 m ρ c).trans ((step_main_arg8_3 m ρ c).trans ((step_main_arg8_2 m ρ c).trans ((step_main_arg8_1 m ρ c).trans (rfl))))))))
theorem step_main_arg9_1 (c : Dev nD) : GenP.W1 m ρ c (Proc.devRef .tc main_arg9) = GenP.W0 m ρ c (Proc.devRef .tc main_arg9) :=
  host_keep hostOps0
theorem step_main_arg9_2 (c : Dev nD) : GenP.W2 m ρ c (Proc.devRef .tc main_arg9) = GenP.W1 m ρ c (Proc.devRef .tc main_arg9) :=
  host_keep hostOps0_1
theorem step_main_arg9_3 (c : Dev nD) : GenP.W3 m ρ c (Proc.devRef .tc main_arg9) = GenP.W2 m ρ c (Proc.devRef .tc main_arg9) :=
  host_keep hostOps0_2
theorem step_main_arg9_4 (c : Dev nD) : GenP.W4 m ρ c (Proc.devRef .tc main_arg9) = GenP.W3 m ρ c (Proc.devRef .tc main_arg9) :=
  host_keep hostOps0_3
theorem step_main_arg9_5 (c : Dev nD) : GenP.W5 m ρ c (Proc.devRef .tc main_arg9) = GenP.W4 m ρ c (Proc.devRef .tc main_arg9) :=
  host_keep hostOps0_4
theorem step_main_arg9_6 (c : Dev nD) : GenP.W6 m ρ c (Proc.devRef .tc main_arg9) = GenP.W5 m ρ c (Proc.devRef .tc main_arg9) :=
  host_keep hostOps0_5
theorem step_main_arg9_7 (c : Dev nD) : GenP.W7 m ρ c (Proc.devRef .tc main_arg9) = GenP.W6 m ρ c (Proc.devRef .tc main_arg9) :=
  host_keep hostOps0_6
theorem step_main_arg9_8 (c : Dev nD) : GenP.W8 m ρ c (Proc.devRef .tc main_arg9) = GenP.W7 m ρ c (Proc.devRef .tc main_arg9) :=
  GenP.W8_of_ne m ρ c main_arg9 (by decide)
theorem step_main_arg9_9 (c : Dev nD) : GenP.W9 m ρ c (Proc.devRef .tc main_arg9) = GenP.W8 m ρ c (Proc.devRef .tc main_arg9) :=
  host_keep hostOps1
theorem step_main_arg9_10 (c : Dev nD) : GenP.W10 m ρ c (Proc.devRef .tc main_arg9) = GenP.W9 m ρ c (Proc.devRef .tc main_arg9) :=
  GenP.W10_of_ne m ρ c main_arg9 (by decide)
theorem arg9_at_W10 (c : Dev nD) : GenP.W10 m ρ c (Proc.devRef .tc main_arg9) = m ((c : Thread nD τ).loc main_arg9) :=
  (step_main_arg9_10 m ρ c).trans ((step_main_arg9_9 m ρ c).trans ((step_main_arg9_8 m ρ c).trans ((step_main_arg9_7 m ρ c).trans ((step_main_arg9_6 m ρ c).trans ((step_main_arg9_5 m ρ c).trans ((step_main_arg9_4 m ρ c).trans ((step_main_arg9_3 m ρ c).trans ((step_main_arg9_2 m ρ c).trans ((step_main_arg9_1 m ρ c).trans (rfl))))))))))
theorem step_main_arg10_1 (c : Dev nD) : GenP.W1 m ρ c (Proc.devRef .tc main_arg10) = GenP.W0 m ρ c (Proc.devRef .tc main_arg10) :=
  host_keep hostOps0
theorem step_main_arg10_2 (c : Dev nD) : GenP.W2 m ρ c (Proc.devRef .tc main_arg10) = GenP.W1 m ρ c (Proc.devRef .tc main_arg10) :=
  host_keep hostOps0_1
theorem step_main_arg10_3 (c : Dev nD) : GenP.W3 m ρ c (Proc.devRef .tc main_arg10) = GenP.W2 m ρ c (Proc.devRef .tc main_arg10) :=
  host_keep hostOps0_2
theorem step_main_arg10_4 (c : Dev nD) : GenP.W4 m ρ c (Proc.devRef .tc main_arg10) = GenP.W3 m ρ c (Proc.devRef .tc main_arg10) :=
  host_keep hostOps0_3
theorem step_main_arg10_5 (c : Dev nD) : GenP.W5 m ρ c (Proc.devRef .tc main_arg10) = GenP.W4 m ρ c (Proc.devRef .tc main_arg10) :=
  host_keep hostOps0_4
theorem step_main_arg10_6 (c : Dev nD) : GenP.W6 m ρ c (Proc.devRef .tc main_arg10) = GenP.W5 m ρ c (Proc.devRef .tc main_arg10) :=
  host_keep hostOps0_5
theorem step_main_arg10_7 (c : Dev nD) : GenP.W7 m ρ c (Proc.devRef .tc main_arg10) = GenP.W6 m ρ c (Proc.devRef .tc main_arg10) :=
  host_keep hostOps0_6
theorem step_main_arg10_8 (c : Dev nD) : GenP.W8 m ρ c (Proc.devRef .tc main_arg10) = GenP.W7 m ρ c (Proc.devRef .tc main_arg10) :=
  GenP.W8_of_ne m ρ c main_arg10 (by decide)
theorem step_main_arg10_9 (c : Dev nD) : GenP.W9 m ρ c (Proc.devRef .tc main_arg10) = GenP.W8 m ρ c (Proc.devRef .tc main_arg10) :=
  host_keep hostOps1
theorem step_main_arg10_10 (c : Dev nD) : GenP.W10 m ρ c (Proc.devRef .tc main_arg10) = GenP.W9 m ρ c (Proc.devRef .tc main_arg10) :=
  GenP.W10_of_ne m ρ c main_arg10 (by decide)
theorem arg10_at_W10 (c : Dev nD) : GenP.W10 m ρ c (Proc.devRef .tc main_arg10) = m ((c : Thread nD τ).loc main_arg10) :=
  (step_main_arg10_10 m ρ c).trans ((step_main_arg10_9 m ρ c).trans ((step_main_arg10_8 m ρ c).trans ((step_main_arg10_7 m ρ c).trans ((step_main_arg10_6 m ρ c).trans ((step_main_arg10_5 m ρ c).trans ((step_main_arg10_4 m ρ c).trans ((step_main_arg10_3 m ρ c).trans ((step_main_arg10_2 m ρ c).trans ((step_main_arg10_1 m ρ c).trans (rfl))))))))))
theorem step_main_arg11_1 (c : Dev nD) : GenP.W1 m ρ c (Proc.devRef .tc main_arg11) = GenP.W0 m ρ c (Proc.devRef .tc main_arg11) :=
  host_keep hostOps0
theorem step_main_arg11_2 (c : Dev nD) : GenP.W2 m ρ c (Proc.devRef .tc main_arg11) = GenP.W1 m ρ c (Proc.devRef .tc main_arg11) :=
  host_keep hostOps0_1
theorem step_main_arg11_3 (c : Dev nD) : GenP.W3 m ρ c (Proc.devRef .tc main_arg11) = GenP.W2 m ρ c (Proc.devRef .tc main_arg11) :=
  host_keep hostOps0_2
theorem step_main_arg11_4 (c : Dev nD) : GenP.W4 m ρ c (Proc.devRef .tc main_arg11) = GenP.W3 m ρ c (Proc.devRef .tc main_arg11) :=
  host_keep hostOps0_3
theorem step_main_arg11_5 (c : Dev nD) : GenP.W5 m ρ c (Proc.devRef .tc main_arg11) = GenP.W4 m ρ c (Proc.devRef .tc main_arg11) :=
  host_keep hostOps0_4
theorem step_main_arg11_6 (c : Dev nD) : GenP.W6 m ρ c (Proc.devRef .tc main_arg11) = GenP.W5 m ρ c (Proc.devRef .tc main_arg11) :=
  host_keep hostOps0_5
theorem step_main_arg11_7 (c : Dev nD) : GenP.W7 m ρ c (Proc.devRef .tc main_arg11) = GenP.W6 m ρ c (Proc.devRef .tc main_arg11) :=
  host_keep hostOps0_6
theorem step_main_arg11_8 (c : Dev nD) : GenP.W8 m ρ c (Proc.devRef .tc main_arg11) = GenP.W7 m ρ c (Proc.devRef .tc main_arg11) :=
  GenP.W8_of_ne m ρ c main_arg11 (by decide)
theorem step_main_arg11_9 (c : Dev nD) : GenP.W9 m ρ c (Proc.devRef .tc main_arg11) = GenP.W8 m ρ c (Proc.devRef .tc main_arg11) :=
  host_keep hostOps1
theorem step_main_arg11_10 (c : Dev nD) : GenP.W10 m ρ c (Proc.devRef .tc main_arg11) = GenP.W9 m ρ c (Proc.devRef .tc main_arg11) :=
  GenP.W10_of_ne m ρ c main_arg11 (by decide)
theorem step_main_arg11_11 (c : Dev nD) : GenP.W11 m ρ c (Proc.devRef .tc main_arg11) = GenP.W10 m ρ c (Proc.devRef .tc main_arg11) :=
  host_keep hostOps2
theorem step_main_arg11_12 (c : Dev nD) : GenP.W12 m ρ c (Proc.devRef .tc main_arg11) = GenP.W11 m ρ c (Proc.devRef .tc main_arg11) :=
  GenP.W12_of_ne m ρ c main_arg11 (by decide)
theorem step_main_arg11_13 (c : Dev nD) : GenP.W13 m ρ c (Proc.devRef .tc main_arg11) = GenP.W12 m ρ c (Proc.devRef .tc main_arg11) :=
  host_keep hostOps3
theorem step_main_arg11_14 (c : Dev nD) : GenP.W14 m ρ c (Proc.devRef .tc main_arg11) = GenP.W13 m ρ c (Proc.devRef .tc main_arg11) :=
  (GenP.W14_arr m ρ c 2).trans (((GenP.dat3 (GenP.V13 m ρ) c).arrAt_in 2 rfl _).trans (GenP.A_eq3 (GenP.V13 m ρ) c 2))
theorem step_main_arg11_15 (c : Dev nD) : GenP.W15 m ρ c (Proc.devRef .tc main_arg11) = GenP.W14 m ρ c (Proc.devRef .tc main_arg11) :=
  host_keep hostOps4
theorem arg11_at_W13 (c : Dev nD) : GenP.W13 m ρ c (Proc.devRef .tc main_arg11) = m ((c : Thread nD τ).loc main_arg11) :=
  (step_main_arg11_13 m ρ c).trans ((step_main_arg11_12 m ρ c).trans ((step_main_arg11_11 m ρ c).trans ((step_main_arg11_10 m ρ c).trans ((step_main_arg11_9 m ρ c).trans ((step_main_arg11_8 m ρ c).trans ((step_main_arg11_7 m ρ c).trans ((step_main_arg11_6 m ρ c).trans ((step_main_arg11_5 m ρ c).trans ((step_main_arg11_4 m ρ c).trans ((step_main_arg11_3 m ρ c).trans ((step_main_arg11_2 m ρ c).trans ((step_main_arg11_1 m ρ c).trans (rfl)))))))))))))
theorem arg11_at_W15 (c : Dev nD) : GenP.W15 m ρ c (Proc.devRef .tc main_arg11) = m ((c : Thread nD τ).loc main_arg11) :=
  (step_main_arg11_15 m ρ c).trans ((step_main_arg11_14 m ρ c).trans ((arg11_at_W13 m ρ c)))
theorem step_main_arg12_1 (c : Dev nD) : GenP.W1 m ρ c (Proc.devRef .tc main_arg12) = GenP.W0 m ρ c (Proc.devRef .tc main_arg12) :=
  host_keep hostOps0
theorem step_main_arg12_2 (c : Dev nD) : GenP.W2 m ρ c (Proc.devRef .tc main_arg12) = GenP.W1 m ρ c (Proc.devRef .tc main_arg12) :=
  host_keep hostOps0_1
theorem step_main_arg12_3 (c : Dev nD) : GenP.W3 m ρ c (Proc.devRef .tc main_arg12) = GenP.W2 m ρ c (Proc.devRef .tc main_arg12) :=
  host_keep hostOps0_2
theorem step_main_arg12_4 (c : Dev nD) : GenP.W4 m ρ c (Proc.devRef .tc main_arg12) = GenP.W3 m ρ c (Proc.devRef .tc main_arg12) :=
  host_keep hostOps0_3
theorem step_main_arg12_5 (c : Dev nD) : GenP.W5 m ρ c (Proc.devRef .tc main_arg12) = GenP.W4 m ρ c (Proc.devRef .tc main_arg12) :=
  host_keep hostOps0_4
theorem step_main_arg12_6 (c : Dev nD) : GenP.W6 m ρ c (Proc.devRef .tc main_arg12) = GenP.W5 m ρ c (Proc.devRef .tc main_arg12) :=
  host_keep hostOps0_5
theorem step_main_arg12_7 (c : Dev nD) : GenP.W7 m ρ c (Proc.devRef .tc main_arg12) = GenP.W6 m ρ c (Proc.devRef .tc main_arg12) :=
  host_keep hostOps0_6
theorem step_main_arg12_8 (c : Dev nD) : GenP.W8 m ρ c (Proc.devRef .tc main_arg12) = GenP.W7 m ρ c (Proc.devRef .tc main_arg12) :=
  GenP.W8_of_ne m ρ c main_arg12 (by decide)
theorem step_main_arg12_9 (c : Dev nD) : GenP.W9 m ρ c (Proc.devRef .tc main_arg12) = GenP.W8 m ρ c (Proc.devRef .tc main_arg12) :=
  host_keep hostOps1
theorem step_main_arg12_10 (c : Dev nD) : GenP.W10 m ρ c (Proc.devRef .tc main_arg12) = GenP.W9 m ρ c (Proc.devRef .tc main_arg12) :=
  GenP.W10_of_ne m ρ c main_arg12 (by decide)
theorem step_main_arg12_11 (c : Dev nD) : GenP.W11 m ρ c (Proc.devRef .tc main_arg12) = GenP.W10 m ρ c (Proc.devRef .tc main_arg12) :=
  host_keep hostOps2
theorem step_main_arg12_12 (c : Dev nD) : GenP.W12 m ρ c (Proc.devRef .tc main_arg12) = GenP.W11 m ρ c (Proc.devRef .tc main_arg12) :=
  GenP.W12_of_ne m ρ c main_arg12 (by decide)
theorem arg12_at_W12 (c : Dev nD) : GenP.W12 m ρ c (Proc.devRef .tc main_arg12) = m ((c : Thread nD τ).loc main_arg12) :=
  (step_main_arg12_12 m ρ c).trans ((step_main_arg12_11 m ρ c).trans ((step_main_arg12_10 m ρ c).trans ((step_main_arg12_9 m ρ c).trans ((step_main_arg12_8 m ρ c).trans ((step_main_arg12_7 m ρ c).trans ((step_main_arg12_6 m ρ c).trans ((step_main_arg12_5 m ρ c).trans ((step_main_arg12_4 m ρ c).trans ((step_main_arg12_3 m ρ c).trans ((step_main_arg12_2 m ρ c).trans ((step_main_arg12_1 m ρ c).trans (rfl))))))))))))
theorem step_main_arg13_1 (c : Dev nD) : GenP.W1 m ρ c (Proc.devRef .tc main_arg13) = GenP.W0 m ρ c (Proc.devRef .tc main_arg13) :=
  host_keep hostOps0
theorem step_main_arg13_2 (c : Dev nD) : GenP.W2 m ρ c (Proc.devRef .tc main_arg13) = GenP.W1 m ρ c (Proc.devRef .tc main_arg13) :=
  host_keep hostOps0_1
theorem step_main_arg13_3 (c : Dev nD) : GenP.W3 m ρ c (Proc.devRef .tc main_arg13) = GenP.W2 m ρ c (Proc.devRef .tc main_arg13) :=
  host_keep hostOps0_2
theorem step_main_arg13_4 (c : Dev nD) : GenP.W4 m ρ c (Proc.devRef .tc main_arg13) = GenP.W3 m ρ c (Proc.devRef .tc main_arg13) :=
  host_keep hostOps0_3
theorem step_main_arg13_5 (c : Dev nD) : GenP.W5 m ρ c (Proc.devRef .tc main_arg13) = GenP.W4 m ρ c (Proc.devRef .tc main_arg13) :=
  host_keep hostOps0_4
theorem step_main_arg13_6 (c : Dev nD) : GenP.W6 m ρ c (Proc.devRef .tc main_arg13) = GenP.W5 m ρ c (Proc.devRef .tc main_arg13) :=
  host_keep hostOps0_5
theorem step_main_arg13_7 (c : Dev nD) : GenP.W7 m ρ c (Proc.devRef .tc main_arg13) = GenP.W6 m ρ c (Proc.devRef .tc main_arg13) :=
  host_keep hostOps0_6
theorem step_main_arg13_8 (c : Dev nD) : GenP.W8 m ρ c (Proc.devRef .tc main_arg13) = GenP.W7 m ρ c (Proc.devRef .tc main_arg13) :=
  GenP.W8_of_ne m ρ c main_arg13 (by decide)
theorem step_main_arg13_9 (c : Dev nD) : GenP.W9 m ρ c (Proc.devRef .tc main_arg13) = GenP.W8 m ρ c (Proc.devRef .tc main_arg13) :=
  host_keep hostOps1
theorem step_main_arg13_10 (c : Dev nD) : GenP.W10 m ρ c (Proc.devRef .tc main_arg13) = GenP.W9 m ρ c (Proc.devRef .tc main_arg13) :=
  GenP.W10_of_ne m ρ c main_arg13 (by decide)
theorem step_main_arg13_11 (c : Dev nD) : GenP.W11 m ρ c (Proc.devRef .tc main_arg13) = GenP.W10 m ρ c (Proc.devRef .tc main_arg13) :=
  host_keep hostOps2
theorem step_main_arg13_12 (c : Dev nD) : GenP.W12 m ρ c (Proc.devRef .tc main_arg13) = GenP.W11 m ρ c (Proc.devRef .tc main_arg13) :=
  GenP.W12_of_ne m ρ c main_arg13 (by decide)
theorem step_main_arg13_13 (c : Dev nD) : GenP.W13 m ρ c (Proc.devRef .tc main_arg13) = GenP.W12 m ρ c (Proc.devRef .tc main_arg13) :=
  host_keep hostOps3
theorem step_main_arg13_14 (c : Dev nD) : GenP.W14 m ρ c (Proc.devRef .tc main_arg13) = GenP.W13 m ρ c (Proc.devRef .tc main_arg13) :=
  GenP.W14_of_ne m ρ c main_arg13 (by decide)
theorem arg13_at_W14 (c : Dev nD) : GenP.W14 m ρ c (Proc.devRef .tc main_arg13) = m ((c : Thread nD τ).loc main_arg13) :=
  (step_main_arg13_14 m ρ c).trans ((step_main_arg13_13 m ρ c).trans ((step_main_arg13_12 m ρ c).trans ((step_main_arg13_11 m ρ c).trans ((step_main_arg13_10 m ρ c).trans ((step_main_arg13_9 m ρ c).trans ((step_main_arg13_8 m ρ c).trans ((step_main_arg13_7 m ρ c).trans ((step_main_arg13_6 m ρ c).trans ((step_main_arg13_5 m ρ c).trans ((step_main_arg13_4 m ρ c).trans ((step_main_arg13_3 m ρ c).trans ((step_main_arg13_2 m ρ c).trans ((step_main_arg13_1 m ρ c).trans (rfl))))))))))))))
theorem step_main_arg14_1 (c : Dev nD) : GenP.W1 m ρ c (Proc.devRef .tc main_arg14) = GenP.W0 m ρ c (Proc.devRef .tc main_arg14) :=
  host_keep hostOps0
theorem step_main_arg14_2 (c : Dev nD) : GenP.W2 m ρ c (Proc.devRef .tc main_arg14) = GenP.W1 m ρ c (Proc.devRef .tc main_arg14) :=
  host_keep hostOps0_1
theorem step_main_arg14_3 (c : Dev nD) : GenP.W3 m ρ c (Proc.devRef .tc main_arg14) = GenP.W2 m ρ c (Proc.devRef .tc main_arg14) :=
  host_keep hostOps0_2
theorem step_main_arg14_4 (c : Dev nD) : GenP.W4 m ρ c (Proc.devRef .tc main_arg14) = GenP.W3 m ρ c (Proc.devRef .tc main_arg14) :=
  host_keep hostOps0_3
theorem step_main_arg14_5 (c : Dev nD) : GenP.W5 m ρ c (Proc.devRef .tc main_arg14) = GenP.W4 m ρ c (Proc.devRef .tc main_arg14) :=
  host_keep hostOps0_4
theorem step_main_arg14_6 (c : Dev nD) : GenP.W6 m ρ c (Proc.devRef .tc main_arg14) = GenP.W5 m ρ c (Proc.devRef .tc main_arg14) :=
  host_keep hostOps0_5
theorem step_main_arg14_7 (c : Dev nD) : GenP.W7 m ρ c (Proc.devRef .tc main_arg14) = GenP.W6 m ρ c (Proc.devRef .tc main_arg14) :=
  host_keep hostOps0_6
theorem step_main_arg14_8 (c : Dev nD) : GenP.W8 m ρ c (Proc.devRef .tc main_arg14) = GenP.W7 m ρ c (Proc.devRef .tc main_arg14) :=
  GenP.W8_of_ne m ρ c main_arg14 (by decide)
theorem step_main_arg14_9 (c : Dev nD) : GenP.W9 m ρ c (Proc.devRef .tc main_arg14) = GenP.W8 m ρ c (Proc.devRef .tc main_arg14) :=
  host_keep hostOps1
theorem step_main_arg14_10 (c : Dev nD) : GenP.W10 m ρ c (Proc.devRef .tc main_arg14) = GenP.W9 m ρ c (Proc.devRef .tc main_arg14) :=
  GenP.W10_of_ne m ρ c main_arg14 (by decide)
theorem step_main_arg14_11 (c : Dev nD) : GenP.W11 m ρ c (Proc.devRef .tc main_arg14) = GenP.W10 m ρ c (Proc.devRef .tc main_arg14) :=
  host_keep hostOps2
theorem step_main_arg14_12 (c : Dev nD) : GenP.W12 m ρ c (Proc.devRef .tc main_arg14) = GenP.W11 m ρ c (Proc.devRef .tc main_arg14) :=
  GenP.W12_of_ne m ρ c main_arg14 (by decide)
theorem step_main_arg14_13 (c : Dev nD) : GenP.W13 m ρ c (Proc.devRef .tc main_arg14) = GenP.W12 m ρ c (Proc.devRef .tc main_arg14) :=
  host_keep hostOps3
theorem step_main_arg14_14 (c : Dev nD) : GenP.W14 m ρ c (Proc.devRef .tc main_arg14) = GenP.W13 m ρ c (Proc.devRef .tc main_arg14) :=
  GenP.W14_of_ne m ρ c main_arg14 (by decide)
theorem arg14_at_W14 (c : Dev nD) : GenP.W14 m ρ c (Proc.devRef .tc main_arg14) = m ((c : Thread nD τ).loc main_arg14) :=
  (step_main_arg14_14 m ρ c).trans ((step_main_arg14_13 m ρ c).trans ((step_main_arg14_12 m ρ c).trans ((step_main_arg14_11 m ρ c).trans ((step_main_arg14_10 m ρ c).trans ((step_main_arg14_9 m ρ c).trans ((step_main_arg14_8 m ρ c).trans ((step_main_arg14_7 m ρ c).trans ((step_main_arg14_6 m ρ c).trans ((step_main_arg14_5 m ρ c).trans ((step_main_arg14_4 m ρ c).trans ((step_main_arg14_3 m ρ c).trans ((step_main_arg14_2 m ρ c).trans ((step_main_arg14_1 m ρ c).trans (rfl))))))))))))))
theorem step_main_arg15_1 (c : Dev nD) : GenP.W1 m ρ c (Proc.devRef .tc main_arg15) = GenP.W0 m ρ c (Proc.devRef .tc main_arg15) :=
  host_keep hostOps0
theorem step_main_arg15_2 (c : Dev nD) : GenP.W2 m ρ c (Proc.devRef .tc main_arg15) = GenP.W1 m ρ c (Proc.devRef .tc main_arg15) :=
  host_keep hostOps0_1
theorem step_main_arg15_3 (c : Dev nD) : GenP.W3 m ρ c (Proc.devRef .tc main_arg15) = GenP.W2 m ρ c (Proc.devRef .tc main_arg15) :=
  host_keep hostOps0_2
theorem step_main_arg15_4 (c : Dev nD) : GenP.W4 m ρ c (Proc.devRef .tc main_arg15) = GenP.W3 m ρ c (Proc.devRef .tc main_arg15) :=
  host_keep hostOps0_3
theorem step_main_arg15_5 (c : Dev nD) : GenP.W5 m ρ c (Proc.devRef .tc main_arg15) = GenP.W4 m ρ c (Proc.devRef .tc main_arg15) :=
  host_keep hostOps0_4
theorem step_main_arg15_6 (c : Dev nD) : GenP.W6 m ρ c (Proc.devRef .tc main_arg15) = GenP.W5 m ρ c (Proc.devRef .tc main_arg15) :=
  host_keep hostOps0_5
theorem step_main_arg15_7 (c : Dev nD) : GenP.W7 m ρ c (Proc.devRef .tc main_arg15) = GenP.W6 m ρ c (Proc.devRef .tc main_arg15) :=
  host_keep hostOps0_6
theorem step_main_arg15_8 (c : Dev nD) : GenP.W8 m ρ c (Proc.devRef .tc main_arg15) = GenP.W7 m ρ c (Proc.devRef .tc main_arg15) :=
  GenP.W8_of_ne m ρ c main_arg15 (by decide)
theorem step_main_arg15_9 (c : Dev nD) : GenP.W9 m ρ c (Proc.devRef .tc main_arg15) = GenP.W8 m ρ c (Proc.devRef .tc main_arg15) :=
  host_keep hostOps1
theorem step_main_arg15_10 (c : Dev nD) : GenP.W10 m ρ c (Proc.devRef .tc main_arg15) = GenP.W9 m ρ c (Proc.devRef .tc main_arg15) :=
  GenP.W10_of_ne m ρ c main_arg15 (by decide)
theorem step_main_arg15_11 (c : Dev nD) : GenP.W11 m ρ c (Proc.devRef .tc main_arg15) = GenP.W10 m ρ c (Proc.devRef .tc main_arg15) :=
  host_keep hostOps2
theorem step_main_arg15_12 (c : Dev nD) : GenP.W12 m ρ c (Proc.devRef .tc main_arg15) = GenP.W11 m ρ c (Proc.devRef .tc main_arg15) :=
  GenP.W12_of_ne m ρ c main_arg15 (by decide)
theorem step_main_arg15_13 (c : Dev nD) : GenP.W13 m ρ c (Proc.devRef .tc main_arg15) = GenP.W12 m ρ c (Proc.devRef .tc main_arg15) :=
  host_keep hostOps3
theorem step_main_arg15_14 (c : Dev nD) : GenP.W14 m ρ c (Proc.devRef .tc main_arg15) = GenP.W13 m ρ c (Proc.devRef .tc main_arg15) :=
  GenP.W14_of_ne m ρ c main_arg15 (by decide)
theorem step_main_arg15_15 (c : Dev nD) : GenP.W15 m ρ c (Proc.devRef .tc main_arg15) = GenP.W14 m ρ c (Proc.devRef .tc main_arg15) :=
  host_keep hostOps4
theorem arg15_at_W15 (c : Dev nD) : GenP.W15 m ρ c (Proc.devRef .tc main_arg15) = m ((c : Thread nD τ).loc main_arg15) :=
  (step_main_arg15_15 m ρ c).trans ((step_main_arg15_14 m ρ c).trans ((step_main_arg15_13 m ρ c).trans ((step_main_arg15_12 m ρ c).trans ((step_main_arg15_11 m ρ c).trans ((step_main_arg15_10 m ρ c).trans ((step_main_arg15_9 m ρ c).trans ((step_main_arg15_8 m ρ c).trans ((step_main_arg15_7 m ρ c).trans ((step_main_arg15_6 m ρ c).trans ((step_main_arg15_5 m ρ c).trans ((step_main_arg15_4 m ρ c).trans ((step_main_arg15_3 m ρ c).trans ((step_main_arg15_2 m ρ c).trans ((step_main_arg15_1 m ρ c).trans (rfl)))))))))))))))
theorem step_main_arg16_1 (c : Dev nD) : GenP.W1 m ρ c (Proc.devRef .tc main_arg16) = GenP.W0 m ρ c (Proc.devRef .tc main_arg16) :=
  host_keep hostOps0
theorem step_main_arg16_2 (c : Dev nD) : GenP.W2 m ρ c (Proc.devRef .tc main_arg16) = GenP.W1 m ρ c (Proc.devRef .tc main_arg16) :=
  host_keep hostOps0_1
theorem step_main_arg16_3 (c : Dev nD) : GenP.W3 m ρ c (Proc.devRef .tc main_arg16) = GenP.W2 m ρ c (Proc.devRef .tc main_arg16) :=
  host_keep hostOps0_2
theorem step_main_arg16_4 (c : Dev nD) : GenP.W4 m ρ c (Proc.devRef .tc main_arg16) = GenP.W3 m ρ c (Proc.devRef .tc main_arg16) :=
  host_keep hostOps0_3
theorem step_main_arg16_5 (c : Dev nD) : GenP.W5 m ρ c (Proc.devRef .tc main_arg16) = GenP.W4 m ρ c (Proc.devRef .tc main_arg16) :=
  host_keep hostOps0_4
theorem step_main_arg16_6 (c : Dev nD) : GenP.W6 m ρ c (Proc.devRef .tc main_arg16) = GenP.W5 m ρ c (Proc.devRef .tc main_arg16) :=
  host_keep hostOps0_5
theorem step_main_arg16_7 (c : Dev nD) : GenP.W7 m ρ c (Proc.devRef .tc main_arg16) = GenP.W6 m ρ c (Proc.devRef .tc main_arg16) :=
  host_keep hostOps0_6
theorem step_main_arg16_8 (c : Dev nD) : GenP.W8 m ρ c (Proc.devRef .tc main_arg16) = GenP.W7 m ρ c (Proc.devRef .tc main_arg16) :=
  GenP.W8_of_ne m ρ c main_arg16 (by decide)
theorem step_main_arg16_9 (c : Dev nD) : GenP.W9 m ρ c (Proc.devRef .tc main_arg16) = GenP.W8 m ρ c (Proc.devRef .tc main_arg16) :=
  host_keep hostOps1
theorem step_main_arg16_10 (c : Dev nD) : GenP.W10 m ρ c (Proc.devRef .tc main_arg16) = GenP.W9 m ρ c (Proc.devRef .tc main_arg16) :=
  GenP.W10_of_ne m ρ c main_arg16 (by decide)
theorem step_main_arg16_11 (c : Dev nD) : GenP.W11 m ρ c (Proc.devRef .tc main_arg16) = GenP.W10 m ρ c (Proc.devRef .tc main_arg16) :=
  host_keep hostOps2
theorem step_main_arg16_12 (c : Dev nD) : GenP.W12 m ρ c (Proc.devRef .tc main_arg16) = GenP.W11 m ρ c (Proc.devRef .tc main_arg16) :=
  GenP.W12_of_ne m ρ c main_arg16 (by decide)
theorem step_main_arg16_13 (c : Dev nD) : GenP.W13 m ρ c (Proc.devRef .tc main_arg16) = GenP.W12 m ρ c (Proc.devRef .tc main_arg16) :=
  host_keep hostOps3
theorem step_main_arg16_14 (c : Dev nD) : GenP.W14 m ρ c (Proc.devRef .tc main_arg16) = GenP.W13 m ρ c (Proc.devRef .tc main_arg16) :=
  GenP.W14_of_ne m ρ c main_arg16 (by decide)
theorem arg16_at_W14 (c : Dev nD) : GenP.W14 m ρ c (Proc.devRef .tc main_arg16) = m ((c : Thread nD τ).loc main_arg16) :=
  (step_main_arg16_14 m ρ c).trans ((step_main_arg16_13 m ρ c).trans ((step_main_arg16_12 m ρ c).trans ((step_main_arg16_11 m ρ c).trans ((step_main_arg16_10 m ρ c).trans ((step_main_arg16_9 m ρ c).trans ((step_main_arg16_8 m ρ c).trans ((step_main_arg16_7 m ρ c).trans ((step_main_arg16_6 m ρ c).trans ((step_main_arg16_5 m ρ c).trans ((step_main_arg16_4 m ρ c).trans ((step_main_arg16_3 m ρ c).trans ((step_main_arg16_2 m ρ c).trans ((step_main_arg16_1 m ρ c).trans (rfl))))))))))))))
theorem step_main_arg17_1 (c : Dev nD) : GenP.W1 m ρ c (Proc.devRef .tc main_arg17) = GenP.W0 m ρ c (Proc.devRef .tc main_arg17) :=
  host_keep hostOps0
theorem step_main_arg17_2 (c : Dev nD) : GenP.W2 m ρ c (Proc.devRef .tc main_arg17) = GenP.W1 m ρ c (Proc.devRef .tc main_arg17) :=
  host_keep hostOps0_1
theorem step_main_arg17_3 (c : Dev nD) : GenP.W3 m ρ c (Proc.devRef .tc main_arg17) = GenP.W2 m ρ c (Proc.devRef .tc main_arg17) :=
  host_keep hostOps0_2
theorem step_main_arg17_4 (c : Dev nD) : GenP.W4 m ρ c (Proc.devRef .tc main_arg17) = GenP.W3 m ρ c (Proc.devRef .tc main_arg17) :=
  host_keep hostOps0_3
theorem step_main_arg17_5 (c : Dev nD) : GenP.W5 m ρ c (Proc.devRef .tc main_arg17) = GenP.W4 m ρ c (Proc.devRef .tc main_arg17) :=
  host_keep hostOps0_4
theorem step_main_arg17_6 (c : Dev nD) : GenP.W6 m ρ c (Proc.devRef .tc main_arg17) = GenP.W5 m ρ c (Proc.devRef .tc main_arg17) :=
  host_keep hostOps0_5
theorem step_main_arg17_7 (c : Dev nD) : GenP.W7 m ρ c (Proc.devRef .tc main_arg17) = GenP.W6 m ρ c (Proc.devRef .tc main_arg17) :=
  host_keep hostOps0_6
theorem step_main_arg17_8 (c : Dev nD) : GenP.W8 m ρ c (Proc.devRef .tc main_arg17) = GenP.W7 m ρ c (Proc.devRef .tc main_arg17) :=
  GenP.W8_of_ne m ρ c main_arg17 (by decide)
theorem step_main_arg17_9 (c : Dev nD) : GenP.W9 m ρ c (Proc.devRef .tc main_arg17) = GenP.W8 m ρ c (Proc.devRef .tc main_arg17) :=
  host_keep hostOps1
theorem step_main_arg17_10 (c : Dev nD) : GenP.W10 m ρ c (Proc.devRef .tc main_arg17) = GenP.W9 m ρ c (Proc.devRef .tc main_arg17) :=
  GenP.W10_of_ne m ρ c main_arg17 (by decide)
theorem step_main_arg17_11 (c : Dev nD) : GenP.W11 m ρ c (Proc.devRef .tc main_arg17) = GenP.W10 m ρ c (Proc.devRef .tc main_arg17) :=
  host_keep hostOps2
theorem step_main_arg17_12 (c : Dev nD) : GenP.W12 m ρ c (Proc.devRef .tc main_arg17) = GenP.W11 m ρ c (Proc.devRef .tc main_arg17) :=
  GenP.W12_of_ne m ρ c main_arg17 (by decide)
theorem step_main_arg17_13 (c : Dev nD) : GenP.W13 m ρ c (Proc.devRef .tc main_arg17) = GenP.W12 m ρ c (Proc.devRef .tc main_arg17) :=
  host_keep hostOps3
theorem step_main_arg17_14 (c : Dev nD) : GenP.W14 m ρ c (Proc.devRef .tc main_arg17) = GenP.W13 m ρ c (Proc.devRef .tc main_arg17) :=
  GenP.W14_of_ne m ρ c main_arg17 (by decide)
theorem step_main_arg17_15 (c : Dev nD) : GenP.W15 m ρ c (Proc.devRef .tc main_arg17) = GenP.W14 m ρ c (Proc.devRef .tc main_arg17) :=
  host_keep hostOps4
theorem step_main_arg17_16 (c : Dev nD) : GenP.W16 m ρ c (Proc.devRef .tc main_arg17) = GenP.W15 m ρ c (Proc.devRef .tc main_arg17) :=
  GenP.W16_of_ne m ρ c main_arg17 (by decide)
theorem arg17_at_W16 (c : Dev nD) : GenP.W16 m ρ c (Proc.devRef .tc main_arg17) = m ((c : Thread nD τ).loc main_arg17) :=
  (step_main_arg17_16 m ρ c).trans ((step_main_arg17_15 m ρ c).trans ((step_main_arg17_14 m ρ c).trans ((step_main_arg17_13 m ρ c).trans ((step_main_arg17_12 m ρ c).trans ((step_main_arg17_11 m ρ c).trans ((step_main_arg17_10 m ρ c).trans ((step_main_arg17_9 m ρ c).trans ((step_main_arg17_8 m ρ c).trans ((step_main_arg17_7 m ρ c).trans ((step_main_arg17_6 m ρ c).trans ((step_main_arg17_5 m ρ c).trans ((step_main_arg17_4 m ρ c).trans ((step_main_arg17_3 m ρ c).trans ((step_main_arg17_2 m ρ c).trans ((step_main_arg17_1 m ρ c).trans (rfl))))))))))))))))
theorem step_main_arg18_1 (c : Dev nD) : GenP.W1 m ρ c (Proc.devRef .tc main_arg18) = GenP.W0 m ρ c (Proc.devRef .tc main_arg18) :=
  host_keep hostOps0
theorem step_main_arg18_2 (c : Dev nD) : GenP.W2 m ρ c (Proc.devRef .tc main_arg18) = GenP.W1 m ρ c (Proc.devRef .tc main_arg18) :=
  host_keep hostOps0_1
theorem step_main_arg18_3 (c : Dev nD) : GenP.W3 m ρ c (Proc.devRef .tc main_arg18) = GenP.W2 m ρ c (Proc.devRef .tc main_arg18) :=
  host_keep hostOps0_2
theorem step_main_arg18_4 (c : Dev nD) : GenP.W4 m ρ c (Proc.devRef .tc main_arg18) = GenP.W3 m ρ c (Proc.devRef .tc main_arg18) :=
  host_keep hostOps0_3
theorem step_main_arg18_5 (c : Dev nD) : GenP.W5 m ρ c (Proc.devRef .tc main_arg18) = GenP.W4 m ρ c (Proc.devRef .tc main_arg18) :=
  host_keep hostOps0_4
theorem step_main_arg18_6 (c : Dev nD) : GenP.W6 m ρ c (Proc.devRef .tc main_arg18) = GenP.W5 m ρ c (Proc.devRef .tc main_arg18) :=
  host_keep hostOps0_5
theorem step_main_arg18_7 (c : Dev nD) : GenP.W7 m ρ c (Proc.devRef .tc main_arg18) = GenP.W6 m ρ c (Proc.devRef .tc main_arg18) :=
  host_keep hostOps0_6
theorem step_main_arg18_8 (c : Dev nD) : GenP.W8 m ρ c (Proc.devRef .tc main_arg18) = GenP.W7 m ρ c (Proc.devRef .tc main_arg18) :=
  GenP.W8_of_ne m ρ c main_arg18 (by decide)
theorem step_main_arg18_9 (c : Dev nD) : GenP.W9 m ρ c (Proc.devRef .tc main_arg18) = GenP.W8 m ρ c (Proc.devRef .tc main_arg18) :=
  host_keep hostOps1
theorem step_main_arg18_10 (c : Dev nD) : GenP.W10 m ρ c (Proc.devRef .tc main_arg18) = GenP.W9 m ρ c (Proc.devRef .tc main_arg18) :=
  GenP.W10_of_ne m ρ c main_arg18 (by decide)
theorem step_main_arg18_11 (c : Dev nD) : GenP.W11 m ρ c (Proc.devRef .tc main_arg18) = GenP.W10 m ρ c (Proc.devRef .tc main_arg18) :=
  host_keep hostOps2
theorem step_main_arg18_12 (c : Dev nD) : GenP.W12 m ρ c (Proc.devRef .tc main_arg18) = GenP.W11 m ρ c (Proc.devRef .tc main_arg18) :=
  GenP.W12_of_ne m ρ c main_arg18 (by decide)
theorem step_main_arg18_13 (c : Dev nD) : GenP.W13 m ρ c (Proc.devRef .tc main_arg18) = GenP.W12 m ρ c (Proc.devRef .tc main_arg18) :=
  host_keep hostOps3
theorem step_main_arg18_14 (c : Dev nD) : GenP.W14 m ρ c (Proc.devRef .tc main_arg18) = GenP.W13 m ρ c (Proc.devRef .tc main_arg18) :=
  GenP.W14_of_ne m ρ c main_arg18 (by decide)
theorem step_main_arg18_15 (c : Dev nD) : GenP.W15 m ρ c (Proc.devRef .tc main_arg18) = GenP.W14 m ρ c (Proc.devRef .tc main_arg18) :=
  host_keep hostOps4
theorem step_main_arg18_16 (c : Dev nD) : GenP.W16 m ρ c (Proc.devRef .tc main_arg18) = GenP.W15 m ρ c (Proc.devRef .tc main_arg18) :=
  GenP.W16_of_ne m ρ c main_arg18 (by decide)
theorem arg18_at_W16 (c : Dev nD) : GenP.W16 m ρ c (Proc.devRef .tc main_arg18) = m ((c : Thread nD τ).loc main_arg18) :=
  (step_main_arg18_16 m ρ c).trans ((step_main_arg18_15 m ρ c).trans ((step_main_arg18_14 m ρ c).trans ((step_main_arg18_13 m ρ c).trans ((step_main_arg18_12 m ρ c).trans ((step_main_arg18_11 m ρ c).trans ((step_main_arg18_10 m ρ c).trans ((step_main_arg18_9 m ρ c).trans ((step_main_arg18_8 m ρ c).trans ((step_main_arg18_7 m ρ c).trans ((step_main_arg18_6 m ρ c).trans ((step_main_arg18_5 m ρ c).trans ((step_main_arg18_4 m ρ c).trans ((step_main_arg18_3 m ρ c).trans ((step_main_arg18_2 m ρ c).trans ((step_main_arg18_1 m ρ c).trans (rfl))))))))))))))))

/-! ## The readout's arguments: from the final memory walked back through the last four stretches -/

theorem step_main_arg19_24 (c : Dev nD) : GenP.W24 m ρ c (Proc.devRef .tc main_arg19) = GenP.W23 m ρ c (Proc.devRef .tc main_arg19) :=
  host_keep hostOps9
theorem step_main_arg19_25 (c : Dev nD) : GenP.W25 m ρ c (Proc.devRef .tc main_arg19) = GenP.W24 m ρ c (Proc.devRef .tc main_arg19) :=
  host_keep hostOps9_1
theorem step_main_arg19_26 (c : Dev nD) : GenP.W26 m ρ c (Proc.devRef .tc main_arg19) = GenP.W25 m ρ c (Proc.devRef .tc main_arg19) :=
  host_keep hostOps9_2
theorem step_main_arg19_27 (c : Dev nD) : GenP.W27 m ρ c (Proc.devRef .tc main_arg19) = GenP.W26 m ρ c (Proc.devRef .tc main_arg19) :=
  host_keep hostOps9_3
theorem arg19_at_W26 (c : Dev nD) : GenP.W26 m ρ c (Proc.devRef .tc main_arg19) = m ((c : Thread nD τ).loc main_arg19) :=
  (step_main_arg19_27 m ρ c).symm.trans (GenP.W27_main_arg19 m ρ c)
theorem arg19_at_W25 (c : Dev nD) : GenP.W25 m ρ c (Proc.devRef .tc main_arg19) = m ((c : Thread nD τ).loc main_arg19) :=
  (step_main_arg19_26 m ρ c).symm.trans (arg19_at_W26 m ρ c)
theorem arg19_at_W24 (c : Dev nD) : GenP.W24 m ρ c (Proc.devRef .tc main_arg19) = m ((c : Thread nD τ).loc main_arg19) :=
  (step_main_arg19_25 m ρ c).symm.trans (arg19_at_W25 m ρ c)
theorem arg19_at_W23 (c : Dev nD) : GenP.W23 m ρ c (Proc.devRef .tc main_arg19) = m ((c : Thread nD τ).loc main_arg19) :=
  (step_main_arg19_24 m ρ c).symm.trans (arg19_at_W24 m ρ c)
theorem step_main_arg20_24 (c : Dev nD) : GenP.W24 m ρ c (Proc.devRef .tc main_arg20) = GenP.W23 m ρ c (Proc.devRef .tc main_arg20) :=
  host_keep hostOps9
theorem step_main_arg20_25 (c : Dev nD) : GenP.W25 m ρ c (Proc.devRef .tc main_arg20) = GenP.W24 m ρ c (Proc.devRef .tc main_arg20) :=
  host_keep hostOps9_1
theorem step_main_arg20_26 (c : Dev nD) : GenP.W26 m ρ c (Proc.devRef .tc main_arg20) = GenP.W25 m ρ c (Proc.devRef .tc main_arg20) :=
  host_keep hostOps9_2
theorem step_main_arg20_27 (c : Dev nD) : GenP.W27 m ρ c (Proc.devRef .tc main_arg20) = GenP.W26 m ρ c (Proc.devRef .tc main_arg20) :=
  host_keep hostOps9_3
theorem arg20_at_W26 (c : Dev nD) : GenP.W26 m ρ c (Proc.devRef .tc main_arg20) = m ((c : Thread nD τ).loc main_arg20) :=
  (step_main_arg20_27 m ρ c).symm.trans (GenP.W27_main_arg20 m ρ c)
theorem arg20_at_W25 (c : Dev nD) : GenP.W25 m ρ c (Proc.devRef .tc main_arg20) = m ((c : Thread nD τ).loc main_arg20) :=
  (step_main_arg20_26 m ρ c).symm.trans (arg20_at_W26 m ρ c)
theorem arg20_at_W24 (c : Dev nD) : GenP.W24 m ρ c (Proc.devRef .tc main_arg20) = m ((c : Thread nD τ).loc main_arg20) :=
  (step_main_arg20_25 m ρ c).symm.trans (arg20_at_W25 m ρ c)
theorem arg20_at_W23 (c : Dev nD) : GenP.W23 m ρ c (Proc.devRef .tc main_arg20) = m ((c : Thread nD τ).loc main_arg20) :=
  (step_main_arg20_24 m ρ c).symm.trans (arg20_at_W24 m ρ c)
theorem step_main_arg21_24 (c : Dev nD) : GenP.W24 m ρ c (Proc.devRef .tc main_arg21) = GenP.W23 m ρ c (Proc.devRef .tc main_arg21) :=
  host_keep hostOps9
theorem step_main_arg21_25 (c : Dev nD) : GenP.W25 m ρ c (Proc.devRef .tc main_arg21) = GenP.W24 m ρ c (Proc.devRef .tc main_arg21) :=
  host_keep hostOps9_1
theorem step_main_arg21_26 (c : Dev nD) : GenP.W26 m ρ c (Proc.devRef .tc main_arg21) = GenP.W25 m ρ c (Proc.devRef .tc main_arg21) :=
  host_keep hostOps9_2
theorem step_main_arg21_27 (c : Dev nD) : GenP.W27 m ρ c (Proc.devRef .tc main_arg21) = GenP.W26 m ρ c (Proc.devRef .tc main_arg21) :=
  host_keep hostOps9_3
theorem arg21_at_W26 (c : Dev nD) : GenP.W26 m ρ c (Proc.devRef .tc main_arg21) = m ((c : Thread nD τ).loc main_arg21) :=
  (step_main_arg21_27 m ρ c).symm.trans (GenP.W27_main_arg21 m ρ c)
theorem arg21_at_W25 (c : Dev nD) : GenP.W25 m ρ c (Proc.devRef .tc main_arg21) = m ((c : Thread nD τ).loc main_arg21) :=
  (step_main_arg21_26 m ρ c).symm.trans (arg21_at_W26 m ρ c)
theorem arg21_at_W24 (c : Dev nD) : GenP.W24 m ρ c (Proc.devRef .tc main_arg21) = m ((c : Thread nD τ).loc main_arg21) :=
  (step_main_arg21_25 m ρ c).symm.trans (arg21_at_W25 m ρ c)
theorem arg21_at_W23 (c : Dev nD) : GenP.W23 m ρ c (Proc.devRef .tc main_arg21) = m ((c : Thread nD τ).loc main_arg21) :=
  (step_main_arg21_24 m ρ c).symm.trans (arg21_at_W24 m ρ c)
theorem step_main_arg22_24 (c : Dev nD) : GenP.W24 m ρ c (Proc.devRef .tc main_arg22) = GenP.W23 m ρ c (Proc.devRef .tc main_arg22) :=
  host_keep hostOps9
theorem step_main_arg22_25 (c : Dev nD) : GenP.W25 m ρ c (Proc.devRef .tc main_arg22) = GenP.W24 m ρ c (Proc.devRef .tc main_arg22) :=
  host_keep hostOps9_1
theorem step_main_arg22_26 (c : Dev nD) : GenP.W26 m ρ c (Proc.devRef .tc main_arg22) = GenP.W25 m ρ c (Proc.devRef .tc main_arg22) :=
  host_keep hostOps9_2
theorem step_main_arg22_27 (c : Dev nD) : GenP.W27 m ρ c (Proc.devRef .tc main_arg22) = GenP.W26 m ρ c (Proc.devRef .tc main_arg22) :=
  host_keep hostOps9_3
theorem arg22_at_W26 (c : Dev nD) : GenP.W26 m ρ c (Proc.devRef .tc main_arg22) = m ((c : Thread nD τ).loc main_arg22) :=
  (step_main_arg22_27 m ρ c).symm.trans (GenP.W27_main_arg22 m ρ c)
theorem arg22_at_W25 (c : Dev nD) : GenP.W25 m ρ c (Proc.devRef .tc main_arg22) = m ((c : Thread nD τ).loc main_arg22) :=
  (step_main_arg22_26 m ρ c).symm.trans (arg22_at_W26 m ρ c)
theorem arg22_at_W24 (c : Dev nD) : GenP.W24 m ρ c (Proc.devRef .tc main_arg22) = m ((c : Thread nD τ).loc main_arg22) :=
  (step_main_arg22_25 m ρ c).symm.trans (arg22_at_W25 m ρ c)
theorem arg22_at_W23 (c : Dev nD) : GenP.W23 m ρ c (Proc.devRef .tc main_arg22) = m ((c : Thread nD τ).loc main_arg22) :=
  (step_main_arg22_24 m ρ c).symm.trans (arg22_at_W24 m ρ c)
theorem step_main_arg23_24 (c : Dev nD) : GenP.W24 m ρ c (Proc.devRef .tc main_arg23) = GenP.W23 m ρ c (Proc.devRef .tc main_arg23) :=
  host_keep hostOps9
theorem step_main_arg23_25 (c : Dev nD) : GenP.W25 m ρ c (Proc.devRef .tc main_arg23) = GenP.W24 m ρ c (Proc.devRef .tc main_arg23) :=
  host_keep hostOps9_1
theorem step_main_arg23_26 (c : Dev nD) : GenP.W26 m ρ c (Proc.devRef .tc main_arg23) = GenP.W25 m ρ c (Proc.devRef .tc main_arg23) :=
  host_keep hostOps9_2
theorem step_main_arg23_27 (c : Dev nD) : GenP.W27 m ρ c (Proc.devRef .tc main_arg23) = GenP.W26 m ρ c (Proc.devRef .tc main_arg23) :=
  host_keep hostOps9_3
theorem arg23_at_W26 (c : Dev nD) : GenP.W26 m ρ c (Proc.devRef .tc main_arg23) = m ((c : Thread nD τ).loc main_arg23) :=
  (step_main_arg23_27 m ρ c).symm.trans (GenP.W27_main_arg23 m ρ c)
theorem arg23_at_W25 (c : Dev nD) : GenP.W25 m ρ c (Proc.devRef .tc main_arg23) = m ((c : Thread nD τ).loc main_arg23) :=
  (step_main_arg23_26 m ρ c).symm.trans (arg23_at_W26 m ρ c)
theorem arg23_at_W24 (c : Dev nD) : GenP.W24 m ρ c (Proc.devRef .tc main_arg23) = m ((c : Thread nD τ).loc main_arg23) :=
  (step_main_arg23_25 m ρ c).symm.trans (arg23_at_W25 m ρ c)
theorem arg23_at_W23 (c : Dev nD) : GenP.W23 m ρ c (Proc.devRef .tc main_arg23) = m ((c : Thread nD τ).loc main_arg23) :=
  (step_main_arg23_24 m ρ c).symm.trans (arg23_at_W24 m ρ c)
theorem step_main_arg24_24 (c : Dev nD) : GenP.W24 m ρ c (Proc.devRef .tc main_arg24) = GenP.W23 m ρ c (Proc.devRef .tc main_arg24) :=
  host_keep hostOps9
theorem step_main_arg24_25 (c : Dev nD) : GenP.W25 m ρ c (Proc.devRef .tc main_arg24) = GenP.W24 m ρ c (Proc.devRef .tc main_arg24) :=
  host_keep hostOps9_1
theorem step_main_arg24_26 (c : Dev nD) : GenP.W26 m ρ c (Proc.devRef .tc main_arg24) = GenP.W25 m ρ c (Proc.devRef .tc main_arg24) :=
  host_keep hostOps9_2
theorem step_main_arg24_27 (c : Dev nD) : GenP.W27 m ρ c (Proc.devRef .tc main_arg24) = GenP.W26 m ρ c (Proc.devRef .tc main_arg24) :=
  host_keep hostOps9_3
theorem arg24_at_W26 (c : Dev nD) : GenP.W26 m ρ c (Proc.devRef .tc main_arg24) = m ((c : Thread nD τ).loc main_arg24) :=
  (step_main_arg24_27 m ρ c).symm.trans (GenP.W27_main_arg24 m ρ c)
theorem arg24_at_W25 (c : Dev nD) : GenP.W25 m ρ c (Proc.devRef .tc main_arg24) = m ((c : Thread nD τ).loc main_arg24) :=
  (step_main_arg24_26 m ρ c).symm.trans (arg24_at_W26 m ρ c)
theorem arg24_at_W24 (c : Dev nD) : GenP.W24 m ρ c (Proc.devRef .tc main_arg24) = m ((c : Thread nD τ).loc main_arg24) :=
  (step_main_arg24_25 m ρ c).symm.trans (arg24_at_W25 m ρ c)
theorem arg24_at_W23 (c : Dev nD) : GenP.W23 m ρ c (Proc.devRef .tc main_arg24) = m ((c : Thread nD τ).loc main_arg24) :=
  (step_main_arg24_24 m ρ c).symm.trans (arg24_at_W24 m ρ c)
theorem step_main_arg25_24 (c : Dev nD) : GenP.W24 m ρ c (Proc.devRef .tc main_arg25) = GenP.W23 m ρ c (Proc.devRef .tc main_arg25) :=
  host_keep hostOps9
theorem step_main_arg25_25 (c : Dev nD) : GenP.W25 m ρ c (Proc.devRef .tc main_arg25) = GenP.W24 m ρ c (Proc.devRef .tc main_arg25) :=
  host_keep hostOps9_1
theorem step_main_arg25_26 (c : Dev nD) : GenP.W26 m ρ c (Proc.devRef .tc main_arg25) = GenP.W25 m ρ c (Proc.devRef .tc main_arg25) :=
  host_keep hostOps9_2
theorem step_main_arg25_27 (c : Dev nD) : GenP.W27 m ρ c (Proc.devRef .tc main_arg25) = GenP.W26 m ρ c (Proc.devRef .tc main_arg25) :=
  host_keep hostOps9_3
theorem arg25_at_W26 (c : Dev nD) : GenP.W26 m ρ c (Proc.devRef .tc main_arg25) = m ((c : Thread nD τ).loc main_arg25) :=
  (step_main_arg25_27 m ρ c).symm.trans (GenP.W27_main_arg25 m ρ c)
theorem arg25_at_W25 (c : Dev nD) : GenP.W25 m ρ c (Proc.devRef .tc main_arg25) = m ((c : Thread nD τ).loc main_arg25) :=
  (step_main_arg25_26 m ρ c).symm.trans (arg25_at_W26 m ρ c)
theorem arg25_at_W24 (c : Dev nD) : GenP.W24 m ρ c (Proc.devRef .tc main_arg25) = m ((c : Thread nD τ).loc main_arg25) :=
  (step_main_arg25_25 m ρ c).symm.trans (arg25_at_W25 m ρ c)
theorem arg25_at_W23 (c : Dev nD) : GenP.W23 m ρ c (Proc.devRef .tc main_arg25) = m ((c : Thread nD τ).loc main_arg25) :=
  (step_main_arg25_24 m ρ c).symm.trans (arg25_at_W24 m ρ c)
theorem step_main_arg26_24 (c : Dev nD) : GenP.W24 m ρ c (Proc.devRef .tc main_arg26) = GenP.W23 m ρ c (Proc.devRef .tc main_arg26) :=
  host_keep hostOps9
theorem step_main_arg26_25 (c : Dev nD) : GenP.W25 m ρ c (Proc.devRef .tc main_arg26) = GenP.W24 m ρ c (Proc.devRef .tc main_arg26) :=
  host_keep hostOps9_1
theorem step_main_arg26_26 (c : Dev nD) : GenP.W26 m ρ c (Proc.devRef .tc main_arg26) = GenP.W25 m ρ c (Proc.devRef .tc main_arg26) :=
  host_keep hostOps9_2
theorem step_main_arg26_27 (c : Dev nD) : GenP.W27 m ρ c (Proc.devRef .tc main_arg26) = GenP.W26 m ρ c (Proc.devRef .tc main_arg26) :=
  host_keep hostOps9_3
theorem arg26_at_W26 (c : Dev nD) : GenP.W26 m ρ c (Proc.devRef .tc main_arg26) = m ((c : Thread nD τ).loc main_arg26) :=
  (step_main_arg26_27 m ρ c).symm.trans (GenP.W27_main_arg26 m ρ c)
theorem arg26_at_W25 (c : Dev nD) : GenP.W25 m ρ c (Proc.devRef .tc main_arg26) = m ((c : Thread nD τ).loc main_arg26) :=
  (step_main_arg26_26 m ρ c).symm.trans (arg26_at_W26 m ρ c)
theorem arg26_at_W24 (c : Dev nD) : GenP.W24 m ρ c (Proc.devRef .tc main_arg26) = m ((c : Thread nD τ).loc main_arg26) :=
  (step_main_arg26_25 m ρ c).symm.trans (arg26_at_W25 m ρ c)
theorem arg26_at_W23 (c : Dev nD) : GenP.W23 m ρ c (Proc.devRef .tc main_arg26) = m ((c : Thread nD τ).loc main_arg26) :=
  (step_main_arg26_24 m ρ c).symm.trans (arg26_at_W24 m ρ c)
theorem step_main_arg27_24 (c : Dev nD) : GenP.W24 m ρ c (Proc.devRef .tc main_arg27) = GenP.W23 m ρ c (Proc.devRef .tc main_arg27) :=
  host_keep hostOps9
theorem step_main_arg27_25 (c : Dev nD) : GenP.W25 m ρ c (Proc.devRef .tc main_arg27) = GenP.W24 m ρ c (Proc.devRef .tc main_arg27) :=
  host_keep hostOps9_1
theorem step_main_arg27_26 (c : Dev nD) : GenP.W26 m ρ c (Proc.devRef .tc main_arg27) = GenP.W25 m ρ c (Proc.devRef .tc main_arg27) :=
  host_keep hostOps9_2
theorem step_main_arg27_27 (c : Dev nD) : GenP.W27 m ρ c (Proc.devRef .tc main_arg27) = GenP.W26 m ρ c (Proc.devRef .tc main_arg27) :=
  host_keep hostOps9_3
theorem arg27_at_W26 (c : Dev nD) : GenP.W26 m ρ c (Proc.devRef .tc main_arg27) = m ((c : Thread nD τ).loc main_arg27) :=
  (step_main_arg27_27 m ρ c).symm.trans (GenP.W27_main_arg27 m ρ c)
theorem arg27_at_W25 (c : Dev nD) : GenP.W25 m ρ c (Proc.devRef .tc main_arg27) = m ((c : Thread nD τ).loc main_arg27) :=
  (step_main_arg27_26 m ρ c).symm.trans (arg27_at_W26 m ρ c)
theorem arg27_at_W24 (c : Dev nD) : GenP.W24 m ρ c (Proc.devRef .tc main_arg27) = m ((c : Thread nD τ).loc main_arg27) :=
  (step_main_arg27_25 m ρ c).symm.trans (arg27_at_W25 m ρ c)
theorem arg27_at_W23 (c : Dev nD) : GenP.W23 m ρ c (Proc.devRef .tc main_arg27) = m ((c : Thread nD τ).loc main_arg27) :=
  (step_main_arg27_24 m ρ c).symm.trans (arg27_at_W24 m ρ c)
theorem step_main_arg28_24 (c : Dev nD) : GenP.W24 m ρ c (Proc.devRef .tc main_arg28) = GenP.W23 m ρ c (Proc.devRef .tc main_arg28) :=
  host_keep hostOps9
theorem step_main_arg28_25 (c : Dev nD) : GenP.W25 m ρ c (Proc.devRef .tc main_arg28) = GenP.W24 m ρ c (Proc.devRef .tc main_arg28) :=
  host_keep hostOps9_1
theorem step_main_arg28_26 (c : Dev nD) : GenP.W26 m ρ c (Proc.devRef .tc main_arg28) = GenP.W25 m ρ c (Proc.devRef .tc main_arg28) :=
  host_keep hostOps9_2
theorem step_main_arg28_27 (c : Dev nD) : GenP.W27 m ρ c (Proc.devRef .tc main_arg28) = GenP.W26 m ρ c (Proc.devRef .tc main_arg28) :=
  host_keep hostOps9_3
theorem arg28_at_W26 (c : Dev nD) : GenP.W26 m ρ c (Proc.devRef .tc main_arg28) = m ((c : Thread nD τ).loc main_arg28) :=
  (step_main_arg28_27 m ρ c).symm.trans (GenP.W27_main_arg28 m ρ c)
theorem arg28_at_W25 (c : Dev nD) : GenP.W25 m ρ c (Proc.devRef .tc main_arg28) = m ((c : Thread nD τ).loc main_arg28) :=
  (step_main_arg28_26 m ρ c).symm.trans (arg28_at_W26 m ρ c)
theorem arg28_at_W24 (c : Dev nD) : GenP.W24 m ρ c (Proc.devRef .tc main_arg28) = m ((c : Thread nD τ).loc main_arg28) :=
  (step_main_arg28_25 m ρ c).symm.trans (arg28_at_W25 m ρ c)
theorem arg28_at_W23 (c : Dev nD) : GenP.W23 m ρ c (Proc.devRef .tc main_arg28) = m ((c : Thread nD τ).loc main_arg28) :=
  (step_main_arg28_24 m ρ c).symm.trans (arg28_at_W24 m ρ c)

end Cert.KCarry
-- ==== Proof.KernelValue.lean ====
/-
  The kernel program's two results are the network's two heads: its final buffers hold `pi` and `vf` of the real inputs
  its argument arrays hold, whenever every edge's source word is a node's number.
-/
import proofs.«403050_j67860483276910_3_alg».proof.Proof.KernelIdealFrame
import proofs.«403050_j67860483276910_3_alg».proof.Proof.Inputs
import proofs.«403050_j67860483276910_3_alg».proof.Proof.KHost0
import proofs.«403050_j67860483276910_3_alg».proof.Proof.KAgg
import proofs.«403050_j67860483276910_3_alg».proof.Proof.KStats
import proofs.«403050_j67860483276910_3_alg».proof.Proof.KStats2
import proofs.«403050_j67860483276910_3_alg».proof.Proof.KBody
import proofs.«403050_j67860483276910_3_alg».proof.Proof.KBody2
import proofs.«403050_j67860483276910_3_alg».proof.Proof.KAffine
import proofs.«403050_j67860483276910_3_alg».proof.Proof.KPool
import proofs.«403050_j67860483276910_3_alg».proof.Proof.KHeads
import proofs.«403050_j67860483276910_3_alg».proof.Proof.KCarry

noncomputable section

namespace Cert.KernelValue

open Idealize.ShloMosaic Idealize.ShloMosaic.TcCoe Idealize.ShloMosaic.ValueIdx Idealize.SL.Sem
open Cert.KernelIdeal Cert.KernelIdeal.Gen Cert.KernelIdeal.GenP Cert.Lift

variable (m : (ℓ : Loc nD τ sig) → Buf (Elt Ideal) ℓ) (ρ : Dev nD → PrngReg) (c : Dev nD)

/-- The kernel program's argument arrays on core `c`, by number. -/
abbrev arg (b : Ref sig .tc) := m ((c : Thread nD τ).loc b)

theorem results (I : Inputs)
    (hI : I.Holds (m ((c : Thread nD τ).loc main_arg0)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16))
      (m ((c : Thread nD τ).loc main_arg17)) (m ((c : Thread nD τ).loc main_arg18)) (m ((c : Thread nD τ).loc main_arg19))
      (m ((c : Thread nD τ).loc main_arg20)) (m ((c : Thread nD τ).loc main_arg21)) (m ((c : Thread nD τ).loc main_arg22))
      (m ((c : Thread nD τ).loc main_arg23)) (m ((c : Thread nD τ).loc main_arg24)) (m ((c : Thread nD τ).loc main_arg25))
      (m ((c : Thread nD τ).loc main_arg26)) (m ((c : Thread nD τ).loc main_arg27)) (m ((c : Thread nD τ).loc main_arg28)))
    (hsrc : SrcInRange 100000 (m ((c : Thread nD τ).loc main_arg1))) :
    Mat (W27 m ρ c (Proc.devRef .tc main_v144))
        (I.pi (m ((c : Thread nD τ).loc main_arg1)) (m ((c : Thread nD τ).loc main_arg2)))
      ∧ Mat (W27 m ρ c (Proc.devRef .tc main_v150))
        (I.vf (m ((c : Thread nD τ).loc main_arg1)) (m ((c : Thread nD τ).loc main_arg2))) := by
  obtain ⟨h0, h3, h4, h5, h6, h7, h8, h9, h10, h11, h12, h13, h14, h15, h16, h17, h18, h19, h20, h21, h22, h23, h24, h25, h26,
    h27, h28⟩ := hI
  -- the prologue: the edge list sorted by destination is a permutation of the edge list; the padded features; the
  -- first neighbour sum; the first bias as a row
  obtain ⟨σ, hσ⟩ := KHost0.sorted_edges m ρ c
  have hx7 : Rows (W7 m ρ c (Proc.devRef .tc main_v19) : S100352x4.Idx → EReal) I.x := KHost0.xpad_rows m ρ c I.x h0
  have ha7 : Rows (W7 m ρ c (Proc.devRef .tc main_v31) : S100352x4.Idx → EReal) (Spec.agg (Inputs.src (m ((c : Thread nD τ).loc main_arg1))) (Inputs.dst (m ((c : Thread nD τ).loc main_arg1))) I.x) :=
    KAgg.agg1 m ρ c σ
      (fun e => by rw [← KCarry.carry_main_v11_6_7 m ρ c, ← KCarry.carry_main_v18_6_7 m ρ c]; exact hσ e) hsrc h0
  have hb7 : Row1 (W7 m ρ c (Proc.devRef .tc main_v32) : S1x64.Idx → EReal) I.c1b1 := KHost0.b1_row m ρ c I.c1b1 h4
  -- layer 1: the inner statistics, the layer's body with the outer statistics, the outer normalisation
  obtain ⟨hsc9, hsh9⟩ := KStats.stats1 m ρ c hx7 ha7 (by rw [KCarry.arg3_at_W7 m ρ c]; exact h3) hb7
    (by rw [KCarry.arg5_at_W8 m ρ c]; exact h5) (by rw [KCarry.arg6_at_W8 m ρ c]; exact h6)
  have hb2_9 : Row1 (W9 m ρ c (Proc.devRef .tc main_v50) : S1x64.Idx → EReal) I.c1b2 := KStats.b2_row m ρ c (by rw [KCarry.arg8_at_W8 m ρ c]; exact h8)
  obtain ⟨hZ10, hso11, hsho11⟩ :
      Rows (W10 m ρ c (Proc.devRef .tc main_v51_0) : S100352x64.Idx → EReal) (I.Z1 (m ((c : Thread nD τ).loc main_arg1)))
      ∧ Row1 (W11 m ρ c (Proc.devRef .tc main_v64) : S1x64.Idx → EReal) (Spec.scale LibSums.eps (I.Z1 (m ((c : Thread nD τ).loc main_arg1))) I.bn1g)
      ∧ Row1 (W11 m ρ c (Proc.devRef .tc main_v67) : S1x64.Idx → EReal) (Spec.shift LibSums.eps (I.Z1 (m ((c : Thread nD τ).loc main_arg1))) I.bn1g I.bn1b) :=
    KBody.body1 m ρ c
      (by rw [KCarry.carry_main_v19_7_9 m ρ c]; exact hx7) (by rw [KCarry.carry_main_v31_7_9 m ρ c]; exact ha7)
      (by rw [KCarry.arg3_at_W9 m ρ c]; exact h3) (by rw [KCarry.carry_main_v32_7_9 m ρ c]; exact hb7) hsc9 hsh9
      (by rw [KCarry.arg7_at_W9 m ρ c]; exact h7) hb2_9
      (by rw [KCarry.arg9_at_W10 m ρ c]; exact h9) (by rw [KCarry.arg10_at_W10 m ρ c]; exact h10)
  have hH12 : Rows (W12 m ρ c (Proc.devRef .tc main_v68) : S100352x64.Idx → EReal) (I.H1 (m ((c : Thread nD τ).loc main_arg1))) :=
    KAffine.affine1 m ρ c (I.Z1 (m ((c : Thread nD τ).loc main_arg1))) I.bn1g I.bn1b (by rw [KCarry.carry_main_v51_0_10_11 m ρ c]; exact hZ10) hso11 hsho11
  -- layer 2, on the first layer's output
  have ha13 : Rows (W13 m ρ c (Proc.devRef .tc main_v78) : S100352x64.Idx → EReal) (Spec.agg (Inputs.src (m ((c : Thread nD τ).loc main_arg1))) (Inputs.dst (m ((c : Thread nD τ).loc main_arg1))) (I.H1 (m ((c : Thread nD τ).loc main_arg1)))) :=
    KAgg.agg2 m ρ c σ
      (fun e => by rw [KCarry.carry_main_v11_7_12 m ρ c, KCarry.carry_main_v18_7_12 m ρ c]; exact hσ e) hsrc hH12
  have hb13 : Row1 (W13 m ρ c (Proc.devRef .tc main_v79) : S1x64.Idx → EReal) I.c2b1 := KAgg.b1_row2 m ρ c (by rw [KCarry.arg12_at_W12 m ρ c]; exact h12)
  have hH13 : Rows (W13 m ρ c (Proc.devRef .tc main_v68) : S100352x64.Idx → EReal) (I.H1 (m ((c : Thread nD τ).loc main_arg1))) := by rw [KCarry.carry_main_v68_12_13 m ρ c]; exact hH12
  obtain ⟨hsc15, hsh15⟩ := KStats2.stats2 m ρ c hH13 ha13 (by rw [KCarry.arg11_at_W13 m ρ c]; exact h11) hb13
    (by rw [KCarry.arg13_at_W14 m ρ c]; exact h13) (by rw [KCarry.arg14_at_W14 m ρ c]; exact h14)
  have hb2_15 : Row1 (W15 m ρ c (Proc.devRef .tc main_v97) : S1x64.Idx → EReal) I.c2b2 := KStats2.b2_row2 m ρ c (by rw [KCarry.arg16_at_W14 m ρ c]; exact h16)
  obtain ⟨hZ16, hso17, hsho17⟩ :
      Rows (W16 m ρ c (Proc.devRef .tc main_v98_0) : S100352x64.Idx → EReal) (I.Z2 (m ((c : Thread nD τ).loc main_arg1)))
      ∧ Row1 (W17 m ρ c (Proc.devRef .tc main_v111) : S1x64.Idx → EReal) (Spec.scale LibSums.eps (I.Z2 (m ((c : Thread nD τ).loc main_arg1))) I.bn2g)
      ∧ Row1 (W17 m ρ c (Proc.devRef .tc main_v114) : S1x64.Idx → EReal) (Spec.shift LibSums.eps (I.Z2 (m ((c : Thread nD τ).loc main_arg1))) I.bn2g I.bn2b) :=
    KBody2.body2 m ρ c
      (by rw [KCarry.carry_main_v68_12_15 m ρ c]; exact hH12) (by rw [KCarry.carry_main_v78_13_15 m ρ c]; exact ha13)
      (by rw [KCarry.arg11_at_W15 m ρ c]; exact h11) (by rw [KCarry.carry_main_v79_13_15 m ρ c]; exact hb13) hsc15 hsh15
      (by rw [KCarry.arg15_at_W15 m ρ c]; exact h15) hb2_15
      (by rw [KCarry.arg17_at_W16 m ρ c]; exact h17) (by rw [KCarry.arg18_at_W16 m ρ c]; exact h18)
  have hH18 : Rows (W18 m ρ c (Proc.devRef .tc main_v115) : S100352x64.Idx → EReal) (I.H2 (m ((c : Thread nD τ).loc main_arg1))) :=
    KAffine.affine2 m ρ c (I.Z2 (m ((c : Thread nD τ).loc main_arg1))) I.bn2g I.bn2b (by rw [KCarry.carry_main_v98_0_16_17 m ρ c]; exact hZ16) hso17 hsho17
  -- the three per-graph sums
  have hpx20 : Mat (W20 m ρ c (Proc.devRef .tc main_v117) : S512x4.Idx → EReal) (Spec.pool (G := 512) (Inputs.bat (m ((c : Thread nD τ).loc main_arg2))) I.x) :=
    KPool.pool_x m ρ c (m ((c : Thread nD τ).loc main_arg2)) I.x
      (fun r => by rw [KCarry.carry_main_v21_7_18 m ρ c]; exact KHost0.batch_pad m ρ c r)
      (by rw [KCarry.carry_main_v19_7_18 m ρ c]; exact hx7)
  have hp1_22 : Mat (W22 m ρ c (Proc.devRef .tc main_v119) : S512x64.Idx → EReal) (Spec.pool (G := 512) (Inputs.bat (m ((c : Thread nD τ).loc main_arg2))) (I.H1 (m ((c : Thread nD τ).loc main_arg1)))) :=
    KPool.pool_h1 m ρ c (m ((c : Thread nD τ).loc main_arg2)) (I.H1 (m ((c : Thread nD τ).loc main_arg1)))
      (fun r => by rw [KCarry.carry_main_v21_7_20 m ρ c]; exact KHost0.batch_pad m ρ c r)
      (by rw [KCarry.carry_main_v68_12_20 m ρ c]; exact hH12)
  have hp2_24 : Mat (W24 m ρ c (Proc.devRef .tc main_v121) : S512x64.Idx → EReal) (Spec.pool (G := 512) (Inputs.bat (m ((c : Thread nD τ).loc main_arg2))) (I.H2 (m ((c : Thread nD τ).loc main_arg1)))) :=
    KPool.pool_h2 m ρ c (m ((c : Thread nD τ).loc main_arg2)) (I.H2 (m ((c : Thread nD τ).loc main_arg1)))
      (fun r => by rw [KCarry.carry_main_v21_7_22 m ρ c]; exact KHost0.batch_pad m ρ c r)
      (by rw [KCarry.carry_main_v115_18_22 m ρ c]; exact hH18)
  -- the heads
  exact KHeads.heads m ρ c
    (by rw [KCarry.carry_main_v117_20_24 m ρ c]; exact hpx20) (by rw [KCarry.carry_main_v119_22_24 m ρ c]; exact hp1_22) hp2_24
    h19 h20 h21 h22 h23 h24 h25 h26 h27 h28

end Cert.KernelValue

end
-- ==== Proof.RefValueA.lean ====
/-
  The reference's blocks at the ideal values are the network's blocks over the reals.

  Each block of the reference (a linear layer, the column mean, the column variance with its guarded divisor, the
  normalisation, the rectifier) is read entry by entry: an array that holds given reals goes to an array that holds
  the reals the corresponding function of the network gives. The laws that join the two sides: a finite sum of
  coerced reals is the coerced sum; a quotient, a product, a difference, a maximum and a reciprocal square root of
  coerced reals (the divisor not zero, the radicand positive) are the coerced ones; the float words of zero, of
  100000 and of the small constant denote those reals.
-/
import proofs.«403050_j67860483276910_3_alg».proof.Proof.RefTerm
import proofs.«403050_j67860483276910_3_alg».proof.Proof.Spec
import proofs.«403050_j67860483276910_3_alg».proof.Proof.Lift
import proofs.«403050_j67860483276910_3_alg».proof.Proof.LibSums
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember
import Idealize.ShloMosaic.Lib.Pipeline.Value

noncomputable section

open scoped BigOperators

namespace Cert.RefValue

open Cert.ReferenceIdeal Cert.ReferenceIdeal.RefTerm Idealize.ShloMosaic Idealize.ShloMosaic.ValueIdx Cert.Lift

/-! ## General: broadcasts of a row, and a linear layer over the plain product -/

section General

/-- A `[D]` vector as the one row of a `[1, D]` array, read at `(0, o)`: the vector's entry `o`. -/
theorem bcast_vec_apply {α : Type} {D : ℕ}
    (h : (⟨1, ![D]⟩ : Shape).BroadcastsInDim ⟨2, ![1, D]⟩ (![1] : Fin 1 → Fin 2))
    (b : (⟨1, ![D]⟩ : Shape).Idx → α) (o : Fin D) :
    broadcastInDim ⟨2, ![1, D]⟩ ![1] h b (ix2 (0 : Fin 1) o) = b (ix1 o) := by
  refine broadcastInDim_apply _ h b (ix2 (0 : Fin 1) o) (ix1 o) fun a => ?_
  match a with
  | ⟨0, _⟩ =>
    show o.val = if D = 1 then 0 else o.val
    split_ifs with hD
    · have := o.isLt; omega
    · rfl

/-- A `[1, D]` row as every row of a `[P, D]` array, read at `(i, o)`: the row's entry `o`. -/
theorem bcast_row_apply {α : Type} {P D : ℕ}
    (h : (⟨2, ![1, D]⟩ : Shape).BroadcastsInDim ⟨2, ![P, D]⟩ (![0, 1] : Fin 2 → Fin 2))
    (v : (⟨2, ![1, D]⟩ : Shape).Idx → α) (i : Fin P) (o : Fin D) :
    broadcastInDim ⟨2, ![P, D]⟩ ![0, 1] h v (ix2 i o) = v (ix2 (0 : Fin 1) o) := by
  refine broadcastInDim_apply _ h v (ix2 i o) (ix2 (0 : Fin 1) o) fun a => ?_
  match a with
  | ⟨0, _⟩ => rfl
  | ⟨1, _⟩ =>
    show o.val = if D = 1 then 0 else o.val
    split_ifs with hD
    · have := o.isLt; omega
    · rfl

/-- The two in a row: a vector under every row. -/
theorem bias_apply {α : Type} {P D : ℕ}
    (h1 : (⟨1, ![D]⟩ : Shape).BroadcastsInDim ⟨2, ![1, D]⟩ (![1] : Fin 1 → Fin 2))
    (h2 : (⟨2, ![1, D]⟩ : Shape).BroadcastsInDim ⟨2, ![P, D]⟩ (![0, 1] : Fin 2 → Fin 2))
    (b : (⟨1, ![D]⟩ : Shape).Idx → α) (i : Fin P) (o : Fin D) :
    broadcastInDim ⟨2, ![P, D]⟩ ![0, 1] h2 (broadcastInDim ⟨2, ![1, D]⟩ ![1] h1 b) (ix2 i o) = b (ix1 o) :=
  (bcast_row_apply h2 _ i o).trans (bcast_vec_apply h1 b o)

/-- A scalar under every entry of a `[1, D]` row. -/
theorem bcast_scalar_row_apply {α : Type} {D : ℕ}
    (h : (⟨0, ![]⟩ : Shape).BroadcastsInDim ⟨2, ![1, D]⟩ ![]) (c : (⟨0, ![]⟩ : Shape).Idx → α) (o : Fin D) :
    broadcastInDim ⟨2, ![1, D]⟩ ![] h c (ix2 (0 : Fin 1) o) = c ix0 :=
  broadcastInDim_scalar_apply h c _

/-- The sum of two arrays that hold reals holds the sums. -/
theorem addf_mat {P D : ℕ} {A B : FVec Ideal ⟨2, ![P, D]⟩ .f32} {a b : Fin P → Fin D → ℝ}
    (hA : Mat A a) (hB : Mat B b) : Mat (addf A B) (fun i k => a i k + b i k) := by
  intro i k
  rw [addf_apply, hA i k, hB i k, EReal.coe_add]

/-- A LINEAR LAYER over the plain product: the rows of `X` against the rows of `W` (the weight transposed into the
    product's right operand), plus the bias under every row, holds `∑ k, x i k * w o k + β o`. -/
theorem lin_plain {P A B : ℕ}
    (ht : (⟨2, ![B, A]⟩ : Shape).Transposes [1, 0] ⟨2, ![A, B]⟩)
    (h1 : (⟨1, ![B]⟩ : Shape).BroadcastsInDim ⟨2, ![1, B]⟩ (![1] : Fin 1 → Fin 2))
    (h2 : (⟨2, ![1, B]⟩ : Shape).BroadcastsInDim ⟨2, ![P, B]⟩ (![0, 1] : Fin 2 → Fin 2))
    {X : FVec Ideal ⟨2, ![P, A]⟩ .f32} {W : FVec Ideal ⟨2, ![B, A]⟩ .f32} {b : FVec Ideal ⟨1, ![B]⟩ .f32}
    {x : Fin P → Fin A → ℝ} {w : Fin B → Fin A → ℝ} {β : Fin B → ℝ}
    (hX : Mat X x) (hW : Mat W w) (hb : Vec1 b β) :
    Mat (addf (Host.dotGeneral (DotDims.plain P A B) none X (transpose ⟨2, ![A, B]⟩ [1, 0] W ht))
          (broadcastInDim ⟨2, ![P, B]⟩ ![0, 1] h2 (broadcastInDim ⟨2, ![1, B]⟩ ![1] h1 b)))
      (fun i o => ∑ k, x i k * w o k + β o) := by
  intro i o
  rw [addf_apply, StackMember.dotGeneral_plain_apply, bias_apply, hb o, EReal.coe_add, LibSums.coe_sum]
  congr 1
  refine Finset.sum_congr rfl fun c _ => ?_
  rw [transpose_ix2_apply, hX i c, hW o c, EReal.coe_mul]

end General

/-! ## The reference's blocks -/

variable [Facts]
open Facts₀ Facts

/-- Each product record of the reference is the plain product at its extents: the same lists of axes. -/
theorem dot_N4 : dot_S100000x4_S4x64_S100000x64_1_0_0_1_n_n = DotDims.plain 100000 4 64 := rfl
theorem dot_N64 : dot_S100000x64_S64x64_S100000x64_1_0_0_1_n_n = DotDims.plain 100000 64 64 := rfl
theorem dot_G4 : dot_S512x4_S4x64_S512x64_1_0_0_1_n_n = DotDims.plain 512 4 64 := rfl
theorem dot_G64 : dot_S512x64_S64x64_S512x64_1_0_0_1_n_n = DotDims.plain 512 64 64 := rfl

/-- The bias under the node rows, the per-graph rows; a row under the node rows; a vector as a row; a scalar as a row:
    the general readings at this program's shapes. -/
theorem biasN_apply {α : Type} (v : S64.Idx → α) (i : Fin 100000) (o : Fin 64) :
    broadcastInDim S100000x64 ![0, 1] bcast_S1x64_S100000x64_0_1 (broadcastInDim S1x64 ![1] bcast_S64_S1x64_1 v) (ix2 i o)
      = v (ix1 o) := bias_apply _ _ v i o
theorem rowN_apply {α : Type} (V : S1x64.Idx → α) (i : Fin 100000) (o : Fin 64) :
    broadcastInDim S100000x64 ![0, 1] bcast_S1x64_S100000x64_0_1 V (ix2 i o) = V (ix2 (0 : Fin 1) o) :=
  bcast_row_apply _ V i o
theorem vecRow_apply {α : Type} (v : S64.Idx → α) (o : Fin 64) :
    broadcastInDim S1x64 ![1] bcast_S64_S1x64_1 v (ix2 (0 : Fin 1) o) = v (ix1 o) := bcast_vec_apply _ v o
theorem scalarRow_apply {α : Type} (c : S_.Idx → α) (o : Fin 64) :
    broadcastInDim S1x64 ![] bcast_S_S1x64 c (ix2 (0 : Fin 1) o) = c ix0 := bcast_scalar_row_apply _ c o

section Lin
variable {w4 : Fin 64 → Fin 4 → ℝ} {w64 : Fin 64 → Fin 64 → ℝ} {β : Fin 64 → ℝ}
  {W4 : FVec Ideal S64x4 .f32} {W64 : FVec Ideal S64x64 .f32} {b : FVec Ideal S64 .f32}

/-- The linear layer on the node rows of 4. -/
theorem lin4_mat {X : FVec Ideal S100000x4 .f32} {x : Fin 100000 → Fin 4 → ℝ}
    (hX : Mat X x) (hW : Mat W4 w4) (hb : Vec1 b β) : Mat (lin4 X W4 b) (Spec.lin x w4 β) := by
  unfold lin4 biasN
  rw [dot_N4]
  exact lin_plain _ _ _ hX hW hb

/-- The linear layer on the node rows of 64. -/
theorem lin64_mat {X : FVec Ideal S100000x64 .f32} {x : Fin 100000 → Fin 64 → ℝ}
    (hX : Mat X x) (hW : Mat W64 w64) (hb : Vec1 b β) : Mat (lin64 X W64 b) (Spec.lin x w64 β) := by
  unfold lin64 biasN
  rw [dot_N64]
  exact lin_plain _ _ _ hX hW hb

/-- The linear layer on the per-graph rows of 4. -/
theorem linG4_mat {X : FVec Ideal S512x4 .f32} {x : Fin 512 → Fin 4 → ℝ}
    (hX : Mat X x) (hW : Mat W4 w4) (hb : Vec1 b β) : Mat (linG4 X W4 b) (Spec.linG x w4 β) := by
  unfold linG4 biasG
  rw [dot_G4]
  exact lin_plain _ _ _ hX hW hb

/-- The linear layer on the per-graph rows of 64. -/
theorem linG64_mat {X : FVec Ideal S512x64 .f32} {x : Fin 512 → Fin 64 → ℝ}
    (hX : Mat X x) (hW : Mat W64 w64) (hb : Vec1 b β) : Mat (linG64 X W64 b) (Spec.linG x w64 β) := by
  unfold linG64 biasG
  rw [dot_G64]
  exact lin_plain _ _ _ hX hW hb

end Lin

section Stats
variable {Y : FVec Ideal S100000x64 .f32} {y : Fin 100000 → Fin 64 → ℝ}

/-- The column sums from zero, at column `o`: the sum of the column's entries. -/
theorem colSum_apply (Y : FVec Ideal S100000x64 .f32) (o : Fin 64) :
    colSum Y (ix1 o) = ∑ i : Fin 100000, Y (ix2 i o) := by
  unfold colSum
  have hR : S100000x64.Reduces [0] S64 := by decide
  rw [hostReduceAdd_apply, Ideal.hostReduceAdd_single reducesTo_S100000x64_S64_d0 hR, constant_apply,
    Ideal.ofBits_zero_f32, zero_add]
  show ∑ k : Fin 100000, Y (hR.lift (ix1 o) k) = _
  refine Finset.sum_congr rfl fun k _ => congrArg Y (funext fun a => Fin.ext ?_)
  match a with
  | ⟨0, _⟩ => rfl
  | ⟨1, _⟩ => rfl

/-- The column sums of an array that holds reals, over the word of 100000: the column mean. -/
theorem sum_div_1e5 (f : Fin 100000 → ℝ) :
    Ideal.div (∑ i : Fin 100000, ((f i : ℝ) : EReal)) (Ideal.ofBits .f32 0x47C35000#32)
      = (((∑ i, f i) / ((100000 : ℕ) : ℝ) : ℝ) : EReal) := by
  rw [LibSums.ofBits_1e5, ← LibSums.coe_sum, LibSums.div_coe_coe _ _ (by norm_num)]
  norm_num

/-- The column mean. -/
theorem mean_vec (hY : Mat Y y) : Vec1 (RefTerm.mean Y) (Spec.mean y) := by
  intro o
  unfold RefTerm.mean
  rw [hostDivf_apply, colSum_apply, broadcastInDim_scalar_apply, constant_apply]
  simp only [hY _ o]
  exact sum_div_1e5 fun i => y i o

/-- The variance's divisor: 100000 less the converted zero. -/
theorem varDen_eq : (varDen (F := Ideal)) ix0 = ((100000 : ℝ) : EReal) := by
  unfold varDen
  rw [subf_apply, constant_apply, sitofp_apply, constantI_apply, LibSums.ofBits_1e5]
  show ((100000 : ℝ) : EReal) - ((((0#32 : BitVec 32).toInt : ℤ) : ℝ) : EReal) = _
  simp

/-- The squared deviations from the column mean. -/
theorem sqDev_apply (hY : Mat Y y) (i : Fin 100000) (o : Fin 64) :
    sqDev Y (ix2 i o) = (((y i o - Spec.mean y o) * (y i o - Spec.mean y o) : ℝ) : EReal) := by
  have hm : Ideal.div (colSum Y (ix1 o)) (Ideal.ofBits .f32 0x47C35000#32) = ((Spec.mean y o : ℝ) : EReal) := by
    rw [colSum_apply]
    simp only [hY _ o]
    exact sum_div_1e5 fun i => y i o
  unfold sqDev
  simp only [mulf_apply, subf_apply, hY i o]
  rw [rowN_apply, hostDivf_apply, vecRow_apply, scalarRow_apply, constant_apply, hm, ← EReal.coe_sub,
    ← EReal.coe_mul]

/-- The column variance: the guard holds (the divisor is 100000), so it is the summed squared deviations over 100000. -/
theorem var_vec (hY : Mat Y y) : Vec1 (RefTerm.var Y) (Spec.var y) := by
  intro o
  unfold RefTerm.var
  have hc : broadcastInDim S64 ![] bcast_S_S64 (cmpf .ogt (varDen (F := Ideal)) (constant S_ .f32 0x00000000#32)) (ix1 o)
      = 1#1 := by
    rw [broadcastInDim_scalar_apply, cmpf_apply, varDen_eq, constant_apply, Ideal.ofBits_zero_f32, Ideal.cmpf_def]
    unfold Ideal.cmp
    have : (0 : EReal) < ((100000 : ℝ) : EReal) := by exact_mod_cast (by norm_num : (0 : ℝ) < 100000)
    simp [this]
  rw [select_apply, hc, select_one, hostDivf_apply, colSum_apply, broadcastInDim_scalar_apply, varDen_eq,
    ← LibSums.ofBits_1e5]
  simp only [sqDev_apply hY _ o]
  exact sum_div_1e5 fun i => (y i o - Spec.mean y o) * (y i o - Spec.mean y o)

/-- The normalisation. The radicand is positive: a variance is not negative and the small constant is positive. -/
theorem bn_mat {g b : FVec Ideal S64 .f32} {γ β : Fin 64 → ℝ} (hY : Mat Y y) (hg : Vec1 g γ) (hb : Vec1 b β) :
    Mat (RefTerm.bn Y g b) (Spec.bn LibSums.eps y γ β) := by
  intro i o
  have hpos : 0 < Spec.var y o + LibSums.eps := add_pos_of_nonneg_of_pos (Spec.var_nonneg y o) LibSums.eps_pos
  unfold RefTerm.bn biasN
  simp only [addf_apply, mulf_apply, subf_apply]
  rw [biasN_apply, biasN_apply, biasN_apply, biasN_apply]
  rw [show Host.rsqrt (addf (RefTerm.var Y) (broadcastInDim S64 ![] bcast_S_S64 (constant S_ .f32 0x3727C5AC#32))) (ix1 o)
      = Ideal.rsqrt (RefTerm.var Y (ix1 o) + Ideal.ofBits .f32 0x3727C5AC#32) from by
        show Ideal.rsqrt _ = _
        rw [addf_apply, broadcastInDim_scalar_apply, constant_apply]]
  rw [hY i o, mean_vec hY o, var_vec hY o, hg o, hb o, LibSums.ofBits_eps, ← EReal.coe_add,
    LibSums.rsqrt_coe_pos hpos, ← EReal.coe_sub, ← EReal.coe_mul, ← EReal.coe_mul, ← EReal.coe_add]
  rfl

end Stats

/-- The rectifier on the node rows. -/
theorem reluN_mat {Y : FVec Ideal S100000x64 .f32} {y : Fin 100000 → Fin 64 → ℝ} (hY : Mat Y y) :
    Mat (reluN Y) (Spec.relu y) := by
  intro i o
  unfold reluN
  rw [maximumf_apply, broadcastInDim_scalar_apply, constant_apply, Ideal.ofBits_zero_f32, hY i o,
    ← EReal.coe_zero, LibSums.max_coe]
  rfl

/-- The rectifier on the per-graph rows. -/
theorem reluG_mat {Y : FVec Ideal S512x64 .f32} {y : Fin 512 → Fin 64 → ℝ} (hY : Mat Y y) :
    Mat (reluG Y) (Spec.relu y) := by
  intro i o
  unfold reluG
  rw [maximumf_apply, broadcastInDim_scalar_apply, constant_apply, Ideal.ofBits_zero_f32, hY i o,
    ← EReal.coe_zero, LibSums.max_coe]
  rfl

/-- A layer's second half: linear, normalise, rectify. -/
theorem mlp_mat {Z : FVec Ideal S100000x64 .f32} {z : Fin 100000 → Fin 64 → ℝ}
    {W : FVec Ideal S64x64 .f32} {b g s : FVec Ideal S64 .f32} {w : Fin 64 → Fin 64 → ℝ} {β γ σ : Fin 64 → ℝ}
    (hZ : Mat Z z) (hW : Mat W w) (hb : Vec1 b β) (hg : Vec1 g γ) (hs : Vec1 s σ) :
    Mat (mlp Z W b g s) (Spec.relu (Spec.bn LibSums.eps (Spec.lin z w β) γ σ)) := by
  unfold mlp
  exact reluN_mat (bn_mat (lin64_mat hZ hW hb) hg hs)

end Cert.RefValue

end
-- ==== Proof.RefValueAgg.lean ====
/-
  The reference's neighbour sum is the specification's neighbour sum.

  The reference cuts the edge array into its source row and its destination row, wraps a negative source word by the
  node count, lays both down as columns, looks the source rows of the node table up and adds them into an all-zero
  array at the rows the destination words name. This is the host computation whose reading at a node row is proved
  once over variables (the segment sum of looked-up rows along a permutation of the edge list); here the permutation is
  the identity, the table has exactly the node rows, and the result has as many rows as there are nodes.
-/
import proofs.«403050_j67860483276910_3_alg».proof.Proof.RefTerm
import proofs.«403050_j67860483276910_3_alg».proof.Proof.KAgg
import proofs.«403050_j67860483276910_3_alg».proof.Proof.Spec
import proofs.«403050_j67860483276910_3_alg».proof.Proof.Lift
import proofs.«403050_j67860483276910_3_alg».proof.Proof.LibGS
import Idealize.ShloMosaic.Lib.ValueIdx
import Idealize.ShloMosaic.Lib.ValueLayout

noncomputable section

open scoped BigOperators

namespace Cert.RefValueAgg

open Idealize.ShloMosaic Idealize.ShloMosaic.ValueIdx

section General

/-- Row r of a two-row array, cut out as a one-row array and flattened, reads the array's entry (r, e): the flattening
    of one row keeps the column, the cut at row offset r reads row r. -/
theorem row_of_two_apply {n w : ℕ} (r : Fin 2) (x : IVec ⟨2, ![2, n]⟩ w)
    (hs : (⟨2, ![2, n]⟩ : Shape).Slices ![r.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![r.val, 0] x hs) hc (ix1 e) = x (ix2 r e) :=
  (shapeCast_1a_a_apply _ hc e).trans (slice2_axis0_apply r.val x hs (0 : Fin 1) e r (by simp))

end General

open Cert.ReferenceIdeal Cert.ReferenceIdeal.RefTerm

variable [Facts]
open Facts₀ Facts

/-- The source row reads row 0 of the edge array. -/
theorem srcRow_apply (ei : IVec S2x3200000 32) (e : Fin 3200000) : srcRow ei (ix1 e) = ei (ix2 0 e) := by
  unfold srcRow
  exact row_of_two_apply 0 ei _ _ e

/-- The destination row reads row 1 of the edge array. -/
theorem dstRow_apply (ei : IVec S2x3200000 32) (e : Fin 3200000) : dstRow ei (ix1 e) = ei (ix2 1 e) := by
  unfold dstRow
  exact row_of_two_apply 1 ei _ _ e

/-- The reference's neighbour sum of real rows of 4 is the neighbour sum of those rows over the graph read off the
    edge array: the general reading at the identity permutation, every row a node row. -/
theorem agg4_rows {X : FVec Ideal S100000x4 .f32} {ei : IVec S2x3200000 32} {x : Fin 100000 → Fin 4 → ℝ}
    (hX : Cert.Lift.Mat X x) (hsrc : Cert.Lift.SrcInRange 100000 ei) :
    Cert.Lift.Mat (RefTerm.agg4 X ei) (Cert.Spec.agg (Cert.Lift.srcOf (by decide) ei) (Cert.Lift.dstOf ei) x) := by
  have h := Cert.KAgg.agg_rows_of_sorted (Nn := 100000) (N := 100000) (P := 100000) (E := 3200000) (C := 4)
    (by decide) (le_refl _) scatter_S100000x4_S3200000x1_S3200000x4_1_0_0_1_wf
    gather_S100000x4_S3200000x1_S3200000x4_1_0_n_n_0_1_14_wf
    bcast_S3200000_S3200000x1_0 bcast_S_S3200000 bcast_S_S100000x4 X x hX.rows ei hsrc (Equiv.refl _)
    (srcRow ei) (dstRow ei) (fun e => ⟨srcRow_apply ei e, dstRow_apply ei e⟩) 100000#32
  intro a b
  unfold RefTerm.agg4 RefTerm.srcIdx RefTerm.dstIdx
  exact h a a.isLt b

/-- The same on rows of 64. -/
theorem agg64_rows {X : FVec Ideal S100000x64 .f32} {ei : IVec S2x3200000 32} {x : Fin 100000 → Fin 64 → ℝ}
    (hX : Cert.Lift.Mat X x) (hsrc : Cert.Lift.SrcInRange 100000 ei) :
    Cert.Lift.Mat (RefTerm.agg64 X ei) (Cert.Spec.agg (Cert.Lift.srcOf (by decide) ei) (Cert.Lift.dstOf ei) x) := by
  have h := Cert.KAgg.agg_rows_of_sorted (Nn := 100000) (N := 100000) (P := 100000) (E := 3200000) (C := 64)
    (by decide) (le_refl _) scatter_S100000x64_S3200000x1_S3200000x64_1_0_0_1_wf
    gather_S100000x64_S3200000x1_S3200000x64_1_0_n_n_0_1_164_wf
    bcast_S3200000_S3200000x1_0 bcast_S_S3200000 bcast_S_S100000x64 X x hX.rows ei hsrc (Equiv.refl _)
    (srcRow ei) (dstRow ei) (fun e => ⟨srcRow_apply ei e, dstRow_apply ei e⟩) 100000#32
  intro a b
  unfold RefTerm.agg64 RefTerm.srcIdx RefTerm.dstIdx
  exact h a a.isLt b

end Cert.RefValueAgg

end
-- ==== Proof.RefValuePool.lean ====
/-
  The reference's pooled sums, read over the reals.

  The reference adds every node's row into a zero array of 512 rows, at the row whose number is the node's batch word
  read as a signed integer (a word that is no row's number lands nowhere). Entry `(g, k)` of the result is therefore
  `0` plus the sum, over the nodes `i` whose word read signed is `g`, of entry `(i, k)`; when the node rows hold real
  numbers this is the real sum `Cert.Spec.pool` takes, since the coercion of the reals carries a finite sum.
  The statement is proved once over arbitrary sizes and used at the two row widths.
-/
import proofs.«403050_j67860483276910_3_alg».proof.Proof.RefTerm
import proofs.«403050_j67860483276910_3_alg».proof.Proof.Spec
import proofs.«403050_j67860483276910_3_alg».proof.Proof.Lift
import proofs.«403050_j67860483276910_3_alg».proof.Proof.LibGS
import proofs.«403050_j67860483276910_3_alg».proof.Proof.LibSums
import Idealize.ShloMosaic.Lib.ValueIdx
import Idealize.ShloMosaic.PureOps.Ideal
import Idealize.ShloMosaic.PureOps.Ideal.Laws

noncomputable section

open scoped BigOperators

namespace Cert.RefValuePool

open Idealize.ShloMosaic Idealize.ShloMosaic.ValueIdx Cert.Lift

/-! ## General: a row segment sum into zeros, by a column of row numbers -/

section General

/-- A flat array laid down a one-column array reads, at `(e, 0)`, the array at `e`. -/
theorem asColumn_apply {α : Type} {E : ℕ} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e 0) = v (ix1 e) := by
  unfold broadcastInDim
  refine congrArg v (funext fun a => ?_)
  obtain rfl : a = 0 := Subsingleton.elim _ _
  by_cases h1 : (⟨1, ![E]⟩ : Shape).size 0 = 1
  · rw [dif_pos h1]
    have hE : E = 1 := h1
    exact Fin.ext (by show 0 = e.val; omega)
  · rw [dif_neg h1]
    exact Fin.ext rfl

/-- Real rows `x`, added into a zero array at the rows numbered by the words `bt` read signed: entry `(g, k)` is the
    real sum of `x i k` over the `i` whose word is `g` — the pooled sum. The zero operand adds nothing. -/
theorem pool_rows {N E C : ℕ}
    (wf : ScatterDims.WF ⟨2, ![N, C]⟩ ⟨2, ![E, 1]⟩ ⟨2, ![E, C]⟩ [1] [0] [0] 1)
    (z : (⟨2, ![N, C]⟩ : Shape).Idx → EReal) (hz : ∀ j, z j = 0)
    (col : IVec ⟨2, ![E, 1]⟩ 32) (bt : IVec ⟨1, ![E]⟩ 32) (hcol : ∀ e : Fin E, col (ix2 e 0) = bt (ix1 e))
    (X : (⟨2, ![E, C]⟩ : Shape).Idx → EReal) (x : Fin E → Fin C → ℝ) (hX : Mat X x) (g : Fin N) (k : Fin C) :
    Host.scatterAdd (F := Ideal) (φ := .f32) (Cert.LibGS.rowScatterDims N E C wf) z col X (ix2 g k)
      = ((Cert.Spec.pool (G := N) (batOf bt) x g k : ℝ) : EReal) := by
  show Ideal.hostScatterAdd (Cert.LibGS.rowScatterDims N E C wf) z col X (ix2 g k) = _
  rw [Cert.LibGS.scatterAdd_rows_apply, hz, zero_add]
  unfold Cert.Spec.pool
  rw [Cert.LibSums.coe_sum]
  refine Finset.sum_congr (Finset.filter_congr fun e _ => ?_) fun e _ => hX e k
  rw [hcol]
  rfl

end General

open Cert.ReferenceIdeal Cert.ReferenceIdeal.RefTerm

variable [Facts]
open Facts₀ Facts

/-- The reference's pooled sum of real rows of 4 is `Cert.Spec.pool` of those rows by the batch words read signed. -/
theorem pool4_mat {X : FVec Ideal S100000x4 .f32} {bt : IVec S100000 32} {x : Fin 100000 → Fin 4 → ℝ}
    (hX : Cert.Lift.Mat X x) : Cert.Lift.Mat (RefTerm.pool4 X bt) (Cert.Spec.pool (G := 512) (Cert.Lift.batOf bt) x) := by
  intro g k
  have h := pool_rows (N := 512) (E := 100000) (C := 4) scatter_S512x4_S100000x1_S100000x4_1_0_0_1_wf
    (broadcastInDim S512x4 ![] bcast_S_S512x4 (constant (F := Ideal) S_ .f32 0x00000000#32))
    (fun j => (show broadcastInDim S512x4 ![] bcast_S_S512x4 (constant (F := Ideal) S_ .f32 0x00000000#32) j
        = Ideal.ofBits .f32 0x00000000#32 from rfl).trans Ideal.ofBits_zero_f32)
    (batIdx bt) bt (fun e => asColumn_apply bt bcast_S100000_S100000x1_0 e) X x hX g k
  exact h

/-- The reference's pooled sum of real rows of 64 is `Cert.Spec.pool` of those rows. -/
theorem pool64_mat {X : FVec Ideal S100000x64 .f32} {bt : IVec S100000 32} {x : Fin 100000 → Fin 64 → ℝ}
    (hX : Cert.Lift.Mat X x) : Cert.Lift.Mat (RefTerm.pool64 X bt) (Cert.Spec.pool (G := 512) (Cert.Lift.batOf bt) x) := by
  intro g k
  have h := pool_rows (N := 512) (E := 100000) (C := 64) scatter_S512x64_S100000x1_S100000x64_1_0_0_1_wf
    (broadcastInDim S512x64 ![] bcast_S_S512x64 (constant (F := Ideal) S_ .f32 0x00000000#32))
    (fun j => (show broadcastInDim S512x64 ![] bcast_S_S512x64 (constant (F := Ideal) S_ .f32 0x00000000#32) j
        = Ideal.ofBits .f32 0x00000000#32 from rfl).trans Ideal.ofBits_zero_f32)
    (batIdx bt) bt (fun e => asColumn_apply bt bcast_S100000_S100000x1_0 e) X x hX g k
  exact h

end Cert.RefValuePool

end
-- ==== Proof.RefValue.lean ====
/-
  The reference's two results at the ideal values are the network's two heads over the reals.

  The reference is its blocks composed: the first layer on the node rows of 4 (neighbour sum, linear, normalise,
  rectify, linear, normalise, rectify), the second on its output, the three pooled linear maps added, and one head
  per result. Each block sends an array that holds given reals to an array that holds the reals the network's
  function gives, so the composition holds the network's value; nothing here opens a block.
-/
import proofs.«403050_j67860483276910_3_alg».proof.Proof.RefValueA
import proofs.«403050_j67860483276910_3_alg».proof.Proof.RefValueAgg
import proofs.«403050_j67860483276910_3_alg».proof.Proof.RefValuePool

noncomputable section

open scoped BigOperators

namespace Cert.RefValue

open Cert.ReferenceIdeal Cert.ReferenceIdeal.RefTerm Idealize.ShloMosaic Idealize.ShloMosaic.ValueIdx Cert.Lift

variable [Facts]
open Facts₀ Facts

section Net

variable {A0 : FVec Ideal S100000x4 .f32} {ei : IVec S2x3200000 32} {B : IVec S100000 32}
  {A3 : FVec Ideal S64x4 .f32} {A4 A5 A6 : FVec Ideal S64 .f32} {A7 : FVec Ideal S64x64 .f32} {A8 A9 A10 : FVec Ideal S64 .f32}
  {A11 : FVec Ideal S64x64 .f32} {A12 A13 A14 : FVec Ideal S64 .f32} {A15 : FVec Ideal S64x64 .f32} {A16 A17 A18 : FVec Ideal S64 .f32}
  {A19 : FVec Ideal S64x4 .f32} {A20 : FVec Ideal S64 .f32} {A21 : FVec Ideal S64x64 .f32} {A22 : FVec Ideal S64 .f32}
  {A23 : FVec Ideal S64x64 .f32} {A24 : FVec Ideal S64 .f32} {A25 : FVec Ideal S64x64 .f32} {A26 : FVec Ideal S64 .f32}
  {A27 : FVec Ideal S64x64 .f32} {A28 : FVec Ideal S64 .f32}
  {x : Fin 100000 → Fin 4 → ℝ}
  {c1w1 : Fin 64 → Fin 4 → ℝ} {c1b1 c1g1 c1be1 : Fin 64 → ℝ} {c1w2 : Fin 64 → Fin 64 → ℝ} {c1b2 bn1g bn1b : Fin 64 → ℝ}
  {c2w1 : Fin 64 → Fin 64 → ℝ} {c2b1 c2g1 c2be1 : Fin 64 → ℝ} {c2w2 : Fin 64 → Fin 64 → ℝ} {c2b2 bn2g bn2b : Fin 64 → ℝ}
  {fc0w : Fin 64 → Fin 4 → ℝ} {fc0b : Fin 64 → ℝ} {fc1w : Fin 64 → Fin 64 → ℝ} {fc1b : Fin 64 → ℝ}
  {fc2w : Fin 64 → Fin 64 → ℝ} {fc2b : Fin 64 → ℝ} {piw : Fin 64 → Fin 64 → ℝ} {pib : Fin 64 → ℝ}
  {vfw : Fin 64 → Fin 64 → ℝ} {vfb : Fin 64 → ℝ}

/-- The first layer's first half: the rows plus their neighbour sums, linear, normalised, rectified. -/
theorem v39_mat (h0 : Mat A0 x) (hs : SrcInRange 100000 ei) (h3 : Mat A3 c1w1) (h4 : Vec1 A4 c1b1)
    (h5 : Vec1 A5 c1g1) (h6 : Vec1 A6 c1be1) :
    Mat (v39 A0 ei A3 A4 A5 A6)
      (Spec.relu (Spec.bn LibSums.eps (Spec.pre₁ (srcOf (by decide) ei) (dstOf ei) x c1w1 c1b1) c1g1 c1be1)) := by
  unfold v39
  exact reluN_mat (bn_mat (lin4_mat (addf_mat h0 (RefValueAgg.agg4_rows h0 hs)) h3 h4) h5 h6)

/-- The first layer's output. -/
theorem v64_mat (h0 : Mat A0 x) (hs : SrcInRange 100000 ei) (h3 : Mat A3 c1w1) (h4 : Vec1 A4 c1b1)
    (h5 : Vec1 A5 c1g1) (h6 : Vec1 A6 c1be1) (h7 : Mat A7 c1w2) (h8 : Vec1 A8 c1b2) (h9 : Vec1 A9 bn1g)
    (h10 : Vec1 A10 bn1b) :
    Mat (v64 A0 ei A3 A4 A5 A6 A7 A8 A9 A10)
      (Spec.layer LibSums.eps (srcOf (by decide) ei) (dstOf ei) x c1w1 c1b1 c1g1 c1be1 c1w2 c1b2 bn1g bn1b) := by
  unfold v64
  exact mlp_mat (v39_mat h0 hs h3 h4 h5 h6) h7 h8 h9 h10

/-- A layer on node rows of 64 that hold reals: both halves. -/
theorem layer64_mat {Hh : FVec Ideal S100000x64 .f32} {h : Fin 100000 → Fin 64 → ℝ}
    {W1 W2 : FVec Ideal S64x64 .f32} {b1 g1 be1 b2 go bo : FVec Ideal S64 .f32}
    {w1 w2 : Fin 64 → Fin 64 → ℝ} {β1 γ1 σ1 β2 γo σo : Fin 64 → ℝ}
    (hH : Mat Hh h) (hs : SrcInRange 100000 ei) (hw1 : Mat W1 w1) (hb1 : Vec1 b1 β1) (hg1 : Vec1 g1 γ1)
    (hbe1 : Vec1 be1 σ1) (hw2 : Mat W2 w2) (hb2 : Vec1 b2 β2) (hgo : Vec1 go γo) (hbo : Vec1 bo σo) :
    Mat (mlp (reluN (RefTerm.bn (lin64 (addf Hh (agg64 Hh ei)) W1 b1) g1 be1)) W2 b2 go bo)
      (Spec.layer LibSums.eps (srcOf (by decide) ei) (dstOf ei) h w1 β1 γ1 σ1 w2 β2 γo σo) :=
  mlp_mat (reluN_mat (bn_mat (lin64_mat (addf_mat hH (RefValueAgg.agg64_rows hH hs)) hw1 hb1) hg1 hbe1)) hw2 hb2 hgo hbo

/-- The second layer's output. -/
theorem v125_mat (h0 : Mat A0 x) (hs : SrcInRange 100000 ei) (h3 : Mat A3 c1w1) (h4 : Vec1 A4 c1b1)
    (h5 : Vec1 A5 c1g1) (h6 : Vec1 A6 c1be1) (h7 : Mat A7 c1w2) (h8 : Vec1 A8 c1b2) (h9 : Vec1 A9 bn1g)
    (h10 : Vec1 A10 bn1b) (h11 : Mat A11 c2w1) (h12 : Vec1 A12 c2b1) (h13 : Vec1 A13 c2g1) (h14 : Vec1 A14 c2be1)
    (h15 : Mat A15 c2w2) (h16 : Vec1 A16 c2b2) (h17 : Vec1 A17 bn2g) (h18 : Vec1 A18 bn2b) :
    Mat (v125 A0 ei A3 A4 A5 A6 A7 A8 A9 A10 A11 A12 A13 A14 A15 A16 A17 A18)
      (Spec.layer LibSums.eps (srcOf (by decide) ei) (dstOf ei)
        (Spec.layer LibSums.eps (srcOf (by decide) ei) (dstOf ei) x c1w1 c1b1 c1g1 c1be1 c1w2 c1b2 bn1g bn1b)
        c2w1 c2b1 c2g1 c2be1 c2w2 c2b2 bn2g bn2b) := by
  unfold v125 v100
  exact layer64_mat (v64_mat h0 hs h3 h4 h5 h6 h7 h8 h9 h10) hs h11 h12 h13 h14 h15 h16 h17 h18

/-- The three pooled linear maps added: the trunk both heads read. -/
theorem v151_mat (h0 : Mat A0 x) (hs : SrcInRange 100000 ei) (h3 : Mat A3 c1w1) (h4 : Vec1 A4 c1b1)
    (h5 : Vec1 A5 c1g1) (h6 : Vec1 A6 c1be1) (h7 : Mat A7 c1w2) (h8 : Vec1 A8 c1b2) (h9 : Vec1 A9 bn1g)
    (h10 : Vec1 A10 bn1b) (h11 : Mat A11 c2w1) (h12 : Vec1 A12 c2b1) (h13 : Vec1 A13 c2g1) (h14 : Vec1 A14 c2be1)
    (h15 : Mat A15 c2w2) (h16 : Vec1 A16 c2b2) (h17 : Vec1 A17 bn2g) (h18 : Vec1 A18 bn2b)
    (h19 : Mat A19 fc0w) (h20 : Vec1 A20 fc0b) (h21 : Mat A21 fc1w) (h22 : Vec1 A22 fc1b)
    (h23 : Mat A23 fc2w) (h24 : Vec1 A24 fc2b) :
    Mat (v151 A0 ei B A3 A4 A5 A6 A7 A8 A9 A10 A11 A12 A13 A14 A15 A16 A17 A18 A19 A20 A21 A22 A23 A24)
      (Spec.trunk (G := 512) (batOf B) x
        (Spec.layer LibSums.eps (srcOf (by decide) ei) (dstOf ei) x c1w1 c1b1 c1g1 c1be1 c1w2 c1b2 bn1g bn1b)
        (Spec.layer LibSums.eps (srcOf (by decide) ei) (dstOf ei)
          (Spec.layer LibSums.eps (srcOf (by decide) ei) (dstOf ei) x c1w1 c1b1 c1g1 c1be1 c1w2 c1b2 bn1g bn1b)
          c2w1 c2b1 c2g1 c2be1 c2w2 c2b2 bn2g bn2b)
        fc0w fc0b fc1w fc1b fc2w fc2b) := by
  unfold v151
  exact addf_mat
    (addf_mat (linG4_mat (RefValuePool.pool4_mat h0) h19 h20)
      (linG64_mat (RefValuePool.pool64_mat (v64_mat h0 hs h3 h4 h5 h6 h7 h8 h9 h10)) h21 h22))
    (linG64_mat (RefValuePool.pool64_mat (v125_mat h0 hs h3 h4 h5 h6 h7 h8 h9 h10 h11 h12 h13 h14 h15 h16 h17 h18)) h23 h24)

/-- THE FIRST RESULT of the reference at the ideal values is the network's first head. -/
theorem res_v157_eq (h0 : Mat A0 x) (hs : SrcInRange 100000 ei) (h3 : Mat A3 c1w1) (h4 : Vec1 A4 c1b1)
    (h5 : Vec1 A5 c1g1) (h6 : Vec1 A6 c1be1) (h7 : Mat A7 c1w2) (h8 : Vec1 A8 c1b2) (h9 : Vec1 A9 bn1g)
    (h10 : Vec1 A10 bn1b) (h11 : Mat A11 c2w1) (h12 : Vec1 A12 c2b1) (h13 : Vec1 A13 c2g1) (h14 : Vec1 A14 c2be1)
    (h15 : Mat A15 c2w2) (h16 : Vec1 A16 c2b2) (h17 : Vec1 A17 bn2g) (h18 : Vec1 A18 bn2b)
    (h19 : Mat A19 fc0w) (h20 : Vec1 A20 fc0b) (h21 : Mat A21 fc1w) (h22 : Vec1 A22 fc1b)
    (h23 : Mat A23 fc2w) (h24 : Vec1 A24 fc2b) (h25 : Mat A25 piw) (h26 : Vec1 A26 pib) :
    Mat (res_v157 A0 ei B A3 A4 A5 A6 A7 A8 A9 A10 A11 A12 A13 A14 A15 A16 A17 A18 A19 A20 A21 A22 A23 A24 A25 A26)
      (Spec.head
        (Spec.trunk (G := 512) (batOf B) x
          (Spec.layer LibSums.eps (srcOf (by decide) ei) (dstOf ei) x c1w1 c1b1 c1g1 c1be1 c1w2 c1b2 bn1g bn1b)
          (Spec.layer LibSums.eps (srcOf (by decide) ei) (dstOf ei)
            (Spec.layer LibSums.eps (srcOf (by decide) ei) (dstOf ei) x c1w1 c1b1 c1g1 c1be1 c1w2 c1b2 bn1g bn1b)
            c2w1 c2b1 c2g1 c2be1 c2w2 c2b2 bn2g bn2b)
          fc0w fc0b fc1w fc1b fc2w fc2b)
        piw pib) := by
  unfold res_v157
  exact reluG_mat (linG64_mat
    (v151_mat h0 hs h3 h4 h5 h6 h7 h8 h9 h10 h11 h12 h13 h14 h15 h16 h17 h18 h19 h20 h21 h22 h23 h24) h25 h26)

/-- THE SECOND RESULT of the reference at the ideal values is the network's second head. -/
theorem res_v163_eq (h0 : Mat A0 x) (hs : SrcInRange 100000 ei) (h3 : Mat A3 c1w1) (h4 : Vec1 A4 c1b1)
    (h5 : Vec1 A5 c1g1) (h6 : Vec1 A6 c1be1) (h7 : Mat A7 c1w2) (h8 : Vec1 A8 c1b2) (h9 : Vec1 A9 bn1g)
    (h10 : Vec1 A10 bn1b) (h11 : Mat A11 c2w1) (h12 : Vec1 A12 c2b1) (h13 : Vec1 A13 c2g1) (h14 : Vec1 A14 c2be1)
    (h15 : Mat A15 c2w2) (h16 : Vec1 A16 c2b2) (h17 : Vec1 A17 bn2g) (h18 : Vec1 A18 bn2b)
    (h19 : Mat A19 fc0w) (h20 : Vec1 A20 fc0b) (h21 : Mat A21 fc1w) (h22 : Vec1 A22 fc1b)
    (h23 : Mat A23 fc2w) (h24 : Vec1 A24 fc2b) (h27 : Mat A27 vfw) (h28 : Vec1 A28 vfb) :
    Mat (res_v163 A0 ei B A3 A4 A5 A6 A7 A8 A9 A10 A11 A12 A13 A14 A15 A16 A17 A18 A19 A20 A21 A22 A23 A24 A27 A28)
      (Spec.head
        (Spec.trunk (G := 512) (batOf B) x
          (Spec.layer LibSums.eps (srcOf (by decide) ei) (dstOf ei) x c1w1 c1b1 c1g1 c1be1 c1w2 c1b2 bn1g bn1b)
          (Spec.layer LibSums.eps (srcOf (by decide) ei) (dstOf ei)
            (Spec.layer LibSums.eps (srcOf (by decide) ei) (dstOf ei) x c1w1 c1b1 c1g1 c1be1 c1w2 c1b2 bn1g bn1b)
            c2w1 c2b1 c2g1 c2be1 c2w2 c2b2 bn2g bn2b)
          fc0w fc0b fc1w fc1b fc2w fc2b)
        vfw vfb) := by
  unfold res_v163
  exact reluG_mat (linG64_mat
    (v151_mat h0 hs h3 h4 h5 h6 h7 h8 h9 h10 h11 h12 h13 h14 h15 h16 h17 h18 h19 h20 h21 h22 h23 h24) h27 h28)

end Net

end Cert.RefValue

end
-- ==== Proof.Algebraic.lean ====
/-
  The two idealized programs end with equal results. Under the precondition the float arguments hold real numbers and
  every edge's source is a node's number; of such arguments the kernel program's two result buffers and the reference
  program's two result terms hold the same matrices, the network's two heads; arrays that hold one matrix are equal.
-/
import proofs.«403050_j67860483276910_3_alg».proof.Defs
import proofs.«403050_j67860483276910_3_alg».proof.Proof.Gen.Pre_finite_inputs
import proofs.«403050_j67860483276910_3_alg».proof.Proof.Gen.ReferenceIdeal
import proofs.«403050_j67860483276910_3_alg».proof.Proof.Lift
import proofs.«403050_j67860483276910_3_alg».proof.Proof.Inputs
import proofs.«403050_j67860483276910_3_alg».proof.Proof.PreFacts
import proofs.«403050_j67860483276910_3_alg».proof.Proof.KernelIdealRun
import proofs.«403050_j67860483276910_3_alg».proof.Proof.KernelValue
import proofs.«403050_j67860483276910_3_alg».proof.Proof.RefTerm
import proofs.«403050_j67860483276910_3_alg».proof.Proof.RefRun
import proofs.«403050_j67860483276910_3_alg».proof.Proof.RefValue

noncomputable section

namespace Cert.Proof.Algebraic

open Idealize.ShloMosaic Idealize.ShloMosaic.ValueIdx Idealize.SL.Sem Cert.Lift

/-- Under the precondition every float argument array of the kernel program holds real numbers: collected, they are a
    record of real inputs that the arrays hold. -/
theorem inputs_of_pre (m : (ℓ : Loc Cert.KernelIdeal.nD Cert.KernelIdeal.τ Cert.KernelIdeal.sig) → Buf (Elt Ideal) ℓ) (h : Cert.Pre_KernelIdeal m) (c : Dev Cert.KernelIdeal.nD) :
    ∃ I : Cert.Inputs, I.Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27))
      (m ((c.tc : Thread Cert.KernelIdeal.nD Cert.KernelIdeal.τ).loc Cert.KernelIdeal.main_arg28)) := by
  obtain ⟨x, h0⟩ := Mat.of_isReal (Cert.PreFacts.real_arg0 m h c)
  obtain ⟨c1w1, h3⟩ := Mat.of_isReal (Cert.PreFacts.real_arg3 m h c)
  obtain ⟨c1b1, h4⟩ := Vec1.of_isReal (Cert.PreFacts.real_arg4 m h c)
  obtain ⟨c1g1, h5⟩ := Vec1.of_isReal (Cert.PreFacts.real_arg5 m h c)
  obtain ⟨c1be1, h6⟩ := Vec1.of_isReal (Cert.PreFacts.real_arg6 m h c)
  obtain ⟨c1w2, h7⟩ := Mat.of_isReal (Cert.PreFacts.real_arg7 m h c)
  obtain ⟨c1b2, h8⟩ := Vec1.of_isReal (Cert.PreFacts.real_arg8 m h c)
  obtain ⟨bn1g, h9⟩ := Vec1.of_isReal (Cert.PreFacts.real_arg9 m h c)
  obtain ⟨bn1b, h10⟩ := Vec1.of_isReal (Cert.PreFacts.real_arg10 m h c)
  obtain ⟨c2w1, h11⟩ := Mat.of_isReal (Cert.PreFacts.real_arg11 m h c)
  obtain ⟨c2b1, h12⟩ := Vec1.of_isReal (Cert.PreFacts.real_arg12 m h c)
  obtain ⟨c2g1, h13⟩ := Vec1.of_isReal (Cert.PreFacts.real_arg13 m h c)
  obtain ⟨c2be1, h14⟩ := Vec1.of_isReal (Cert.PreFacts.real_arg14 m h c)
  obtain ⟨c2w2, h15⟩ := Mat.of_isReal (Cert.PreFacts.real_arg15 m h c)
  obtain ⟨c2b2, h16⟩ := Vec1.of_isReal (Cert.PreFacts.real_arg16 m h c)
  obtain ⟨bn2g, h17⟩ := Vec1.of_isReal (Cert.PreFacts.real_arg17 m h c)
  obtain ⟨bn2b, h18⟩ := Vec1.of_isReal (Cert.PreFacts.real_arg18 m h c)
  obtain ⟨fc0w, h19⟩ := Mat.of_isReal (Cert.PreFacts.real_arg19 m h c)
  obtain ⟨fc0b, h20⟩ := Vec1.of_isReal (Cert.PreFacts.real_arg20 m h c)
  obtain ⟨fc1w, h21⟩ := Mat.of_isReal (Cert.PreFacts.real_arg21 m h c)
  obtain ⟨fc1b, h22⟩ := Vec1.of_isReal (Cert.PreFacts.real_arg22 m h c)
  obtain ⟨fc2w, h23⟩ := Mat.of_isReal (Cert.PreFacts.real_arg23 m h c)
  obtain ⟨fc2b, h24⟩ := Vec1.of_isReal (Cert.PreFacts.real_arg24 m h c)
  obtain ⟨piw, h25⟩ := Mat.of_isReal (Cert.PreFacts.real_arg25 m h c)
  obtain ⟨pib, h26⟩ := Vec1.of_isReal (Cert.PreFacts.real_arg26 m h c)
  obtain ⟨vfw, h27⟩ := Mat.of_isReal (Cert.PreFacts.real_arg27 m h c)
  obtain ⟨vfb, h28⟩ := Vec1.of_isReal (Cert.PreFacts.real_arg28 m h c)
  exact ⟨⟨x, c1w1, c1b1, c1g1, c1be1, c1w2, c1b2, bn1g, bn1b, c2w1, c2b1, c2g1, c2be1, c2w2, c2b2, bn2g, bn2b, fc0w, fc0b, fc1w, fc1b, fc2w, fc2b, piw, pib, vfw, vfb⟩, ⟨h0, h3, h4, h5, h6, h7, h8, h9, h10, h11, h12, h13, h14, h15, h16, h17, h18, h19, h20, h21, h22, h23, h24, h25, h26, h27, h28⟩⟩

/-- The reference program's two result terms, of arrays that hold a record of real inputs and of in-range sources, hold the
    network's two heads of that record. -/
theorem ref_results (I : Cert.Inputs)
    {A0 : Cert.Inputs.A2 100000 4} {ei : (⟨2, ![2, 3200000]⟩ : Shape).Idx → BitVec 32} {B : (⟨1, ![100000]⟩ : Shape).Idx → BitVec 32}
    {A3 : Cert.Inputs.A2 64 4} {A4 : Cert.Inputs.A1 64} {A5 : Cert.Inputs.A1 64} {A6 : Cert.Inputs.A1 64} {A7 : Cert.Inputs.A2 64 64} {A8 : Cert.Inputs.A1 64} {A9 : Cert.Inputs.A1 64} {A10 : Cert.Inputs.A1 64} {A11 : Cert.Inputs.A2 64 64} {A12 : Cert.Inputs.A1 64} {A13 : Cert.Inputs.A1 64} {A14 : Cert.Inputs.A1 64} {A15 : Cert.Inputs.A2 64 64} {A16 : Cert.Inputs.A1 64} {A17 : Cert.Inputs.A1 64} {A18 : Cert.Inputs.A1 64} {A19 : Cert.Inputs.A2 64 4} {A20 : Cert.Inputs.A1 64} {A21 : Cert.Inputs.A2 64 64} {A22 : Cert.Inputs.A1 64} {A23 : Cert.Inputs.A2 64 64} {A24 : Cert.Inputs.A1 64} {A25 : Cert.Inputs.A2 64 64} {A26 : Cert.Inputs.A1 64} {A27 : Cert.Inputs.A2 64 64} {A28 : Cert.Inputs.A1 64}
    (hI : I.Holds A0 A3 A4 A5 A6 A7 A8 A9 A10 A11 A12 A13 A14 A15 A16 A17 A18 A19 A20 A21 A22 A23 A24 A25 A26 A27 A28) (hs : SrcInRange 100000 ei) :
    Mat (Cert.ReferenceIdeal.RefTerm.res_v157 (F := Ideal) A0 ei B A3 A4 A5 A6 A7 A8 A9 A10 A11 A12 A13 A14 A15 A16 A17 A18 A19 A20 A21 A22 A23 A24 A25 A26) (I.pi ei B)
      ∧ Mat (Cert.ReferenceIdeal.RefTerm.res_v163 (F := Ideal) A0 ei B A3 A4 A5 A6 A7 A8 A9 A10 A11 A12 A13 A14 A15 A16 A17 A18 A19 A20 A21 A22 A23 A24 A27 A28) (I.vf ei B) :=
  ⟨Cert.RefValue.res_v157_eq hI.h0 hs hI.h3 hI.h4 hI.h5 hI.h6 hI.h7 hI.h8 hI.h9 hI.h10 hI.h11 hI.h12 hI.h13 hI.h14 hI.h15 hI.h16 hI.h17 hI.h18 hI.h19 hI.h20 hI.h21 hI.h22 hI.h23 hI.h24 hI.h25 hI.h26,
    Cert.RefValue.res_v163_eq hI.h0 hs hI.h3 hI.h4 hI.h5 hI.h6 hI.h7 hI.h8 hI.h9 hI.h10 hI.h11 hI.h12 hI.h13 hI.h14 hI.h15 hI.h16 hI.h17 hI.h18 hI.h19 hI.h20 hI.h21 hI.h22 hI.h23 hI.h24 hI.h27 hI.h28⟩

/-- The two programs, from memories that agree on the arguments, end with equal results. The kernel program's result buffers
    and the reference program's result terms hold the same two matrices of real numbers — the network's heads of the real
    inputs the precondition provides —, and two arrays that hold one matrix are equal. -/
theorem algebraic : Cert.algebraic_KernelIdeal_ReferenceIdeal := by
  intro m g m' g' hpre hagree
  refine ⟨fun c => Cert.KernelIdeal.GenP.W27 m g c (Proc.devRef .tc Cert.KernelIdeal.main_v144),
    fun c => Cert.KernelIdeal.GenP.W27 m g c (Proc.devRef .tc Cert.KernelIdeal.main_v150),
    Cert.KernelIdeal.GenP.run_results (F := Ideal) m g, ?_⟩
  refine (θ_run Cert.ReferenceIdeal.defs _ _).mono (fun r h c => ?_) (Cert.ReferenceIdeal.RefRun.run (F := Ideal) m' g')
  obtain ⟨I, hI⟩ := inputs_of_pre m hpre c
  have hs := Cert.PreFacts.src_in_range m hpre c
  have hk := Cert.KernelValue.results m g c I hI hs
  have hr := ref_results I (B := m ((c.tc : Thread Cert.KernelIdeal.nD Cert.KernelIdeal.τ).loc Cert.KernelIdeal.main_arg2)) hI hs
  obtain ⟨e0, e1, e2, e3, e4, e5, e6, e7, e8, e9, e10, e11, e12, e13, e14, e15, e16, e17, e18, e19, e20, e21, e22, e23, e24, e25, e26, e27, e28⟩ := hagree c
  refine ⟨(h c).1.trans ?_, (h c).2.1.trans ?_, (h c).2.2⟩
  · rw [e0, e1, e2, e3, e4, e5, e6, e7, e8, e9, e10, e11, e12, e13, e14, e15, e16, e17, e18, e19, e20, e21, e22, e23, e24, e25, e26]
    exact Mat.ext hr.1 hk.1
  · rw [e0, e1, e2, e3, e4, e5, e6, e7, e8, e9, e10, e11, e12, e13, e14, e15, e16, e17, e18, e19, e20, e21, e22, e23, e24, e27, e28]
    exact Mat.ext hr.2 hk.2

end Cert.Proof.Algebraic

end
-- ==== Proof.lean ====
/-
  A graph network of two message-passing layers, written as a kernel of nine launches among host operations, against
  its plain array-language reference: the two programs' results are equal over the extended reals whenever the float
  inputs are finite and every edge's source word is a node's number.

  Both programs compute, of the real numbers their inputs hold, the network of Proof/Spec.lean. The reference does so
  operation by operation. The kernel program pads the node arrays to a multiple of its block height, sorts the edge list
  by destination (a permutation, under which a neighbour sum does not change), takes each normalisation's statistics as
  masked block sums of the values and of their squares (the variance then being the mean of the squares minus the squared
  mean), applies each normalisation as one multiply-add per entry, and pools by multiplying with the 0/1 matrix of
  "node i belongs to graph g". The identities that join the two forms need the numbers to be finite, which is what the
  precondition gives; the padded rows never reach a result (they meet a zero factor, and x · 0 = 0 for every extended
  real).
-/
import proofs.«403050_j67860483276910_3_alg».proof.Defs
import proofs.«403050_j67860483276910_3_alg».proof.Proof.Gen.Kernel
import proofs.«403050_j67860483276910_3_alg».proof.Proof.Gen.KernelIdeal
import proofs.«403050_j67860483276910_3_alg».proof.Proof.Gen.ReferenceIdeal
import proofs.«403050_j67860483276910_3_alg».proof.Proof.Gen.Pre_finite_inputs
import proofs.«403050_j67860483276910_3_alg».proof.Proof.KernelFrame
import proofs.«403050_j67860483276910_3_alg».proof.Proof.KernelIdealFrame
import proofs.«403050_j67860483276910_3_alg».proof.Proof.RefRun
import proofs.«403050_j67860483276910_3_alg».proof.Proof.Algebraic
import Idealize.ShloMosaic.Adequacy
import Idealize.ShloMosaic.Init

noncomputable section

namespace Cert.Proof

open Idealize.ShloMosaic Idealize.SL.Sem

/-- The kernel program, word level: every fair execution ends, nothing faulting, the arguments unchanged. -/
theorem frame_k : Cert.frame_Kernel (hKernel := Cert.Kernel.Gen.facts) (hPre_finite_inputs := Cert.Pre_finite_inputs.Gen.facts) :=
  fun m ρ _ => Cert.Kernel.GenP.frame m ρ

/-- The same of the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Algebraic.algebraic⟩

end Cert.Proof

end
